-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x16 : Shape := ⟨2, ![800000, 16]⟩
abbrev S50000 : Shape := ⟨1, ![50000]⟩
abbrev S144x32 : Shape := ⟨2, ![144, 32]⟩
abbrev S32 : Shape := ⟨1, ![32]⟩
abbrev S96x64 : Shape := ⟨2, ![96, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S144x32 : S_.BroadcastsInDim S144x32 (![] : Fin 0 → Fin S144x32.rank)
  reducesTo_S144x32_S_d0_1 : S144x32.ReducesTo [0, 1] S_
  bcast_S_S32 : S_.BroadcastsInDim S32 (![] : Fin 0 → Fin S32.rank)
  reducesTo_S32_S_d0 : S32.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part7 {F : FTy → Type} [FloatOps F] (main_arg1 : IVec S2x800000 32) (main_v118 : IVec S_ 1) (main_v119 : IVec S1x800000 32) : IVec S_ 1 :=
  let main_v120 : IVec S800000 32 := shapeCast S800000 main_v119 shapeCasts_S1x800000_S800000
  let main_c_46 : IVec S_ 32 := constantI S_ 32 0#32
  let main_v121 : IVec S800000 32 := broadcastInDim S800000 ![] bcast_S_S800000 main_c_46
  let main_v122 : IVec S800000 1 := cmpi .sge main_v120 main_v121
  let main_c_47 : IVec S_ 1 := constantI S_ 1 1#1
  let main_v123 : IVec S_ 1 := (fun x v => Host.reduce IntOp.andi x v reducesTo_S800000_S_d0 h_S_) main_v122 main_c_47
  let main_v124 : IVec S_ 1 := andi main_v118 main_v123
  let main_v125 : IVec S1x800000 32 := (extractStridedSlice S1x800000 ![1, 0] · slices_S2x800000_S1x800000_1_0) main_arg1
  let main_v126 : IVec S800000 32 := shapeCast S800000 main_v125 shapeCasts_S1x800000_S800000
  let main_c_48 : IVec S_ 32 := constantI S_ 32 50000#32
  let main_v127 : IVec S800000 32 := broadcastInDim S800000 ![] bcast_S_S800000 main_c_48
  let main_v128 : IVec S800000 1 := cmpi .slt main_v126 main_v127
  let main_c_49 : IVec S_ 1 := constantI S_ 1 1#1
  let main_v129 : IVec S_ 1 := (fun x v => Host.reduce IntOp.andi x v reducesTo_S800000_S_d0 h_S_) main_v128 main_c_49
  let main_v130 : IVec S_ 1 := andi main_v124 main_v129
  main_v130

def fn_part6 {F : FTy → Type} [FloatOps F] (main_arg1 : IVec S2x800000 32) (main_arg23 : FVec F S128 .f32) (main_arg24 : FVec F S128x1 .f32) (main_arg25 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x1 .f32 := Host.absf main_arg24
  let main_cst_42 : FVec F S_ .f32 := constant S_ .f32 0x7F800000#32
  let main_v110 : FVec F S128x1 .f32 := broadcastInDim S128x1 ![] bcast_S_S128x1 main_cst_42
  let main_v111 : IVec S128x1 1 := cmpf .olt main_v109 main_v110
  let main_c_43 : IVec S_ 1 := constantI S_ 1 1#1
  let main_v112 : IVec S_ 1 := (fun x v => Host.reduce IntOp.andi x v reducesTo_S128x1_S_d0_1 h_S_) main_v111 main_c_43
  let main_v113 : IVec S_ 1 := andi main_v108 main_v112
  let main_v114 : FVec F S1 .f32 := Host.absf main_arg25
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_v119 : IVec S1x800000 32 := (extractStridedSlice S1x800000 ![1, 0] · slices_S2x800000_S1x800000_1_0) main_arg1
  fn_part7 (F := F) main_arg1 main_v118 main_v119

def fn_part5 {F : FTy → Type} [FloatOps F] (main_arg1 : IVec S2x800000 32) (main_arg20 : FVec F S128x128 .f32) (main_arg21 : FVec F S128 .f32) (main_arg22 : FVec F S128 .f32) (main_arg23 : FVec F S128 .f32) (main_arg24 : FVec F S128x1 .f32) (main_arg25 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg1 main_arg23 main_arg24 main_arg25 main_v98 main_v101 main_c_39

def fn_part4 {F : FTy → Type} [FloatOps F] (main_arg1 : IVec S2x800000 32) (main_arg16 : FVec F S64x128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128x1 .f32) (main_arg25 : FVec F S1 .f32) (main_v63 : IVec S_ 1) (main_v67 : IVec S_ 1) : IVec S_ 1 :=
  let main_v68 : IVec S_ 1 := andi main_v63 main_v67
  let main_v69 : FVec F S64x128 .f32 := Host.absf main_arg16
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg1 main_arg20 main_arg21 main_arg22 main_arg23 main_arg24 main_arg25 main_v83 main_v84 main_cst_32

def fn_part3 {F : FTy → Type} [FloatOps F] (main_arg1 : IVec S2x800000 32) (main_arg13 : FVec F S32 .f32) (main_arg14 : FVec F S96x64 .f32) (main_arg15 : FVec F S64 .f32) (main_arg16 : FVec F S64x128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128x1 .f32) (main_arg25 : FVec F S1 .f32) (main_v48 : IVec S_ 1) (main_v49 : FVec F S144x32 .f32) (main_v50 : FVec F S144x32 .f32) : IVec S_ 1 :=
  let main_v51 : IVec S144x32 1 := cmpf .olt main_v49 main_v50
  let main_c_19 : IVec S_ 1 := constantI S_ 1 1#1
  let main_v52 : IVec S_ 1 := (fun x v => Host.reduce IntOp.andi x v reducesTo_S144x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S96x64 .f32 := Host.absf main_arg14
  let main_cst_22 : FVec F S_ .f32 := constant S_ .f32 0x7F800000#32
  let main_v60 : FVec F S96x64 .f32 := broadcastInDim S96x64 ![] bcast_S_S96x64 main_cst_22
  let main_v61 : IVec S96x64 1 := cmpf .olt main_v59 main_v60
  let main_c_23 : IVec S_ 1 := constantI S_ 1 1#1
  let main_v62 : IVec S_ 1 := (fun x v => Host.reduce IntOp.andi x v reducesTo_S96x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg16 main_arg17 main_arg18 main_arg19 main_arg20 main_arg21 main_arg22 main_arg23 main_arg24 main_arg25 main_v63 main_v67

def fn_part2 {F : FTy → Type} [FloatOps F] (main_arg1 : IVec S2x800000 32) (main_arg9 : FVec F S32 .f32) (main_arg10 : FVec F S96x64 .f32) (main_arg11 : FVec F S64 .f32) (main_arg12 : FVec F S144x32 .f32) (main_arg13 : FVec F S32 .f32) (main_arg14 : FVec F S96x64 .f32) (main_arg15 : FVec F S64 .f32) (main_arg16 : FVec F S64x128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128x1 .f32) (main_arg25 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S96x64 .f32 := Host.absf main_arg10
  let main_cst_14 : FVec F S_ .f32 := constant S_ .f32 0x7F800000#32
  let main_v40 : FVec F S96x64 .f32 := broadcastInDim S96x64 ![] bcast_S_S96x64 main_cst_14
  let main_v41 : IVec S96x64 1 := cmpf .olt main_v39 main_v40
  let main_c_15 : IVec S_ 1 := constantI S_ 1 1#1
  let main_v42 : IVec S_ 1 := (fun x v => Host.reduce IntOp.andi x v reducesTo_S96x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S144x32 .f32 := Host.absf main_arg12
  let main_cst_18 : FVec F S_ .f32 := constant S_ .f32 0x7F800000#32
  let main_v50 : FVec F S144x32 .f32 := broadcastInDim S144x32 ![] bcast_S_S144x32 main_cst_18
  fn_part3 (F := F) main_arg1 main_arg13 main_arg14 main_arg15 main_arg16 main_arg17 main_arg18 main_arg19 main_arg20 main_arg21 main_arg22 main_arg23 main_arg24 main_arg25 main_v48 main_v49 main_v50

def fn_part1 {F : FTy → Type} [FloatOps F] (main_arg1 : IVec S2x800000 32) (main_arg6 : FVec F S96x64 .f32) (main_arg7 : FVec F S64 .f32) (main_arg8 : FVec F S144x32 .f32) (main_arg9 : FVec F S32 .f32) (main_arg10 : FVec F S96x64 .f32) (main_arg11 : FVec F S64 .f32) (main_arg12 : FVec F S144x32 .f32) (main_arg13 : FVec F S32 .f32) (main_arg14 : FVec F S96x64 .f32) (main_arg15 : FVec F S64 .f32) (main_arg16 : FVec F S64x128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128x1 .f32) (main_arg25 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S96x64 .f32 := Host.absf main_arg6
  let main_cst_6 : FVec F S_ .f32 := constant S_ .f32 0x7F800000#32
  let main_v20 : FVec F S96x64 .f32 := broadcastInDim S96x64 ![] bcast_S_S96x64 main_cst_6
  let main_v21 : IVec S96x64 1 := cmpf .olt main_v19 main_v20
  let main_c_7 : IVec S_ 1 := constantI S_ 1 1#1
  let main_v22 : IVec S_ 1 := (fun x v => Host.reduce IntOp.andi x v reducesTo_S96x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S144x32 .f32 := Host.absf main_arg8
  let main_cst_10 : FVec F S_ .f32 := constant S_ .f32 0x7F800000#32
  let main_v30 : FVec F S144x32 .f32 := broadcastInDim S144x32 ![] bcast_S_S144x32 main_cst_10
  let main_v31 : IVec S144x32 1 := cmpf .olt main_v29 main_v30
  let main_c_11 : IVec S_ 1 := constantI S_ 1 1#1
  let main_v32 : IVec S_ 1 := (fun x v => Host.reduce IntOp.andi x v reducesTo_S144x32_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x64 .f32) (main_arg1 : IVec S2x800000 32) (main_arg2 : FVec F S800000x16 .f32) (main_arg3 : IVec S50000 32) (main_arg4 : FVec F S144x32 .f32) (main_arg5 : FVec F S32 .f32) (main_arg6 : FVec F S96x64 .f32) (main_arg7 : FVec F S64 .f32) (main_arg8 : FVec F S144x32 .f32) (main_arg9 : FVec F S32 .f32) (main_arg10 : FVec F S96x64 .f32) (main_arg11 : FVec F S64 .f32) (main_arg12 : FVec F S144x32 .f32) (main_arg13 : FVec F S32 .f32) (main_arg14 : FVec F S96x64 .f32) (main_arg15 : FVec F S64 .f32) (main_arg16 : FVec F S64x128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128x1 .f32) (main_arg25 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S144x32 .f32 := Host.absf main_arg4
  let main_cst_2 : FVec F S_ .f32 := constant S_ .f32 0x7F800000#32
  let main_v10 : FVec F S144x32 .f32 := broadcastInDim S144x32 ![] bcast_S_S144x32 main_cst_2
  let main_v11 : IVec S144x32 1 := cmpf .olt main_v9 main_v10
  let main_c_3 : IVec S_ 1 := constantI S_ 1 1#1
  let main_v12 : IVec S_ 1 := (fun x v => Host.reduce IntOp.andi x v reducesTo_S144x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x64 : Shape := ⟨2, ![50000, 64]⟩
abbrev S2x800000 : Shape := ⟨2, ![2, 800000]⟩
abbrev S800000x16 : Shape := ⟨2, ![800000, 16]⟩
abbrev S50000 : Shape := ⟨1, ![50000]⟩
abbrev S144x32 : Shape := ⟨2, ![144, 32]⟩
abbrev S32 : Shape := ⟨1, ![32]⟩
abbrev S96x64 : Shape := ⟨2, ![96, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S1x32 : Shape := ⟨2, ![1, 32]⟩
abbrev S800000x32 : Shape := ⟨2, ![800000, 32]⟩
abbrev S8000x64 : Shape := ⟨2, ![8000, 64]⟩
abbrev S8000x16 : Shape := ⟨2, ![8000, 16]⟩
abbrev S8000x32 : Shape := ⟨2, ![8000, 32]⟩
abbrev S8000x144 : Shape := ⟨2, ![8000, 144]⟩
abbrev S50000x32 : Shape := ⟨2, ![50000, 32]⟩
abbrev S1x64 : Shape := ⟨2, ![1, 64]⟩
abbrev S5000x64 : Shape := ⟨2, ![5000, 64]⟩
abbrev S5000x32 : Shape := ⟨2, ![5000, 32]⟩
abbrev S5000x96 : Shape := ⟨2, ![5000, 96]⟩
abbrev S500x64 : Shape := ⟨2, ![500, 64]⟩
abbrev S50000x1 : Shape := ⟨2, ![50000, 1]⟩
abbrev S500x1 : Shape := ⟨2, ![500, 1]⟩
abbrev S500x128 : Shape := ⟨2, ![500, 128]⟩
abbrev S1x128 : Shape := ⟨2, ![1, 128]⟩

abbrev nBuf : Space → Nat
  | .hbm => 313
  | .vmem => 54
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S50000, .i32⟩
  | 4 => ⟨S144x32, .f32⟩
  | 5 => ⟨S32, .f32⟩
  | 6 => ⟨S96x64, .f32⟩
  | 7 => ⟨S64, .f32⟩
  | 8 => ⟨S144x32, .f32⟩
  | 9 => ⟨S32, .f32⟩
  | 10 => ⟨S96x64, .f32⟩
  | 11 => ⟨S64, .f32⟩
  | 12 => ⟨S144x32, .f32⟩
  | 13 => ⟨S32, .f32⟩
  | 14 => ⟨S96x64, .f32⟩
  | 15 => ⟨S64, .f32⟩
  | 16 => ⟨S64x128, .f32⟩
  | 17 => ⟨S128, .f32⟩
  | 18 => ⟨S128, .f32⟩
  | 19 => ⟨S128, .f32⟩
  | 20 => ⟨S128x128, .f32⟩
  | 21 => ⟨S128, .f32⟩
  | 22 => ⟨S128, .f32⟩
  | 23 => ⟨S128, .f32⟩
  | 24 => ⟨S128x1, .f32⟩
  | 25 => ⟨S1, .f32⟩
  | 26 => ⟨S1x800000, .i32⟩
  | 27 => ⟨S800000, .i32⟩
  | 28 => ⟨S1x800000, .i32⟩
  | 29 => ⟨S800000, .i32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S1, .i32⟩
  | 39 => ⟨S_, .i32⟩
  | 40 => ⟨S800000x1, .i32⟩
  | 41 => ⟨S800000x1, .i1⟩
  | 42 => ⟨S1x1, .i32⟩
  | 43 => ⟨S800000x1, .i32⟩
  | 44 => ⟨S800000x1, .i1⟩
  | 45 => ⟨S800000x1, .i1⟩
  | 46 => ⟨S_, .i1⟩
  | 47 => ⟨S800000, .i1⟩
  | 48 => ⟨S800000x64, .f32⟩
  | 49 => ⟨S800000x64, .i1⟩
  | 50 => ⟨S_, .f32⟩
  | 51 => ⟨S800000x64, .f32⟩
  | 52 => ⟨S800000x64, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S1, .i32⟩
  | 62 => ⟨S_, .i32⟩
  | 63 => ⟨S800000x1, .i32⟩
  | 64 => ⟨S800000x1, .i1⟩
  | 65 => ⟨S1x1, .i32⟩
  | 66 => ⟨S800000x1, .i32⟩
  | 67 => ⟨S800000x1, .i1⟩
  | 68 => ⟨S800000x1, .i1⟩
  | 69 => ⟨S_, .i1⟩
  | 70 => ⟨S800000, .i1⟩
  | 71 => ⟨S800000x64, .f32⟩
  | 72 => ⟨S800000x64, .i1⟩
  | 73 => ⟨S_, .f32⟩
  | 74 => ⟨S800000x64, .f32⟩
  | 75 => ⟨S800000x64, .f32⟩
  | 76 => ⟨S1x32, .f32⟩
  | 77 => ⟨S800000x32, .f32⟩
  | 78 => ⟨S_, .f32⟩
  | 79 => ⟨S50000x32, .f32⟩
  | 80 => ⟨S800000x1, .i32⟩
  | 81 => ⟨S50000x32, .f32⟩
  | 82 => ⟨S1x64, .f32⟩
  | 83 => ⟨S50000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S1, .i32⟩
  | 93 => ⟨S_, .i32⟩
  | 94 => ⟨S800000x1, .i32⟩
  | 95 => ⟨S800000x1, .i1⟩
  | 96 => ⟨S1x1, .i32⟩
  | 97 => ⟨S800000x1, .i32⟩
  | 98 => ⟨S800000x1, .i1⟩
  | 99 => ⟨S800000x1, .i1⟩
  | 100 => ⟨S_, .i1⟩
  | 101 => ⟨S800000, .i1⟩
  | 102 => ⟨S800000x64, .f32⟩
  | 103 => ⟨S800000x64, .i1⟩
  | 104 => ⟨S_, .f32⟩
  | 105 => ⟨S800000x64, .f32⟩
  | 106 => ⟨S800000x64, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S1, .i32⟩
  | 116 => ⟨S_, .i32⟩
  | 117 => ⟨S800000x1, .i32⟩
  | 118 => ⟨S800000x1, .i1⟩
  | 119 => ⟨S1x1, .i32⟩
  | 120 => ⟨S800000x1, .i32⟩
  | 121 => ⟨S800000x1, .i1⟩
  | 122 => ⟨S800000x1, .i1⟩
  | 123 => ⟨S_, .i1⟩
  | 124 => ⟨S800000, .i1⟩
  | 125 => ⟨S800000x64, .f32⟩
  | 126 => ⟨S800000x64, .i1⟩
  | 127 => ⟨S_, .f32⟩
  | _ => ⟨S50000x64, .f32⟩

abbrev hbmTy0_1 (i : Nat) : BufTy := match i % 128 with
  | 0 => ⟨S800000x64, .f32⟩
  | 1 => ⟨S800000x64, .f32⟩
  | 2 => ⟨S1x32, .f32⟩
  | 3 => ⟨S800000x32, .f32⟩
  | 4 => ⟨S_, .f32⟩
  | 5 => ⟨S50000x32, .f32⟩
  | 6 => ⟨S800000x1, .i32⟩
  | 7 => ⟨S50000x32, .f32⟩
  | 8 => ⟨S1x64, .f32⟩
  | 9 => ⟨S50000x64, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S1, .i32⟩
  | 19 => ⟨S_, .i32⟩
  | 20 => ⟨S800000x1, .i32⟩
  | 21 => ⟨S800000x1, .i1⟩
  | 22 => ⟨S1x1, .i32⟩
  | 23 => ⟨S800000x1, .i32⟩
  | 24 => ⟨S800000x1, .i1⟩
  | 25 => ⟨S800000x1, .i1⟩
  | 26 => ⟨S_, .i1⟩
  | 27 => ⟨S800000, .i1⟩
  | 28 => ⟨S800000x64, .f32⟩
  | 29 => ⟨S800000x64, .i1⟩
  | 30 => ⟨S_, .f32⟩
  | 31 => ⟨S800000x64, .f32⟩
  | 32 => ⟨S800000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S1, .i32⟩
  | 42 => ⟨S_, .i32⟩
  | 43 => ⟨S800000x1, .i32⟩
  | 44 => ⟨S800000x1, .i1⟩
  | 45 => ⟨S1x1, .i32⟩
  | 46 => ⟨S800000x1, .i32⟩
  | 47 => ⟨S800000x1, .i1⟩
  | 48 => ⟨S800000x1, .i1⟩
  | 49 => ⟨S_, .i1⟩
  | 50 => ⟨S800000, .i1⟩
  | 51 => ⟨S800000x64, .f32⟩
  | 52 => ⟨S800000x64, .i1⟩
  | 53 => ⟨S_, .f32⟩
  | 54 => ⟨S800000x64, .f32⟩
  | 55 => ⟨S800000x64, .f32⟩
  | 56 => ⟨S1x32, .f32⟩
  | 57 => ⟨S800000x32, .f32⟩
  | 58 => ⟨S_, .f32⟩
  | 59 => ⟨S50000x32, .f32⟩
  | 60 => ⟨S800000x1, .i32⟩
  | 61 => ⟨S50000x32, .f32⟩
  | 62 => ⟨S1x64, .f32⟩
  | 63 => ⟨S50000x64, .f32⟩
  | 64 => ⟨S_, .f32⟩
  | 65 => ⟨S500x64, .f32⟩
  | 66 => ⟨S50000x1, .i32⟩
  | 67 => ⟨S500x64, .f32⟩
  | 68 => ⟨S_, .f32⟩
  | 69 => ⟨S50000x1, .f32⟩
  | 70 => ⟨S_, .f32⟩
  | 71 => ⟨S500x1, .f32⟩
  | 72 => ⟨S50000x1, .i32⟩
  | 73 => ⟨S500x1, .f32⟩
  | 74 => ⟨S_, .f32⟩
  | 75 => ⟨S500x1, .f32⟩
  | 76 => ⟨S500x1, .f32⟩
  | 77 => ⟨S500x64, .f32⟩
  | 78 => ⟨S500x64, .f32⟩
  | 79 => ⟨S500x128, .f32⟩
  | 80 => ⟨S1x128, .f32⟩
  | 81 => ⟨S500x128, .f32⟩
  | 82 => ⟨S500x128, .f32⟩
  | 83 => ⟨S_, .f32⟩
  | 84 => ⟨S128, .f32⟩
  | 85 => ⟨S_, .f32⟩
  | 86 => ⟨S128, .f32⟩
  | 87 => ⟨S128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S500x128, .f32⟩
  | 96 => ⟨S500x128, .f32⟩
  | 97 => ⟨S500x128, .f32⟩
  | 98 => ⟨S_, .f32⟩
  | 99 => ⟨S_, .f32⟩
  | 100 => ⟨S_, .f32⟩
  | 101 => ⟨S_, .f32⟩
  | 102 => ⟨S128, .f32⟩
  | 103 => ⟨S128, .f32⟩
  | 104 => ⟨S128, .f32⟩
  | 105 => ⟨S_, .f32⟩
  | 106 => ⟨S_, .i1⟩
  | 107 => ⟨S_, .f32⟩
  | 108 => ⟨S_, .f32⟩
  | 109 => ⟨S128, .f32⟩
  | 110 => ⟨S128, .f32⟩
  | 111 => ⟨S1x128, .f32⟩
  | 112 => ⟨S500x128, .f32⟩
  | 113 => ⟨S500x128, .f32⟩
  | 114 => ⟨S_, .f32⟩
  | 115 => ⟨S128, .f32⟩
  | 116 => ⟨S128, .f32⟩
  | 117 => ⟨S128, .f32⟩
  | 118 => ⟨S1x128, .f32⟩
  | 119 => ⟨S500x128, .f32⟩
  | 120 => ⟨S500x128, .f32⟩
  | 121 => ⟨S1x128, .f32⟩
  | 122 => ⟨S500x128, .f32⟩
  | 123 => ⟨S500x128, .f32⟩
  | 124 => ⟨S1x128, .f32⟩
  | 125 => ⟨S500x128, .f32⟩
  | 126 => ⟨S500x128, .f32⟩
  | 127 => ⟨S_, .f32⟩
  | _ => ⟨S50000x64, .f32⟩

abbrev hbmTy0_2 (i : Nat) : BufTy := match i % 128 with
  | 0 => ⟨S500x128, .f32⟩
  | 1 => ⟨S500x128, .f32⟩
  | 2 => ⟨S500x128, .f32⟩
  | 3 => ⟨S1x128, .f32⟩
  | 4 => ⟨S500x128, .f32⟩
  | 5 => ⟨S500x128, .f32⟩
  | 6 => ⟨S_, .f32⟩
  | 7 => ⟨S128, .f32⟩
  | 8 => ⟨S_, .f32⟩
  | 9 => ⟨S128, .f32⟩
  | 10 => ⟨S128, .f32⟩
  | 11 => ⟨S_, .i32⟩
  | 12 => ⟨S_, .f32⟩
  | 13 => ⟨S128, .f32⟩
  | 14 => ⟨S1x128, .f32⟩
  | 15 => ⟨S_, .f32⟩
  | 16 => ⟨S1x128, .f32⟩
  | 17 => ⟨S1x128, .f32⟩
  | 18 => ⟨S500x128, .f32⟩
  | 19 => ⟨S500x128, .f32⟩
  | 20 => ⟨S500x128, .f32⟩
  | 21 => ⟨S_, .f32⟩
  | 22 => ⟨S_, .f32⟩
  | 23 => ⟨S_, .f32⟩
  | 24 => ⟨S_, .f32⟩
  | 25 => ⟨S128, .f32⟩
  | 26 => ⟨S128, .f32⟩
  | 27 => ⟨S128, .f32⟩
  | 28 => ⟨S_, .f32⟩
  | 29 => ⟨S_, .i1⟩
  | 30 => ⟨S_, .f32⟩
  | 31 => ⟨S_, .f32⟩
  | 32 => ⟨S128, .f32⟩
  | 33 => ⟨S128, .f32⟩
  | 34 => ⟨S1x128, .f32⟩
  | 35 => ⟨S500x128, .f32⟩
  | 36 => ⟨S500x128, .f32⟩
  | 37 => ⟨S_, .f32⟩
  | 38 => ⟨S128, .f32⟩
  | 39 => ⟨S128, .f32⟩
  | 40 => ⟨S128, .f32⟩
  | 41 => ⟨S1x128, .f32⟩
  | 42 => ⟨S500x128, .f32⟩
  | 43 => ⟨S500x128, .f32⟩
  | 44 => ⟨S1x128, .f32⟩
  | 45 => ⟨S500x128, .f32⟩
  | 46 => ⟨S500x128, .f32⟩
  | 47 => ⟨S1x128, .f32⟩
  | 48 => ⟨S500x128, .f32⟩
  | 49 => ⟨S500x128, .f32⟩
  | 50 => ⟨S_, .f32⟩
  | 51 => ⟨S500x128, .f32⟩
  | 52 => ⟨S500x128, .f32⟩
  | 53 => ⟨S500x1, .f32⟩
  | 54 => ⟨S1x1, .f32⟩
  | 55 => ⟨S500x1, .f32⟩
  | 56 => ⟨S500x1, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x16, .f32⟩
  | .local _ .vmem, ⟨5, _⟩ => ⟨S8000x16, .f32⟩
  | .local _ .vmem, ⟨6, _⟩ => ⟨S144x32, .f32⟩
  | .local _ .vmem, ⟨7, _⟩ => ⟨S1x32, .f32⟩
  | .local _ .vmem, ⟨8, _⟩ => ⟨S8000x32, .f32⟩
  | .local _ .vmem, ⟨9, _⟩ => ⟨S8000x32, .f32⟩
  | .local _ .vmem, ⟨10, _⟩ => ⟨S5000x64, .f32⟩
  | .local _ .vmem, ⟨11, _⟩ => ⟨S5000x64, .f32⟩
  | .local _ .vmem, ⟨12, _⟩ => ⟨S5000x32, .f32⟩
  | .local _ .vmem, ⟨13, _⟩ => ⟨S5000x32, .f32⟩
  | .local _ .vmem, ⟨14, _⟩ => ⟨S96x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x16, .f32⟩
  | .local _ .vmem, ⟨23, _⟩ => ⟨S8000x16, .f32⟩
  | .local _ .vmem, ⟨24, _⟩ => ⟨S144x32, .f32⟩
  | .local _ .vmem, ⟨25, _⟩ => ⟨S1x32, .f32⟩
  | .local _ .vmem, ⟨26, _⟩ => ⟨S8000x32, .f32⟩
  | .local _ .vmem, ⟨27, _⟩ => ⟨S8000x32, .f32⟩
  | .local _ .vmem, ⟨28, _⟩ => ⟨S5000x64, .f32⟩
  | .local _ .vmem, ⟨29, _⟩ => ⟨S5000x64, .f32⟩
  | .local _ .vmem, ⟨30, _⟩ => ⟨S5000x32, .f32⟩
  | .local _ .vmem, ⟨31, _⟩ => ⟨S5000x32, .f32⟩
  | .local _ .vmem, ⟨32, _⟩ => ⟨S96x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S8000x64, .f32⟩
  | .local _ .vmem, ⟨37, _⟩ => ⟨S8000x64, .f32⟩
  | .local _ .vmem, ⟨38, _⟩ => ⟨S8000x64, .f32⟩
  | .local _ .vmem, ⟨39, _⟩ => ⟨S8000x64, .f32⟩
  | .local _ .vmem, ⟨40, _⟩ => ⟨S8000x16, .f32⟩
  | .local _ .vmem, ⟨41, _⟩ => ⟨S8000x16, .f32⟩
  | .local _ .vmem, ⟨42, _⟩ => ⟨S144x32, .f32⟩
  | .local _ .vmem, ⟨43, _⟩ => ⟨S1x32, .f32⟩
  | .local _ .vmem, ⟨44, _⟩ => ⟨S8000x32, .f32⟩
  | .local _ .vmem, ⟨45, _⟩ => ⟨S8000x32, .f32⟩
  | .local _ .vmem, ⟨46, _⟩ => ⟨S5000x64, .f32⟩
  | .local _ .vmem, ⟨47, _⟩ => ⟨S5000x64, .f32⟩
  | .local _ .vmem, ⟨48, _⟩ => ⟨S5000x32, .f32⟩
  | .local _ .vmem, ⟨49, _⟩ => ⟨S5000x32, .f32⟩
  | .local _ .vmem, ⟨50, _⟩ => ⟨S96x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v4 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_cst : Ref sig .tc := ⟨.hbm, 78, rfl⟩
abbrev main_v8 : Ref sig .tc := ⟨.hbm, 79, rfl⟩
abbrev main_v9 : Ref sig .tc := ⟨.hbm, 80, rfl⟩
abbrev main_v10 : Ref sig .tc := ⟨.hbm, 81, rfl⟩
abbrev main_v11 : Ref sig .tc := ⟨.hbm, 82, rfl⟩
abbrev main_v12 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v13 : Ref sig .tc := ⟨.hbm, 106, rfl⟩
abbrev main_call3_c : Ref sig .tc := ⟨.hbm, 107, rfl⟩
abbrev main_call3_v0 : Ref sig .tc := ⟨.hbm, 108, rfl⟩
abbrev main_call3_v1 : Ref sig .tc := ⟨.hbm, 109, rfl⟩
abbrev main_call3_c_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_c_1 : Ref sig .tc := ⟨.hbm, 115, rfl⟩
abbrev main_call3_c_2 : Ref sig .tc := ⟨.hbm, 116, rfl⟩
abbrev main_call3_v6 : Ref sig .tc := ⟨.hbm, 117, rfl⟩
abbrev main_call3_v7 : Ref sig .tc := ⟨.hbm, 118, rfl⟩
abbrev main_call3_v8 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_c_3 : Ref sig .tc := ⟨.hbm, 123, rfl⟩
abbrev main_call3_v12 : Ref sig .tc := ⟨.hbm, 124, rfl⟩
abbrev main_call3_v13 : Ref sig .tc := ⟨.hbm, 125, rfl⟩
abbrev main_call3_v14 : Ref sig .tc := ⟨.hbm, 126, rfl⟩
abbrev main_call3_cst : Ref sig .tc := ⟨.hbm, 127, rfl⟩
abbrev main_call3_v15 : Ref sig .tc := ⟨.hbm, 128, rfl⟩
abbrev main_v14 : Ref sig .tc := ⟨.hbm, 129, rfl⟩
abbrev main_v15 : Ref sig .tc := ⟨.hbm, 130, rfl⟩
abbrev main_v16 : Ref sig .tc := ⟨.hbm, 131, rfl⟩
abbrev main_cst_0 : Ref sig .tc := ⟨.hbm, 132, rfl⟩
abbrev main_v17 : Ref sig .tc := ⟨.hbm, 133, rfl⟩
abbrev main_v18 : Ref sig .tc := ⟨.hbm, 134, rfl⟩
abbrev main_v19 : Ref sig .tc := ⟨.hbm, 135, rfl⟩
abbrev main_v20 : Ref sig .tc := ⟨.hbm, 136, rfl⟩
abbrev main_v21 : Ref sig .tc := ⟨.hbm, 137, rfl⟩
abbrev main_call4_c : Ref sig .tc := ⟨.hbm, 138, rfl⟩
abbrev main_call4_v0 : Ref sig .tc := ⟨.hbm, 139, rfl⟩
abbrev main_call4_v1 : Ref sig .tc := ⟨.hbm, 140, rfl⟩
abbrev main_call4_c_0 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_v5 : Ref sig .tc := ⟨.hbm, 145, rfl⟩
abbrev main_call4_c_1 : Ref sig .tc := ⟨.hbm, 146, rfl⟩
abbrev main_call4_c_2 : Ref sig .tc := ⟨.hbm, 147, rfl⟩
abbrev main_call4_v6 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_call4_c_3 : Ref sig .tc := ⟨.hbm, 154, rfl⟩
abbrev main_call4_v12 : Ref sig .tc := ⟨.hbm, 155, rfl⟩
abbrev main_call4_v13 : Ref sig .tc := ⟨.hbm, 156, rfl⟩
abbrev main_call4_v14 : Ref sig .tc := ⟨.hbm, 157, rfl⟩
abbrev main_call4_cst : Ref sig .tc := ⟨.hbm, 158, rfl⟩
abbrev main_call4_v15 : Ref sig .tc := ⟨.hbm, 159, rfl⟩
abbrev main_v22 : Ref sig .tc := ⟨.hbm, 160, rfl⟩
abbrev main_call5_c : Ref sig .tc := ⟨.hbm, 161, rfl⟩
abbrev main_call5_v0 : Ref sig .tc := ⟨.hbm, 162, rfl⟩
abbrev main_call5_v1 : Ref sig .tc := ⟨.hbm, 163, rfl⟩
abbrev main_call5_c_0 : Ref sig .tc := ⟨.hbm, 164, rfl⟩
abbrev main_call5_v2 : Ref sig .tc := ⟨.hbm, 165, rfl⟩
abbrev main_call5_v3 : Ref sig .tc := ⟨.hbm, 166, rfl⟩
abbrev main_call5_v4 : Ref sig .tc := ⟨.hbm, 167, rfl⟩
abbrev main_call5_v5 : Ref sig .tc := ⟨.hbm, 168, rfl⟩
abbrev main_call5_c_1 : Ref sig .tc := ⟨.hbm, 169, rfl⟩
abbrev main_call5_c_2 : Ref sig .tc := ⟨.hbm, 170, rfl⟩
abbrev main_call5_v6 : Ref sig .tc := ⟨.hbm, 171, rfl⟩
abbrev main_call5_v7 : Ref sig .tc := ⟨.hbm, 172, rfl⟩
abbrev main_call5_v8 : Ref sig .tc := ⟨.hbm, 173, rfl⟩
abbrev main_call5_v9 : Ref sig .tc := ⟨.hbm, 174, rfl⟩
abbrev main_call5_v10 : Ref sig .tc := ⟨.hbm, 175, rfl⟩
abbrev main_call5_v11 : Ref sig .tc := ⟨.hbm, 176, rfl⟩
abbrev main_call5_c_3 : Ref sig .tc := ⟨.hbm, 177, rfl⟩
abbrev main_call5_v12 : Ref sig .tc := ⟨.hbm, 178, rfl⟩
abbrev main_call5_v13 : Ref sig .tc := ⟨.hbm, 179, rfl⟩
abbrev main_call5_v14 : Ref sig .tc := ⟨.hbm, 180, rfl⟩
abbrev main_call5_cst : Ref sig .tc := ⟨.hbm, 181, rfl⟩
abbrev main_call5_v15 : Ref sig .tc := ⟨.hbm, 182, rfl⟩
abbrev main_v23 : Ref sig .tc := ⟨.hbm, 183, rfl⟩
abbrev main_v24 : Ref sig .tc := ⟨.hbm, 184, rfl⟩
abbrev main_v25 : Ref sig .tc := ⟨.hbm, 185, rfl⟩
abbrev main_cst_1 : Ref sig .tc := ⟨.hbm, 186, rfl⟩
abbrev main_v26 : Ref sig .tc := ⟨.hbm, 187, rfl⟩
abbrev main_v27 : Ref sig .tc := ⟨.hbm, 188, rfl⟩
abbrev main_v28 : Ref sig .tc := ⟨.hbm, 189, rfl⟩
abbrev main_v29 : Ref sig .tc := ⟨.hbm, 190, rfl⟩
abbrev main_v30 : Ref sig .tc := ⟨.hbm, 191, rfl⟩
abbrev main_cst_2 : Ref sig .tc := ⟨.hbm, 192, rfl⟩
abbrev main_v31 : Ref sig .tc := ⟨.hbm, 193, rfl⟩
abbrev main_v32 : Ref sig .tc := ⟨.hbm, 194, rfl⟩
abbrev main_v33 : Ref sig .tc := ⟨.hbm, 195, rfl⟩
abbrev main_cst_3 : Ref sig .tc := ⟨.hbm, 196, rfl⟩
abbrev main_v34 : Ref sig .tc := ⟨.hbm, 197, rfl⟩
abbrev main_cst_4 : Ref sig .tc := ⟨.hbm, 198, rfl⟩
abbrev main_v35 : Ref sig .tc := ⟨.hbm, 199, rfl⟩
abbrev main_v36 : Ref sig .tc := ⟨.hbm, 200, rfl⟩
abbrev main_v37 : Ref sig .tc := ⟨.hbm, 201, rfl⟩
abbrev main_cst_5 : Ref sig .tc := ⟨.hbm, 202, rfl⟩
abbrev main_v38 : Ref sig .tc := ⟨.hbm, 203, rfl⟩
abbrev main_v39 : Ref sig .tc := ⟨.hbm, 204, rfl⟩
abbrev main_v40 : Ref sig .tc := ⟨.hbm, 205, rfl⟩
abbrev main_v41 : Ref sig .tc := ⟨.hbm, 206, rfl⟩
abbrev main_v42 : Ref sig .tc := ⟨.hbm, 207, rfl⟩
abbrev main_v43 : Ref sig .tc := ⟨.hbm, 208, rfl⟩
abbrev main_v44 : Ref sig .tc := ⟨.hbm, 209, rfl⟩
abbrev main_v45 : Ref sig .tc := ⟨.hbm, 210, rfl⟩
abbrev main_cst_6 : Ref sig .tc := ⟨.hbm, 211, rfl⟩
abbrev main_v46 : Ref sig .tc := ⟨.hbm, 212, rfl⟩
abbrev main_cst_7 : Ref sig .tc := ⟨.hbm, 213, rfl⟩
abbrev main_v47 : Ref sig .tc := ⟨.hbm, 214, rfl⟩
abbrev main_v48 : Ref sig .tc := ⟨.hbm, 215, rfl⟩
abbrev main_c : Ref sig .tc := ⟨.hbm, 216, rfl⟩
abbrev main_call6_cst : Ref sig .tc := ⟨.hbm, 217, rfl⟩
abbrev main_call6_v0 : Ref sig .tc := ⟨.hbm, 218, rfl⟩
abbrev main_call6_v1 : Ref sig .tc := ⟨.hbm, 219, rfl⟩
abbrev main_call6_cst_0 : Ref sig .tc := ⟨.hbm, 220, rfl⟩
abbrev main_call6_v2 : Ref sig .tc := ⟨.hbm, 221, rfl⟩
abbrev main_call6_v3 : Ref sig .tc := ⟨.hbm, 222, rfl⟩
abbrev main_call6_v4 : Ref sig .tc := ⟨.hbm, 223, rfl⟩
abbrev main_call6_v5 : Ref sig .tc := ⟨.hbm, 224, rfl⟩
abbrev main_call6_v6 : Ref sig .tc := ⟨.hbm, 225, rfl⟩
abbrev main_call6_v7 : Ref sig .tc := ⟨.hbm, 226, rfl⟩
abbrev main_call6_cst_1 : Ref sig .tc := ⟨.hbm, 227, rfl⟩
abbrev main_call6_v8 : Ref sig .tc := ⟨.hbm, 228, rfl⟩
abbrev main_call6_cst_2 : Ref sig .tc := ⟨.hbm, 229, rfl⟩
abbrev main_call6_v9 : Ref sig .tc := ⟨.hbm, 230, rfl⟩
abbrev main_call6_v10 : Ref sig .tc := ⟨.hbm, 231, rfl⟩
abbrev main_call6_v11 : Ref sig .tc := ⟨.hbm, 232, rfl⟩
abbrev main_call6_cst_3 : Ref sig .tc := ⟨.hbm, 233, rfl⟩
abbrev main_call6_v12 : Ref sig .tc := ⟨.hbm, 234, rfl⟩
abbrev main_call6_cst_4 : Ref sig .tc := ⟨.hbm, 235, rfl⟩
abbrev main_call6_call0_v0 : Ref sig .tc := ⟨.hbm, 236, rfl⟩
abbrev main_call6_call0_v1 : Ref sig .tc := ⟨.hbm, 237, rfl⟩
abbrev main_v49 : Ref sig .tc := ⟨.hbm, 238, rfl⟩
abbrev main_v50 : Ref sig .tc := ⟨.hbm, 239, rfl⟩
abbrev main_v51 : Ref sig .tc := ⟨.hbm, 240, rfl⟩
abbrev main_v52 : Ref sig .tc := ⟨.hbm, 241, rfl⟩
abbrev main_cst_8 : Ref sig .tc := ⟨.hbm, 242, rfl⟩
abbrev main_v53 : Ref sig .tc := ⟨.hbm, 243, rfl⟩
abbrev main_v54 : Ref sig .tc := ⟨.hbm, 244, rfl⟩
abbrev main_v55 : Ref sig .tc := ⟨.hbm, 245, rfl⟩
abbrev main_v56 : Ref sig .tc := ⟨.hbm, 246, rfl⟩
abbrev main_v57 : Ref sig .tc := ⟨.hbm, 247, rfl⟩
abbrev main_v58 : Ref sig .tc := ⟨.hbm, 248, rfl⟩
abbrev main_v59 : Ref sig .tc := ⟨.hbm, 249, rfl⟩
abbrev main_v60 : Ref sig .tc := ⟨.hbm, 250, rfl⟩
abbrev main_v61 : Ref sig .tc := ⟨.hbm, 251, rfl⟩
abbrev main_v62 : Ref sig .tc := ⟨.hbm, 252, rfl⟩
abbrev main_v63 : Ref sig .tc := ⟨.hbm, 253, rfl⟩
abbrev main_v64 : Ref sig .tc := ⟨.hbm, 254, rfl⟩
abbrev main_call7_cst : Ref sig .tc := ⟨.hbm, 255, rfl⟩
abbrev main_call7_v0 : Ref sig .tc := ⟨.hbm, 256, rfl⟩
abbrev main_v65 : Ref sig .tc := ⟨.hbm, 257, rfl⟩
abbrev main_v66 : Ref sig .tc := ⟨.hbm, 258, rfl⟩
abbrev main_v67 : Ref sig .tc := ⟨.hbm, 259, rfl⟩
abbrev main_v68 : Ref sig .tc := ⟨.hbm, 260, rfl⟩
abbrev main_v69 : Ref sig .tc := ⟨.hbm, 261, rfl⟩
abbrev main_cst_9 : Ref sig .tc := ⟨.hbm, 262, rfl⟩
abbrev main_v70 : Ref sig .tc := ⟨.hbm, 263, rfl⟩
abbrev main_cst_10 : Ref sig .tc := ⟨.hbm, 264, rfl⟩
abbrev main_v71 : Ref sig .tc := ⟨.hbm, 265, rfl⟩
abbrev main_v72 : Ref sig .tc := ⟨.hbm, 266, rfl⟩
abbrev main_c_11 : Ref sig .tc := ⟨.hbm, 267, rfl⟩
abbrev main_call8_cst : Ref sig .tc := ⟨.hbm, 268, rfl⟩
abbrev main_call8_v0 : Ref sig .tc := ⟨.hbm, 269, rfl⟩
abbrev main_call8_v1 : Ref sig .tc := ⟨.hbm, 270, rfl⟩
abbrev main_call8_cst_0 : Ref sig .tc := ⟨.hbm, 271, rfl⟩
abbrev main_call8_v2 : Ref sig .tc := ⟨.hbm, 272, rfl⟩
abbrev main_call8_v3 : Ref sig .tc := ⟨.hbm, 273, rfl⟩
abbrev main_call8_v4 : Ref sig .tc := ⟨.hbm, 274, rfl⟩
abbrev main_call8_v5 : Ref sig .tc := ⟨.hbm, 275, rfl⟩
abbrev main_call8_v6 : Ref sig .tc := ⟨.hbm, 276, rfl⟩
abbrev main_call8_v7 : Ref sig .tc := ⟨.hbm, 277, rfl⟩
abbrev main_call8_cst_1 : Ref sig .tc := ⟨.hbm, 278, rfl⟩
abbrev main_call8_v8 : Ref sig .tc := ⟨.hbm, 279, rfl⟩
abbrev main_call8_cst_2 : Ref sig .tc := ⟨.hbm, 280, rfl⟩
abbrev main_call8_v9 : Ref sig .tc := ⟨.hbm, 281, rfl⟩
abbrev main_call8_v10 : Ref sig .tc := ⟨.hbm, 282, rfl⟩
abbrev main_call8_v11 : Ref sig .tc := ⟨.hbm, 283, rfl⟩
abbrev main_call8_cst_3 : Ref sig .tc := ⟨.hbm, 284, rfl⟩
abbrev main_call8_v12 : Ref sig .tc := ⟨.hbm, 285, rfl⟩
abbrev main_call8_cst_4 : Ref sig .tc := ⟨.hbm, 286, rfl⟩
abbrev main_call8_call0_v0 : Ref sig .tc := ⟨.hbm, 287, rfl⟩
abbrev main_call8_call0_v1 : Ref sig .tc := ⟨.hbm, 288, rfl⟩
abbrev main_v73 : Ref sig .tc := ⟨.hbm, 289, rfl⟩
abbrev main_v74 : Ref sig .tc := ⟨.hbm, 290, rfl⟩
abbrev main_v75 : Ref sig .tc := ⟨.hbm, 291, rfl⟩
abbrev main_v76 : Ref sig .tc := ⟨.hbm, 292, rfl⟩
abbrev main_cst_12 : Ref sig .tc := ⟨.hbm, 293, rfl⟩
abbrev main_v77 : Ref sig .tc := ⟨.hbm, 294, rfl⟩
abbrev main_v78 : Ref sig .tc := ⟨.hbm, 295, rfl⟩
abbrev main_v79 : Ref sig .tc := ⟨.hbm, 296, rfl⟩
abbrev main_v80 : Ref sig .tc := ⟨.hbm, 297, rfl⟩
abbrev main_v81 : Ref sig .tc := ⟨.hbm, 298, rfl⟩
abbrev main_v82 : Ref sig .tc := ⟨.hbm, 299, rfl⟩
abbrev main_v83 : Ref sig .tc := ⟨.hbm, 300, rfl⟩
abbrev main_v84 : Ref sig .tc := ⟨.hbm, 301, rfl⟩
abbrev main_v85 : Ref sig .tc := ⟨.hbm, 302, rfl⟩
abbrev main_v86 : Ref sig .tc := ⟨.hbm, 303, rfl⟩
abbrev main_v87 : Ref sig .tc := ⟨.hbm, 304, rfl⟩
abbrev main_v88 : Ref sig .tc := ⟨.hbm, 305, rfl⟩
abbrev main_call9_cst : Ref sig .tc := ⟨.hbm, 306, rfl⟩
abbrev main_call9_v0 : Ref sig .tc := ⟨.hbm, 307, rfl⟩
abbrev main_v89 : Ref sig .tc := ⟨.hbm, 308, rfl⟩
abbrev main_v90 : Ref sig .tc := ⟨.hbm, 309, rfl⟩
abbrev main_v91 : Ref sig .tc := ⟨.hbm, 310, rfl⟩
abbrev main_v92 : Ref sig .tc := ⟨.hbm, 311, rfl⟩
abbrev main_v93 : Ref sig .tc := ⟨.hbm, 312, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem5_0 : DmaSem sig := 44
abbrev cc4_sem5_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem4_1 : DmaSem sig := 53

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S144x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S144x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S144x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S96x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S32_S1x32 : S32.ShapeCasts S1x32
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S8000x16_S8000x16_0_0 : ∀ a, (![0, 0] : Fin 2 → Nat) a + S8000x16.size a ≤ S8000x16.size a
  h_S8000x16 : 0 < S8000x16.numel
  concatenates_S8000x64_S8000x64_S8000x16_S8000x144_d1 : Shape.Concatenates [S8000x64, S8000x64, S8000x16] S8000x144 1
  inb_S144x32_S144x32_0_0 : ∀ a, (![0, 0] : Fin 2 → Nat) a + S144x32.size a ≤ S144x32.size a
  h_S144x32 : 0 < S144x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  bcast_S_S50000x32 : S_.BroadcastsInDim S50000x32 (![] : Fin 0 → Fin S50000x32.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  concatenates_S5000x64_S5000x32_S5000x96_d1 : Shape.Concatenates [S5000x64, S5000x32] S5000x96 1
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  bcast_S_S500x64 : S_.BroadcastsInDim S500x64 (![] : Fin 0 → Fin S500x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S500x1 : S_.BroadcastsInDim S500x1 (![] : Fin 0 → Fin S500x1.rank)
  bcast_S500x1_S500x64_0_1 : S500x1.BroadcastsInDim S500x64 (![0, 1] : Fin 2 → Fin S500x64.rank)
  bcast_S128_S1x128_1 : S128.BroadcastsInDim S1x128 (![1] : Fin 1 → Fin S1x128.rank)
  bcast_S1x128_S500x128_0_1 : S1x128.BroadcastsInDim S500x128 (![0, 1] : Fin 2 → Fin S500x128.rank)
  reducesTo_S500x128_S128_d0 : S500x128.ReducesTo [0] S128
  bcast_S_S128 : S_.BroadcastsInDim S128 (![] : Fin 0 → Fin S128.rank)
  bcast_S_S1x128 : S_.BroadcastsInDim S1x128 (![] : Fin 0 → Fin S1x128.rank)
  bcast_S_S500x128 : S_.BroadcastsInDim S500x128 (![] : Fin 0 → Fin S500x128.rank)
  bcast_S1x1_S500x1_0_1 : S1x1.BroadcastsInDim S500x1 (![0, 1] : Fin 2 → Fin S500x1.rank)
  gather_S50000x64_S800000x1_S800000x64_1_0_n_n_0_1_164_wf : GatherDims.WF S50000x64 S800000x1 S800000x64 [1] [0] [] [0] [] 1 ![1, 64]
  dot_S8000x144_S144x32_S8000x32_1_0_0_1_n_n_wf : DotDims.WF S8000x144 S144x32 S8000x32 [1] [0] [0] [1] [] []
  scatter_S50000x32_S800000x1_S800000x32_1_0_0_1_wf : ScatterDims.WF S50000x32 S800000x1 S800000x32 [1] [0] [0] 1
  dot_S5000x96_S96x64_S5000x64_1_0_0_1_n_n_wf : DotDims.WF S5000x96 S96x64 S5000x64 [1] [0] [0] [1] [] []
  scatter_S500x64_S50000x1_S50000x64_1_0_0_1_wf : ScatterDims.WF S500x64 S50000x1 S50000x64 [1] [0] [0] 1
  scatter_S500x1_S50000x1_S50000x1_1_0_0_1_wf : ScatterDims.WF S500x1 S50000x1 S50000x1 [1] [0] [0] 1
  dot_S500x64_S64x128_S500x128_1_0_0_1_n_n_wf : DotDims.WF S500x64 S64x128 S500x128 [1] [0] [0] [1] [] []
  dot_S500x128_S128x128_S500x128_1_0_0_1_n_n_wf : DotDims.WF S500x128 S128x128 S500x128 [1] [0] [0] [1] [] []
  dot_S500x128_S128x1_S500x1_1_0_0_1_n_n_wf : DotDims.WF S500x128 S128x1 S500x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S800000x16.size a
  hwx0_2 : ∀ i : grid0.Coords, EltTy.bits .f32 = 32 ∨ (Rect.block (s := S800000x16) S8000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S144x32.size a ≤ S144x32.size a
  hwx0_3 : ∀ i : grid0.Coords, EltTy.bits .f32 = 32 ∨ (Rect.block (s := S144x32) S144x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x32.size a ≤ S800000x32.size a
  hwx0_5 : ∀ i : grid0.Coords, EltTy.bits .f32 = 32 ∨ (Rect.block (s := S800000x32) S8000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x64.size a ≤ S96x64.size a
  hwx1_2 : ∀ i : grid1.Coords, EltTy.bits .f32 = 32 ∨ (Rect.block (s := S96x64) S96x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S800000x64.size a
  hwx2_0 : ∀ i : grid2.Coords, EltTy.bits .f32 = 32 ∨ (Rect.block (s := S800000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S800000x64.size a
  hwx2_1 : ∀ i : grid2.Coords, EltTy.bits .f32 = 32 ∨ (Rect.block (s := S800000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x16.size a ≤ S800000x16.size a
  hwx2_2 : ∀ i : grid2.Coords, EltTy.bits .f32 = 32 ∨ (Rect.block (s := S800000x16) S8000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S144x32.size a ≤ S144x32.size a
  hwx2_3 : ∀ i : grid2.Coords, EltTy.bits .f32 = 32 ∨ (Rect.block (s := S144x32) S144x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x32.size a ≤ S800000x32.size a
  hwx2_5 : ∀ i : grid2.Coords, EltTy.bits .f32 = 32 ∨ (Rect.block (s := S800000x32) S8000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S50000x32.size a
  hwx3_1 : ∀ i : grid3.Coords, EltTy.bits .f32 = 32 ∨ (Rect.block (s := S50000x32) S5000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x64.size a ≤ S96x64.size a
  hwx3_2 : ∀ i : grid3.Coords, EltTy.bits .f32 = 32 ∨ (Rect.block (s := S96x64) S96x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S800000x64.size a
  hwx4_0 : ∀ i : grid4.Coords, EltTy.bits .f32 = 32 ∨ (Rect.block (s := S800000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S800000x64.size a
  hwx4_1 : ∀ i : grid4.Coords, EltTy.bits .f32 = 32 ∨ (Rect.block (s := S800000x64) S8000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x16.size a ≤ S800000x16.size a
  hwx4_2 : ∀ i : grid4.Coords, EltTy.bits .f32 = 32 ∨ (Rect.block (s := S800000x16) S8000x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S144x32.size a ≤ S144x32.size a
  hwx4_3 : ∀ i : grid4.Coords, EltTy.bits .f32 = 32 ∨ (Rect.block (s := S144x32) S144x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8000x32.size a ≤ S800000x32.size a
  hwx4_5 : ∀ i : grid4.Coords, EltTy.bits .f32 = 32 ∨ (Rect.block (s := S800000x32) S8000x32.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S50000x32.size a
  hwx5_1 : ∀ i : grid5.Coords, EltTy.bits .f32 = 32 ∨ (Rect.block (s := S50000x32) S5000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S96x64.size a ≤ S96x64.size a
  hwx5_2 : ∀ i : grid5.Coords, EltTy.bits .f32 = 32 ∨ (Rect.block (s := S96x64) S96x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x144_S144x32_S8000x32_1_0_0_1_n_n : DotDims S8000x144 S144x32 S8000x32 where
  lhsContracting := [1]
  rhsContracting := [0]
  lhsNonContracting := [0]
  rhsNonContracting := [1]
  lhsBatch := []
  rhsBatch := []
  wf := dot_S8000x144_S144x32_S8000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf
def dot_S500x64_S64x128_S500x128_1_0_0_1_n_n : DotDims S500x64 S64x128 S500x128 where
  lhsContracting := [1]
  rhsContracting := [0]
  lhsNonContracting := [0]
  rhsNonContracting := [1]
  lhsBatch := []
  rhsBatch := []
  wf := dot_S500x64_S64x128_S500x128_1_0_0_1_n_n_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S500x128_S128x1_S500x1_1_0_0_1_n_n : DotDims S500x128 S128x1 S500x1 where
  lhsContracting := [1]
  rhsContracting := [0]
  lhsNonContracting := [0]
  rhsNonContracting := [1]
  lhsBatch := []
  rhsBatch := []
  wf := dot_S500x128_S128x1_S500x1_1_0_0_1_n_n_wf

abbrev win0_0 : Pipeline.Window sig grid0 :=
  Pipeline.Window.ofSpec (Memref.whole main_v4) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S144x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S8000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S96x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v13) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S8000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S144x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S8000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v12) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S96x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v22) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg2) S8000x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S144x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v24) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v25) S8000x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v21) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v28) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S96x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v29) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v30) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S50000 : Shape := ⟨1, ![50000]⟩
abbrev S144x32 : Shape := ⟨2, ![144, 32]⟩
abbrev S32 : Shape := ⟨1, ![32]⟩
abbrev S96x64 : Shape := ⟨2, ![96, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S800000x32 : Shape := ⟨2, ![800000, 32]⟩
abbrev S1x32 : Shape := ⟨2, ![1, 32]⟩
abbrev S50000x32 : Shape := ⟨2, ![50000, 32]⟩
abbrev S50000x96 : Shape := ⟨2, ![50000, 96]⟩
abbrev S1x64 : Shape := ⟨2, ![1, 64]⟩
abbrev S500x64 : Shape := ⟨2, ![500, 64]⟩
abbrev S50000x1 : Shape := ⟨2, ![50000, 1]⟩
abbrev S500x1 : Shape := ⟨2, ![500, 1]⟩
abbrev S500x128 : Shape := ⟨2, ![500, 128]⟩
abbrev S1x128 : Shape := ⟨2, ![1, 128]⟩
abbrev S1x1 : Shape := ⟨2, ![1, 1]⟩

abbrev nBuf : Space → Nat
  | .hbm => 265
  | .vmem => 0
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S50000, .i32⟩
  | 4 => ⟨S144x32, .f32⟩
  | 5 => ⟨S32, .f32⟩
  | 6 => ⟨S96x64, .f32⟩
  | 7 => ⟨S64, .f32⟩
  | 8 => ⟨S144x32, .f32⟩
  | 9 => ⟨S32, .f32⟩
  | 10 => ⟨S96x64, .f32⟩
  | 11 => ⟨S64, .f32⟩
  | 12 => ⟨S144x32, .f32⟩
  | 13 => ⟨S32, .f32⟩
  | 14 => ⟨S96x64, .f32⟩
  | 15 => ⟨S64, .f32⟩
  | 16 => ⟨S64x128, .f32⟩
  | 17 => ⟨S128, .f32⟩
  | 18 => ⟨S128, .f32⟩
  | 19 => ⟨S128, .f32⟩
  | 20 => ⟨S128x128, .f32⟩
  | 21 => ⟨S128, .f32⟩
  | 22 => ⟨S128, .f32⟩
  | 23 => ⟨S128, .f32⟩
  | 24 => ⟨S128x1, .f32⟩
  | 25 => ⟨S1, .f32⟩
  | 26 => ⟨S1x800000, .i32⟩
  | 27 => ⟨S800000, .i32⟩
  | 28 => ⟨S1x800000, .i32⟩
  | 29 => ⟨S800000, .i32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x64, .f32⟩
  | 48 => ⟨S800000x144, .f32⟩
  | 49 => ⟨S800000x32, .f32⟩
  | 50 => ⟨S1x32, .f32⟩
  | 51 => ⟨S800000x32, .f32⟩
  | 52 => ⟨S800000x32, .f32⟩
  | 53 => ⟨S_, .f32⟩
  | 54 => ⟨S800000x32, .f32⟩
  | 55 => ⟨S800000x32, .f32⟩
  | 56 => ⟨S_, .f32⟩
  | 57 => ⟨S50000x32, .f32⟩
  | 58 => ⟨S800000x1, .i32⟩
  | 59 => ⟨S50000x32, .f32⟩
  | 60 => ⟨S50000x96, .f32⟩
  | 61 => ⟨S50000x64, .f32⟩
  | 62 => ⟨S1x64, .f32⟩
  | 63 => ⟨S50000x64, .f32⟩
  | 64 => ⟨S50000x64, .f32⟩
  | 65 => ⟨S_, .f32⟩
  | 66 => ⟨S50000x64, .f32⟩
  | 67 => ⟨S50000x64, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S800000x144, .f32⟩
  | 87 => ⟨S800000x32, .f32⟩
  | 88 => ⟨S1x32, .f32⟩
  | 89 => ⟨S800000x32, .f32⟩
  | 90 => ⟨S800000x32, .f32⟩
  | 91 => ⟨S_, .f32⟩
  | 92 => ⟨S800000x32, .f32⟩
  | 93 => ⟨S800000x32, .f32⟩
  | 94 => ⟨S_, .f32⟩
  | 95 => ⟨S50000x32, .f32⟩
  | 96 => ⟨S800000x1, .i32⟩
  | 97 => ⟨S50000x32, .f32⟩
  | 98 => ⟨S50000x96, .f32⟩
  | 99 => ⟨S50000x64, .f32⟩
  | 100 => ⟨S1x64, .f32⟩
  | 101 => ⟨S50000x64, .f32⟩
  | 102 => ⟨S50000x64, .f32⟩
  | 103 => ⟨S_, .f32⟩
  | 104 => ⟨S50000x64, .f32⟩
  | 105 => ⟨S50000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x64, .f32⟩
  | 124 => ⟨S800000x144, .f32⟩
  | 125 => ⟨S800000x32, .f32⟩
  | 126 => ⟨S1x32, .f32⟩
  | 127 => ⟨S800000x32, .f32⟩
  | _ => ⟨S50000x64, .f32⟩

abbrev hbmTy0_1 (i : Nat) : BufTy := match i % 128 with
  | 0 => ⟨S800000x32, .f32⟩
  | 1 => ⟨S_, .f32⟩
  | 2 => ⟨S800000x32, .f32⟩
  | 3 => ⟨S800000x32, .f32⟩
  | 4 => ⟨S_, .f32⟩
  | 5 => ⟨S50000x32, .f32⟩
  | 6 => ⟨S800000x1, .i32⟩
  | 7 => ⟨S50000x32, .f32⟩
  | 8 => ⟨S50000x96, .f32⟩
  | 9 => ⟨S50000x64, .f32⟩
  | 10 => ⟨S1x64, .f32⟩
  | 11 => ⟨S50000x64, .f32⟩
  | 12 => ⟨S50000x64, .f32⟩
  | 13 => ⟨S_, .f32⟩
  | 14 => ⟨S50000x64, .f32⟩
  | 15 => ⟨S50000x64, .f32⟩
  | 16 => ⟨S_, .f32⟩
  | 17 => ⟨S500x64, .f32⟩
  | 18 => ⟨S50000x1, .i32⟩
  | 19 => ⟨S500x64, .f32⟩
  | 20 => ⟨S_, .f32⟩
  | 21 => ⟨S50000x1, .f32⟩
  | 22 => ⟨S_, .f32⟩
  | 23 => ⟨S500x1, .f32⟩
  | 24 => ⟨S50000x1, .i32⟩
  | 25 => ⟨S500x1, .f32⟩
  | 26 => ⟨S_, .f32⟩
  | 27 => ⟨S500x1, .f32⟩
  | 28 => ⟨S500x1, .f32⟩
  | 29 => ⟨S500x64, .f32⟩
  | 30 => ⟨S500x64, .f32⟩
  | 31 => ⟨S500x128, .f32⟩
  | 32 => ⟨S1x128, .f32⟩
  | 33 => ⟨S500x128, .f32⟩
  | 34 => ⟨S500x128, .f32⟩
  | 35 => ⟨S_, .f32⟩
  | 36 => ⟨S128, .f32⟩
  | 37 => ⟨S_, .f32⟩
  | 38 => ⟨S128, .f32⟩
  | 39 => ⟨S128, .f32⟩
  | 40 => ⟨S_, .i32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S500x128, .f32⟩
  | 48 => ⟨S500x128, .f32⟩
  | 49 => ⟨S500x128, .f32⟩
  | 50 => ⟨S_, .f32⟩
  | 51 => ⟨S_, .f32⟩
  | 52 => ⟨S_, .f32⟩
  | 53 => ⟨S_, .f32⟩
  | 54 => ⟨S128, .f32⟩
  | 55 => ⟨S128, .f32⟩
  | 56 => ⟨S128, .f32⟩
  | 57 => ⟨S_, .f32⟩
  | 58 => ⟨S_, .i1⟩
  | 59 => ⟨S_, .f32⟩
  | 60 => ⟨S_, .f32⟩
  | 61 => ⟨S128, .f32⟩
  | 62 => ⟨S128, .f32⟩
  | 63 => ⟨S1x128, .f32⟩
  | 64 => ⟨S500x128, .f32⟩
  | 65 => ⟨S500x128, .f32⟩
  | 66 => ⟨S_, .f32⟩
  | 67 => ⟨S128, .f32⟩
  | 68 => ⟨S128, .f32⟩
  | 69 => ⟨S128, .f32⟩
  | 70 => ⟨S1x128, .f32⟩
  | 71 => ⟨S500x128, .f32⟩
  | 72 => ⟨S500x128, .f32⟩
  | 73 => ⟨S1x128, .f32⟩
  | 74 => ⟨S500x128, .f32⟩
  | 75 => ⟨S500x128, .f32⟩
  | 76 => ⟨S1x128, .f32⟩
  | 77 => ⟨S500x128, .f32⟩
  | 78 => ⟨S500x128, .f32⟩
  | 79 => ⟨S_, .f32⟩
  | 80 => ⟨S500x128, .f32⟩
  | 81 => ⟨S500x128, .f32⟩
  | 82 => ⟨S500x128, .f32⟩
  | 83 => ⟨S1x128, .f32⟩
  | 84 => ⟨S500x128, .f32⟩
  | 85 => ⟨S500x128, .f32⟩
  | 86 => ⟨S_, .f32⟩
  | 87 => ⟨S128, .f32⟩
  | 88 => ⟨S_, .f32⟩
  | 89 => ⟨S128, .f32⟩
  | 90 => ⟨S128, .f32⟩
  | 91 => ⟨S_, .i32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S500x128, .f32⟩
  | 99 => ⟨S500x128, .f32⟩
  | 100 => ⟨S500x128, .f32⟩
  | 101 => ⟨S_, .f32⟩
  | 102 => ⟨S_, .f32⟩
  | 103 => ⟨S_, .f32⟩
  | 104 => ⟨S_, .f32⟩
  | 105 => ⟨S128, .f32⟩
  | 106 => ⟨S128, .f32⟩
  | 107 => ⟨S128, .f32⟩
  | 108 => ⟨S_, .f32⟩
  | 109 => ⟨S_, .i1⟩
  | 110 => ⟨S_, .f32⟩
  | 111 => ⟨S_, .f32⟩
  | 112 => ⟨S128, .f32⟩
  | 113 => ⟨S128, .f32⟩
  | 114 => ⟨S1x128, .f32⟩
  | 115 => ⟨S500x128, .f32⟩
  | 116 => ⟨S500x128, .f32⟩
  | 117 => ⟨S_, .f32⟩
  | 118 => ⟨S128, .f32⟩
  | 119 => ⟨S128, .f32⟩
  | 120 => ⟨S128, .f32⟩
  | 121 => ⟨S1x128, .f32⟩
  | 122 => ⟨S500x128, .f32⟩
  | 123 => ⟨S500x128, .f32⟩
  | 124 => ⟨S1x128, .f32⟩
  | 125 => ⟨S500x128, .f32⟩
  | 126 => ⟨S500x128, .f32⟩
  | 127 => ⟨S1x128, .f32⟩
  | _ => ⟨S50000x64, .f32⟩

abbrev hbmTy0_2 (i : Nat) : BufTy := match i % 128 with
  | 0 => ⟨S500x128, .f32⟩
  | 1 => ⟨S500x128, .f32⟩
  | 2 => ⟨S_, .f32⟩
  | 3 => ⟨S500x128, .f32⟩
  | 4 => ⟨S500x128, .f32⟩
  | 5 => ⟨S500x1, .f32⟩
  | 6 => ⟨S1x1, .f32⟩
  | 7 => ⟨S500x1, .f32⟩
  | 8 => ⟨S500x1, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_1 : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call0_cst : Ref sig .tc := ⟨.hbm, 53, rfl⟩
abbrev main_call0_v0 : Ref sig .tc := ⟨.hbm, 54, rfl⟩
abbrev main_v23 : Ref sig .tc := ⟨.hbm, 55, rfl⟩
abbrev main_cst : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_call1_cst : Ref sig .tc := ⟨.hbm, 65, rfl⟩
abbrev main_call1_v0 : Ref sig .tc := ⟨.hbm, 66, rfl⟩
abbrev main_v32 : Ref sig .tc := ⟨.hbm, 67, rfl⟩
abbrev main_c_3 : Ref sig .tc := ⟨.hbm, 68, rfl⟩
abbrev main_v33 : Ref sig .tc := ⟨.hbm, 69, rfl⟩
abbrev main_v34 : Ref sig .tc := ⟨.hbm, 70, rfl⟩
abbrev main_c_4 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_5 : Ref sig .tc := ⟨.hbm, 77, rfl⟩
abbrev main_v40 : Ref sig .tc := ⟨.hbm, 78, rfl⟩
abbrev main_v41 : Ref sig .tc := ⟨.hbm, 79, rfl⟩
abbrev main_c_6 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_call2_cst : Ref sig .tc := ⟨.hbm, 91, rfl⟩
abbrev main_call2_v0 : Ref sig .tc := ⟨.hbm, 92, rfl⟩
abbrev main_v52 : Ref sig .tc := ⟨.hbm, 93, rfl⟩
abbrev main_cst_7 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_call3_cst : Ref sig .tc := ⟨.hbm, 103, rfl⟩
abbrev main_call3_v0 : Ref sig .tc := ⟨.hbm, 104, rfl⟩
abbrev main_v61 : Ref sig .tc := ⟨.hbm, 105, rfl⟩
abbrev main_c_8 : Ref sig .tc := ⟨.hbm, 106, rfl⟩
abbrev main_v62 : Ref sig .tc := ⟨.hbm, 107, rfl⟩
abbrev main_v63 : Ref sig .tc := ⟨.hbm, 108, rfl⟩
abbrev main_c_9 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_c_10 : Ref sig .tc := ⟨.hbm, 115, rfl⟩
abbrev main_v69 : Ref sig .tc := ⟨.hbm, 116, rfl⟩
abbrev main_v70 : Ref sig .tc := ⟨.hbm, 117, rfl⟩
abbrev main_c_11 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_call4_cst : Ref sig .tc := ⟨.hbm, 129, rfl⟩
abbrev main_call4_v0 : Ref sig .tc := ⟨.hbm, 130, rfl⟩
abbrev main_v81 : Ref sig .tc := ⟨.hbm, 131, rfl⟩
abbrev main_cst_12 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_call5_cst : Ref sig .tc := ⟨.hbm, 141, rfl⟩
abbrev main_call5_v0 : Ref sig .tc := ⟨.hbm, 142, rfl⟩
abbrev main_v90 : Ref sig .tc := ⟨.hbm, 143, rfl⟩
abbrev main_cst_13 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_cst_14 : Ref sig .tc := ⟨.hbm, 148, rfl⟩
abbrev main_v94 : Ref sig .tc := ⟨.hbm, 149, rfl⟩
abbrev main_cst_15 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_cst_16 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_17 : Ref sig .tc := ⟨.hbm, 163, rfl⟩
abbrev main_v106 : Ref sig .tc := ⟨.hbm, 164, rfl⟩
abbrev main_cst_18 : Ref sig .tc := ⟨.hbm, 165, rfl⟩
abbrev main_v107 : Ref sig .tc := ⟨.hbm, 166, rfl⟩
abbrev main_v108 : Ref sig .tc := ⟨.hbm, 167, rfl⟩
abbrev main_c_19 : Ref sig .tc := ⟨.hbm, 168, rfl⟩
abbrev main_call6_cst : Ref sig .tc := ⟨.hbm, 169, rfl⟩
abbrev main_call6_v0 : Ref sig .tc := ⟨.hbm, 170, rfl⟩
abbrev main_call6_v1 : Ref sig .tc := ⟨.hbm, 171, rfl⟩
abbrev main_call6_cst_0 : Ref sig .tc := ⟨.hbm, 172, rfl⟩
abbrev main_call6_v2 : Ref sig .tc := ⟨.hbm, 173, rfl⟩
abbrev main_call6_v3 : Ref sig .tc := ⟨.hbm, 174, rfl⟩
abbrev main_call6_v4 : Ref sig .tc := ⟨.hbm, 175, rfl⟩
abbrev main_call6_v5 : Ref sig .tc := ⟨.hbm, 176, rfl⟩
abbrev main_call6_v6 : Ref sig .tc := ⟨.hbm, 177, rfl⟩
abbrev main_call6_v7 : Ref sig .tc := ⟨.hbm, 178, rfl⟩
abbrev main_call6_cst_1 : Ref sig .tc := ⟨.hbm, 179, rfl⟩
abbrev main_call6_v8 : Ref sig .tc := ⟨.hbm, 180, rfl⟩
abbrev main_call6_cst_2 : Ref sig .tc := ⟨.hbm, 181, rfl⟩
abbrev main_call6_v9 : Ref sig .tc := ⟨.hbm, 182, rfl⟩
abbrev main_call6_v10 : Ref sig .tc := ⟨.hbm, 183, rfl⟩
abbrev main_call6_v11 : Ref sig .tc := ⟨.hbm, 184, rfl⟩
abbrev main_call6_cst_3 : Ref sig .tc := ⟨.hbm, 185, rfl⟩
abbrev main_call6_v12 : Ref sig .tc := ⟨.hbm, 186, rfl⟩
abbrev main_call6_cst_4 : Ref sig .tc := ⟨.hbm, 187, rfl⟩
abbrev main_call6_call0_v0 : Ref sig .tc := ⟨.hbm, 188, rfl⟩
abbrev main_call6_call0_v1 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_cst_20 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_call7_cst : Ref sig .tc := ⟨.hbm, 207, rfl⟩
abbrev main_call7_v0 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_cst_21 : Ref sig .tc := ⟨.hbm, 214, rfl⟩
abbrev main_v130 : Ref sig .tc := ⟨.hbm, 215, rfl⟩
abbrev main_cst_22 : Ref sig .tc := ⟨.hbm, 216, rfl⟩
abbrev main_v131 : Ref sig .tc := ⟨.hbm, 217, rfl⟩
abbrev main_v132 : Ref sig .tc := ⟨.hbm, 218, rfl⟩
abbrev main_c_23 : Ref sig .tc := ⟨.hbm, 219, rfl⟩
abbrev main_call8_cst : Ref sig .tc := ⟨.hbm, 220, rfl⟩
abbrev main_call8_v0 : Ref sig .tc := ⟨.hbm, 221, rfl⟩
abbrev main_call8_v1 : Ref sig .tc := ⟨.hbm, 222, rfl⟩
abbrev main_call8_cst_0 : Ref sig .tc := ⟨.hbm, 223, rfl⟩
abbrev main_call8_v2 : Ref sig .tc := ⟨.hbm, 224, rfl⟩
abbrev main_call8_v3 : Ref sig .tc := ⟨.hbm, 225, rfl⟩
abbrev main_call8_v4 : Ref sig .tc := ⟨.hbm, 226, rfl⟩
abbrev main_call8_v5 : Ref sig .tc := ⟨.hbm, 227, rfl⟩
abbrev main_call8_v6 : Ref sig .tc := ⟨.hbm, 228, rfl⟩
abbrev main_call8_v7 : Ref sig .tc := ⟨.hbm, 229, rfl⟩
abbrev main_call8_cst_1 : Ref sig .tc := ⟨.hbm, 230, rfl⟩
abbrev main_call8_v8 : Ref sig .tc := ⟨.hbm, 231, rfl⟩
abbrev main_call8_cst_2 : Ref sig .tc := ⟨.hbm, 232, rfl⟩
abbrev main_call8_v9 : Ref sig .tc := ⟨.hbm, 233, rfl⟩
abbrev main_call8_v10 : Ref sig .tc := ⟨.hbm, 234, rfl⟩
abbrev main_call8_v11 : Ref sig .tc := ⟨.hbm, 235, rfl⟩
abbrev main_call8_cst_3 : Ref sig .tc := ⟨.hbm, 236, rfl⟩
abbrev main_call8_v12 : Ref sig .tc := ⟨.hbm, 237, rfl⟩
abbrev main_call8_cst_4 : Ref sig .tc := ⟨.hbm, 238, rfl⟩
abbrev main_call8_call0_v0 : Ref sig .tc := ⟨.hbm, 239, rfl⟩
abbrev main_call8_call0_v1 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_cst_24 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_call9_cst : Ref sig .tc := ⟨.hbm, 258, rfl⟩
abbrev main_call9_v0 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S_S50000x32 : S_.BroadcastsInDim S50000x32 (![] : Fin 0 → Fin S50000x32.rank)
  concatenates_S50000x64_S50000x32_S50000x96_d1 : Shape.Concatenates [S50000x64, S50000x32] S50000x96 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S500x64 : S_.BroadcastsInDim S500x64 (![] : Fin 0 → Fin S500x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S500x1 : S_.BroadcastsInDim S500x1 (![] : Fin 0 → Fin S500x1.rank)
  bcast_S500x1_S500x64_0_1 : S500x1.BroadcastsInDim S500x64 (![0, 1] : Fin 2 → Fin S500x64.rank)
  bcast_S128_S1x128_1 : S128.BroadcastsInDim S1x128 (![1] : Fin 1 → Fin S1x128.rank)
  bcast_S1x128_S500x128_0_1 : S1x128.BroadcastsInDim S500x128 (![0, 1] : Fin 2 → Fin S500x128.rank)
  reducesTo_S500x128_S128_d0 : S500x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S500x128 : S_.BroadcastsInDim S500x128 (![] : Fin 0 → Fin S500x128.rank)
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  gather_S50000x64_S800000x1_S800000x64_1_0_n_n_0_1_164_wf : GatherDims.WF S50000x64 S800000x1 S800000x64 [1] [0] [] [0] [] 1 ![1, 64]
  dot_S800000x144_S144x32_S800000x32_1_0_0_1_n_n_wf : DotDims.WF S800000x144 S144x32 S800000x32 [1] [0] [0] [1] [] []
  scatter_S50000x32_S800000x1_S800000x32_1_0_0_1_wf : ScatterDims.WF S50000x32 S800000x1 S800000x32 [1] [0] [0] 1
  dot_S50000x96_S96x64_S50000x64_1_0_0_1_n_n_wf : DotDims.WF S50000x96 S96x64 S50000x64 [1] [0] [0] [1] [] []
  scatter_S500x64_S50000x1_S50000x64_1_0_0_1_wf : ScatterDims.WF S500x64 S50000x1 S50000x64 [1] [0] [0] 1
  scatter_S500x1_S50000x1_S50000x1_1_0_0_1_wf : ScatterDims.WF S500x1 S50000x1 S50000x1 [1] [0] [0] 1
  dot_S500x64_S64x128_S500x128_1_0_0_1_n_n_wf : DotDims.WF S500x64 S64x128 S500x128 [1] [0] [0] [1] [] []
  dot_S500x128_S128x128_S500x128_1_0_0_1_n_n_wf : DotDims.WF S500x128 S128x128 S500x128 [1] [0] [0] [1] [] []
  dot_S500x128_S128x1_S500x1_1_0_0_1_n_n_wf : DotDims.WF S500x128 S128x1 S500x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x32_S800000x32_1_0_0_1_n_n : DotDims S800000x144 S144x32 S800000x32 where
  lhsContracting := [1]
  rhsContracting := [0]
  lhsNonContracting := [0]
  rhsNonContracting := [1]
  lhsBatch := []
  rhsBatch := []
  wf := dot_S800000x144_S144x32_S800000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf
def dot_S500x64_S64x128_S500x128_1_0_0_1_n_n : DotDims S500x64 S64x128 S500x128 where
  lhsContracting := [1]
  rhsContracting := [0]
  lhsNonContracting := [0]
  rhsNonContracting := [1]
  lhsBatch := []
  rhsBatch := []
  wf := dot_S500x64_S64x128_S500x128_1_0_0_1_n_n_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S500x128_S128x1_S500x1_1_0_0_1_n_n : DotDims S500x128 S128x1 S500x1 where
  lhsContracting := [1]
  rhsContracting := [0]
  lhsNonContracting := [0]
  rhsNonContracting := [1]
  lhsBatch := []
  rhsBatch := []
  wf := dot_S500x128_S128x1_S500x1_1_0_0_1_n_n_wf

class Facts : Prop extends Facts₀ where

variable [Facts]
-- ==== Proof.ROps.lean ====
/- The reference program's @main as lists of its host operations, in order: opsL1 (42), opsL2 (38), opsL3 (38), opsTail (121). The operations of an outlined function stand at
   its call site, over that call's buffer record. -/
import proofs.«431247_j30262339568087_2_alg».proof.Proof.Gen.ReferenceIdeal
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem

variable {F : FTy → Type} [FloatOps F]

/-- @main's operations for the index vectors and the first layer. -/
abbrev opsL1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_1 (constantI S_ 32 0#32),
    StableHlo.unary main_c_1 main_v11 (broadcastInDim S800000 ![] bcast_S_S800000 : (⟨S_, .i32⟩ : BufTy).Contents (Elt F) → (⟨S800000, .i32⟩ : BufTy).Contents (Elt F)),
    StableHlo.binary main_v3 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v13 (broadcastInDim S800000 ![] bcast_S_S800000 : (⟨S_, .i32⟩ : BufTy).Contents (Elt F) → (⟨S800000, .i32⟩ : BufTy).Contents (Elt F)),
    StableHlo.binary main_v3 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_arg0 main_v16 main_v17 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nary ![main_v10, main_v17, main_arg2] main_v18 (fun u => concatenate S800000x144 1 [⟨S800000x64, u 0⟩, ⟨S800000x64, u 1⟩, ⟨S800000x16, u 2⟩] concatenates_S800000x64_S800000x64_S800000x16_S800000x144_d1),
    StableHlo.binary main_v18 main_arg4 main_v19 ((fun l r => Host.dotGeneral dot_S800000x144_S144x32_S800000x32_1_0_0_1_n_n none l r) : (⟨S800000x144, .f32⟩ : BufTy).Contents (Elt F) → (⟨S144x32, .f32⟩ : BufTy).Contents (Elt F) → (⟨S800000x32, .f32⟩ : BufTy).Contents (Elt F)),
    StableHlo.unary main_arg5 main_v20 (broadcastInDim S1x32 ![1] bcast_S32_S1x32_1 : (⟨S32, .f32⟩ : BufTy).Contents (Elt F) → (⟨S1x32, .f32⟩ : BufTy).Contents (Elt F)),
    StableHlo.unary main_v20 main_v21 (broadcastInDim S800000x32 ![0, 1] bcast_S1x32_S800000x32_0_1 : (⟨S1x32, .f32⟩ : BufTy).Contents (Elt F) → (⟨S800000x32, .f32⟩ : BufTy).Contents (Elt F)),
    StableHlo.binary main_v19 main_v21 main_v22 (addf : (⟨S800000x32, .f32⟩ : BufTy).Contents (Elt F) → (⟨S800000x32, .f32⟩ : BufTy).Contents (Elt F) → (⟨S800000x32, .f32⟩ : BufTy).Contents (Elt F)),
    StableHlo.TRef.nullary main_call0.cst (constant S_ .f32 0x00000000#32),
    StableHlo.TRef.unary main_call0.cst main_call0.v0 (broadcastInDim S800000x32 ![] bcast_S_S800000x32),
    StableHlo.TRef.binary (.of main_v22) main_call0.v0 main_call0.v1 maximumf,
    StableHlo.nullary main_cst (constant S_ .f32 0x00000000#32),
    StableHlo.unary main_cst main_v24 (broadcastInDim S50000x32 ![] bcast_S_S50000x32 : (⟨S_, .f32⟩ : BufTy).Contents (Elt F) → (⟨S50000x32, .f32⟩ : BufTy).Contents (Elt F)),
    StableHlo.unary main_v1 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    StableHlo.binary main_arg0 main_v26 main_v27 ((fun a b => concatenate S50000x96 1 [⟨S50000x64, a⟩, ⟨S50000x32, b⟩] concatenates_S50000x64_S50000x32_S50000x96_d1) : (⟨S50000x64, .f32⟩ : BufTy).Contents (Elt F) → (⟨S50000x32, .f32⟩ : BufTy).Contents (Elt F) → (⟨S50000x96, .f32⟩ : BufTy).Contents (Elt F)),
    StableHlo.binary main_v27 main_arg6 main_v28 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    StableHlo.unary main_arg7 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S50000x64 ![0, 1] bcast_S1x64_S50000x64_0_1 : (⟨S1x64, .f32⟩ : BufTy).Contents (Elt F) → (⟨S50000x64, .f32⟩ : BufTy).Contents (Elt F)),
    StableHlo.binary main_v28 main_v30 main_v31 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v31) main_call1.v0 main_call1.v1 maximumf ]

/-- @main's operations for the second layer. -/
abbrev opsL2 : List (HloOp τ sig (Elt F)) :=
  [ StableHlo.nullary main_c_3 (constantI S_ 32 0#32),
    StableHlo.unary main_c_3 main_v33 (broadcastInDim S800000 ![] bcast_S_S800000 : (⟨S_, .i32⟩ : BufTy).Contents (Elt F) → (⟨S800000, .i32⟩ : BufTy).Contents (Elt F)),
    StableHlo.binary main_v1 main_v33 main_v34 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v35 (broadcastInDim S800000 ![] bcast_S_S800000 : (⟨S_, .i32⟩ : BufTy).Contents (Elt F) → (⟨S800000, .i32⟩ : BufTy).Contents (Elt F)),
    StableHlo.binary main_v1 main_v35 main_v36 (addi : (⟨S800000, .i32⟩ : BufTy).Contents (Elt F) → (⟨S800000, .i32⟩ : BufTy).Contents (Elt F) → (⟨S800000, .i32⟩ : BufTy).Contents (Elt F)),
    StableHlo.ternary main_v34 main_v36 main_v1 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v37 main_v38 (broadcastInDim S800000x1 ![0] bcast_S800000_S800000x1_0 : (⟨S800000, .i32⟩ : BufTy).Contents (Elt F) → (⟨S800000x1, .i32⟩ : BufTy).Contents (Elt F)),
    StableHlo.binary main_v32 main_v38 main_v39 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_5 (constantI S_ 32 0#32),
    StableHlo.unary main_c_5 main_v40 (broadcastInDim S800000 ![] bcast_S_S800000 : (⟨S_, .i32⟩ : BufTy).Contents (Elt F) → (⟨S800000, .i32⟩ : BufTy).Contents (Elt F)),
    StableHlo.binary main_v3 main_v40 main_v41 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v42 (broadcastInDim S800000 ![] bcast_S_S800000 : (⟨S_, .i32⟩ : BufTy).Contents (Elt F) → (⟨S800000, .i32⟩ : BufTy).Contents (Elt F)),
    StableHlo.binary main_v3 main_v42 main_v43 (addi : (⟨S800000, .i32⟩ : BufTy).Contents (Elt F) → (⟨S800000, .i32⟩ : BufTy).Contents (Elt F) → (⟨S800000, .i32⟩ : BufTy).Contents (Elt F)),
    StableHlo.ternary main_v41 main_v43 main_v3 main_v44 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v44 main_v45 (broadcastInDim S800000x1 ![0] bcast_S800000_S800000x1_0 : (⟨S800000, .i32⟩ : BufTy).Contents (Elt F) → (⟨S800000x1, .i32⟩ : BufTy).Contents (Elt F)),
    StableHlo.binary main_v32 main_v45 main_v46 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nary ![main_v39, main_v46, main_arg2] main_v47 (fun u => concatenate S800000x144 1 [⟨S800000x64, u 0⟩, ⟨S800000x64, u 1⟩, ⟨S800000x16, u 2⟩] concatenates_S800000x64_S800000x64_S800000x16_S800000x144_d1),
    StableHlo.binary main_v47 main_arg8 main_v48 ((fun l r => Host.dotGeneral dot_S800000x144_S144x32_S800000x32_1_0_0_1_n_n none l r) : (⟨S800000x144, .f32⟩ : BufTy).Contents (Elt F) → (⟨S144x32, .f32⟩ : BufTy).Contents (Elt F) → (⟨S800000x32, .f32⟩ : BufTy).Contents (Elt F)),
    StableHlo.unary main_arg9 main_v49 (broadcastInDim S1x32 ![1] bcast_S32_S1x32_1 : (⟨S32, .f32⟩ : BufTy).Contents (Elt F) → (⟨S1x32, .f32⟩ : BufTy).Contents (Elt F)),
    StableHlo.unary main_v49 main_v50 (broadcastInDim S800000x32 ![0, 1] bcast_S1x32_S800000x32_0_1 : (⟨S1x32, .f32⟩ : BufTy).Contents (Elt F) → (⟨S800000x32, .f32⟩ : BufTy).Contents (Elt F)),
    StableHlo.binary main_v48 main_v50 main_v51 (addf : (⟨S800000x32, .f32⟩ : BufTy).Contents (Elt F) → (⟨S800000x32, .f32⟩ : BufTy).Contents (Elt F) → (⟨S800000x32, .f32⟩ : BufTy).Contents (Elt F)),
    StableHlo.TRef.nullary main_call2.cst (constant S_ .f32 0x00000000#32),
    StableHlo.TRef.unary main_call2.cst main_call2.v0 (broadcastInDim S800000x32 ![] bcast_S_S800000x32),
    StableHlo.TRef.binary (.of main_v51) main_call2.v0 main_call2.v1 maximumf,
    StableHlo.nullary main_cst_7 (constant S_ .f32 0x00000000#32),
    StableHlo.unary main_cst_7 main_v53 (broadcastInDim S50000x32 ![] bcast_S_S50000x32 : (⟨S_, .f32⟩ : BufTy).Contents (Elt F) → (⟨S50000x32, .f32⟩ : BufTy).Contents (Elt F)),
    StableHlo.unary main_v1 main_v54 (broadcastInDim S800000x1 ![0] bcast_S800000_S800000x1_0 : (⟨S800000, .i32⟩ : BufTy).Contents (Elt F) → (⟨S800000x1, .i32⟩ : BufTy).Contents (Elt F)),
    StableHlo.ternary main_v53 main_v54 main_v52 main_v55 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    StableHlo.binary main_v32 main_v55 main_v56 ((fun a b => concatenate S50000x96 1 [⟨S50000x64, a⟩, ⟨S50000x32, b⟩] concatenates_S50000x64_S50000x32_S50000x96_d1) : (⟨S50000x64, .f32⟩ : BufTy).Contents (Elt F) → (⟨S50000x32, .f32⟩ : BufTy).Contents (Elt F) → (⟨S50000x96, .f32⟩ : BufTy).Contents (Elt F)),
    StableHlo.binary main_v56 main_arg10 main_v57 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    StableHlo.unary main_arg11 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S50000x64 ![0, 1] bcast_S1x64_S50000x64_0_1 : (⟨S1x64, .f32⟩ : BufTy).Contents (Elt F) → (⟨S50000x64, .f32⟩ : BufTy).Contents (Elt F)),
    StableHlo.binary main_v57 main_v59 main_v60 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v60) main_call3.v0 main_call3.v1 maximumf ]

/-- @main's operations for the third layer. -/
abbrev opsL3 : List (HloOp τ sig (Elt F)) :=
  [ StableHlo.nullary main_c_8 (constantI S_ 32 0#32),
    StableHlo.unary main_c_8 main_v62 (broadcastInDim S800000 ![] bcast_S_S800000 : (⟨S_, .i32⟩ : BufTy).Contents (Elt F) → (⟨S800000, .i32⟩ : BufTy).Contents (Elt F)),
    StableHlo.binary main_v1 main_v62 main_v63 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v64 (broadcastInDim S800000 ![] bcast_S_S800000 : (⟨S_, .i32⟩ : BufTy).Contents (Elt F) → (⟨S800000, .i32⟩ : BufTy).Contents (Elt F)),
    StableHlo.binary main_v1 main_v64 main_v65 (addi : (⟨S800000, .i32⟩ : BufTy).Contents (Elt F) → (⟨S800000, .i32⟩ : BufTy).Contents (Elt F) → (⟨S800000, .i32⟩ : BufTy).Contents (Elt F)),
    StableHlo.ternary main_v63 main_v65 main_v1 main_v66 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v66 main_v67 (broadcastInDim S800000x1 ![0] bcast_S800000_S800000x1_0 : (⟨S800000, .i32⟩ : BufTy).Contents (Elt F) → (⟨S800000x1, .i32⟩ : BufTy).Contents (Elt F)),
    StableHlo.binary main_v61 main_v67 main_v68 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_10 (constantI S_ 32 0#32),
    StableHlo.unary main_c_10 main_v69 (broadcastInDim S800000 ![] bcast_S_S800000 : (⟨S_, .i32⟩ : BufTy).Contents (Elt F) → (⟨S800000, .i32⟩ : BufTy).Contents (Elt F)),
    StableHlo.binary main_v3 main_v69 main_v70 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v71 (broadcastInDim S800000 ![] bcast_S_S800000 : (⟨S_, .i32⟩ : BufTy).Contents (Elt F) → (⟨S800000, .i32⟩ : BufTy).Contents (Elt F)),
    StableHlo.binary main_v3 main_v71 main_v72 (addi : (⟨S800000, .i32⟩ : BufTy).Contents (Elt F) → (⟨S800000, .i32⟩ : BufTy).Contents (Elt F) → (⟨S800000, .i32⟩ : BufTy).Contents (Elt F)),
    StableHlo.ternary main_v70 main_v72 main_v3 main_v73 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v73 main_v74 (broadcastInDim S800000x1 ![0] bcast_S800000_S800000x1_0 : (⟨S800000, .i32⟩ : BufTy).Contents (Elt F) → (⟨S800000x1, .i32⟩ : BufTy).Contents (Elt F)),
    StableHlo.binary main_v61 main_v74 main_v75 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nary ![main_v68, main_v75, main_arg2] main_v76 (fun u => concatenate S800000x144 1 [⟨S800000x64, u 0⟩, ⟨S800000x64, u 1⟩, ⟨S800000x16, u 2⟩] concatenates_S800000x64_S800000x64_S800000x16_S800000x144_d1),
    StableHlo.binary main_v76 main_arg12 main_v77 ((fun l r => Host.dotGeneral dot_S800000x144_S144x32_S800000x32_1_0_0_1_n_n none l r) : (⟨S800000x144, .f32⟩ : BufTy).Contents (Elt F) → (⟨S144x32, .f32⟩ : BufTy).Contents (Elt F) → (⟨S800000x32, .f32⟩ : BufTy).Contents (Elt F)),
    StableHlo.unary main_arg13 main_v78 (broadcastInDim S1x32 ![1] bcast_S32_S1x32_1 : (⟨S32, .f32⟩ : BufTy).Contents (Elt F) → (⟨S1x32, .f32⟩ : BufTy).Contents (Elt F)),
    StableHlo.unary main_v78 main_v79 (broadcastInDim S800000x32 ![0, 1] bcast_S1x32_S800000x32_0_1 : (⟨S1x32, .f32⟩ : BufTy).Contents (Elt F) → (⟨S800000x32, .f32⟩ : BufTy).Contents (Elt F)),
    StableHlo.binary main_v77 main_v79 main_v80 (addf : (⟨S800000x32, .f32⟩ : BufTy).Contents (Elt F) → (⟨S800000x32, .f32⟩ : BufTy).Contents (Elt F) → (⟨S800000x32, .f32⟩ : BufTy).Contents (Elt F)),
    StableHlo.TRef.nullary main_call4.cst (constant S_ .f32 0x00000000#32),
    StableHlo.TRef.unary main_call4.cst main_call4.v0 (broadcastInDim S800000x32 ![] bcast_S_S800000x32),
    StableHlo.TRef.binary (.of main_v80) main_call4.v0 main_call4.v1 maximumf,
    StableHlo.nullary main_cst_12 (constant S_ .f32 0x00000000#32),
    StableHlo.unary main_cst_12 main_v82 (broadcastInDim S50000x32 ![] bcast_S_S50000x32 : (⟨S_, .f32⟩ : BufTy).Contents (Elt F) → (⟨S50000x32, .f32⟩ : BufTy).Contents (Elt F)),
    StableHlo.unary main_v1 main_v83 (broadcastInDim S800000x1 ![0] bcast_S800000_S800000x1_0 : (⟨S800000, .i32⟩ : BufTy).Contents (Elt F) → (⟨S800000x1, .i32⟩ : BufTy).Contents (Elt F)),
    StableHlo.ternary main_v82 main_v83 main_v81 main_v84 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    StableHlo.binary main_v61 main_v84 main_v85 ((fun a b => concatenate S50000x96 1 [⟨S50000x64, a⟩, ⟨S50000x32, b⟩] concatenates_S50000x64_S50000x32_S50000x96_d1) : (⟨S50000x64, .f32⟩ : BufTy).Contents (Elt F) → (⟨S50000x32, .f32⟩ : BufTy).Contents (Elt F) → (⟨S50000x96, .f32⟩ : BufTy).Contents (Elt F)),
    StableHlo.binary main_v85 main_arg14 main_v86 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    StableHlo.unary main_arg15 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S50000x64 ![0, 1] bcast_S1x64_S50000x64_0_1 : (⟨S1x64, .f32⟩ : BufTy).Contents (Elt F) → (⟨S50000x64, .f32⟩ : BufTy).Contents (Elt F)),
    StableHlo.binary main_v86 main_v88 main_v89 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v89) main_call5.v0 main_call5.v1 maximumf ]

/-- @main's operations for pooling by graph and the three dense layers with their normalisations. -/
abbrev opsTail : List (HloOp τ sig (Elt F)) :=
  [ StableHlo.nullary main_cst_13 (constant S_ .f32 0x00000000#32),
    StableHlo.unary main_cst_13 main_v91 (broadcastInDim S500x64 ![] bcast_S_S500x64 : (⟨S_, .f32⟩ : BufTy).Contents (Elt F) → (⟨S500x64, .f32⟩ : BufTy).Contents (Elt F)),
    StableHlo.unary main_arg3 main_v92 (broadcastInDim S50000x1 ![0] bcast_S50000_S50000x1_0 : (⟨S50000, .i32⟩ : BufTy).Contents (Elt F) → (⟨S50000x1, .i32⟩ : BufTy).Contents (Elt F)),
    StableHlo.ternary main_v91 main_v92 main_v90 main_v93 ((fun x i u => Host.scatterAdd scatter_S500x64_S50000x1_S50000x64_1_0_0_1 x i u) : (⟨S500x64, .f32⟩ : BufTy).Contents (Elt F) → (⟨S50000x1, .i32⟩ : BufTy).Contents (Elt F) → (⟨S50000x64, .f32⟩ : BufTy).Contents (Elt F) → (⟨S500x64, .f32⟩ : BufTy).Contents (Elt F)),
    StableHlo.nullary main_cst_14 (constant S_ .f32 0x3F800000#32),
    StableHlo.unary main_cst_14 main_v94 (broadcastInDim S50000x1 ![] bcast_S_S50000x1 : (⟨S_, .f32⟩ : BufTy).Contents (Elt F) → (⟨S50000x1, .f32⟩ : BufTy).Contents (Elt F)),
    StableHlo.nullary main_cst_15 (constant S_ .f32 0x00000000#32),
    StableHlo.unary main_cst_15 main_v95 (broadcastInDim S500x1 ![] bcast_S_S500x1 : (⟨S_, .f32⟩ : BufTy).Contents (Elt F) → (⟨S500x1, .f32⟩ : BufTy).Contents (Elt F)),
    StableHlo.unary main_arg3 main_v96 (broadcastInDim S50000x1 ![0] bcast_S50000_S50000x1_0 : (⟨S50000, .i32⟩ : BufTy).Contents (Elt F) → (⟨S50000x1, .i32⟩ : BufTy).Contents (Elt F)),
    StableHlo.ternary main_v95 main_v96 main_v94 main_v97 ((fun x i u => Host.scatterAdd scatter_S500x1_S50000x1_S50000x1_1_0_0_1 x i u) : (⟨S500x1, .f32⟩ : BufTy).Contents (Elt F) → (⟨S50000x1, .i32⟩ : BufTy).Contents (Elt F) → (⟨S50000x1, .f32⟩ : BufTy).Contents (Elt F) → (⟨S500x1, .f32⟩ : BufTy).Contents (Elt F)),
    StableHlo.nullary main_cst_16 (constant S_ .f32 0x3F800000#32),
    StableHlo.unary main_cst_16 main_v98 (broadcastInDim S500x1 ![] bcast_S_S500x1 : (⟨S_, .f32⟩ : BufTy).Contents (Elt F) → (⟨S500x1, .f32⟩ : BufTy).Contents (Elt F)),
    StableHlo.binary main_v97 main_v98 main_v99 (maximumf : (⟨S500x1, .f32⟩ : BufTy).Contents (Elt F) → (⟨S500x1, .f32⟩ : BufTy).Contents (Elt F) → (⟨S500x1, .f32⟩ : BufTy).Contents (Elt F)),
    StableHlo.unary main_v99 main_v100 (broadcastInDim S500x64 ![0, 1] bcast_S500x1_S500x64_0_1 : (⟨S500x1, .f32⟩ : BufTy).Contents (Elt F) → (⟨S500x64, .f32⟩ : BufTy).Contents (Elt F)),
    StableHlo.binary main_v93 main_v100 main_v101 (Host.divf : (⟨S500x64, .f32⟩ : BufTy).Contents (Elt F) → (⟨S500x64, .f32⟩ : BufTy).Contents (Elt F) → (⟨S500x64, .f32⟩ : BufTy).Contents (Elt F)),
    StableHlo.binary main_v101 main_arg16 main_v102 ((fun l r => Host.dotGeneral dot_S500x64_S64x128_S500x128_1_0_0_1_n_n none l r) : (⟨S500x64, .f32⟩ : BufTy).Contents (Elt F) → (⟨S64x128, .f32⟩ : BufTy).Contents (Elt F) → (⟨S500x128, .f32⟩ : BufTy).Contents (Elt F)),
    StableHlo.unary main_arg17 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S500x128 ![0, 1] bcast_S1x128_S500x128_0_1 : (⟨S1x128, .f32⟩ : BufTy).Contents (Elt F) → (⟨S500x128, .f32⟩ : BufTy).Contents (Elt F)),
    StableHlo.binary main_v102 main_v104 main_v105 (addf : (⟨S500x128, .f32⟩ : BufTy).Contents (Elt F) → (⟨S500x128, .f32⟩ : BufTy).Contents (Elt F) → (⟨S500x128, .f32⟩ : BufTy).Contents (Elt F)),
    StableHlo.nullary main_cst_17 (constant S_ .f32 0x00000000#32),
    StableHlo.binary main_v105 main_cst_17 main_v106 ((fun x v => Host.reduceAdd x v reducesTo_S500x128_S128_d0 h_S_) : (⟨S500x128, .f32⟩ : BufTy).Contents (Elt F) → (⟨S_, .f32⟩ : BufTy).Contents (Elt F) → (⟨S128, .f32⟩ : BufTy).Contents (Elt F)),
    StableHlo.nullary main_cst_18 (constant S_ .f32 0x43FA0000#32),
    StableHlo.unary main_cst_18 main_v107 (broadcastInDim S128 ![] bcast_S_S128 : (⟨S_, .f32⟩ : BufTy).Contents (Elt F) → (⟨S128, .f32⟩ : BufTy).Contents (Elt F)),
    StableHlo.binary main_v106 main_v107 main_v108 (Host.divf : (⟨S128, .f32⟩ : BufTy).Contents (Elt F) → (⟨S128, .f32⟩ : BufTy).Contents (Elt F) → (⟨S128, .f32⟩ : BufTy).Contents (Elt F)),
    StableHlo.nullary main_c_19 (constantI S_ 32 0#32),
    StableHlo.TRef.nullary main_call6.cst (constant S_ .f32 0x00000000#32),
    StableHlo.TRef.binary (.of main_v105) main_call6.cst main_call6.v0 (fun x v => Host.reduceAdd x v reducesTo_S500x128_S128_d0 h_S_),
    StableHlo.TRef.unary main_call6.v0 main_call6.v1 (broadcastInDim S1x128 ![1] bcast_S128_S1x128_1),
    StableHlo.TRef.nullary main_call6.cst_0 (constant S_ .f32 0x43FA0000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S500x128 ![0, 1] bcast_S1x128_S500x128_0_1),
    StableHlo.TRef.binary (.of main_v105) main_call6.v4 main_call6.v5 subf,
    StableHlo.TRef.binary main_call6.v5 main_call6.v5 main_call6.v6 mulf,
    StableHlo.TRef.unary (.of main_c_19) main_call6.v7 (sitofp .f32),
    StableHlo.TRef.nullary main_call6.cst_1 (constant S_ .f32 0x43FA0000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S500x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v108 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S500x128 ![0, 1] bcast_S1x128_S500x128_0_1 : (⟨S1x128, .f32⟩ : BufTy).Contents (Elt F) → (⟨S500x128, .f32⟩ : BufTy).Contents (Elt F)),
    StableHlo.binary main_v105 main_v111 main_v112 (subf : (⟨S500x128, .f32⟩ : BufTy).Contents (Elt F) → (⟨S500x128, .f32⟩ : BufTy).Contents (Elt F) → (⟨S500x128, .f32⟩ : BufTy).Contents (Elt F)),
    StableHlo.nullary main_cst_20 (constant S_ .f32 0x3727C5AC#32),
    StableHlo.unary main_cst_20 main_v113 (broadcastInDim S128 ![] bcast_S_S128 : (⟨S_, .f32⟩ : BufTy).Contents (Elt F) → (⟨S128, .f32⟩ : BufTy).Contents (Elt F)),
    StableHlo.binary main_v109 main_v113 main_v114 (addf : (⟨S128, .f32⟩ : BufTy).Contents (Elt F) → (⟨S128, .f32⟩ : BufTy).Contents (Elt F) → (⟨S128, .f32⟩ : BufTy).Contents (Elt F)),
    StableHlo.unary main_v114 main_v115 (Host.rsqrt : (⟨S128, .f32⟩ : BufTy).Contents (Elt F) → (⟨S128, .f32⟩ : BufTy).Contents (Elt F)),
    StableHlo.unary main_v115 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S500x128 ![0, 1] bcast_S1x128_S500x128_0_1 : (⟨S1x128, .f32⟩ : BufTy).Contents (Elt F) → (⟨S500x128, .f32⟩ : BufTy).Contents (Elt F)),
    StableHlo.binary main_v112 main_v117 main_v118 (mulf : (⟨S500x128, .f32⟩ : BufTy).Contents (Elt F) → (⟨S500x128, .f32⟩ : BufTy).Contents (Elt F) → (⟨S500x128, .f32⟩ : BufTy).Contents (Elt F)),
    StableHlo.unary main_arg18 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S500x128 ![0, 1] bcast_S1x128_S500x128_0_1 : (⟨S1x128, .f32⟩ : BufTy).Contents (Elt F) → (⟨S500x128, .f32⟩ : BufTy).Contents (Elt F)),
    StableHlo.binary main_v118 main_v120 main_v121 (mulf : (⟨S500x128, .f32⟩ : BufTy).Contents (Elt F) → (⟨S500x128, .f32⟩ : BufTy).Contents (Elt F) → (⟨S500x128, .f32⟩ : BufTy).Contents (Elt F)),
    StableHlo.unary main_arg19 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S500x128 ![0, 1] bcast_S1x128_S500x128_0_1 : (⟨S1x128, .f32⟩ : BufTy).Contents (Elt F) → (⟨S500x128, .f32⟩ : BufTy).Contents (Elt F)),
    StableHlo.binary main_v121 main_v123 main_v124 (addf : (⟨S500x128, .f32⟩ : BufTy).Contents (Elt F) → (⟨S500x128, .f32⟩ : BufTy).Contents (Elt F) → (⟨S500x128, .f32⟩ : BufTy).Contents (Elt F)),
    StableHlo.TRef.nullary main_call7.cst (constant S_ .f32 0x00000000#32),
    StableHlo.TRef.unary main_call7.cst main_call7.v0 (broadcastInDim S500x128 ![] bcast_S_S500x128),
    StableHlo.TRef.binary (.of main_v124) main_call7.v0 main_call7.v1 maximumf,
    StableHlo.binary main_v125 main_arg20 main_v126 ((fun l r => Host.dotGeneral dot_S500x128_S128x128_S500x128_1_0_0_1_n_n none l r) : (⟨S500x128, .f32⟩ : BufTy).Contents (Elt F) → (⟨S128x128, .f32⟩ : BufTy).Contents (Elt F) → (⟨S500x128, .f32⟩ : BufTy).Contents (Elt F)),
    StableHlo.unary main_arg21 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S500x128 ![0, 1] bcast_S1x128_S500x128_0_1 : (⟨S1x128, .f32⟩ : BufTy).Contents (Elt F) → (⟨S500x128, .f32⟩ : BufTy).Contents (Elt F)),
    StableHlo.binary main_v126 main_v128 main_v129 (addf : (⟨S500x128, .f32⟩ : BufTy).Contents (Elt F) → (⟨S500x128, .f32⟩ : BufTy).Contents (Elt F) → (⟨S500x128, .f32⟩ : BufTy).Contents (Elt F)),
    StableHlo.nullary main_cst_21 (constant S_ .f32 0x00000000#32),
    StableHlo.binary main_v129 main_cst_21 main_v130 ((fun x v => Host.reduceAdd x v reducesTo_S500x128_S128_d0 h_S_) : (⟨S500x128, .f32⟩ : BufTy).Contents (Elt F) → (⟨S_, .f32⟩ : BufTy).Contents (Elt F) → (⟨S128, .f32⟩ : BufTy).Contents (Elt F)),
    StableHlo.nullary main_cst_22 (constant S_ .f32 0x43FA0000#32),
    StableHlo.unary main_cst_22 main_v131 (broadcastInDim S128 ![] bcast_S_S128 : (⟨S_, .f32⟩ : BufTy).Contents (Elt F) → (⟨S128, .f32⟩ : BufTy).Contents (Elt F)),
    StableHlo.binary main_v130 main_v131 main_v132 (Host.divf : (⟨S128, .f32⟩ : BufTy).Contents (Elt F) → (⟨S128, .f32⟩ : BufTy).Contents (Elt F) → (⟨S128, .f32⟩ : BufTy).Contents (Elt F)),
    StableHlo.nullary main_c_23 (constantI S_ 32 0#32),
    StableHlo.TRef.nullary main_call8.cst (constant S_ .f32 0x00000000#32),
    StableHlo.TRef.binary (.of main_v129) main_call8.cst main_call8.v0 (fun x v => Host.reduceAdd x v reducesTo_S500x128_S128_d0 h_S_),
    StableHlo.TRef.unary main_call8.v0 main_call8.v1 (broadcastInDim S1x128 ![1] bcast_S128_S1x128_1),
    StableHlo.TRef.nullary main_call8.cst_0 (constant S_ .f32 0x43FA0000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S500x128 ![0, 1] bcast_S1x128_S500x128_0_1),
    StableHlo.TRef.binary (.of main_v129) main_call8.v4 main_call8.v5 subf,
    StableHlo.TRef.binary main_call8.v5 main_call8.v5 main_call8.v6 mulf,
    StableHlo.TRef.unary (.of main_c_23) main_call8.v7 (sitofp .f32),
    StableHlo.TRef.nullary main_call8.cst_1 (constant S_ .f32 0x43FA0000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S500x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v132 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S500x128 ![0, 1] bcast_S1x128_S500x128_0_1 : (⟨S1x128, .f32⟩ : BufTy).Contents (Elt F) → (⟨S500x128, .f32⟩ : BufTy).Contents (Elt F)),
    StableHlo.binary main_v129 main_v135 main_v136 (subf : (⟨S500x128, .f32⟩ : BufTy).Contents (Elt F) → (⟨S500x128, .f32⟩ : BufTy).Contents (Elt F) → (⟨S500x128, .f32⟩ : BufTy).Contents (Elt F)),
    StableHlo.nullary main_cst_24 (constant S_ .f32 0x3727C5AC#32),
    StableHlo.unary main_cst_24 main_v137 (broadcastInDim S128 ![] bcast_S_S128 : (⟨S_, .f32⟩ : BufTy).Contents (Elt F) → (⟨S128, .f32⟩ : BufTy).Contents (Elt F)),
    StableHlo.binary main_v133 main_v137 main_v138 (addf : (⟨S128, .f32⟩ : BufTy).Contents (Elt F) → (⟨S128, .f32⟩ : BufTy).Contents (Elt F) → (⟨S128, .f32⟩ : BufTy).Contents (Elt F)),
    StableHlo.unary main_v138 main_v139 (Host.rsqrt : (⟨S128, .f32⟩ : BufTy).Contents (Elt F) → (⟨S128, .f32⟩ : BufTy).Contents (Elt F)),
    StableHlo.unary main_v139 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S500x128 ![0, 1] bcast_S1x128_S500x128_0_1 : (⟨S1x128, .f32⟩ : BufTy).Contents (Elt F) → (⟨S500x128, .f32⟩ : BufTy).Contents (Elt F)),
    StableHlo.binary main_v136 main_v141 main_v142 (mulf : (⟨S500x128, .f32⟩ : BufTy).Contents (Elt F) → (⟨S500x128, .f32⟩ : BufTy).Contents (Elt F) → (⟨S500x128, .f32⟩ : BufTy).Contents (Elt F)),
    StableHlo.unary main_arg22 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S500x128 ![0, 1] bcast_S1x128_S500x128_0_1 : (⟨S1x128, .f32⟩ : BufTy).Contents (Elt F) → (⟨S500x128, .f32⟩ : BufTy).Contents (Elt F)),
    StableHlo.binary main_v142 main_v144 main_v145 (mulf : (⟨S500x128, .f32⟩ : BufTy).Contents (Elt F) → (⟨S500x128, .f32⟩ : BufTy).Contents (Elt F) → (⟨S500x128, .f32⟩ : BufTy).Contents (Elt F)),
    StableHlo.unary main_arg23 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S500x128 ![0, 1] bcast_S1x128_S500x128_0_1 : (⟨S1x128, .f32⟩ : BufTy).Contents (Elt F) → (⟨S500x128, .f32⟩ : BufTy).Contents (Elt F)),
    StableHlo.binary main_v145 main_v147 main_v148 (addf : (⟨S500x128, .f32⟩ : BufTy).Contents (Elt F) → (⟨S500x128, .f32⟩ : BufTy).Contents (Elt F) → (⟨S500x128, .f32⟩ : BufTy).Contents (Elt F)),
    StableHlo.TRef.nullary main_call9.cst (constant S_ .f32 0x00000000#32),
    StableHlo.TRef.unary main_call9.cst main_call9.v0 (broadcastInDim S500x128 ![] bcast_S_S500x128),
    StableHlo.TRef.binary (.of main_v148) main_call9.v0 main_call9.v1 maximumf,
    StableHlo.binary main_v149 main_arg24 main_v150 ((fun l r => Host.dotGeneral dot_S500x128_S128x1_S500x1_1_0_0_1_n_n none l r) : (⟨S500x128, .f32⟩ : BufTy).Contents (Elt F) → (⟨S128x1, .f32⟩ : BufTy).Contents (Elt F) → (⟨S500x1, .f32⟩ : BufTy).Contents (Elt F)),
    StableHlo.unary main_arg25 main_v151 (broadcastInDim S1x1 ![1] bcast_S1_S1x1_1 : (⟨S1, .f32⟩ : BufTy).Contents (Elt F) → (⟨S1x1, .f32⟩ : BufTy).Contents (Elt F)),
    StableHlo.unary main_v151 main_v152 (broadcastInDim S500x1 ![0, 1] bcast_S1x1_S500x1_0_1 : (⟨S1x1, .f32⟩ : BufTy).Contents (Elt F) → (⟨S500x1, .f32⟩ : BufTy).Contents (Elt F)),
    StableHlo.binary main_v150 main_v152 main_v153 (addf : (⟨S500x1, .f32⟩ : BufTy).Contents (Elt F) → (⟨S500x1, .f32⟩ : BufTy).Contents (Elt F) → (⟨S500x1, .f32⟩ : BufTy).Contents (Elt F)) ]

/-- All of @main's operations. -/
abbrev ops : List (HloOp τ sig (Elt F)) := opsL1 ++ opsL2 ++ opsL3 ++ opsTail

end Cert.ReferenceIdeal.Val

end
-- ==== Proof.ROpsSub.lean ====
/- Each operation of the reference's @main touches TensorCore references only: per list, one library fact per
   operation, chosen by the operation's kind. -/
import proofs.«431247_j30262339568087_2_alg».proof.Proof.ROps

noncomputable section

namespace Cert.ReferenceIdeal.Val

open Cert.ReferenceIdeal Cert.ReferenceIdeal.Gen Idealize.ShloMosaic Idealize.ShloMosaic.TcCoe Idealize.SL.Sem

variable {F : FTy → Type} [FloatOps F]

theorem opsL1_sub : (opsL1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem opsL2_sub : (opsL2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem opsL3_sub : (opsL3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem opsTail_sub : (opsTail : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

end Cert.ReferenceIdeal.Val

end
-- ==== Proof.RRun.lean ====
/-
  The reference program's run: @main is the sequence of its host operations, so every weakly fair execution
  terminates with each buffer at the fold of those operations over the launch contents.
-/
import proofs.«431247_j30262339568087_2_alg».proof.Proof.ROps
import proofs.«431247_j30262339568087_2_alg».proof.Proof.ROpsSub
import Mathlib.Data.List.Basic

set_option maxRecDepth 16384

noncomputable section

namespace Cert.ReferenceIdeal.Val

open Cert.ReferenceIdeal Cert.ReferenceIdeal.Gen Idealize.ShloMosaic Idealize.ShloMosaic.TcCoe Idealize.SL.Sem
open Idealize.ShloMosaic.StableHlo

variable {F : FTy → Type} [FloatOps F]

/-- @main is its operations in order (the outlined functions' bodies unfold to their operations). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_append.mpr ⟨List.forall_append.mpr ⟨List.forall_append.mpr ⟨opsL1_sub, opsL2_sub⟩, opsL3_sub⟩, opsTail_sub⟩

theorem opsL1_fresh : (opsL1 : List (HloOp τ sig (Elt F))).Forall fun op => op.fresh = ∅ := by
  simp only [List.Forall]; repeat' constructor
theorem opsL2_fresh : (opsL2 : List (HloOp τ sig (Elt F))).Forall fun op => op.fresh = ∅ := by
  simp only [List.Forall]; repeat' constructor
theorem opsL3_fresh : (opsL3 : List (HloOp τ sig (Elt F))).Forall fun op => op.fresh = ∅ := by
  simp only [List.Forall]; repeat' constructor
theorem opsTail_fresh : (opsTail : List (HloOp τ sig (Elt F))).Forall fun op => op.fresh = ∅ := by
  simp only [List.Forall]; repeat' constructor

/-- No operation allocates a buffer. -/
theorem ops_fresh : ∀ op ∈ (ops : List (HloOp τ sig (Elt F))), op.fresh = ∅ :=
  List.forall_iff_forall_mem.mp
    (List.forall_append.mpr ⟨List.forall_append.mpr ⟨List.forall_append.mpr ⟨opsL1_fresh, opsL2_fresh⟩, opsL3_fresh⟩, opsTail_fresh⟩)

/-- On every device, from any memory with zero counters: every weakly fair execution of @main terminates with each
    buffer at the fold of the operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

end Cert.ReferenceIdeal.Val

end
-- ==== Proof.RWrites.lean ====
/- The result buffer of each operation of the reference's @main, list by list, in order. -/
import proofs.«431247_j30262339568087_2_alg».proof.Proof.ROps

noncomputable section

namespace Cert.ReferenceIdeal.Val

open Cert.ReferenceIdeal Cert.ReferenceIdeal.Gen Idealize.ShloMosaic

/-- The result buffers of opsL1's operations. -/
def writes_opsL1 : List (Ref sig .tc) :=
  [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_v20, main_v21, main_v22, main_call0.cst.ref, main_call0.v0.ref, main_call0.v1.ref, main_cst, main_v24, main_v25, main_v26, main_v27, main_v28, main_v29, main_v30, main_v31, main_call1.cst.ref, main_call1.v0.ref, main_call1.v1.ref]

/-- The result buffers of opsL2's operations. -/
def writes_opsL2 : List (Ref sig .tc) :=
  [main_c_3, main_v33, main_v34, main_c_4, main_v35, main_v36, main_v37, main_v38, main_v39, main_c_5, main_v40, main_v41, main_c_6, main_v42, main_v43, main_v44, main_v45, main_v46, main_v47, main_v48, main_v49, main_v50, main_v51, main_call2.cst.ref, main_call2.v0.ref, main_call2.v1.ref, main_cst_7, main_v53, main_v54, main_v55, main_v56, main_v57, main_v58, main_v59, main_v60, main_call3.cst.ref, main_call3.v0.ref, main_call3.v1.ref]

/-- The result buffers of opsL3's operations. -/
def writes_opsL3 : List (Ref sig .tc) :=
  [main_c_8, main_v62, main_v63, main_c_9, main_v64, main_v65, main_v66, main_v67, main_v68, main_c_10, main_v69, main_v70, main_c_11, main_v71, main_v72, main_v73, main_v74, main_v75, main_v76, main_v77, main_v78, main_v79, main_v80, main_call4.cst.ref, main_call4.v0.ref, main_call4.v1.ref, main_cst_12, main_v82, main_v83, main_v84, main_v85, main_v86, main_v87, main_v88, main_v89, main_call5.cst.ref, main_call5.v0.ref, main_call5.v1.ref]

/-- The result buffers of opsTail's operations. -/
def writes_opsTail : List (Ref sig .tc) :=
  [main_cst_13, main_v91, main_v92, main_v93, main_cst_14, main_v94, main_cst_15, main_v95, main_v96, main_v97, main_cst_16, main_v98, main_v99, main_v100, main_v101, main_v102, main_v103, main_v104, main_v105, main_cst_17, main_v106, main_cst_18, main_v107, main_v108, main_c_19, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v110, main_v111, main_v112, main_cst_20, main_v113, main_v114, main_v115, main_v116, main_v117, main_v118, main_v119, main_v120, main_v121, main_v122, main_v123, main_v124, main_call7.cst.ref, main_call7.v0.ref, main_call7.v1.ref, main_v126, main_v127, main_v128, main_v129, main_cst_21, main_v130, main_cst_22, main_v131, main_v132, main_c_23, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v134, main_v135, main_v136, main_cst_24, main_v137, main_v138, main_v139, main_v140, main_v141, main_v142, main_v143, main_v144, main_v145, main_v146, main_v147, main_v148, main_call9.cst.ref, main_call9.v0.ref, main_call9.v1.ref, main_v150, main_v151, main_v152, main_v153]

end Cert.ReferenceIdeal.Val

end
-- ==== Proof.RArgs.lean ====
/-
  The reference program writes none of its arguments: every operation of @main writes its one result buffer, the result
  buffers are listed, and no argument is among them. So each argument holds after @main what it held before.
-/
import proofs.«431247_j30262339568087_2_alg».proof.Proof.ROps
import proofs.«431247_j30262339568087_2_alg».proof.Proof.RWrites
import Idealize.ShloMosaic.Lib.StableHlo.Run
import Idealize.ShloMosaic.Lib.Pipeline.Frame

set_option maxRecDepth 16384

noncomputable section

namespace Cert.ReferenceIdeal.Val

open Cert.ReferenceIdeal Cert.ReferenceIdeal.Gen Idealize.ShloMosaic Idealize.ShloMosaic.TcCoe Idealize.SL.Sem
open Idealize.ShloMosaic.StableHlo

variable {F : FTy → Type} [FloatOps F]

/-- A single buffer of a list lies in the list's set of buffers. -/
theorem single_sub_map {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

theorem writes_opsL1_sub :
    (opsL1 (F := F)).Forall fun op => op.writes ⊆ (writes_opsL1.map (Proc.devRef (τ := τ) .tc)).toFinset := by
  simp only [opsL1, List.Forall, nullary_writes, unary_writes, binary_writes, ternary_writes, reshape_writes, nary_writes]
  repeat' apply And.intro
  all_goals exact single_sub_map (by decide)

theorem writes_opsL2_sub :
    (opsL2 (F := F)).Forall fun op => op.writes ⊆ (writes_opsL2.map (Proc.devRef (τ := τ) .tc)).toFinset := by
  simp only [opsL2, List.Forall, nullary_writes, unary_writes, binary_writes, ternary_writes, reshape_writes, nary_writes]
  repeat' apply And.intro
  all_goals exact single_sub_map (by decide)

theorem writes_opsL3_sub :
    (opsL3 (F := F)).Forall fun op => op.writes ⊆ (writes_opsL3.map (Proc.devRef (τ := τ) .tc)).toFinset := by
  simp only [opsL3, List.Forall, nullary_writes, unary_writes, binary_writes, ternary_writes, reshape_writes, nary_writes]
  repeat' apply And.intro
  all_goals exact single_sub_map (by decide)

theorem writes_opsTail_sub :
    (opsTail (F := F)).Forall fun op => op.writes ⊆ (writes_opsTail.map (Proc.devRef (τ := τ) .tc)).toFinset := by
  simp only [opsTail, List.Forall, nullary_writes, unary_writes, binary_writes, ternary_writes, reshape_writes, nary_writes]
  repeat' apply And.intro
  all_goals exact single_sub_map (by decide)

/-- The 26 arguments. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- No argument is a result buffer: a comparison of finitely many references. -/
theorem args_not_written :
    ∀ r ∈ argRefs, r ∉ writes_opsL1 ∧ r ∉ writes_opsL2 ∧ r ∉ writes_opsL3 ∧ r ∉ writes_opsTail := by decide

/-- An argument holds after @main what it held before. -/
theorem arg_kept (U : Valuation τ sig (Elt F)) (r : Ref sig .tc) (hr : r ∈ argRefs) :
    after (ops (F := F)) U (Proc.devRef .tc r) = U (Proc.devRef .tc r) := by
  obtain ⟨h1, h2, h3, h4⟩ := args_not_written r hr
  show after (((opsL1 ++ opsL2) ++ opsL3) ++ opsTail) U _ = _
  rw [StableHlo.after_append, StableHlo.after_append, StableHlo.after_append,
    after_of_writes_sub _ _ writes_opsTail_sub h4, after_of_writes_sub _ _ writes_opsL3_sub h3,
    after_of_writes_sub _ _ writes_opsL2_sub h2, after_of_writes_sub _ _ writes_opsL1_sub h1]

end Cert.ReferenceIdeal.Val

end
-- ==== Proof.Spec.lean ====
/-
  The two row perceptrons of a message-passing layer, as functions of whole arrays, entry by entry.

  A layer sends along every edge e the message relu([x[src e], x[dst e], ea[e]] · W + b) (a row of 144 = 64 + 64 + 16
  entries against a 144 × 32 matrix), adds the messages into the row of their source node, and maps every node n to
  relu([x[n], agg[n]] · W' + b') (a row of 96 = 64 + 32 entries against a 96 × 64 matrix). Both products are taken row
  by row, so each is a function of one row of each operand: `edgeRow` and `nodeRow` below. The whole-array forms
  `edgeF` and `nodeF` apply them at every row, for any number of rows: a block of rows of the whole array is then the
  same function of the blocks.
-/
import Idealize.ShloMosaic.Lib.ValueIdx
import Idealize.ShloMosaic.PureOps.Ideal.Laws

noncomputable section

namespace Cert.Spec

open Idealize.ShloMosaic Idealize.ShloMosaic.ValueIdx

/-- A matrix of extended reals with r rows and c columns. -/
abbrev Mat (r c : Nat) := (⟨2, ![r, c]⟩ : Shape).Idx → EReal

/-- Three rows of lengths 64, 64 and 16 laid side by side. -/
def cat3 (a b : Fin 64 → EReal) (e : Fin 16 → EReal) (k : Fin 144) : EReal :=
  if h : k.val < 64 then a ⟨k.val, h⟩
  else if h2 : k.val < 128 then b ⟨k.val - 64, by omega⟩
  else e ⟨k.val - 128, by omega⟩

/-- Two rows of lengths 64 and 32 laid side by side. -/
def cat2 (a : Fin 64 → EReal) (g : Fin 32 → EReal) (k : Fin 96) : EReal :=
  if h : k.val < 64 then a ⟨k.val, h⟩ else g ⟨k.val - 64, by omega⟩

/-- Entry j of the message of one edge: relu of the 144-term product plus the bias. -/
def edgeRow (a b : Fin 64 → EReal) (e : Fin 16 → EReal) (w : Mat 144 32) (bias : Fin 32 → EReal) (j : Fin 32) : EReal :=
  max ((∑ k : Fin 144, cat3 a b e k * w (ix2 k j)) + bias j) 0

/-- Entry j of the new features of one node: relu of the 96-term product plus the bias. -/
def nodeRow (a : Fin 64 → EReal) (g : Fin 32 → EReal) (w : Mat 96 64) (bias : Fin 64 → EReal) (j : Fin 64) : EReal :=
  max ((∑ k : Fin 96, cat2 a g k * w (ix2 k j)) + bias j) 0

/-- The messages of R edges, row by row. -/
def edgeF (R : Nat) (xs xd : Mat R 64) (ea : Mat R 16) (w : Mat 144 32) (bias : Fin 32 → EReal) : Mat R 32 :=
  fun i => edgeRow (fun k => xs (ix2 (i 0 : Fin R) k)) (fun k => xd (ix2 (i 0 : Fin R) k))
    (fun k => ea (ix2 (i 0 : Fin R) k)) w bias (i 1 : Fin 32)

/-- The new features of R nodes, row by row. -/
def nodeF (R : Nat) (x : Mat R 64) (agg : Mat R 32) (w : Mat 96 64) (bias : Fin 64 → EReal) : Mat R 64 :=
  fun i => nodeRow (fun k => x (ix2 (i 0 : Fin R) k)) (fun k => agg (ix2 (i 0 : Fin R) k)) w bias (i 1 : Fin 64)

theorem edgeF_apply (R : Nat) (xs xd : Mat R 64) (ea : Mat R 16) (w : Mat 144 32) (bias : Fin 32 → EReal)
    (p : Fin R) (q : Fin 32) :
    edgeF R xs xd ea w bias (ix2 p q)
      = edgeRow (fun k => xs (ix2 p k)) (fun k => xd (ix2 p k)) (fun k => ea (ix2 p k)) w bias q := rfl

theorem nodeF_apply (R : Nat) (x : Mat R 64) (agg : Mat R 32) (w : Mat 96 64) (bias : Fin 64 → EReal)
    (p : Fin R) (q : Fin 64) :
    nodeF R x agg w bias (ix2 p q)
      = nodeRow (fun k => x (ix2 p k)) (fun k => agg (ix2 p k)) w bias q := rfl

/-- The message of an edge depends on the endpoint features only through that edge's own rows. -/
theorem edgeF_congr_row (R : Nat) (xs xs' xd xd' : Mat R 64) (ea : Mat R 16) (w : Mat 144 32) (bias : Fin 32 → EReal)
    (p : Fin R) (q : Fin 32) (hs : ∀ k, xs (ix2 p k) = xs' (ix2 p k)) (hd : ∀ k, xd (ix2 p k) = xd' (ix2 p k)) :
    edgeF R xs xd ea w bias (ix2 p q) = edgeF R xs' xd' ea w bias (ix2 p q) := by
  rw [edgeF_apply, edgeF_apply, funext hs, funext hd]

end Cert.Spec

end
-- ==== Proof.KDefs.lean ====
/-
  The kernel program's values as pure terms of its arguments, at Ideal.

  The host lines of @main around the six calls are written here once, as functions: the source and target index
  vectors cut out of the 2 × E index array, the checked row lookup (a negative index moved up by the row count, the
  rows gathered, and rows whose index is still out of range replaced by a fill value), the accumulation of the messages
  into their source rows, and one whole layer: messages from the looked-up endpoint rows, their accumulation, the node
  update. The message and node maps are the row perceptrons of Spec.lean.
-/
import proofs.«431247_j30262339568087_2_alg».proof.Proof.Gen.KernelIdeal
import proofs.«431247_j30262339568087_2_alg».proof.Proof.Spec

noncomputable section

namespace Cert.KernelIdeal.Val

open Cert.KernelIdeal Cert.KernelIdeal.Gen Idealize.ShloMosaic Idealize.ShloMosaic.ValueIdx

/-- Row 0 of the index array: the source node of every edge. -/
def srcK (ei : IVec S2x800000 32) : IVec S800000 32 :=
  shapeCast S800000 (extractStridedSlice S1x800000 ![0, 0] ei slices_S2x800000_S1x800000_0_0) shapeCasts_S1x800000_S800000

/-- Row 1 of the index array: the target node of every edge. -/
def dstK (ei : IVec S2x800000 32) : IVec S800000 32 :=
  shapeCast S800000 (extractStridedSlice S1x800000 ![1, 0] ei slices_S2x800000_S1x800000_1_0) shapeCasts_S1x800000_S800000

/-- An index vector with its negative entries moved up by the number of rows, as a column. -/
def wrapK (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Which edges' moved index is a row of the table: 0 ≤ i ≤ 49999. -/
def inRangeK (i5 : IVec S800000x1 32) : IVec S800000 1 :=
  Host.reduce IntOp.andi
    (andi (cmpi .sge i5 (broadcastInDim S800000x1 ![] bcast_S_S800000x1 (constantI S_ 32 0#32)))
      (cmpi .sle i5 (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The checked row lookup: the gathered rows where the moved index is a row, a fill value elsewhere. -/
def takeK (x : FVec Ideal S50000x64 .f32) (idx : IVec S800000 32) : FVec Ideal S800000x64 .f32 :=
  select (broadcastInDim S800000x64 ![0] bcast_S800000_S800000x64_0 (inRangeK (wrapK idx)))
    (Host.gather gather_S50000x64_S800000x1_S800000x64_1_0_n_n_0_1_164 x (wrapK idx))
    (broadcastInDim S800000x64 ![] bcast_S_S800000x64 (constant (F := Ideal) S_ .f32 0x7FC00000#32))

/-- The messages added into the rows of their source nodes, from zero. -/
def aggK (src : IVec S800000 32) (msg : FVec Ideal S800000x32 .f32) : FVec Ideal S50000x32 .f32 :=
  Host.scatterAdd scatter_S50000x32_S800000x1_S800000x32_1_0_0_1
    (broadcastInDim S50000x32 ![] bcast_S_S50000x32 (constant (F := Ideal) S_ .f32 0x00000000#32))
    (broadcastInDim S800000x1 ![0] bcast_S800000_S800000x1_0 src) msg

/-- A 32-vector as the row of its 1 × 32 reshape. -/
def row32 (b : FVec Ideal S32 .f32) : Fin 32 → EReal :=
  fun j => (shapeCast S1x32 b shapeCasts_S32_S1x32 : Cert.Spec.Mat 1 32) (ix2 0 j)

/-- A 64-vector as the row of its 1 × 64 reshape. -/
def row64 (b : FVec Ideal S64 .f32) : Fin 64 → EReal :=
  fun j => (shapeCast S1x64 b shapeCasts_S64_S1x64 : Cert.Spec.Mat 1 64) (ix2 0 j)

/-- The messages of one layer. -/
def msgK (x : FVec Ideal S50000x64 .f32) (src dst : IVec S800000 32) (ea : FVec Ideal S800000x16 .f32)
    (ew : FVec Ideal S144x32 .f32) (eb : FVec Ideal S32 .f32) : FVec Ideal S800000x32 .f32 :=
  Cert.Spec.edgeF 800000 (takeK x src) (takeK x dst) ea ew (row32 eb)

/-- One layer: messages, their accumulation by source node, the node update. -/
def convK (x : FVec Ideal S50000x64 .f32) (src dst : IVec S800000 32) (ea : FVec Ideal S800000x16 .f32)
    (ew : FVec Ideal S144x32 .f32) (eb : FVec Ideal S32 .f32) (nw : FVec Ideal S96x64 .f32) (nb : FVec Ideal S64 .f32) :
    FVec Ideal S50000x64 .f32 :=
  Cert.Spec.nodeF 50000 x (aggK src (msgK x src dst ea ew eb)) nw (row64 nb)

end Cert.KernelIdeal.Val

end
-- ==== Proof.LibMatmul.lean ====
/-
  A product of two matrices, read at an entry (a general lemma: nothing here depends on a program).

  Two layouts of a contraction over one axis, without batch axes. In the first the left factor is [A, K] and is
  contracted on its axis 1, the right factor is [K, B] and is contracted on its axis 0: entry (i, j) of the product
  is the sum over k of l[i, k] * r[k, j]. In the second the left factor is [K, A] and is contracted on its axis 0
  (the product with the transpose of the left factor), the right factor is again [K, B] contracted on its axis 0:
  entry (i, j) is the sum over k of l[k, i] * r[k, j]. Over the extended reals the host's product is exactly that
  sum, and the matrix unit's is the accumulator's entry plus that sum.
-/
import Idealize.ShloMosaic.Lib.ValueIdx
import Idealize.ShloMosaic.PureOps.Ideal.Laws

noncomputable section

namespace Cert.Lib.MatMul

open Idealize.ShloMosaic Idealize.ShloMosaic.ValueIdx

/-! ## Left factor [A, K] on its axis 1, right factor [K, B] on its axis 0 -/

section Plain

/-- The dimension numbers of [A, K] times [K, B]: the left factor contracted on axis 1, the right on axis 0, no
    batch axes. -/
abbrev mmD (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

variable {A K B : Nat} (wf : DotDims.WF ⟨2, ![A, K]⟩ ⟨2, ![K, B]⟩ ⟨2, ![A, B]⟩ [1] [0] [0] [1] [] [])

/-- The left factor's row is the result's row. -/
theorem mm_lhs0 (j : (⟨2, ![A, B]⟩ : Shape).Idx) (q : (mmD A K B wf).contr.Idx) :
    ((mmD A K B wf).lhsIdx j q 0).val = (j 0).val := by
  unfold DotDims.lhsIdx
  rw [dif_neg (show ¬(0 : Fin 2) ∈ (mmD A K B wf).lhsBatch from List.not_mem_nil),
    dif_pos (show (0 : Fin 2) ∈ (mmD A K B wf).lhsNonContracting from List.mem_singleton.mpr rfl)]
  rfl

/-- The left factor's column is the contraction position. -/
theorem mm_lhs1 (j : (⟨2, ![A, B]⟩ : Shape).Idx) (q : (mmD A K B wf).contr.Idx) :
    ((mmD A K B wf).lhsIdx j q 1).val = (q ⟨0, Nat.one_pos⟩).val :=
  (mmD A K B wf).lhsIdx_val_of_single rfl j q

/-- The right factor's row is the contraction position. -/
theorem mm_rhs0 (j : (⟨2, ![A, B]⟩ : Shape).Idx) (q : (mmD A K B wf).contr.Idx) :
    ((mmD A K B wf).rhsIdx j q 0).val = (q ⟨0, Nat.one_pos⟩).val :=
  (mmD A K B wf).rhsIdx_val_of_single rfl j q

/-- The right factor's column is the result's column. -/
theorem mm_rhs1 (j : (⟨2, ![A, B]⟩ : Shape).Idx) (q : (mmD A K B wf).contr.Idx) :
    ((mmD A K B wf).rhsIdx j q 1).val = (j 1).val := by
  unfold DotDims.rhsIdx
  rw [dif_neg (show ¬(1 : Fin 2) ∈ (mmD A K B wf).rhsBatch from List.not_mem_nil),
    dif_pos (show (1 : Fin 2) ∈ (mmD A K B wf).rhsNonContracting from List.mem_singleton.mpr rfl)]
  rfl

/-- The contraction's sum, re-indexed by the one coordinate k: the sum over k of l[i, k] * r[k, j]. -/
theorem mm_sum {φ₁ φ₂ : FTy} (l : FVec Ideal ⟨2, ![A, K]⟩ φ₁) (r : FVec Ideal ⟨2, ![K, B]⟩ φ₂) (i : Fin A) (j : Fin B) :
    ∑ q : (mmD A K B wf).contr.Idx, l ((mmD A K B wf).lhsIdx (ix2 i j) q) * r ((mmD A K B wf).rhsIdx (ix2 i j) q)
      = ∑ k : Fin K, l (ix2 i k) * r (ix2 k j) := by
  rw [← Equiv.sum_comp (contrEquiv1 (mmD A K B wf) K rfl rfl).symm]
  refine Finset.sum_congr rfl fun k _ => ?_
  have hk := contrEquiv1_symm_val (mmD A K B wf) K rfl rfl k
  have el : (mmD A K B wf).lhsIdx (ix2 i j) ((contrEquiv1 (mmD A K B wf) K rfl rfl).symm k) = ix2 i k :=
    funext fun a => Fin.ext (by
      match a with
      | ⟨0, _⟩ => exact mm_lhs0 wf _ _
      | ⟨1, _⟩ => exact (mm_lhs1 wf _ _).trans hk)
  have er : (mmD A K B wf).rhsIdx (ix2 i j) ((contrEquiv1 (mmD A K B wf) K rfl rfl).symm k) = ix2 k j :=
    funext fun a => Fin.ext (by
      match a with
      | ⟨0, _⟩ => exact (mm_rhs0 wf _ _).trans hk
      | ⟨1, _⟩ => exact mm_rhs1 wf _ _)
  rw [el, er]

/-- The host's product at entry (i, j): the sum over k of l[i, k] * r[k, j]. -/
theorem dot_apply {φ₁ φ₂ : FTy} (prec : Option ContractPrecision) (l : FVec Ideal ⟨2, ![A, K]⟩ φ₁)
    (r : FVec Ideal ⟨2, ![K, B]⟩ φ₂) (i : Fin A) (j : Fin B) :
    Host.dotGeneral (F := Ideal) (mmD A K B wf) prec l r (ix2 i j) = ∑ k : Fin K, l (ix2 i k) * r (ix2 k j) := by
  simp only [Host.dotGeneral]
  rw [Ideal.dotGeneral_apply]
  exact mm_sum wf l r i j

/-- The matrix unit's product at entry (i, j): the accumulator there plus the sum over k of l[i, k] * r[k, j]. -/
theorem matmul_apply {φ₁ φ₂ : FTy} (prec : Option ContractPrecision) (l : FVec Ideal ⟨2, ![A, K]⟩ φ₁)
    (r : FVec Ideal ⟨2, ![K, B]⟩ φ₂) (acc : FVec Ideal ⟨2, ![A, B]⟩ .f32) (i : Fin A) (j : Fin B) :
    matmul (F := Ideal) (mmD A K B wf) prec l r acc (ix2 i j)
      = acc (ix2 i j) + ∑ k : Fin K, l (ix2 i k) * r (ix2 k j) := by
  simp only [matmul]
  rw [Ideal.matmul_apply]
  exact congrArg (acc (ix2 i j) + ·) (mm_sum wf l r i j)

end Plain

/-! ## Left factor [K, A] on its axis 0, right factor [K, B] on its axis 0 -/

section LeftTransposed

/-- The dimension numbers of the transpose of [K, A] times [K, B]: both factors contracted on axis 0, no batch
    axes. -/
abbrev mmTD (K A B : Nat) (wf : DotDims.WF ⟨2, ![K, A]⟩ ⟨2, ![K, B]⟩ ⟨2, ![A, B]⟩ [0] [0] [1] [1] [] []) :
    DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := wf

variable {K A B : Nat} (wf : DotDims.WF ⟨2, ![K, A]⟩ ⟨2, ![K, B]⟩ ⟨2, ![A, B]⟩ [0] [0] [1] [1] [] [])

/-- The left factor's row is the contraction position. -/
theorem mmT_lhs0 (j : (⟨2, ![A, B]⟩ : Shape).Idx) (q : (mmTD K A B wf).contr.Idx) :
    ((mmTD K A B wf).lhsIdx j q 0).val = (q ⟨0, Nat.one_pos⟩).val :=
  (mmTD K A B wf).lhsIdx_val_of_single rfl j q

/-- The left factor's column is the result's row. -/
theorem mmT_lhs1 (j : (⟨2, ![A, B]⟩ : Shape).Idx) (q : (mmTD K A B wf).contr.Idx) :
    ((mmTD K A B wf).lhsIdx j q 1).val = (j 0).val := by
  unfold DotDims.lhsIdx
  rw [dif_neg (show ¬(1 : Fin 2) ∈ (mmTD K A B wf).lhsBatch from List.not_mem_nil),
    dif_pos (show (1 : Fin 2) ∈ (mmTD K A B wf).lhsNonContracting from List.mem_singleton.mpr rfl)]
  rfl

/-- The right factor's row is the contraction position. -/
theorem mmT_rhs0 (j : (⟨2, ![A, B]⟩ : Shape).Idx) (q : (mmTD K A B wf).contr.Idx) :
    ((mmTD K A B wf).rhsIdx j q 0).val = (q ⟨0, Nat.one_pos⟩).val :=
  (mmTD K A B wf).rhsIdx_val_of_single rfl j q

/-- The right factor's column is the result's column. -/
theorem mmT_rhs1 (j : (⟨2, ![A, B]⟩ : Shape).Idx) (q : (mmTD K A B wf).contr.Idx) :
    ((mmTD K A B wf).rhsIdx j q 1).val = (j 1).val := by
  unfold DotDims.rhsIdx
  rw [dif_neg (show ¬(1 : Fin 2) ∈ (mmTD K A B wf).rhsBatch from List.not_mem_nil),
    dif_pos (show (1 : Fin 2) ∈ (mmTD K A B wf).rhsNonContracting from List.mem_singleton.mpr rfl)]
  rfl

/-- The contraction's sum, re-indexed by the one coordinate k: the sum over k of l[k, i] * r[k, j]. -/
theorem mmT_sum {φ₁ φ₂ : FTy} (l : FVec Ideal ⟨2, ![K, A]⟩ φ₁) (r : FVec Ideal ⟨2, ![K, B]⟩ φ₂) (i : Fin A) (j : Fin B) :
    ∑ q : (mmTD K A B wf).contr.Idx, l ((mmTD K A B wf).lhsIdx (ix2 i j) q) * r ((mmTD K A B wf).rhsIdx (ix2 i j) q)
      = ∑ k : Fin K, l (ix2 k i) * r (ix2 k j) := by
  rw [← Equiv.sum_comp (contrEquiv1 (mmTD K A B wf) K rfl rfl).symm]
  refine Finset.sum_congr rfl fun k _ => ?_
  have hk := contrEquiv1_symm_val (mmTD K A B wf) K rfl rfl k
  have el : (mmTD K A B wf).lhsIdx (ix2 i j) ((contrEquiv1 (mmTD K A B wf) K rfl rfl).symm k) = ix2 k i :=
    funext fun a => Fin.ext (by
      match a with
      | ⟨0, _⟩ => exact (mmT_lhs0 wf _ _).trans hk
      | ⟨1, _⟩ => exact mmT_lhs1 wf _ _)
  have er : (mmTD K A B wf).rhsIdx (ix2 i j) ((contrEquiv1 (mmTD K A B wf) K rfl rfl).symm k) = ix2 k j :=
    funext fun a => Fin.ext (by
      match a with
      | ⟨0, _⟩ => exact (mmT_rhs0 wf _ _).trans hk
      | ⟨1, _⟩ => exact mmT_rhs1 wf _ _)
  rw [el, er]

/-- The host's product at entry (i, j): the sum over k of l[k, i] * r[k, j]. -/
theorem dotT_apply {φ₁ φ₂ : FTy} (prec : Option ContractPrecision) (l : FVec Ideal ⟨2, ![K, A]⟩ φ₁)
    (r : FVec Ideal ⟨2, ![K, B]⟩ φ₂) (i : Fin A) (j : Fin B) :
    Host.dotGeneral (F := Ideal) (mmTD K A B wf) prec l r (ix2 i j) = ∑ k : Fin K, l (ix2 k i) * r (ix2 k j) := by
  simp only [Host.dotGeneral]
  rw [Ideal.dotGeneral_apply]
  exact mmT_sum wf l r i j

/-- The matrix unit's product at entry (i, j): the accumulator there plus the sum over k of l[k, i] * r[k, j]. -/
theorem matmulT_apply {φ₁ φ₂ : FTy} (prec : Option ContractPrecision) (l : FVec Ideal ⟨2, ![K, A]⟩ φ₁)
    (r : FVec Ideal ⟨2, ![K, B]⟩ φ₂) (acc : FVec Ideal ⟨2, ![A, B]⟩ .f32) (i : Fin A) (j : Fin B) :
    matmul (F := Ideal) (mmTD K A B wf) prec l r acc (ix2 i j)
      = acc (ix2 i j) + ∑ k : Fin K, l (ix2 k i) * r (ix2 k j) := by
  simp only [matmul]
  rw [Ideal.matmul_apply]
  exact congrArg (acc (ix2 i j) + ·) (mmT_sum wf l r i j)

end LeftTransposed

end Cert.Lib.MatMul

end
-- ==== Proof.KEdge.lean ====
/- /nix/store/6lyif3d466xnk5zy85qb6z8ck6dfqbbz-bun-1.4.3-1453.793414f4/bin/bun scratch/a_siblings.js scratch/a_head.txt scratch/a_region0.txt scratch/a_tail.txt proof/Proof/KEdge.lean : scratch/a_head.txt, then scratch/a_region0.txt (call 0, written by hand), then scratch/a_region0.txt twice more with call 0's names (cfg0, grid0, dat0, iblk0, win0_w, k0_pay1, after0_5, out0_5, flush0_5, N_0, the arrays main_v4 main_v5 main_arg4 main_v6 main_v7, and this module's own idx0 blk0_w flushed0 mem_blk0 cover0 pay_edge hz) replaced by call 2's and call 4's, then scratch/a_tail.txt -/
/-
  The three message calls: what each leaves in its output array.

  A call runs its body once per block of 8000 edges; the body's store is the message map of the blocks it loaded, and
  that map works row by row, so block t of the output is the restriction to rows 8000·t … 8000·t + 7999 of the message
  map of the whole input arrays. The 100 blocks tile the 800000 rows.
-/
import proofs.«431247_j30262339568087_2_alg».proof.Proof.Gen.KernelIdeal.Frame
import proofs.«431247_j30262339568087_2_alg».proof.Proof.Spec
import proofs.«431247_j30262339568087_2_alg».proof.Proof.LibMatmul
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem Cert.Spec

variable (V : (c : Dev nD) → (b : Ref sig .tc) → Buf (Elt Ideal) ((c : Thread nD τ).loc b))

namespace Edge

/-! ## The body's store, entry by entry -/

/-- Three row blocks of 64, 64 and 16 columns laid side by side, read at an entry: the row's three pieces side by side. -/
theorem cat_apply (a b : FVec Ideal S8000x64 .bf16) (e : FVec Ideal S8000x16 .bf16)
    (h : Shape.Concatenates [S8000x64, S8000x64, S8000x16] S8000x144 1) (p : Fin 8000) (k : Fin 144) :
    concatenate S8000x144 1 [⟨S8000x64, a⟩, ⟨S8000x64, b⟩, ⟨S8000x16, e⟩] h (ix2 p k)
      = cat3 (fun k => a (ix2 p k)) (fun k => b (ix2 p k)) (fun k => e (ix2 p k)) k := by
  unfold cat3
  split
  · next h1 =>
    refine concatenate_apply_piece (t := S8000x144) (1 : Fin 2) [⟨S8000x64, a⟩, ⟨S8000x64, b⟩, ⟨S8000x16, e⟩] h (ix2 p k) 0 (by show 0 < 3; omega) S8000x64 a rfl rfl 0 rfl
      (ix2 p ⟨k.val, h1⟩) (fun b => ?_) ?_
    · match b with
      | ⟨0, _⟩ => exact fun _ => rfl
      | ⟨1, _⟩ => exact fun hb => absurd rfl hb
    · show 0 + k.val = k.val; omega
  · next h1 =>
    split
    · next h2 =>
      refine concatenate_apply_piece (t := S8000x144) (1 : Fin 2) [⟨S8000x64, a⟩, ⟨S8000x64, b⟩, ⟨S8000x16, e⟩] h (ix2 p k) 1 (by show 1 < 3; omega) S8000x64 b rfl rfl 64 rfl
        (ix2 p ⟨k.val - 64, by omega⟩) (fun b => ?_) ?_
      · match b with
        | ⟨0, _⟩ => exact fun _ => rfl
        | ⟨1, _⟩ => exact fun hb => absurd rfl hb
      · show 64 + (k.val - 64) = k.val; omega
    · next h2 =>
      refine concatenate_apply_piece (t := S8000x144) (1 : Fin 2) [⟨S8000x64, a⟩, ⟨S8000x64, b⟩, ⟨S8000x16, e⟩] h (ix2 p k) 2 (by show 2 < 3; omega) S8000x16 e rfl rfl 128 rfl
        (ix2 p ⟨k.val - 128, by omega⟩) (fun b => ?_) ?_
      · match b with
        | ⟨0, _⟩ => exact fun _ => rfl
        | ⟨1, _⟩ => exact fun hb => absurd rfl hb
      · show 128 + (k.val - 128) = k.val; omega

end Edge

/-! # Call 0 -/

namespace Edge
/-- The stored block at row p, column q: the message of row p of the loaded blocks. -/
theorem pay_edge (x0 x1 : Vec Ideal S8000x64 .f32) (x2 : Vec Ideal S8000x16 .f32) (x3 : Vec Ideal S144x32 .f32)
    (x4 : Vec Ideal S1x32 .f32) (p : Fin 8000) (q : Fin 32) :
    k0_pay1 (F := Ideal) x0 x1 x2 x3 x4 (ix2 p q)
      = edgeRow (fun k => x0 (ix2 p k)) (fun k => x1 (ix2 p k)) (fun k => x2 (ix2 p k)) x3
          (fun j => x4 (ix2 (0 : Fin 1) j)) q := by
  unfold k0_pay1
  simp only [shapeCast_self]
  rw [maximumf_apply, addf_apply, broadcast_apply, broadcastTo_1b_ab_apply]
  rw [show dot_S8000x144_S144x32_S8000x32_1_0_0_1_n_n
        = Cert.Lib.MatMul.mmD 8000 144 32 dot_S8000x144_S144x32_S8000x32_1_0_0_1_n_n_wf from rfl,
    Cert.Lib.MatMul.matmul_apply, constant_apply, Ideal.ofBits_zero_f32, zero_add]
  unfold edgeRow
  refine congrArg₂ max (congrArg₂ (· + ·) (Finset.sum_congr rfl fun k _ => ?_) rfl) Ideal.ofBits_zero_f32
  rw [cat_apply]
  simp only [truncf_apply, shapeCast_self]

/-! ## Call 0: the blocks, and the cover -/

/-- Offsets written as a two-entry vector of zeros are the zero function. -/
theorem hz : (![0, 0] : Fin 2 → Nat) = fun _ => 0 := funext fun a => by fin_cases a <;> rfl

/-- The block indices at grid point t: row block t of the three edge arrays and of the output, the one block of the
    weights and of the bias. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t of the source features is row 8000·t + p of the array. -/
theorem blk0_0 (c : Dev nD) (t : Fin cfg0.N) (p : Fin 8000) (hP : 8000 * t.val + p.val < 800000) (k : Fin 64) :
    (iblk0 (F := Ideal) V c 0 t : Vec Ideal S8000x64 .f32) (ix2 p k)
      = (V c main_v4 : Mat 800000 64) (ix2 (⟨8000 * t.val + p.val, hP⟩ : Fin 800000) k) := by
  obtain ⟨e0, e1, -⟩ := idx0 t
  unfold iblk0
  rw [View.read_apply]
  show V c main_v4 _ = V c main_v4 _
  congr 1
  funext a
  apply Fin.ext
  match a with
  | ⟨0, _⟩ => show win0_0.index t (0 : Fin 2) * 8000 + 1 * p.val = 8000 * t.val + p.val; omega
  | ⟨1, _⟩ => show win0_0.index t (1 : Fin 2) * 64 + 1 * k.val = k.val; omega

/-- Row p of block t of the target features is row 8000·t + p of the array. -/
theorem blk0_1 (c : Dev nD) (t : Fin cfg0.N) (p : Fin 8000) (hP : 8000 * t.val + p.val < 800000) (k : Fin 64) :
    (iblk0 (F := Ideal) V c 1 t : Vec Ideal S8000x64 .f32) (ix2 p k)
      = (V c main_v5 : Mat 800000 64) (ix2 (⟨8000 * t.val + p.val, hP⟩ : Fin 800000) k) := by
  obtain ⟨-, -, e0, e1, -⟩ := idx0 t
  unfold iblk0
  rw [View.read_apply]
  show V c main_v5 _ = V c main_v5 _
  congr 1
  funext a
  apply Fin.ext
  match a with
  | ⟨0, _⟩ => show win0_1.index t (0 : Fin 2) * 8000 + 1 * p.val = 8000 * t.val + p.val; omega
  | ⟨1, _⟩ => show win0_1.index t (1 : Fin 2) * 64 + 1 * k.val = k.val; omega

/-- Row p of block t of the edge attributes is row 8000·t + p of the array. -/
theorem blk0_2 (c : Dev nD) (t : Fin cfg0.N) (p : Fin 8000) (hP : 8000 * t.val + p.val < 800000) (k : Fin 16) :
    (iblk0 (F := Ideal) V c 2 t : Vec Ideal S8000x16 .f32) (ix2 p k)
      = (V c main_arg2 : Mat 800000 16) (ix2 (⟨8000 * t.val + p.val, hP⟩ : Fin 800000) k) := by
  obtain ⟨-, -, -, -, e0, e1, -⟩ := idx0 t
  unfold iblk0
  rw [View.read_apply]
  show V c main_arg2 _ = V c main_arg2 _
  congr 1
  funext a
  apply Fin.ext
  match a with
  | ⟨0, _⟩ => show win0_2.index t (0 : Fin 2) * 8000 + 1 * p.val = 8000 * t.val + p.val; omega
  | ⟨1, _⟩ => show win0_2.index t (1 : Fin 2) * 16 + 1 * k.val = k.val; omega

/-- The weights' one block is the weights. -/
theorem blk0_3 (c : Dev nD) (t : Fin cfg0.N) :
    (iblk0 (F := Ideal) V c 3 t : Vec Ideal S144x32 .f32) = (V c main_arg4 : Mat 144 32) := by
  obtain ⟨-, -, -, -, -, -, e0, e1, -⟩ := idx0 t
  funext j
  unfold iblk0
  rw [View.read_apply]
  show V c main_arg4 _ = V c main_arg4 _
  congr 1
  funext a
  apply Fin.ext
  match a with
  | ⟨0, _⟩ => show win0_3.index t (0 : Fin 2) * 144 + 1 * (j 0).val = (j 0).val; omega
  | ⟨1, _⟩ => show win0_3.index t (1 : Fin 2) * 32 + 1 * (j 1).val = (j 1).val; omega

/-- The bias's one block is the bias. -/
theorem blk0_4 (c : Dev nD) (t : Fin cfg0.N) :
    (iblk0 (F := Ideal) V c 4 t : Vec Ideal S1x32 .f32) = (V c main_v6 : Mat 1 32) := by
  obtain ⟨-, -, -, -, -, -, -, -, e0, e1, -⟩ := idx0 t
  funext j
  unfold iblk0
  rw [View.read_apply]
  show V c main_v6 _ = V c main_v6 _
  congr 1
  funext a
  apply Fin.ext
  match a with
  | ⟨0, _⟩ => show win0_4.index t (0 : Fin 2) * 1 + 1 * (j 0).val = (j 0).val; omega
  | ⟨1, _⟩ => show win0_4.index t (1 : Fin 2) * 32 + 1 * (j 1).val = (j 1).val; omega

/-- What grid point t writes back is block t of the message map of the whole arrays. -/
theorem flushed0 (c : Dev nD) (t : Fin cfg0.N) :
    (dat0 (F := Ideal) V c).flushed 5 t = ((cfg0.win 5).blk t).view.read (Elt Ideal)
      (edgeF 800000 (V c main_v4) (V c main_v5) (V c main_arg2) (V c main_arg4)
        (fun j => (V c main_v6 : Mat 1 32) (ix2 0 j))) := by
  show (cfg0.win 5).cut (grid0.coords t) ((dat0 V c).after 5 t) = _
  rw [after0_5]
  unfold out0_5
  rw [View.canon_unit_zero hz]
  simp only [View.ld_unit_zero (S := S8000x64) hz, View.ld_unit_zero (S := S8000x16) hz,
    View.ld_unit_zero (S := S144x32) hz, View.ld_unit_zero (S := S1x32) hz]
  obtain ⟨-, -, -, -, -, -, -, -, -, -, e0, e1⟩ := idx0 t
  have hN : cfg0.N = 100 := N_0
  funext j
  obtain ⟨p, q, rfl⟩ : ∃ (p : Fin 8000) (q : Fin 32), j = ix2 p q := ⟨j 0, j 1, eq_ix2 j⟩
  have hP : 8000 * t.val + p.val < 800000 := by have := t.isLt; have := p.isLt; omega
  show k0_pay1 (F := Ideal) (iblk0 V c 0 t) (iblk0 V c 1 t) (iblk0 V c 2 t) (iblk0 V c 3 t) (iblk0 V c 4 t) (ix2 p q)
    = edgeF 800000 (V c main_v4) (V c main_v5) (V c main_arg2) (V c main_arg4)
        (fun j => (V c main_v6 : Mat 1 32) (ix2 0 j)) (((cfg0.win 5).blk t).view.emb (ix2 p q))
  have he : ((cfg0.win 5).blk t).view.emb (ix2 p q) = ix2 (⟨8000 * t.val + p.val, hP⟩ : Fin 800000) q := by
    funext a
    apply Fin.ext
    match a with
    | ⟨0, _⟩ => show win0_5.index t (0 : Fin 2) * 8000 + 1 * p.val = 8000 * t.val + p.val; omega
    | ⟨1, _⟩ => show win0_5.index t (1 : Fin 2) * 32 + 1 * q.val = q.val; omega
  rw [he, edgeF_apply, pay_edge, blk0_3, blk0_4]
  rw [funext (blk0_0 V c t p hP), funext (blk0_1 V c t p hP), funext (blk0_2 V c t p hP)]

/-- An entry lies in block t iff each coordinate lies in the block's range. -/
theorem mem_blk0 (t : Fin cfg0.N) (i : S800000x32.Idx) :
    i ∈ ((cfg0.win 5).blk t).view.set ↔ ∀ a : Fin 2, win0_5.index t a * S8000x32.size a ≤ (i a).val
      ∧ (i a).val < win0_5.index t a * S8000x32.size a + S8000x32.size a := by
  show i ∈ ((View.whole main_v7).slice (win0_5.rect t)).set ↔ _
  rw [View.set_slice_whole, Rect.mem_set_unit]
  exact Iff.rfl

/-- Row r lies in block r / 8000: the 100 blocks tile the rows. -/
theorem cover0 (i : S800000x32.Idx) :
    ∃ t : Fin cfg0.N, (cfg0.win 5).flush t = true ∧ i ∈ ((cfg0.win 5).blk t).view.set := by
  have hN : cfg0.N = 100 := N_0
  have hi0 : (i 0).val < 800000 := (i 0).isLt
  have hi1 : (i 1).val < 32 := (i 1).isLt
  have ht : (i 0).val / 8000 < cfg0.N := by omega
  obtain ⟨-, -, -, -, -, -, -, -, -, -, e0, e1⟩ := idx0 ⟨(i 0).val / 8000, ht⟩
  refine ⟨⟨(i 0).val / 8000, ht⟩, flush0_5 _, ?_⟩
  rw [mem_blk0]
  intro a
  match a with
  | ⟨0, _⟩ =>
    show win0_5.index ⟨(i 0).val / 8000, ht⟩ (0 : Fin 2) * 8000 ≤ (i 0).val
      ∧ (i 0).val < win0_5.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_5.index ⟨(i 0).val / 8000, ht⟩ (1 : Fin 2) * 32 ≤ (i 1).val
      ∧ (i 1).val < win0_5.index ⟨(i 0).val / 8000, ht⟩ (1 : Fin 2) * 32 + 32
    rw [e1]; omega

end Edge

/-- After call 0 its output array holds, row by row, the message map of its input arrays. -/
theorem region0_value (c : Dev nD) :
    ((dat0 (F := Ideal) V c).arrAt 5 cfg0.N : Mat 800000 32)
      = edgeF 800000 (V c main_v4) (V c main_v5) (V c main_arg2) (V c main_arg4) (fun j => (V c main_v6 : Mat 1 32) (ix2 0 j)) :=
  (dat0 (F := Ideal) V c).arrAt_eq_of_cover 5 _ (fun t _ => Edge.flushed0 V c t) Edge.cover0

/-! # Call 2 -/

namespace Edge
/-- The stored block at row p, column q: the message of row p of the loaded blocks. -/
theorem pay_edge2 (x0 x1 : Vec Ideal S8000x64 .f32) (x2 : Vec Ideal S8000x16 .f32) (x3 : Vec Ideal S144x32 .f32)
    (x4 : Vec Ideal S1x32 .f32) (p : Fin 8000) (q : Fin 32) :
    k2_pay1 (F := Ideal) x0 x1 x2 x3 x4 (ix2 p q)
      = edgeRow (fun k => x0 (ix2 p k)) (fun k => x1 (ix2 p k)) (fun k => x2 (ix2 p k)) x3
          (fun j => x4 (ix2 (0 : Fin 1) j)) q := by
  unfold k2_pay1
  simp only [shapeCast_self]
  rw [maximumf_apply, addf_apply, broadcast_apply, broadcastTo_1b_ab_apply]
  rw [show dot_S8000x144_S144x32_S8000x32_1_0_0_1_n_n
        = Cert.Lib.MatMul.mmD 8000 144 32 dot_S8000x144_S144x32_S8000x32_1_0_0_1_n_n_wf from rfl,
    Cert.Lib.MatMul.matmul_apply, constant_apply, Ideal.ofBits_zero_f32, zero_add]
  unfold edgeRow
  refine congrArg₂ max (congrArg₂ (· + ·) (Finset.sum_congr rfl fun k _ => ?_) rfl) Ideal.ofBits_zero_f32
  rw [cat_apply]
  simp only [truncf_apply, shapeCast_self]

/-! ## Call 2: the blocks, and the cover -/

/-- Offsets written as a two-entry vector of zeros are the zero function. -/
theorem hz2 : (![0, 0] : Fin 2 → Nat) = fun _ => 0 := funext fun a => by fin_cases a <;> rfl

/-- The block indices at grid point t: row block t of the three edge arrays and of the output, the one block of the
    weights and of the bias. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of block t of the source features is row 8000·t + p of the array. -/
theorem blk2_0 (c : Dev nD) (t : Fin cfg2.N) (p : Fin 8000) (hP : 8000 * t.val + p.val < 800000) (k : Fin 64) :
    (iblk2 (F := Ideal) V c 0 t : Vec Ideal S8000x64 .f32) (ix2 p k)
      = (V c main_v13 : Mat 800000 64) (ix2 (⟨8000 * t.val + p.val, hP⟩ : Fin 800000) k) := by
  obtain ⟨e0, e1, -⟩ := idx2 t
  unfold iblk2
  rw [View.read_apply]
  show V c main_v13 _ = V c main_v13 _
  congr 1
  funext a
  apply Fin.ext
  match a with
  | ⟨0, _⟩ => show win2_0.index t (0 : Fin 2) * 8000 + 1 * p.val = 8000 * t.val + p.val; omega
  | ⟨1, _⟩ => show win2_0.index t (1 : Fin 2) * 64 + 1 * k.val = k.val; omega

/-- Row p of block t of the target features is row 8000·t + p of the array. -/
theorem blk2_1 (c : Dev nD) (t : Fin cfg2.N) (p : Fin 8000) (hP : 8000 * t.val + p.val < 800000) (k : Fin 64) :
    (iblk2 (F := Ideal) V c 1 t : Vec Ideal S8000x64 .f32) (ix2 p k)
      = (V c main_v14 : Mat 800000 64) (ix2 (⟨8000 * t.val + p.val, hP⟩ : Fin 800000) k) := by
  obtain ⟨-, -, e0, e1, -⟩ := idx2 t
  unfold iblk2
  rw [View.read_apply]
  show V c main_v14 _ = V c main_v14 _
  congr 1
  funext a
  apply Fin.ext
  match a with
  | ⟨0, _⟩ => show win2_1.index t (0 : Fin 2) * 8000 + 1 * p.val = 8000 * t.val + p.val; omega
  | ⟨1, _⟩ => show win2_1.index t (1 : Fin 2) * 64 + 1 * k.val = k.val; omega

/-- Row p of block t of the edge attributes is row 8000·t + p of the array. -/
theorem blk2_2 (c : Dev nD) (t : Fin cfg2.N) (p : Fin 8000) (hP : 8000 * t.val + p.val < 800000) (k : Fin 16) :
    (iblk2 (F := Ideal) V c 2 t : Vec Ideal S8000x16 .f32) (ix2 p k)
      = (V c main_arg2 : Mat 800000 16) (ix2 (⟨8000 * t.val + p.val, hP⟩ : Fin 800000) k) := by
  obtain ⟨-, -, -, -, e0, e1, -⟩ := idx2 t
  unfold iblk2
  rw [View.read_apply]
  show V c main_arg2 _ = V c main_arg2 _
  congr 1
  funext a
  apply Fin.ext
  match a with
  | ⟨0, _⟩ => show win2_2.index t (0 : Fin 2) * 8000 + 1 * p.val = 8000 * t.val + p.val; omega
  | ⟨1, _⟩ => show win2_2.index t (1 : Fin 2) * 16 + 1 * k.val = k.val; omega

/-- The weights' one block is the weights. -/
theorem blk2_3 (c : Dev nD) (t : Fin cfg2.N) :
    (iblk2 (F := Ideal) V c 3 t : Vec Ideal S144x32 .f32) = (V c main_arg8 : Mat 144 32) := by
  obtain ⟨-, -, -, -, -, -, e0, e1, -⟩ := idx2 t
  funext j
  unfold iblk2
  rw [View.read_apply]
  show V c main_arg8 _ = V c main_arg8 _
  congr 1
  funext a
  apply Fin.ext
  match a with
  | ⟨0, _⟩ => show win2_3.index t (0 : Fin 2) * 144 + 1 * (j 0).val = (j 0).val; omega
  | ⟨1, _⟩ => show win2_3.index t (1 : Fin 2) * 32 + 1 * (j 1).val = (j 1).val; omega

/-- The bias's one block is the bias. -/
theorem blk2_4 (c : Dev nD) (t : Fin cfg2.N) :
    (iblk2 (F := Ideal) V c 4 t : Vec Ideal S1x32 .f32) = (V c main_v15 : Mat 1 32) := by
  obtain ⟨-, -, -, -, -, -, -, -, e0, e1, -⟩ := idx2 t
  funext j
  unfold iblk2
  rw [View.read_apply]
  show V c main_v15 _ = V c main_v15 _
  congr 1
  funext a
  apply Fin.ext
  match a with
  | ⟨0, _⟩ => show win2_4.index t (0 : Fin 2) * 1 + 1 * (j 0).val = (j 0).val; omega
  | ⟨1, _⟩ => show win2_4.index t (1 : Fin 2) * 32 + 1 * (j 1).val = (j 1).val; omega

/-- What grid point t writes back is block t of the message map of the whole arrays. -/
theorem flushed2 (c : Dev nD) (t : Fin cfg2.N) :
    (dat2 (F := Ideal) V c).flushed 5 t = ((cfg2.win 5).blk t).view.read (Elt Ideal)
      (edgeF 800000 (V c main_v13) (V c main_v14) (V c main_arg2) (V c main_arg8)
        (fun j => (V c main_v15 : Mat 1 32) (ix2 0 j))) := by
  show (cfg2.win 5).cut (grid2.coords t) ((dat2 V c).after 5 t) = _
  rw [after2_5]
  unfold out2_5
  rw [View.canon_unit_zero hz2]
  simp only [View.ld_unit_zero (S := S8000x64) hz2, View.ld_unit_zero (S := S8000x16) hz2,
    View.ld_unit_zero (S := S144x32) hz2, View.ld_unit_zero (S := S1x32) hz2]
  obtain ⟨-, -, -, -, -, -, -, -, -, -, e0, e1⟩ := idx2 t
  have hN : cfg2.N = 100 := N_2
  funext j
  obtain ⟨p, q, rfl⟩ : ∃ (p : Fin 8000) (q : Fin 32), j = ix2 p q := ⟨j 0, j 1, eq_ix2 j⟩
  have hP : 8000 * t.val + p.val < 800000 := by have := t.isLt; have := p.isLt; omega
  show k2_pay1 (F := Ideal) (iblk2 V c 0 t) (iblk2 V c 1 t) (iblk2 V c 2 t) (iblk2 V c 3 t) (iblk2 V c 4 t) (ix2 p q)
    = edgeF 800000 (V c main_v13) (V c main_v14) (V c main_arg2) (V c main_arg8)
        (fun j => (V c main_v15 : Mat 1 32) (ix2 0 j)) (((cfg2.win 5).blk t).view.emb (ix2 p q))
  have he : ((cfg2.win 5).blk t).view.emb (ix2 p q) = ix2 (⟨8000 * t.val + p.val, hP⟩ : Fin 800000) q := by
    funext a
    apply Fin.ext
    match a with
    | ⟨0, _⟩ => show win2_5.index t (0 : Fin 2) * 8000 + 1 * p.val = 8000 * t.val + p.val; omega
    | ⟨1, _⟩ => show win2_5.index t (1 : Fin 2) * 32 + 1 * q.val = q.val; omega
  rw [he, edgeF_apply, pay_edge2, blk2_3, blk2_4]
  rw [funext (blk2_0 V c t p hP), funext (blk2_1 V c t p hP), funext (blk2_2 V c t p hP)]

/-- An entry lies in block t iff each coordinate lies in the block's range. -/
theorem mem_blk2 (t : Fin cfg2.N) (i : S800000x32.Idx) :
    i ∈ ((cfg2.win 5).blk t).view.set ↔ ∀ a : Fin 2, win2_5.index t a * S8000x32.size a ≤ (i a).val
      ∧ (i a).val < win2_5.index t a * S8000x32.size a + S8000x32.size a := by
  show i ∈ ((View.whole main_v16).slice (win2_5.rect t)).set ↔ _
  rw [View.set_slice_whole, Rect.mem_set_unit]
  exact Iff.rfl

/-- Row r lies in block r / 8000: the 100 blocks tile the rows. -/
theorem cover2 (i : S800000x32.Idx) :
    ∃ t : Fin cfg2.N, (cfg2.win 5).flush t = true ∧ i ∈ ((cfg2.win 5).blk t).view.set := by
  have hN : cfg2.N = 100 := N_2
  have hi0 : (i 0).val < 800000 := (i 0).isLt
  have hi1 : (i 1).val < 32 := (i 1).isLt
  have ht : (i 0).val / 8000 < cfg2.N := by omega
  obtain ⟨-, -, -, -, -, -, -, -, -, -, e0, e1⟩ := idx2 ⟨(i 0).val / 8000, ht⟩
  refine ⟨⟨(i 0).val / 8000, ht⟩, flush2_5 _, ?_⟩
  rw [mem_blk2]
  intro a
  match a with
  | ⟨0, _⟩ =>
    show win2_5.index ⟨(i 0).val / 8000, ht⟩ (0 : Fin 2) * 8000 ≤ (i 0).val
      ∧ (i 0).val < win2_5.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win2_5.index ⟨(i 0).val / 8000, ht⟩ (1 : Fin 2) * 32 ≤ (i 1).val
      ∧ (i 1).val < win2_5.index ⟨(i 0).val / 8000, ht⟩ (1 : Fin 2) * 32 + 32
    rw [e1]; omega

end Edge

/-- After call 2 its output array holds, row by row, the message map of its input arrays. -/
theorem region2_value (c : Dev nD) :
    ((dat2 (F := Ideal) V c).arrAt 5 cfg2.N : Mat 800000 32)
      = edgeF 800000 (V c main_v13) (V c main_v14) (V c main_arg2) (V c main_arg8) (fun j => (V c main_v15 : Mat 1 32) (ix2 0 j)) :=
  (dat2 (F := Ideal) V c).arrAt_eq_of_cover 5 _ (fun t _ => Edge.flushed2 V c t) Edge.cover2

/-! # Call 4 -/

namespace Edge
/-- The stored block at row p, column q: the message of row p of the loaded blocks. -/
theorem pay_edge4 (x0 x1 : Vec Ideal S8000x64 .f32) (x2 : Vec Ideal S8000x16 .f32) (x3 : Vec Ideal S144x32 .f32)
    (x4 : Vec Ideal S1x32 .f32) (p : Fin 8000) (q : Fin 32) :
    k4_pay1 (F := Ideal) x0 x1 x2 x3 x4 (ix2 p q)
      = edgeRow (fun k => x0 (ix2 p k)) (fun k => x1 (ix2 p k)) (fun k => x2 (ix2 p k)) x3
          (fun j => x4 (ix2 (0 : Fin 1) j)) q := by
  unfold k4_pay1
  simp only [shapeCast_self]
  rw [maximumf_apply, addf_apply, broadcast_apply, broadcastTo_1b_ab_apply]
  rw [show dot_S8000x144_S144x32_S8000x32_1_0_0_1_n_n
        = Cert.Lib.MatMul.mmD 8000 144 32 dot_S8000x144_S144x32_S8000x32_1_0_0_1_n_n_wf from rfl,
    Cert.Lib.MatMul.matmul_apply, constant_apply, Ideal.ofBits_zero_f32, zero_add]
  unfold edgeRow
  refine congrArg₂ max (congrArg₂ (· + ·) (Finset.sum_congr rfl fun k _ => ?_) rfl) Ideal.ofBits_zero_f32
  rw [cat_apply]
  simp only [truncf_apply, shapeCast_self]

/-! ## Call 4: the blocks, and the cover -/

/-- Offsets written as a two-entry vector of zeros are the zero function. -/
theorem hz4 : (![0, 0] : Fin 2 → Nat) = fun _ => 0 := funext fun a => by fin_cases a <;> rfl

/-- The block indices at grid point t: row block t of the three edge arrays and of the output, the one block of the
    weights and of the bias. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row p of block t of the source features is row 8000·t + p of the array. -/
theorem blk4_0 (c : Dev nD) (t : Fin cfg4.N) (p : Fin 8000) (hP : 8000 * t.val + p.val < 800000) (k : Fin 64) :
    (iblk4 (F := Ideal) V c 0 t : Vec Ideal S8000x64 .f32) (ix2 p k)
      = (V c main_v22 : Mat 800000 64) (ix2 (⟨8000 * t.val + p.val, hP⟩ : Fin 800000) k) := by
  obtain ⟨e0, e1, -⟩ := idx4 t
  unfold iblk4
  rw [View.read_apply]
  show V c main_v22 _ = V c main_v22 _
  congr 1
  funext a
  apply Fin.ext
  match a with
  | ⟨0, _⟩ => show win4_0.index t (0 : Fin 2) * 8000 + 1 * p.val = 8000 * t.val + p.val; omega
  | ⟨1, _⟩ => show win4_0.index t (1 : Fin 2) * 64 + 1 * k.val = k.val; omega

/-- Row p of block t of the target features is row 8000·t + p of the array. -/
theorem blk4_1 (c : Dev nD) (t : Fin cfg4.N) (p : Fin 8000) (hP : 8000 * t.val + p.val < 800000) (k : Fin 64) :
    (iblk4 (F := Ideal) V c 1 t : Vec Ideal S8000x64 .f32) (ix2 p k)
      = (V c main_v23 : Mat 800000 64) (ix2 (⟨8000 * t.val + p.val, hP⟩ : Fin 800000) k) := by
  obtain ⟨-, -, e0, e1, -⟩ := idx4 t
  unfold iblk4
  rw [View.read_apply]
  show V c main_v23 _ = V c main_v23 _
  congr 1
  funext a
  apply Fin.ext
  match a with
  | ⟨0, _⟩ => show win4_1.index t (0 : Fin 2) * 8000 + 1 * p.val = 8000 * t.val + p.val; omega
  | ⟨1, _⟩ => show win4_1.index t (1 : Fin 2) * 64 + 1 * k.val = k.val; omega

/-- Row p of block t of the edge attributes is row 8000·t + p of the array. -/
theorem blk4_2 (c : Dev nD) (t : Fin cfg4.N) (p : Fin 8000) (hP : 8000 * t.val + p.val < 800000) (k : Fin 16) :
    (iblk4 (F := Ideal) V c 2 t : Vec Ideal S8000x16 .f32) (ix2 p k)
      = (V c main_arg2 : Mat 800000 16) (ix2 (⟨8000 * t.val + p.val, hP⟩ : Fin 800000) k) := by
  obtain ⟨-, -, -, -, e0, e1, -⟩ := idx4 t
  unfold iblk4
  rw [View.read_apply]
  show V c main_arg2 _ = V c main_arg2 _
  congr 1
  funext a
  apply Fin.ext
  match a with
  | ⟨0, _⟩ => show win4_2.index t (0 : Fin 2) * 8000 + 1 * p.val = 8000 * t.val + p.val; omega
  | ⟨1, _⟩ => show win4_2.index t (1 : Fin 2) * 16 + 1 * k.val = k.val; omega

/-- The weights' one block is the weights. -/
theorem blk4_3 (c : Dev nD) (t : Fin cfg4.N) :
    (iblk4 (F := Ideal) V c 3 t : Vec Ideal S144x32 .f32) = (V c main_arg12 : Mat 144 32) := by
  obtain ⟨-, -, -, -, -, -, e0, e1, -⟩ := idx4 t
  funext j
  unfold iblk4
  rw [View.read_apply]
  show V c main_arg12 _ = V c main_arg12 _
  congr 1
  funext a
  apply Fin.ext
  match a with
  | ⟨0, _⟩ => show win4_3.index t (0 : Fin 2) * 144 + 1 * (j 0).val = (j 0).val; omega
  | ⟨1, _⟩ => show win4_3.index t (1 : Fin 2) * 32 + 1 * (j 1).val = (j 1).val; omega

/-- The bias's one block is the bias. -/
theorem blk4_4 (c : Dev nD) (t : Fin cfg4.N) :
    (iblk4 (F := Ideal) V c 4 t : Vec Ideal S1x32 .f32) = (V c main_v24 : Mat 1 32) := by
  obtain ⟨-, -, -, -, -, -, -, -, e0, e1, -⟩ := idx4 t
  funext j
  unfold iblk4
  rw [View.read_apply]
  show V c main_v24 _ = V c main_v24 _
  congr 1
  funext a
  apply Fin.ext
  match a with
  | ⟨0, _⟩ => show win4_4.index t (0 : Fin 2) * 1 + 1 * (j 0).val = (j 0).val; omega
  | ⟨1, _⟩ => show win4_4.index t (1 : Fin 2) * 32 + 1 * (j 1).val = (j 1).val; omega

/-- What grid point t writes back is block t of the message map of the whole arrays. -/
theorem flushed4 (c : Dev nD) (t : Fin cfg4.N) :
    (dat4 (F := Ideal) V c).flushed 5 t = ((cfg4.win 5).blk t).view.read (Elt Ideal)
      (edgeF 800000 (V c main_v22) (V c main_v23) (V c main_arg2) (V c main_arg12)
        (fun j => (V c main_v24 : Mat 1 32) (ix2 0 j))) := by
  show (cfg4.win 5).cut (grid4.coords t) ((dat4 V c).after 5 t) = _
  rw [after4_5]
  unfold out4_5
  rw [View.canon_unit_zero hz4]
  simp only [View.ld_unit_zero (S := S8000x64) hz4, View.ld_unit_zero (S := S8000x16) hz4,
    View.ld_unit_zero (S := S144x32) hz4, View.ld_unit_zero (S := S1x32) hz4]
  obtain ⟨-, -, -, -, -, -, -, -, -, -, e0, e1⟩ := idx4 t
  have hN : cfg4.N = 100 := N_4
  funext j
  obtain ⟨p, q, rfl⟩ : ∃ (p : Fin 8000) (q : Fin 32), j = ix2 p q := ⟨j 0, j 1, eq_ix2 j⟩
  have hP : 8000 * t.val + p.val < 800000 := by have := t.isLt; have := p.isLt; omega
  show k4_pay1 (F := Ideal) (iblk4 V c 0 t) (iblk4 V c 1 t) (iblk4 V c 2 t) (iblk4 V c 3 t) (iblk4 V c 4 t) (ix2 p q)
    = edgeF 800000 (V c main_v22) (V c main_v23) (V c main_arg2) (V c main_arg12)
        (fun j => (V c main_v24 : Mat 1 32) (ix2 0 j)) (((cfg4.win 5).blk t).view.emb (ix2 p q))
  have he : ((cfg4.win 5).blk t).view.emb (ix2 p q) = ix2 (⟨8000 * t.val + p.val, hP⟩ : Fin 800000) q := by
    funext a
    apply Fin.ext
    match a with
    | ⟨0, _⟩ => show win4_5.index t (0 : Fin 2) * 8000 + 1 * p.val = 8000 * t.val + p.val; omega
    | ⟨1, _⟩ => show win4_5.index t (1 : Fin 2) * 32 + 1 * q.val = q.val; omega
  rw [he, edgeF_apply, pay_edge4, blk4_3, blk4_4]
  rw [funext (blk4_0 V c t p hP), funext (blk4_1 V c t p hP), funext (blk4_2 V c t p hP)]

/-- An entry lies in block t iff each coordinate lies in the block's range. -/
theorem mem_blk4 (t : Fin cfg4.N) (i : S800000x32.Idx) :
    i ∈ ((cfg4.win 5).blk t).view.set ↔ ∀ a : Fin 2, win4_5.index t a * S8000x32.size a ≤ (i a).val
      ∧ (i a).val < win4_5.index t a * S8000x32.size a + S8000x32.size a := by
  show i ∈ ((View.whole main_v25).slice (win4_5.rect t)).set ↔ _
  rw [View.set_slice_whole, Rect.mem_set_unit]
  exact Iff.rfl

/-- Row r lies in block r / 8000: the 100 blocks tile the rows. -/
theorem cover4 (i : S800000x32.Idx) :
    ∃ t : Fin cfg4.N, (cfg4.win 5).flush t = true ∧ i ∈ ((cfg4.win 5).blk t).view.set := by
  have hN : cfg4.N = 100 := N_4
  have hi0 : (i 0).val < 800000 := (i 0).isLt
  have hi1 : (i 1).val < 32 := (i 1).isLt
  have ht : (i 0).val / 8000 < cfg4.N := by omega
  obtain ⟨-, -, -, -, -, -, -, -, -, -, e0, e1⟩ := idx4 ⟨(i 0).val / 8000, ht⟩
  refine ⟨⟨(i 0).val / 8000, ht⟩, flush4_5 _, ?_⟩
  rw [mem_blk4]
  intro a
  match a with
  | ⟨0, _⟩ =>
    show win4_5.index ⟨(i 0).val / 8000, ht⟩ (0 : Fin 2) * 8000 ≤ (i 0).val
      ∧ (i 0).val < win4_5.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win4_5.index ⟨(i 0).val / 8000, ht⟩ (1 : Fin 2) * 32 ≤ (i 1).val
      ∧ (i 1).val < win4_5.index ⟨(i 0).val / 8000, ht⟩ (1 : Fin 2) * 32 + 32
    rw [e1]; omega

end Edge

/-- After call 4 its output array holds, row by row, the message map of its input arrays. -/
theorem region4_value (c : Dev nD) :
    ((dat4 (F := Ideal) V c).arrAt 5 cfg4.N : Mat 800000 32)
      = edgeF 800000 (V c main_v22) (V c main_v23) (V c main_arg2) (V c main_arg12) (fun j => (V c main_v24 : Mat 1 32) (ix2 0 j)) :=
  (dat4 (F := Ideal) V c).arrAt_eq_of_cover 5 _ (fun t _ => Edge.flushed4 V c t) Edge.cover4

end Cert.KernelIdeal.Val

end
-- ==== Proof.KNode.lean ====
/- /nix/store/6lyif3d466xnk5zy85qb6z8ck6dfqbbz-bun-1.4.3-1453.793414f4/bin/bun scratch/b_lay.js scratch/b_head.txt scratch/b_region1.txt scratch/b_foot.txt proof/Proof/KNode.lean : head + template scratch/b_region1.txt + the template under the substitutions call 1 -> call 3 (digit 1 -> 3 in iblk/dat/cfg/grid/win/after/out/flush/N_/k_pay1 and this text's own lemma names; main_arg0 -> main_v12, main_v10 -> main_v19, main_arg6 -> main_arg10, main_v11 -> main_v20, main_v12 -> main_v21); call 1 -> call 5 (digit 1 -> 5 in iblk/dat/cfg/grid/win/after/out/flush/N_/k_pay1 and this text's own lemma names; main_arg0 -> main_v21, main_v10 -> main_v28, main_arg6 -> main_arg14, main_v11 -> main_v29, main_v12 -> main_v30) + foot -/
/-
  The three node-update calls: what each leaves in its output array.

  A call runs its body once per block of 5000 nodes; the body's store is the node map of the blocks it loaded, and that
  map works row by row, so block t of the output is the restriction to rows 5000·t … 5000·t + 4999 of the node map of
  the whole input arrays. The 10 blocks tile the 50000 rows.
-/
import proofs.«431247_j30262339568087_2_alg».proof.Proof.Gen.KernelIdeal.Frame
import proofs.«431247_j30262339568087_2_alg».proof.Proof.Spec
import proofs.«431247_j30262339568087_2_alg».proof.Proof.LibMatmul
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem Cert.Spec
open Idealize.ShloMosaic.Pipeline (Dat)

/-! ## The body's store at an entry -/

/-- Two blocks of 64 and 32 columns laid side by side, read at an entry: the two rows laid side by side. -/
theorem node_cat_apply (a : FVec Ideal S5000x64 .bf16) (g : FVec Ideal S5000x32 .bf16)
    (h : Shape.Concatenates [S5000x64, S5000x32] S5000x96 1) (p : Fin 5000) (k : Fin 96) :
    concatenate S5000x96 1 [⟨S5000x64, a⟩, ⟨S5000x32, g⟩] h (ix2 p k)
      = cat2 (fun k => a (ix2 p k)) (fun k => g (ix2 p k)) k := by
  unfold cat2
  split
  · next hk =>
    exact concatenate_pair_apply_left (1 : Fin 2) a g h (ix2 p k) rfl (ix2 p ⟨k.val, hk⟩)
      (fun b => by match b with | ⟨0, _⟩ => rfl | ⟨1, _⟩ => rfl)
  · next hk =>
    exact concatenate_pair_apply_right (1 : Fin 2) a g h (ix2 p k) rfl rfl (ix2 p ⟨k.val - 64, by omega⟩)
      (fun b hb => by match b with | ⟨0, _⟩ => rfl | ⟨1, _⟩ => exact absurd rfl hb)
      (by show k.val - 64 + 64 = k.val; omega)

/-- The node perceptron's product, bias and relu at an entry, over the operands already converted. -/
theorem node_core_apply (a : FVec Ideal S5000x64 .bf16) (g : FVec Ideal S5000x32 .bf16) (w : FVec Ideal S96x64 .bf16)
    (b : FVec Ideal S1x64 .f32) (h : Shape.Concatenates [S5000x64, S5000x32] S5000x96 1)
    (hb : S1x64.Broadcasts S5000x64) (p : Fin 5000) (q : Fin 64) :
    maximumf (addf (matmul dot_S5000x96_S96x64_S5000x64_1_0_0_1_n_n none
        (concatenate S5000x96 1 [⟨S5000x64, a⟩, ⟨S5000x32, g⟩] h) w (constant S5000x64 .f32 0x00000000#32))
        (broadcastTo S5000x64 b hb)) (broadcast S5000x64 (Scalar.ofBits .f32 0x00000000#32)) (ix2 p q)
      = nodeRow (fun k => a (ix2 p k)) (fun k => g (ix2 p k)) w (fun j => b (ix2 0 j)) q := by
  rw [maximumf_apply, addf_apply, broadcast_apply, broadcastTo_1b_ab_apply]
  rw [show dot_S5000x96_S96x64_S5000x64_1_0_0_1_n_n
      = Cert.Lib.MatMul.mmD 5000 96 64 dot_S5000x96_S96x64_S5000x64_1_0_0_1_n_n_wf from rfl]
  rw [Cert.Lib.MatMul.matmul_apply, constant_apply, Ideal.ofBits_zero_f32, zero_add]
  unfold nodeRow
  simp only [node_cat_apply]
  rw [Ideal.ofBits_def, Ideal.ofBits_zero_f32]

/-- The store of the first node call at an entry: the node perceptron of row p of its loaded blocks. -/
theorem k1_pay1_apply (x0 : Vec Ideal S5000x64 .f32) (x1 : Vec Ideal S5000x32 .f32) (x2 : Vec Ideal S96x64 .f32)
    (x3 : Vec Ideal S1x64 .f32) (p : Fin 5000) (q : Fin 64) :
    k1_pay1 (F := Ideal) x0 x1 x2 x3 (ix2 p q)
      = nodeRow (fun k => x0 (ix2 p k)) (fun k => x1 (ix2 p k)) x2 (fun j => x3 (ix2 0 j)) q := by
  unfold k1_pay1
  refine (node_core_apply _ _ _ _ _ _ p q).trans ?_
  simp only [truncf_apply, shapeCast_self]
  rfl

/-- The store of the second and third node calls at an entry: the same perceptron. -/
theorem k3_pay1_apply (x0 : Vec Ideal S5000x64 .f32) (x1 : Vec Ideal S5000x32 .f32) (x2 : Vec Ideal S96x64 .f32)
    (x3 : Vec Ideal S1x64 .f32) (p : Fin 5000) (q : Fin 64) :
    k3_pay1 (F := Ideal) x0 x1 x2 x3 (ix2 p q)
      = nodeRow (fun k => x0 (ix2 p k)) (fun k => x1 (ix2 p k)) x2 (fun j => x3 (ix2 0 j)) q := by
  unfold k3_pay1
  refine (node_core_apply _ _ _ _ _ _ p q).trans ?_
  simp only [truncf_apply, shapeCast_self]
  rfl

theorem k5_pay1_apply (x0 : Vec Ideal S5000x64 .f32) (x1 : Vec Ideal S5000x32 .f32) (x2 : Vec Ideal S96x64 .f32)
    (x3 : Vec Ideal S1x64 .f32) (p : Fin 5000) (q : Fin 64) :
    k5_pay1 (F := Ideal) x0 x1 x2 x3 (ix2 p q)
      = nodeRow (fun k => x0 (ix2 p k)) (fun k => x1 (ix2 p k)) x2 (fun j => x3 (ix2 0 j)) q := by
  unfold k5_pay1
  refine (node_core_apply _ _ _ _ _ _ p q).trans ?_
  simp only [truncf_apply, shapeCast_self]
  rfl

/-! ## Blocks of rows of the whole arrays -/

variable (V : (c : Dev nD) → (b : Ref sig .tc) → Buf (Elt Ideal) ((c : Thread nD τ).loc b))

theorem node_off_zero : (![0, 0] : Fin 2 → Nat) = fun _ => 0 := funext fun a => by fin_cases a <;> rfl

/-- Row 5000·t + p is a row of the 50000-row arrays. -/
theorem node_row_lt (t : Fin 10) (p : Fin 5000) : 5000 * t.val + p.val < 50000 := by
  have := t.isLt; have := p.isLt; omega

/-! ## The first node call: what a block of 5000 nodes writes back, and the whole array -/

/-- The block index of each window of the call at grid point t: the node windows move with t along the rows, the
    weights and the bias stay at block 0. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of the node features at point t, at (p, k): row 5000·t + p of the array. -/
theorem iblk1_0_apply (c : Dev nD) (t : Fin cfg1.N) (p : Fin 5000) (k : Fin 64) :
    (iblk1 V c 0 t : Vec Ideal S5000x64 .f32) (ix2 p k)
      = (V c main_arg0 : Mat 50000 64) (ix2 ⟨5000 * t.val + p.val, node_row_lt t p⟩ k) := by
  obtain ⟨e0, e1, -⟩ := index1 t
  unfold iblk1
  rw [View.read_apply]
  show V c main_arg0 _ = V c main_arg0 _
  congr 1
  funext a
  apply Fin.ext
  match a with
  | ⟨0, _⟩ => show win1_0.index t 0 * 5000 + 1 * p.val = 5000 * t.val + p.val; rw [e0]; omega
  | ⟨1, _⟩ => show win1_0.index t 1 * 64 + 1 * k.val = k.val; rw [e1]; omega

/-- The block of the summed messages at point t, at (p, k): row 5000·t + p of the array. -/
theorem iblk1_1_apply (c : Dev nD) (t : Fin cfg1.N) (p : Fin 5000) (k : Fin 32) :
    (iblk1 V c 1 t : Vec Ideal S5000x32 .f32) (ix2 p k)
      = (V c main_v10 : Mat 50000 32) (ix2 ⟨5000 * t.val + p.val, node_row_lt t p⟩ k) := by
  obtain ⟨-, -, e0, e1, -⟩ := index1 t
  unfold iblk1
  rw [View.read_apply]
  show V c main_v10 _ = V c main_v10 _
  congr 1
  funext a
  apply Fin.ext
  match a with
  | ⟨0, _⟩ => show win1_1.index t 0 * 5000 + 1 * p.val = 5000 * t.val + p.val; rw [e0]; omega
  | ⟨1, _⟩ => show win1_1.index t 1 * 32 + 1 * k.val = k.val; rw [e1]; omega

/-- The weights' block at any point is the whole weight matrix. -/
theorem iblk1_2_eq (c : Dev nD) (t : Fin cfg1.N) :
    (iblk1 V c 2 t : Vec Ideal S96x64 .f32) = (V c main_arg6 : Mat 96 64) := by
  obtain ⟨-, -, -, -, e0, e1, -⟩ := index1 t
  funext y
  unfold iblk1
  rw [View.read_apply]
  show V c main_arg6 _ = V c main_arg6 _
  congr 1
  funext a
  apply Fin.ext
  match a with
  | ⟨0, _⟩ => show win1_2.index t 0 * 96 + 1 * (y 0).val = (y 0).val; rw [e0]; omega
  | ⟨1, _⟩ => show win1_2.index t 1 * 64 + 1 * (y 1).val = (y 1).val; rw [e1]; omega

/-- The bias block at any point is the whole bias row. -/
theorem iblk1_3_eq (c : Dev nD) (t : Fin cfg1.N) :
    (iblk1 V c 3 t : Vec Ideal S1x64 .f32) = (V c main_v11 : Mat 1 64) := by
  obtain ⟨-, -, -, -, -, -, e0, e1, -⟩ := index1 t
  funext y
  unfold iblk1
  rw [View.read_apply]
  show V c main_v11 _ = V c main_v11 _
  congr 1
  funext a
  apply Fin.ext
  match a with
  | ⟨0, _⟩ => show win1_3.index t 0 * 1 + 1 * (y 0).val = (y 0).val; rw [e0]; omega
  | ⟨1, _⟩ => show win1_3.index t 1 * 64 + 1 * (y 1).val = (y 1).val; rw [e1]; omega

/-- What point t writes back is block t of the node map of the whole arrays. -/
theorem flushed1_eq (c : Dev nD) (t : Fin cfg1.N) :
    (dat1 (F := Ideal) V c).flushed 4 t = ((cfg1.win 4).blk t).view.read (Elt Ideal)
      (nodeF 50000 (V c main_arg0) (V c main_v10) (V c main_arg6) (fun j => (V c main_v11 : Mat 1 64) (ix2 0 j))) := by
  show (cfg1.win 4).cut (grid1.coords t) ((dat1 V c).after 4 t) = _
  rw [after1_4]
  unfold out1_4
  rw [View.canon_unit_zero node_off_zero]
  simp only [View.ld_unit_zero (S := S5000x64) node_off_zero, View.ld_unit_zero (S := S5000x32) node_off_zero,
    View.ld_unit_zero (S := S96x64) node_off_zero, View.ld_unit_zero (S := S1x64) node_off_zero]
  obtain ⟨-, -, -, -, -, -, -, -, e0, e1⟩ := index1 t
  refine funext fun (j : S5000x64.Idx) => ?_
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (ix2 p q)
    = nodeF 50000 (V c main_arg0) (V c main_v10) (V c main_arg6) (fun j => (V c main_v11 : Mat 1 64) (ix2 0 j))
        (((cfg1.win 4).blk t).view.emb (ix2 p q))
  have hemb : ((cfg1.win 4).blk t).view.emb (ix2 p q)
      = (ix2 ⟨5000 * t.val + p.val, node_row_lt t p⟩ q : (⟨2, ![50000, 64]⟩ : Shape).Idx) := by
    funext a
    apply Fin.ext
    match a with
    | ⟨0, _⟩ => show win1_4.index t 0 * 5000 + 1 * p.val = 5000 * t.val + p.val; rw [e0]; omega
    | ⟨1, _⟩ => show win1_4.index t 1 * 64 + 1 * q.val = q.val; rw [e1]; omega
  rw [hemb, nodeF_apply]
  refine (k1_pay1_apply _ _ _ _ p q).trans ?_
  simp only [iblk1_0_apply, iblk1_1_apply, iblk1_2_eq, iblk1_3_eq]

/-- An entry of the output array lies in point t's block iff each coordinate lies in the block's range on its axis. -/
theorem mem_blk1 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v12).slice (win1_4.rect t)).set ↔ _
  rw [View.set_slice_whole, Rect.mem_set_unit]
  exact Iff.rfl

/-- The 10 blocks of 5000 rows tile the 50000 rows: row r lies in block r / 5000. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, e0, e1⟩ := index1 t
  refine ⟨t, flush1_4 t, ?_⟩
  rw [mem_blk1]
  intro a
  match a with
  | ⟨0, _⟩ =>
    show win1_4.index t 0 * 5000 ≤ (i 0).val ∧ (i 0).val < win1_4.index t 0 * 5000 + 5000
    rw [e0, ht]; omega
  | ⟨1, _⟩ =>
    show win1_4.index t 1 * 64 ≤ (i 1).val ∧ (i 1).val < win1_4.index t 1 * 64 + 64
    rw [e1]; omega

/-- After call 1 its output array holds, row by row, the node map of its input arrays. -/
theorem region1_value (c : Dev nD) :
    ((dat1 (F := Ideal) V c).arrAt 4 cfg1.N : Mat 50000 64)
      = nodeF 50000 (V c main_arg0) (V c main_v10) (V c main_arg6) (fun j => (V c main_v11 : Mat 1 64) (ix2 0 j)) :=
  (dat1 V c).arrAt_eq_of_cover 4 _ (fun t _ => flushed1_eq V c t) cover1

/-! ## The second node call: what a block of 5000 nodes writes back, and the whole array -/

/-- The block index of each window of the call at grid point t: the node windows move with t along the rows, the
    weights and the bias stay at block 0. -/
theorem index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The block of the node features at point t, at (p, k): row 5000·t + p of the array. -/
theorem iblk3_0_apply (c : Dev nD) (t : Fin cfg3.N) (p : Fin 5000) (k : Fin 64) :
    (iblk3 V c 0 t : Vec Ideal S5000x64 .f32) (ix2 p k)
      = (V c main_v12 : Mat 50000 64) (ix2 ⟨5000 * t.val + p.val, node_row_lt t p⟩ k) := by
  obtain ⟨e0, e1, -⟩ := index3 t
  unfold iblk3
  rw [View.read_apply]
  show V c main_v12 _ = V c main_v12 _
  congr 1
  funext a
  apply Fin.ext
  match a with
  | ⟨0, _⟩ => show win3_0.index t 0 * 5000 + 1 * p.val = 5000 * t.val + p.val; rw [e0]; omega
  | ⟨1, _⟩ => show win3_0.index t 1 * 64 + 1 * k.val = k.val; rw [e1]; omega

/-- The block of the summed messages at point t, at (p, k): row 5000·t + p of the array. -/
theorem iblk3_1_apply (c : Dev nD) (t : Fin cfg3.N) (p : Fin 5000) (k : Fin 32) :
    (iblk3 V c 1 t : Vec Ideal S5000x32 .f32) (ix2 p k)
      = (V c main_v19 : Mat 50000 32) (ix2 ⟨5000 * t.val + p.val, node_row_lt t p⟩ k) := by
  obtain ⟨-, -, e0, e1, -⟩ := index3 t
  unfold iblk3
  rw [View.read_apply]
  show V c main_v19 _ = V c main_v19 _
  congr 1
  funext a
  apply Fin.ext
  match a with
  | ⟨0, _⟩ => show win3_1.index t 0 * 5000 + 1 * p.val = 5000 * t.val + p.val; rw [e0]; omega
  | ⟨1, _⟩ => show win3_1.index t 1 * 32 + 1 * k.val = k.val; rw [e1]; omega

/-- The weights' block at any point is the whole weight matrix. -/
theorem iblk3_2_eq (c : Dev nD) (t : Fin cfg3.N) :
    (iblk3 V c 2 t : Vec Ideal S96x64 .f32) = (V c main_arg10 : Mat 96 64) := by
  obtain ⟨-, -, -, -, e0, e1, -⟩ := index3 t
  funext y
  unfold iblk3
  rw [View.read_apply]
  show V c main_arg10 _ = V c main_arg10 _
  congr 1
  funext a
  apply Fin.ext
  match a with
  | ⟨0, _⟩ => show win3_2.index t 0 * 96 + 1 * (y 0).val = (y 0).val; rw [e0]; omega
  | ⟨1, _⟩ => show win3_2.index t 1 * 64 + 1 * (y 1).val = (y 1).val; rw [e1]; omega

/-- The bias block at any point is the whole bias row. -/
theorem iblk3_3_eq (c : Dev nD) (t : Fin cfg3.N) :
    (iblk3 V c 3 t : Vec Ideal S1x64 .f32) = (V c main_v20 : Mat 1 64) := by
  obtain ⟨-, -, -, -, -, -, e0, e1, -⟩ := index3 t
  funext y
  unfold iblk3
  rw [View.read_apply]
  show V c main_v20 _ = V c main_v20 _
  congr 1
  funext a
  apply Fin.ext
  match a with
  | ⟨0, _⟩ => show win3_3.index t 0 * 1 + 1 * (y 0).val = (y 0).val; rw [e0]; omega
  | ⟨1, _⟩ => show win3_3.index t 1 * 64 + 1 * (y 1).val = (y 1).val; rw [e1]; omega

/-- What point t writes back is block t of the node map of the whole arrays. -/
theorem flushed3_eq (c : Dev nD) (t : Fin cfg3.N) :
    (dat3 (F := Ideal) V c).flushed 4 t = ((cfg3.win 4).blk t).view.read (Elt Ideal)
      (nodeF 50000 (V c main_v12) (V c main_v19) (V c main_arg10) (fun j => (V c main_v20 : Mat 1 64) (ix2 0 j))) := by
  show (cfg3.win 4).cut (grid3.coords t) ((dat3 V c).after 4 t) = _
  rw [after3_4]
  unfold out3_4
  rw [View.canon_unit_zero node_off_zero]
  simp only [View.ld_unit_zero (S := S5000x64) node_off_zero, View.ld_unit_zero (S := S5000x32) node_off_zero,
    View.ld_unit_zero (S := S96x64) node_off_zero, View.ld_unit_zero (S := S1x64) node_off_zero]
  obtain ⟨-, -, -, -, -, -, -, -, e0, e1⟩ := index3 t
  refine funext fun (j : S5000x64.Idx) => ?_
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (iblk3 V c 3 t) (ix2 p q)
    = nodeF 50000 (V c main_v12) (V c main_v19) (V c main_arg10) (fun j => (V c main_v20 : Mat 1 64) (ix2 0 j))
        (((cfg3.win 4).blk t).view.emb (ix2 p q))
  have hemb : ((cfg3.win 4).blk t).view.emb (ix2 p q)
      = (ix2 ⟨5000 * t.val + p.val, node_row_lt t p⟩ q : (⟨2, ![50000, 64]⟩ : Shape).Idx) := by
    funext a
    apply Fin.ext
    match a with
    | ⟨0, _⟩ => show win3_4.index t 0 * 5000 + 1 * p.val = 5000 * t.val + p.val; rw [e0]; omega
    | ⟨1, _⟩ => show win3_4.index t 1 * 64 + 1 * q.val = q.val; rw [e1]; omega
  rw [hemb, nodeF_apply]
  refine (k3_pay1_apply _ _ _ _ p q).trans ?_
  simp only [iblk3_0_apply, iblk3_1_apply, iblk3_2_eq, iblk3_3_eq]

/-- An entry of the output array lies in point t's block iff each coordinate lies in the block's range on its axis. -/
theorem mem_blk3 (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v21).slice (win3_4.rect t)).set ↔ _
  rw [View.set_slice_whole, Rect.mem_set_unit]
  exact Iff.rfl

/-- The 10 blocks of 5000 rows tile the 50000 rows: row r lies in block r / 5000. -/
theorem cover3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, -, -, -, -, e0, e1⟩ := index3 t
  refine ⟨t, flush3_4 t, ?_⟩
  rw [mem_blk3]
  intro a
  match a with
  | ⟨0, _⟩ =>
    show win3_4.index t 0 * 5000 ≤ (i 0).val ∧ (i 0).val < win3_4.index t 0 * 5000 + 5000
    rw [e0, ht]; omega
  | ⟨1, _⟩ =>
    show win3_4.index t 1 * 64 ≤ (i 1).val ∧ (i 1).val < win3_4.index t 1 * 64 + 64
    rw [e1]; omega

/-- After call 3 its output array holds, row by row, the node map of its input arrays. -/
theorem region3_value (c : Dev nD) :
    ((dat3 (F := Ideal) V c).arrAt 4 cfg3.N : Mat 50000 64)
      = nodeF 50000 (V c main_v12) (V c main_v19) (V c main_arg10) (fun j => (V c main_v20 : Mat 1 64) (ix2 0 j)) :=
  (dat3 V c).arrAt_eq_of_cover 4 _ (fun t _ => flushed3_eq V c t) cover3

/-! ## The third node call: what a block of 5000 nodes writes back, and the whole array -/

/-- The block index of each window of the call at grid point t: the node windows move with t along the rows, the
    weights and the bias stay at block 0. -/
theorem index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The block of the node features at point t, at (p, k): row 5000·t + p of the array. -/
theorem iblk5_0_apply (c : Dev nD) (t : Fin cfg5.N) (p : Fin 5000) (k : Fin 64) :
    (iblk5 V c 0 t : Vec Ideal S5000x64 .f32) (ix2 p k)
      = (V c main_v21 : Mat 50000 64) (ix2 ⟨5000 * t.val + p.val, node_row_lt t p⟩ k) := by
  obtain ⟨e0, e1, -⟩ := index5 t
  unfold iblk5
  rw [View.read_apply]
  show V c main_v21 _ = V c main_v21 _
  congr 1
  funext a
  apply Fin.ext
  match a with
  | ⟨0, _⟩ => show win5_0.index t 0 * 5000 + 1 * p.val = 5000 * t.val + p.val; rw [e0]; omega
  | ⟨1, _⟩ => show win5_0.index t 1 * 64 + 1 * k.val = k.val; rw [e1]; omega

/-- The block of the summed messages at point t, at (p, k): row 5000·t + p of the array. -/
theorem iblk5_1_apply (c : Dev nD) (t : Fin cfg5.N) (p : Fin 5000) (k : Fin 32) :
    (iblk5 V c 1 t : Vec Ideal S5000x32 .f32) (ix2 p k)
      = (V c main_v28 : Mat 50000 32) (ix2 ⟨5000 * t.val + p.val, node_row_lt t p⟩ k) := by
  obtain ⟨-, -, e0, e1, -⟩ := index5 t
  unfold iblk5
  rw [View.read_apply]
  show V c main_v28 _ = V c main_v28 _
  congr 1
  funext a
  apply Fin.ext
  match a with
  | ⟨0, _⟩ => show win5_1.index t 0 * 5000 + 1 * p.val = 5000 * t.val + p.val; rw [e0]; omega
  | ⟨1, _⟩ => show win5_1.index t 1 * 32 + 1 * k.val = k.val; rw [e1]; omega

/-- The weights' block at any point is the whole weight matrix. -/
theorem iblk5_2_eq (c : Dev nD) (t : Fin cfg5.N) :
    (iblk5 V c 2 t : Vec Ideal S96x64 .f32) = (V c main_arg14 : Mat 96 64) := by
  obtain ⟨-, -, -, -, e0, e1, -⟩ := index5 t
  funext y
  unfold iblk5
  rw [View.read_apply]
  show V c main_arg14 _ = V c main_arg14 _
  congr 1
  funext a
  apply Fin.ext
  match a with
  | ⟨0, _⟩ => show win5_2.index t 0 * 96 + 1 * (y 0).val = (y 0).val; rw [e0]; omega
  | ⟨1, _⟩ => show win5_2.index t 1 * 64 + 1 * (y 1).val = (y 1).val; rw [e1]; omega

/-- The bias block at any point is the whole bias row. -/
theorem iblk5_3_eq (c : Dev nD) (t : Fin cfg5.N) :
    (iblk5 V c 3 t : Vec Ideal S1x64 .f32) = (V c main_v29 : Mat 1 64) := by
  obtain ⟨-, -, -, -, -, -, e0, e1, -⟩ := index5 t
  funext y
  unfold iblk5
  rw [View.read_apply]
  show V c main_v29 _ = V c main_v29 _
  congr 1
  funext a
  apply Fin.ext
  match a with
  | ⟨0, _⟩ => show win5_3.index t 0 * 1 + 1 * (y 0).val = (y 0).val; rw [e0]; omega
  | ⟨1, _⟩ => show win5_3.index t 1 * 64 + 1 * (y 1).val = (y 1).val; rw [e1]; omega

/-- What point t writes back is block t of the node map of the whole arrays. -/
theorem flushed5_eq (c : Dev nD) (t : Fin cfg5.N) :
    (dat5 (F := Ideal) V c).flushed 4 t = ((cfg5.win 4).blk t).view.read (Elt Ideal)
      (nodeF 50000 (V c main_v21) (V c main_v28) (V c main_arg14) (fun j => (V c main_v29 : Mat 1 64) (ix2 0 j))) := by
  show (cfg5.win 4).cut (grid5.coords t) ((dat5 V c).after 4 t) = _
  rw [after5_4]
  unfold out5_4
  rw [View.canon_unit_zero node_off_zero]
  simp only [View.ld_unit_zero (S := S5000x64) node_off_zero, View.ld_unit_zero (S := S5000x32) node_off_zero,
    View.ld_unit_zero (S := S96x64) node_off_zero, View.ld_unit_zero (S := S1x64) node_off_zero]
  obtain ⟨-, -, -, -, -, -, -, -, e0, e1⟩ := index5 t
  refine funext fun (j : S5000x64.Idx) => ?_
  obtain ⟨p, q, rfl⟩ : ∃ (p : Fin 5000) (q : Fin 64), j = ix2 p q := ⟨j 0, j 1, eq_ix2 j⟩
  show k5_pay1 (F := Ideal) (iblk5 V c 0 t) (iblk5 V c 1 t) (iblk5 V c 2 t) (iblk5 V c 3 t) (ix2 p q)
    = nodeF 50000 (V c main_v21) (V c main_v28) (V c main_arg14) (fun j => (V c main_v29 : Mat 1 64) (ix2 0 j))
        (((cfg5.win 4).blk t).view.emb (ix2 p q))
  have hemb : ((cfg5.win 4).blk t).view.emb (ix2 p q)
      = (ix2 ⟨5000 * t.val + p.val, node_row_lt t p⟩ q : (⟨2, ![50000, 64]⟩ : Shape).Idx) := by
    funext a
    apply Fin.ext
    match a with
    | ⟨0, _⟩ => show win5_4.index t 0 * 5000 + 1 * p.val = 5000 * t.val + p.val; rw [e0]; omega
    | ⟨1, _⟩ => show win5_4.index t 1 * 64 + 1 * q.val = q.val; rw [e1]; omega
  rw [hemb, nodeF_apply]
  refine (k5_pay1_apply _ _ _ _ p q).trans ?_
  simp only [iblk5_0_apply, iblk5_1_apply, iblk5_2_eq, iblk5_3_eq]

/-- An entry of the output array lies in point t's block iff each coordinate lies in the block's range on its axis. -/
theorem mem_blk5 (t : Fin cfg5.N) (i : S50000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v30).slice (win5_4.rect t)).set ↔ _
  rw [View.set_slice_whole, Rect.mem_set_unit]
  exact Iff.rfl

/-- The 10 blocks of 5000 rows tile the 50000 rows: row r lies in block r / 5000. -/
theorem cover5 (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  obtain ⟨t, ht⟩ : ∃ t : Fin cfg5.N, t.val = (i 0).val / 5000 :=
    ⟨⟨(i 0).val / 5000, by rw [show cfg5.N = 10 from N_5]; omega⟩, rfl⟩
  obtain ⟨-, -, -, -, -, -, -, -, e0, e1⟩ := index5 t
  refine ⟨t, flush5_4 t, ?_⟩
  rw [mem_blk5]
  intro a
  match a with
  | ⟨0, _⟩ =>
    show win5_4.index t 0 * 5000 ≤ (i 0).val ∧ (i 0).val < win5_4.index t 0 * 5000 + 5000
    rw [e0, ht]; omega
  | ⟨1, _⟩ =>
    show win5_4.index t 1 * 64 ≤ (i 1).val ∧ (i 1).val < win5_4.index t 1 * 64 + 64
    rw [e1]; omega

/-- After call 5 its output array holds, row by row, the node map of its input arrays. -/
theorem region5_value (c : Dev nD) :
    ((dat5 (F := Ideal) V c).arrAt 4 cfg5.N : Mat 50000 64)
      = nodeF 50000 (V c main_v21) (V c main_v28) (V c main_arg14) (fun j => (V c main_v29 : Mat 1 64) (ix2 0 j)) :=
  (dat5 V c).arrAt_eq_of_cover 4 _ (fun t _ => flushed5_eq V c t) cover5

end Cert.KernelIdeal.Val

end
-- ==== Proof.KLayer1.lean ====
/-
  Layer 1 of the kernel program, read through the boundaries of @main: from the buffer contents at the layer's entry
  to those at its exit. The two lookups and the reshaped bias are host lines; the message call leaves the message map of
  its arrays; the accumulation and the second reshaped bias are host lines; the node call leaves the node map of its
  arrays. Buffers the layer does not write keep their contents.
-/
import proofs.«431247_j30262339568087_2_alg».proof.Proof.Gen.KernelIdeal.Frame
import proofs.«431247_j30262339568087_2_alg».proof.Proof.KDefs
import proofs.«431247_j30262339568087_2_alg».proof.Proof.KEdge
import proofs.«431247_j30262339568087_2_alg».proof.Proof.KNode
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem Cert.Spec Idealize.ShloMosaic.StableHlo

variable (m : (ℓ : Loc nD τ sig) → Buf (Elt Ideal) ℓ) (ρ : Dev nD → PrngReg)

namespace Layer1

/-! ## Which buffers each host stretch writes -/

/-- The buffers the two slices and their reshapes write. -/
abbrev wr0 : List (Ref sig .tc) := [main_v0, main_v1, main_v2, main_v3]
/-- The buffers the lookup by source node writes. -/
abbrev wr0_1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
/-- The buffers the lookup by target node writes. -/
abbrev wr0_2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
/-- The buffer the reshape of the message bias writes. -/
abbrev wr0_3 : List (Ref sig .tc) := [main_v6]
/-- The buffers the accumulation and the reshape of the node bias write. -/
abbrev wr1 : List (Ref sig .tc) := [main_cst, main_v8, main_v9, main_v10, main_v11]

theorem wr0_sub : (hostOps0 : List (HloOp τ sig (Elt Ideal))).Forall fun op => op.writes ⊆ (wr0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
theorem wr0_1_sub : (hostOps0_1 : List (HloOp τ sig (Elt Ideal))).Forall fun op => op.writes ⊆ (wr0_1.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
theorem wr0_2_sub : (hostOps0_2 : List (HloOp τ sig (Elt Ideal))).Forall fun op => op.writes ⊆ (wr0_2.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
theorem wr0_3_sub : (hostOps0_3 : List (HloOp τ sig (Elt Ideal))).Forall fun op => op.writes ⊆ (wr0_3.map (Proc.devRef (τ := τ) .tc)).toFinset := by
  simp only [hostOps0_3, List.Forall]
  simp only [StableHlo.nullary_writes, StableHlo.unary_writes, StableHlo.binary_writes, StableHlo.ternary_writes, StableHlo.quaternary_writes, StableHlo.reshape_writes, Finset.singleton_subset_iff, List.mem_toFinset]; exact List.mem_map_of_mem (by decide)
theorem wr1_sub : (hostOps1 : List (HloOp τ sig (Elt Ideal))).Forall fun op => op.writes ⊆ (wr1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-! ## A buffer a stretch does not write keeps its contents -/

theorem W1_of (c : Dev nD) (r : Ref sig .tc) (h : r ∉ wr0) : W1 m ρ c (Proc.devRef .tc r) = W0 m ρ c (Proc.devRef .tc r) :=
  StableHlo.after_of_writes_sub hostOps0 _ wr0_sub h
theorem W2_of (c : Dev nD) (r : Ref sig .tc) (h : r ∉ wr0_1) : W2 m ρ c (Proc.devRef .tc r) = W1 m ρ c (Proc.devRef .tc r) :=
  StableHlo.after_of_writes_sub hostOps0_1 _ wr0_1_sub h
theorem W3_of (c : Dev nD) (r : Ref sig .tc) (h : r ∉ wr0_2) : W3 m ρ c (Proc.devRef .tc r) = W2 m ρ c (Proc.devRef .tc r) :=
  StableHlo.after_of_writes_sub hostOps0_2 _ wr0_2_sub h
theorem W4_of (c : Dev nD) (r : Ref sig .tc) (h : r ∉ wr0_3) : W4 m ρ c (Proc.devRef .tc r) = W3 m ρ c (Proc.devRef .tc r) :=
  StableHlo.after_of_writes_sub hostOps0_3 _ wr0_3_sub h
theorem W6_of (c : Dev nD) (r : Ref sig .tc) (h : r ∉ wr1) : W6 m ρ c (Proc.devRef .tc r) = W5 m ρ c (Proc.devRef .tc r) :=
  StableHlo.after_of_writes_sub hostOps1 _ wr1_sub h

/-- The arrays of the message call. -/
abbrev arr0 : List (Ref sig .tc) := [main_v4, main_v5, main_arg2, main_arg4, main_v6, main_v7]
/-- The arrays of the node call. -/
abbrev arr1 : List (Ref sig .tc) := [main_arg0, main_v10, main_arg6, main_v11, main_v12]

theorem arr0_mem : ∀ w : Fin cfg0.W, Pipeline.arrRef spec0 w ∈ arr0 := by decide
theorem arr1_mem : ∀ w : Fin cfg1.W, Pipeline.arrRef spec1 w ∈ arr1 := by decide

theorem W5_of (c : Dev nD) (r : Ref sig .tc) (h : r ∉ arr0) : W5 m ρ c (Proc.devRef .tc r) = W4 m ρ c (Proc.devRef .tc r) :=
  W5_of_ne m ρ c r fun w e => h (e ▸ arr0_mem w)
theorem W7_of (c : Dev nD) (r : Ref sig .tc) (h : r ∉ arr1) : W7 m ρ c (Proc.devRef .tc r) = W6 m ρ c (Proc.devRef .tc r) :=
  W7_of_ne m ρ c r fun w e => h (e ▸ arr1_mem w)

/-- An array the message call only reads is left as entered. -/
theorem W5_main_arg2 (c : Dev nD) : W5 m ρ c (Proc.devRef .tc main_arg2) = W4 m ρ c (Proc.devRef .tc main_arg2) :=
  (W5_arr m ρ c 2).trans (((dat0 (V4 m ρ) c).arrAt_in 2 rfl _).trans (A_eq0 (V4 m ρ) c 2))

/-- From the layer's entry to the message call's entry. -/
theorem W4_keep (c : Dev nD) (r : Ref sig .tc) (h : r ∉ wr0 ++ wr0_1 ++ wr0_2 ++ wr0_3) :
    W4 m ρ c (Proc.devRef .tc r) = W0 m ρ c (Proc.devRef .tc r) := by
  simp only [List.mem_append, not_or] at h
  rw [W4_of m ρ c r h.2, W3_of m ρ c r h.1.2, W2_of m ρ c r h.1.1.2, W1_of m ρ c r h.1.1.1]

/-- From the message call's entry to the layer's exit. -/
theorem W7_keep (c : Dev nD) (r : Ref sig .tc) (h : r ∉ arr0 ++ wr1 ++ arr1) :
    W7 m ρ c (Proc.devRef .tc r) = W4 m ρ c (Proc.devRef .tc r) := by
  simp only [List.mem_append, not_or] at h
  rw [W7_of m ρ c r h.2, W6_of m ρ c r h.1.2, W5_of m ρ c r h.1.1]

/-! ## What each stretch leaves in the buffers it writes -/

theorem W1_v1 (c : Dev nD) : W1 m ρ c (Proc.devRef .tc main_v1) = srcK (W0 m ρ c (Proc.devRef .tc main_arg1)) := by
  show StableHlo.after hostOps0 (W0 m ρ c) (Proc.devRef .tc main_v1) = _
  simp only [hostOps0]
  after_results
  rfl

theorem W1_v3 (c : Dev nD) : W1 m ρ c (Proc.devRef .tc main_v3) = dstK (W0 m ρ c (Proc.devRef .tc main_arg1)) := by
  show StableHlo.after hostOps0 (W0 m ρ c) (Proc.devRef .tc main_v3) = _
  simp only [hostOps0]
  after_results
  rfl

/-- Moving a value along an equation of types and back gives the value. -/
theorem cast_cast_id {α β : Type} (h : α = β) (h' : β = α) (v : α) : cast h' (cast h v) = v := by
  subst h; rfl

/-! The lookups, over any contents at their entry: the stretch's operations composed are the checked row lookup. -/

theorem take0_value (V : Valuation τ sig (Elt Ideal)) :
    StableHlo.after hostOps0_1 V (Proc.devRef .tc main_v4) = takeK (V (Proc.devRef .tc main_arg0)) (V (Proc.devRef .tc main_v1)) := by
  simp only [hostOps0_1]
  after_results_simp
  simp only [TRef.toBuf, TRef.ofBuf, cast_cast_id]
  simp only [cast_eq]
  rfl

theorem take1_value (V : Valuation τ sig (Elt Ideal)) :
    StableHlo.after hostOps0_2 V (Proc.devRef .tc main_v5) = takeK (V (Proc.devRef .tc main_arg0)) (V (Proc.devRef .tc main_v3)) := by
  simp only [hostOps0_2]
  after_results_simp
  simp only [TRef.toBuf, TRef.ofBuf, cast_cast_id]
  simp only [cast_eq]
  rfl

theorem W2_v4 (c : Dev nD) :
    W2 m ρ c (Proc.devRef .tc main_v4) = takeK (W1 m ρ c (Proc.devRef .tc main_arg0)) (W1 m ρ c (Proc.devRef .tc main_v1)) :=
  take0_value (W1 m ρ c)

theorem W3_v5 (c : Dev nD) :
    W3 m ρ c (Proc.devRef .tc main_v5) = takeK (W2 m ρ c (Proc.devRef .tc main_arg0)) (W2 m ρ c (Proc.devRef .tc main_v3)) :=
  take1_value (W2 m ρ c)

theorem W4_v6 (c : Dev nD) :
    W4 m ρ c (Proc.devRef .tc main_v6) = shapeCast S1x32 (W3 m ρ c (Proc.devRef .tc main_arg5)) shapeCasts_S32_S1x32 := by
  show StableHlo.after hostOps0_3 (W3 m ρ c) (Proc.devRef .tc main_v6) = _
  simp only [hostOps0_3]
  after_results
  rfl

theorem W6_v10 (c : Dev nD) :
    W6 m ρ c (Proc.devRef .tc main_v10) = aggK (W5 m ρ c (Proc.devRef .tc main_v1)) (W5 m ρ c (Proc.devRef .tc main_v7)) := by
  show StableHlo.after hostOps1 (W5 m ρ c) (Proc.devRef .tc main_v10) = _
  simp only [hostOps1]
  after_results
  rfl

theorem W6_v11 (c : Dev nD) :
    W6 m ρ c (Proc.devRef .tc main_v11) = shapeCast S1x64 (W5 m ρ c (Proc.devRef .tc main_arg7)) shapeCasts_S64_S1x64 := by
  show StableHlo.after hostOps1 (W5 m ρ c) (Proc.devRef .tc main_v11) = _
  simp only [hostOps1]
  after_results
  rfl

/-! ## The two calls -/

/-- The message call leaves the message map of its arrays in its output. -/
theorem W5_v7 (c : Dev nD) :
    W5 m ρ c (Proc.devRef .tc main_v7)
      = edgeF 800000 (W4 m ρ c (Proc.devRef .tc main_v4)) (W4 m ρ c (Proc.devRef .tc main_v5)) (W4 m ρ c (Proc.devRef .tc main_arg2))
          (W4 m ρ c (Proc.devRef .tc main_arg4)) (fun j => (W4 m ρ c (Proc.devRef .tc main_v6) : Mat 1 32) (ix2 0 j)) :=
  (W5_arr m ρ c 5).trans (region0_value (V4 m ρ) c)

/-- The node call leaves the node map of its arrays in its output. -/
theorem W7_v12 (c : Dev nD) :
    W7 m ρ c (Proc.devRef .tc main_v12)
      = nodeF 50000 (W6 m ρ c (Proc.devRef .tc main_arg0)) (W6 m ρ c (Proc.devRef .tc main_v10)) (W6 m ρ c (Proc.devRef .tc main_arg6))
          (fun j => (W6 m ρ c (Proc.devRef .tc main_v11) : Mat 1 64) (ix2 0 j)) :=
  (W7_arr m ρ c 4).trans (region1_value (V6 m ρ) c)

/-! ## The contents at the two calls' entries, in the contents at the layer's entry -/

theorem W4_v1 (c : Dev nD) : W4 m ρ c (Proc.devRef .tc main_v1) = srcK (W0 m ρ c (Proc.devRef .tc main_arg1)) := by
  rw [W4_of m ρ c _ (by decide), W3_of m ρ c _ (by decide), W2_of m ρ c _ (by decide), W1_v1]

theorem W4_v3 (c : Dev nD) : W4 m ρ c (Proc.devRef .tc main_v3) = dstK (W0 m ρ c (Proc.devRef .tc main_arg1)) := by
  rw [W4_of m ρ c _ (by decide), W3_of m ρ c _ (by decide), W2_of m ρ c _ (by decide), W1_v3]

theorem W4_v4 (c : Dev nD) :
    W4 m ρ c (Proc.devRef .tc main_v4)
      = takeK (W0 m ρ c (Proc.devRef .tc main_arg0)) (srcK (W0 m ρ c (Proc.devRef .tc main_arg1))) := by
  rw [W4_of m ρ c _ (by decide), W3_of m ρ c _ (by decide), W2_v4, W1_of m ρ c main_arg0 (by decide), W1_v1]

theorem W4_v5 (c : Dev nD) :
    W4 m ρ c (Proc.devRef .tc main_v5)
      = takeK (W0 m ρ c (Proc.devRef .tc main_arg0)) (dstK (W0 m ρ c (Proc.devRef .tc main_arg1))) := by
  rw [W4_of m ρ c _ (by decide), W3_v5, W2_of m ρ c main_arg0 (by decide), W1_of m ρ c main_arg0 (by decide),
    W2_of m ρ c main_v3 (by decide), W1_v3]

theorem W4_v6' (c : Dev nD) :
    W4 m ρ c (Proc.devRef .tc main_v6) = shapeCast S1x32 (W0 m ρ c (Proc.devRef .tc main_arg5)) shapeCasts_S32_S1x32 := by
  rw [W4_v6, W3_of m ρ c _ (by decide), W2_of m ρ c _ (by decide), W1_of m ρ c _ (by decide)]

/-- The messages of layer 1. -/
theorem W5_msg (c : Dev nD) :
    W5 m ρ c (Proc.devRef .tc main_v7)
      = msgK (W0 m ρ c (Proc.devRef .tc main_arg0)) (srcK (W0 m ρ c (Proc.devRef .tc main_arg1))) (dstK (W0 m ρ c (Proc.devRef .tc main_arg1)))
          (W0 m ρ c (Proc.devRef .tc main_arg2)) (W0 m ρ c (Proc.devRef .tc main_arg4)) (W0 m ρ c (Proc.devRef .tc main_arg5)) := by
  rw [W5_v7, W4_v4, W4_v5, W4_v6', W4_keep m ρ c main_arg2 (by decide), W4_keep m ρ c main_arg4 (by decide)]
  rfl

theorem W6_v10' (c : Dev nD) :
    W6 m ρ c (Proc.devRef .tc main_v10)
      = aggK (srcK (W0 m ρ c (Proc.devRef .tc main_arg1)))
          (msgK (W0 m ρ c (Proc.devRef .tc main_arg0)) (srcK (W0 m ρ c (Proc.devRef .tc main_arg1))) (dstK (W0 m ρ c (Proc.devRef .tc main_arg1)))
            (W0 m ρ c (Proc.devRef .tc main_arg2)) (W0 m ρ c (Proc.devRef .tc main_arg4)) (W0 m ρ c (Proc.devRef .tc main_arg5))) := by
  rw [W6_v10, W5_msg, W5_of m ρ c main_v1 (by decide), W4_v1]

theorem W6_v11' (c : Dev nD) :
    W6 m ρ c (Proc.devRef .tc main_v11) = shapeCast S1x64 (W0 m ρ c (Proc.devRef .tc main_arg7)) shapeCasts_S64_S1x64 := by
  rw [W6_v11, W5_of m ρ c _ (by decide), W4_keep m ρ c _ (by decide)]

theorem W6_keep (c : Dev nD) (r : Ref sig .tc) (h : r ∉ wr0 ++ wr0_1 ++ wr0_2 ++ wr0_3 ++ arr0 ++ wr1) :
    W6 m ρ c (Proc.devRef .tc r) = W0 m ρ c (Proc.devRef .tc r) := by
  simp only [List.mem_append, not_or] at h
  rw [W6_of m ρ c r h.2, W5_of m ρ c r h.1.2, W4_of m ρ c r h.1.1.2, W3_of m ρ c r h.1.1.1.2, W2_of m ρ c r h.1.1.1.1.2,
    W1_of m ρ c r h.1.1.1.1.1]

end Layer1

open Layer1

/-! ## Layer 1 -/

/-- Buffers that are read later and that no line of layer 1 writes. -/
def keep1 : List (Ref sig .tc) := [main_arg2, main_arg3, main_arg8, main_arg9, main_arg10, main_arg11, main_arg12, main_arg13, main_arg14, main_arg15, main_arg16, main_arg17, main_arg18, main_arg19, main_arg20, main_arg21, main_arg22, main_arg23, main_arg24, main_arg25]

theorem layer1_keep (c : Dev nD) (r : Ref sig .tc) (hr : r ∈ keep1) : W7 m ρ c (Proc.devRef .tc r) = W0 m ρ c (Proc.devRef .tc r) := by
  simp only [keep1, List.mem_cons, List.mem_singleton, List.not_mem_nil, or_false] at hr
  rcases hr with rfl | rfl | rfl | rfl | rfl | rfl | rfl | rfl | rfl | rfl | rfl | rfl | rfl | rfl | rfl | rfl | rfl | rfl | rfl | rfl
  · rw [W7_of m ρ c _ (by decide), W6_of m ρ c _ (by decide), W5_main_arg2, W4_keep m ρ c _ (by decide)]
  all_goals rw [W7_keep m ρ c _ (by decide), W4_keep m ρ c _ (by decide)]

/-- The source and target index vectors are cut out of the index array in this layer and stay. -/
theorem layer1_src (c : Dev nD) : W7 m ρ c (Proc.devRef .tc main_v1) = srcK (W0 m ρ c (Proc.devRef .tc main_arg1)) := by
  rw [W7_keep m ρ c _ (by decide), W4_v1]
theorem layer1_dst (c : Dev nD) : W7 m ρ c (Proc.devRef .tc main_v3) = dstK (W0 m ρ c (Proc.devRef .tc main_arg1)) := by
  rw [W7_keep m ρ c _ (by decide), W4_v3]

/-- The layer's output is the layer map of the contents at its entry. -/
theorem layer1_out (c : Dev nD) :
    W7 m ρ c (Proc.devRef .tc main_v12)
      = convK (W0 m ρ c (Proc.devRef .tc main_arg0)) (srcK (W0 m ρ c (Proc.devRef .tc main_arg1))) (dstK (W0 m ρ c (Proc.devRef .tc main_arg1))) (W0 m ρ c (Proc.devRef .tc main_arg2))
          (W0 m ρ c (Proc.devRef .tc main_arg4)) (W0 m ρ c (Proc.devRef .tc main_arg5)) (W0 m ρ c (Proc.devRef .tc main_arg6)) (W0 m ρ c (Proc.devRef .tc main_arg7)) := by
  rw [W7_v12, W6_v10', W6_v11', W6_keep m ρ c main_arg0 (by decide), W6_keep m ρ c main_arg6 (by decide)]
  rfl

end Cert.KernelIdeal.Val

end
-- ==== Proof.KLayer2.lean ====
/-
  Layer 2 of the kernel program, read through the boundaries of @main: from the buffer contents at the layer's entry
  to those at its exit. The two lookups and the reshaped bias are host lines; the message call leaves the message map of
  its arrays; the accumulation and the second reshaped bias are host lines; the node call leaves the node map of its
  arrays. Buffers the layer does not write keep their contents.
-/
import proofs.«431247_j30262339568087_2_alg».proof.Proof.Gen.KernelIdeal.Frame
import proofs.«431247_j30262339568087_2_alg».proof.Proof.KDefs
import proofs.«431247_j30262339568087_2_alg».proof.Proof.KEdge
import proofs.«431247_j30262339568087_2_alg».proof.Proof.KNode
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem Cert.Spec Idealize.ShloMosaic.StableHlo

variable (m : (ℓ : Loc nD τ sig) → Buf (Elt Ideal) ℓ) (ρ : Dev nD → PrngReg)

/-- Buffers that are read later and that no line of layer 2 writes. -/
def keep2 : List (Ref sig .tc) := [main_v1, main_v3, main_arg2, main_arg3, main_arg12, main_arg13, main_arg14, main_arg15, main_arg16, main_arg17, main_arg18, main_arg19, main_arg20, main_arg21, main_arg22, main_arg23, main_arg24, main_arg25]

namespace Layer2

/-! ## The references each stretch of the layer writes -/

/-- The lines of the lookup at the source indices. -/
def wrA : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v13]
/-- The lines of the lookup at the target indices. -/
def wrB : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v14]
/-- The reshaped message bias. -/
def wrC : List (Ref sig .tc) := [main_v15]
/-- The arrays of the message call. -/
def arrE : List (Ref sig .tc) := [main_v13, main_v14, main_arg2, main_arg8, main_v15, main_v16]
/-- The accumulation and the reshaped node bias. -/
def wrD : List (Ref sig .tc) := [main_cst_0, main_v17, main_v18, main_v19, main_v20]
/-- The arrays of the node call. -/
def arrN : List (Ref sig .tc) := [main_v12, main_v19, main_arg10, main_v20, main_v21]

theorem hostOps2_wr : (hostOps2 : List (HloOp τ sig (Elt Ideal))).Forall fun op => op.writes ⊆ (wrA.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

theorem hostOps2_1_wr : (hostOps2_1 : List (HloOp τ sig (Elt Ideal))).Forall fun op => op.writes ⊆ (wrB.map (Proc.devRef (τ := τ) .tc)).toFinset := by
  simp only [hostOps2_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

theorem hostOps2_2_wr : (hostOps2_2 : List (HloOp τ sig (Elt Ideal))).Forall fun op => op.writes ⊆ (wrC.map (Proc.devRef (τ := τ) .tc)).toFinset := by
  simp only [hostOps2_2, List.Forall]
  simp only [StableHlo.nullary_writes, StableHlo.unary_writes, StableHlo.binary_writes, StableHlo.ternary_writes, StableHlo.quaternary_writes, StableHlo.reshape_writes, Finset.singleton_subset_iff, List.mem_toFinset]; exact List.mem_map_of_mem (by decide)
theorem hostOps3_wr : (hostOps3 : List (HloOp τ sig (Elt Ideal))).Forall fun op => op.writes ⊆ (wrD.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

theorem arrE_mem : ∀ w : Fin cfg2.W, Pipeline.arrRef spec2 w ∈ arrE := by decide
theorem arrN_mem : ∀ w : Fin cfg3.W, Pipeline.arrRef spec3 w ∈ arrN := by decide

/-! ## A buffer a stretch does not write keeps its contents -/

theorem W8_keep (c : Dev nD) (r : Ref sig .tc) (h : r ∉ wrA) : W8 m ρ c (Proc.devRef .tc r) = W7 m ρ c (Proc.devRef .tc r) :=
  StableHlo.after_of_writes_sub hostOps2 _ hostOps2_wr h
theorem W9_keep (c : Dev nD) (r : Ref sig .tc) (h : r ∉ wrB) : W9 m ρ c (Proc.devRef .tc r) = W8 m ρ c (Proc.devRef .tc r) :=
  StableHlo.after_of_writes_sub hostOps2_1 _ hostOps2_1_wr h
theorem W10_keep (c : Dev nD) (r : Ref sig .tc) (h : r ∉ wrC) : W10 m ρ c (Proc.devRef .tc r) = W9 m ρ c (Proc.devRef .tc r) :=
  StableHlo.after_of_writes_sub hostOps2_2 _ hostOps2_2_wr h
theorem W11_keep (c : Dev nD) (r : Ref sig .tc) (h : r ∉ arrE) : W11 m ρ c (Proc.devRef .tc r) = W10 m ρ c (Proc.devRef .tc r) :=
  W11_of_ne m ρ c r fun w e => h (e ▸ arrE_mem w)
theorem W12_keep (c : Dev nD) (r : Ref sig .tc) (h : r ∉ wrD) : W12 m ρ c (Proc.devRef .tc r) = W11 m ρ c (Proc.devRef .tc r) :=
  StableHlo.after_of_writes_sub hostOps3 _ hostOps3_wr h
theorem W13_keep (c : Dev nD) (r : Ref sig .tc) (h : r ∉ arrN) : W13 m ρ c (Proc.devRef .tc r) = W12 m ρ c (Proc.devRef .tc r) :=
  W13_of_ne m ρ c r fun w e => h (e ▸ arrN_mem w)

/-- From the layer's entry to the message call's entry. -/
theorem W10_W7 (c : Dev nD) (r : Ref sig .tc) (hA : r ∉ wrA) (hB : r ∉ wrB) (hC : r ∉ wrC) :
    W10 m ρ c (Proc.devRef .tc r) = W7 m ρ c (Proc.devRef .tc r) :=
  (W10_keep m ρ c r hC).trans ((W9_keep m ρ c r hB).trans (W8_keep m ρ c r hA))

/-- An input array of the message call reads after the call as before it. -/
theorem W11_in (c : Dev nD) (w : Fin cfg2.W) (hin : (cfg2.win w).isOut = false) :
    W11 m ρ c (Proc.devRef .tc (Pipeline.arrRef spec2 w)) = W10 m ρ c (Proc.devRef .tc (Pipeline.arrRef spec2 w)) :=
  (W11_arr m ρ c w).trans (((dat2 (V10 m ρ) c).arrAt_in w hin _).trans (A_eq2 (V10 m ρ) c w))

/-- From the message call's entry to the layer's exit. -/
theorem W13_W10 (c : Dev nD) (r : Ref sig .tc) (hE : r ∉ arrE) (hD : r ∉ wrD) (hN : r ∉ arrN) :
    W13 m ρ c (Proc.devRef .tc r) = W10 m ρ c (Proc.devRef .tc r) :=
  (W13_keep m ρ c r hN).trans ((W12_keep m ρ c r hD).trans (W11_keep m ρ c r hE))

theorem keep2_cases : ∀ r ∈ keep2, r = main_arg2 ∨ (r ∉ wrA ∧ r ∉ wrB ∧ r ∉ wrC ∧ r ∉ arrE ∧ r ∉ wrD ∧ r ∉ arrN) := by decide

/-! ## What the host lines compute -/

/-- Contents moved to a buffer's own type and back are unchanged. -/
theorem ofBuf_toBuf {T : BufTy} (x : TRef sig T) (v : T.Contents (Elt Ideal)) : x.ofBuf (x.toBuf v) = v := by
  obtain ⟨r, rfl, h2, h3⟩ := x
  rfl

theorem ofBuf_v1 (v : IVec S800000 32) : (TRef.of (sig := sig) (T := ⟨S800000, .i32⟩) main_v1).ofBuf (Val := Elt Ideal) v = v := rfl
theorem ofBuf_v3 (v : IVec S800000 32) : (TRef.of (sig := sig) (T := ⟨S800000, .i32⟩) main_v3).ofBuf (Val := Elt Ideal) v = v := rfl
theorem ofBuf_v12 (v : FVec Ideal S50000x64 .f32) : (TRef.of (sig := sig) (T := ⟨S50000x64, .f32⟩) main_v12).ofBuf (Val := Elt Ideal) v = v := rfl
theorem toBuf_v13 (v : FVec Ideal S800000x64 .f32) : (TRef.of (sig := sig) (T := ⟨S800000x64, .f32⟩) main_v13).toBuf (Val := Elt Ideal) v = v := rfl
theorem toBuf_v14 (v : FVec Ideal S800000x64 .f32) : (TRef.of (sig := sig) (T := ⟨S800000x64, .f32⟩) main_v14).toBuf (Val := Elt Ideal) v = v := rfl

/-- The lookup at the source indices is the checked row lookup of the node features. -/
theorem take_A (F : Valuation τ sig (Elt Ideal)) :
    StableHlo.after hostOps2 F (Proc.devRef .tc main_v13) = takeK (F (Proc.devRef .tc main_v12)) (F (Proc.devRef .tc main_v1)) := by
  simp only [hostOps2]
  after_results_simp
  simp only [ofBuf_toBuf, ofBuf_v12, ofBuf_v1, toBuf_v13]
  unfold takeK inRangeK wrapK
  rfl

/-- The lookup at the target indices is the checked row lookup of the node features. -/
theorem take_B (F : Valuation τ sig (Elt Ideal)) :
    StableHlo.after hostOps2_1 F (Proc.devRef .tc main_v14) = takeK (F (Proc.devRef .tc main_v12)) (F (Proc.devRef .tc main_v3)) := by
  simp only [hostOps2_1]
  after_results_simp
  simp only [ofBuf_toBuf, ofBuf_v12, ofBuf_v3, toBuf_v14]
  unfold takeK inRangeK wrapK
  rfl

/-- The reshaped message bias, read as a row. -/
theorem row_C (F : Valuation τ sig (Elt Ideal)) :
    (fun j => (StableHlo.after hostOps2_2 F (Proc.devRef .tc main_v15) : Mat 1 32) (ix2 0 j)) = row32 (F (Proc.devRef .tc main_arg9)) := by
  simp only [hostOps2_2]
  after_results
  rfl

/-- The accumulation of the messages into their source rows. -/
theorem agg_D (F : Valuation τ sig (Elt Ideal)) :
    StableHlo.after hostOps3 F (Proc.devRef .tc main_v19) = aggK (F (Proc.devRef .tc main_v1)) (F (Proc.devRef .tc main_v16)) := by
  simp only [hostOps3]
  after_results
  rfl

/-- The reshaped node bias, read as a row. -/
theorem row_D (F : Valuation τ sig (Elt Ideal)) :
    (fun j => (StableHlo.after hostOps3 F (Proc.devRef .tc main_v20) : Mat 1 64) (ix2 0 j)) = row64 (F (Proc.devRef .tc main_arg11)) := by
  simp only [hostOps3]
  after_results
  rfl

/-! ## The two calls and the layer's output -/

/-- The node call's output, over the contents at its entry. -/
theorem W13_v21 (c : Dev nD) :
    W13 m ρ c (Proc.devRef .tc main_v21)
      = nodeF 50000 (W12 m ρ c (Proc.devRef .tc main_v12)) (W12 m ρ c (Proc.devRef .tc main_v19)) (W12 m ρ c (Proc.devRef .tc main_arg10))
          (fun j => (W12 m ρ c (Proc.devRef .tc main_v20) : Mat 1 64) (ix2 0 j)) :=
  (W13_arr m ρ c 4).trans (region3_value (V12 m ρ) c)

/-- The message call's output, over the contents at its entry. -/
theorem W11_v16 (c : Dev nD) :
    W11 m ρ c (Proc.devRef .tc main_v16)
      = edgeF 800000 (W10 m ρ c (Proc.devRef .tc main_v13)) (W10 m ρ c (Proc.devRef .tc main_v14)) (W10 m ρ c (Proc.devRef .tc main_arg2))
          (W10 m ρ c (Proc.devRef .tc main_arg8)) (fun j => (W10 m ρ c (Proc.devRef .tc main_v15) : Mat 1 32) (ix2 0 j)) :=
  (W11_arr m ρ c 5).trans (region2_value (V10 m ρ) c)

/-- The looked-up source rows at the message call's entry. -/
theorem W10_v13 (c : Dev nD) :
    W10 m ρ c (Proc.devRef .tc main_v13) = takeK (W7 m ρ c (Proc.devRef .tc main_v12)) (W7 m ρ c (Proc.devRef .tc main_v1)) :=
  (W10_keep m ρ c main_v13 (by decide)).trans ((W9_keep m ρ c main_v13 (by decide)).trans (take_A (W7 m ρ c)))

/-- The looked-up target rows at the message call's entry. -/
theorem W10_v14 (c : Dev nD) :
    W10 m ρ c (Proc.devRef .tc main_v14) = takeK (W7 m ρ c (Proc.devRef .tc main_v12)) (W7 m ρ c (Proc.devRef .tc main_v3)) := by
  refine (W10_keep m ρ c main_v14 (by decide)).trans ((take_B (W8 m ρ c)).trans ?_)
  rw [W8_keep m ρ c main_v12 (by decide), W8_keep m ρ c main_v3 (by decide)]

/-- The message bias row at the message call's entry. -/
theorem W10_v15 (c : Dev nD) :
    (fun j => (W10 m ρ c (Proc.devRef .tc main_v15) : Mat 1 32) (ix2 0 j)) = row32 (W7 m ρ c (Proc.devRef .tc main_arg9)) := by
  refine (row_C (W9 m ρ c)).trans ?_
  rw [W9_keep m ρ c main_arg9 (by decide), W8_keep m ρ c main_arg9 (by decide)]

/-- The messages of the layer. -/
theorem W11_v16' (c : Dev nD) :
    W11 m ρ c (Proc.devRef .tc main_v16)
      = msgK (W7 m ρ c (Proc.devRef .tc main_v12)) (W7 m ρ c (Proc.devRef .tc main_v1)) (W7 m ρ c (Proc.devRef .tc main_v3)) (W7 m ρ c (Proc.devRef .tc main_arg2))
          (W7 m ρ c (Proc.devRef .tc main_arg8)) (W7 m ρ c (Proc.devRef .tc main_arg9)) := by
  rw [W11_v16, W10_v13, W10_v14, W10_v15, W10_W7 m ρ c main_arg2 (by decide) (by decide) (by decide),
    W10_W7 m ρ c main_arg8 (by decide) (by decide) (by decide)]
  rfl

/-- The accumulated messages at the node call's entry. -/
theorem W12_v19 (c : Dev nD) :
    W12 m ρ c (Proc.devRef .tc main_v19)
      = aggK (W7 m ρ c (Proc.devRef .tc main_v1)) (msgK (W7 m ρ c (Proc.devRef .tc main_v12)) (W7 m ρ c (Proc.devRef .tc main_v1)) (W7 m ρ c (Proc.devRef .tc main_v3))
          (W7 m ρ c (Proc.devRef .tc main_arg2)) (W7 m ρ c (Proc.devRef .tc main_arg8)) (W7 m ρ c (Proc.devRef .tc main_arg9))) := by
  refine (agg_D (W11 m ρ c)).trans ?_
  rw [W11_v16', W11_keep m ρ c main_v1 (by decide), W10_W7 m ρ c main_v1 (by decide) (by decide) (by decide)]

/-- The node bias row at the node call's entry. -/
theorem W12_v20 (c : Dev nD) :
    (fun j => (W12 m ρ c (Proc.devRef .tc main_v20) : Mat 1 64) (ix2 0 j)) = row64 (W7 m ρ c (Proc.devRef .tc main_arg11)) := by
  refine (row_D (W11 m ρ c)).trans ?_
  rw [W11_keep m ρ c main_arg11 (by decide), W10_W7 m ρ c main_arg11 (by decide) (by decide) (by decide)]

/-- A buffer no line before the node call writes, at the node call's entry. -/
theorem W12_W7 (c : Dev nD) (r : Ref sig .tc) (hA : r ∉ wrA) (hB : r ∉ wrB) (hC : r ∉ wrC) (hE : r ∉ arrE) (hD : r ∉ wrD) :
    W12 m ρ c (Proc.devRef .tc r) = W7 m ρ c (Proc.devRef .tc r) :=
  (W12_keep m ρ c r hD).trans ((W11_keep m ρ c r hE).trans (W10_W7 m ρ c r hA hB hC))

end Layer2

open Layer2

theorem layer2_keep (c : Dev nD) (r : Ref sig .tc) (hr : r ∈ keep2) : W13 m ρ c (Proc.devRef .tc r) = W7 m ρ c (Proc.devRef .tc r) := by
  rcases keep2_cases r hr with rfl | ⟨hA, hB, hC, hE, hD, hN⟩
  · exact (W13_keep m ρ c main_arg2 (by decide)).trans ((W12_keep m ρ c main_arg2 (by decide)).trans
      ((W11_in m ρ c 2 rfl).trans (W10_W7 m ρ c main_arg2 (by decide) (by decide) (by decide))))
  · exact (W13_W10 m ρ c r hE hD hN).trans (W10_W7 m ρ c r hA hB hC)

/-- The layer's output is the layer map of the contents at its entry. -/
theorem layer2_out (c : Dev nD) :
    W13 m ρ c (Proc.devRef .tc main_v21)
      = convK (W7 m ρ c (Proc.devRef .tc main_v12)) (W7 m ρ c (Proc.devRef .tc main_v1)) (W7 m ρ c (Proc.devRef .tc main_v3)) (W7 m ρ c (Proc.devRef .tc main_arg2))
          (W7 m ρ c (Proc.devRef .tc main_arg8)) (W7 m ρ c (Proc.devRef .tc main_arg9)) (W7 m ρ c (Proc.devRef .tc main_arg10)) (W7 m ρ c (Proc.devRef .tc main_arg11)) := by
  rw [W13_v21, W12_v19, W12_v20, W12_W7 m ρ c main_v12 (by decide) (by decide) (by decide) (by decide) (by decide),
    W12_W7 m ρ c main_arg10 (by decide) (by decide) (by decide) (by decide) (by decide)]
  rfl

end Cert.KernelIdeal.Val

end
-- ==== Proof.KLayer3.lean ====
/-
  Layer 3 of the kernel program, read through the boundaries of @main: from the buffer contents at the layer's entry
  to those at its exit. The two lookups and the reshaped bias are host lines; the message call leaves the message map of
  its arrays; the accumulation and the second reshaped bias are host lines; the node call leaves the node map of its
  arrays. Buffers the layer does not write keep their contents.
-/
import proofs.«431247_j30262339568087_2_alg».proof.Proof.Gen.KernelIdeal.Frame
import proofs.«431247_j30262339568087_2_alg».proof.Proof.KDefs
import proofs.«431247_j30262339568087_2_alg».proof.Proof.KEdge
import proofs.«431247_j30262339568087_2_alg».proof.Proof.KNode
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem Cert.Spec Idealize.ShloMosaic.StableHlo

variable (m : (ℓ : Loc nD τ sig) → Buf (Elt Ideal) ℓ) (ρ : Dev nD → PrngReg)

/-- Buffers that are read later and that no line of layer 3 writes. -/
def keep3 : List (Ref sig .tc) := [main_arg3, main_arg16, main_arg17, main_arg18, main_arg19, main_arg20, main_arg21, main_arg22, main_arg23, main_arg24, main_arg25]

/-! ## The steps of the layer, one boundary at a time -/

namespace Layer3

/-- A reference of a list is, as a device buffer, in the list's set of device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The references the first lookup writes. -/
def wr4 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v22]
/-- The references the second lookup writes. -/
def wr4_1 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v23]
/-- The reference the reshaped edge bias is written to. -/
def wr4_2 : List (Ref sig .tc) := [main_v24]
/-- The references the accumulation lines write. -/
def wr5 : List (Ref sig .tc) := [main_cst_1, main_v26, main_v27, main_v28, main_v29]

theorem wr4_sub : (hostOps4 : List (HloOp τ sig (Elt Ideal))).Forall fun op => op.writes ⊆ (wr4.map (Proc.devRef (τ := τ) .tc)).toFinset := by
  simp only [hostOps4, List.Forall, StableHlo.nullary_writes, StableHlo.unary_writes, StableHlo.binary_writes, StableHlo.ternary_writes, StableHlo.reshape_writes]
  repeat' apply And.intro
  all_goals exact single_sub_of_mem (by decide)

theorem wr4_1_sub : (hostOps4_1 : List (HloOp τ sig (Elt Ideal))).Forall fun op => op.writes ⊆ (wr4_1.map (Proc.devRef (τ := τ) .tc)).toFinset := by
  simp only [hostOps4_1, List.Forall, StableHlo.nullary_writes, StableHlo.unary_writes, StableHlo.binary_writes, StableHlo.ternary_writes, StableHlo.reshape_writes]
  repeat' apply And.intro
  all_goals exact single_sub_of_mem (by decide)

theorem wr4_2_sub : (hostOps4_2 : List (HloOp τ sig (Elt Ideal))).Forall fun op => op.writes ⊆ (wr4_2.map (Proc.devRef (τ := τ) .tc)).toFinset := by
  simp only [hostOps4_2, List.Forall, StableHlo.nullary_writes, StableHlo.unary_writes, StableHlo.binary_writes, StableHlo.ternary_writes, StableHlo.reshape_writes]
  exact single_sub_of_mem (by decide)

theorem wr5_sub : (hostOps5 : List (HloOp τ sig (Elt Ideal))).Forall fun op => op.writes ⊆ (wr5.map (Proc.devRef (τ := τ) .tc)).toFinset := by
  simp only [hostOps5, List.Forall, StableHlo.nullary_writes, StableHlo.unary_writes, StableHlo.binary_writes, StableHlo.ternary_writes, StableHlo.reshape_writes]
  repeat' apply And.intro
  all_goals exact single_sub_of_mem (by decide)

/-- A buffer the first lookup does not write keeps its contents across it. -/
theorem W14_keep (c : Dev nD) (r : Ref sig .tc) (h : r ∉ wr4) :
    W14 m ρ c (Proc.devRef .tc r) = W13 m ρ c (Proc.devRef .tc r) :=
  StableHlo.after_of_writes_sub hostOps4 (W13 m ρ c) wr4_sub h

/-- A buffer the second lookup does not write keeps its contents across it. -/
theorem W15_keep (c : Dev nD) (r : Ref sig .tc) (h : r ∉ wr4_1) :
    W15 m ρ c (Proc.devRef .tc r) = W14 m ρ c (Proc.devRef .tc r) :=
  StableHlo.after_of_writes_sub hostOps4_1 (W14 m ρ c) wr4_1_sub h

/-- A buffer other than the reshaped edge bias keeps its contents across the reshape. -/
theorem W16_keep (c : Dev nD) (r : Ref sig .tc) (h : r ∉ wr4_2) :
    W16 m ρ c (Proc.devRef .tc r) = W15 m ρ c (Proc.devRef .tc r) :=
  StableHlo.after_of_writes_sub hostOps4_2 (W15 m ρ c) wr4_2_sub h

/-- A buffer the accumulation lines do not write keeps its contents across them. -/
theorem W18_keep (c : Dev nD) (r : Ref sig .tc) (h : r ∉ wr5) :
    W18 m ρ c (Proc.devRef .tc r) = W17 m ρ c (Proc.devRef .tc r) :=
  StableHlo.after_of_writes_sub hostOps5 (W17 m ρ c) wr5_sub h

/-- The arrays of the message call. -/
def arr4 : List (Ref sig .tc) := [main_v22, main_v23, main_arg2, main_arg12, main_v24, main_v25]
/-- The arrays of the node call. -/
def arr5 : List (Ref sig .tc) := [main_v21, main_v28, main_arg14, main_v29, main_v30]

theorem arr4_ne (r : Ref sig .tc) (h : r ∉ arr4) : ∀ w, Pipeline.arrRef spec4 w ≠ r := by
  intro w e
  apply h
  subst e
  revert w
  decide

theorem arr5_ne (r : Ref sig .tc) (h : r ∉ arr5) : ∀ w, Pipeline.arrRef spec5 w ≠ r := by
  intro w e
  apply h
  subst e
  revert w
  decide

section TypedReads

variable {T Tx Ta Tb Tc Ty Tz : BufTy}

/-- What the buffer of a typed reference holds, at the value's type. -/
def rd (x : StableHlo.TRef sig T) (F : Valuation τ sig (Elt Ideal)) : T.Contents (Elt Ideal) :=
  x.ofBuf (F (Proc.devRef .tc x.ref))

theorem rd_nullary (y : StableHlo.TRef sig Ty) (v : Ty.Contents (Elt Ideal)) (F : Valuation τ sig (Elt Ideal)) :
    rd y ((StableHlo.TRef.nullary (τ := τ) y v).result F) = v := by
  obtain ⟨r, rfl, hd, hu⟩ := y
  unfold rd
  rw [StableHlo.nullary_result]
  rfl

theorem rd_unary (x : StableHlo.TRef sig Tx) (y : StableHlo.TRef sig Ty) (f : Tx.Contents (Elt Ideal) → Ty.Contents (Elt Ideal))
    (F : Valuation τ sig (Elt Ideal)) :
    rd y ((StableHlo.TRef.unary (τ := τ) x y f).result F) = f (rd x F) := by
  obtain ⟨r, rfl, hd, hu⟩ := y
  unfold rd
  rw [StableHlo.unary_result]
  rfl

theorem rd_binary (a : StableHlo.TRef sig Ta) (b : StableHlo.TRef sig Tb) (y : StableHlo.TRef sig Ty)
    (f : Ta.Contents (Elt Ideal) → Tb.Contents (Elt Ideal) → Ty.Contents (Elt Ideal)) (F : Valuation τ sig (Elt Ideal)) :
    rd y ((StableHlo.TRef.binary (τ := τ) a b y f).result F) = f (rd a F) (rd b F) := by
  obtain ⟨r, rfl, hd, hu⟩ := y
  unfold rd
  rw [StableHlo.binary_result]
  rfl

theorem rd_ternary (c : StableHlo.TRef sig Tc) (a : StableHlo.TRef sig Ta) (b : StableHlo.TRef sig Tb) (y : StableHlo.TRef sig Ty)
    (f : Tc.Contents (Elt Ideal) → Ta.Contents (Elt Ideal) → Tb.Contents (Elt Ideal) → Ty.Contents (Elt Ideal))
    (F : Valuation τ sig (Elt Ideal)) :
    rd y ((StableHlo.TRef.ternary (τ := τ) c a b y f).result F) = f (rd c F) (rd a F) (rd b F) := by
  obtain ⟨r, rfl, hd, hu⟩ := y
  unfold rd
  rw [StableHlo.ternary_result]
  rfl

theorem rd_nullary_ne (z : StableHlo.TRef sig Tz) (y : StableHlo.TRef sig Ty) (v : Ty.Contents (Elt Ideal))
    (F : Valuation τ sig (Elt Ideal)) (h : z.ref ≠ y.ref) :
    rd z ((StableHlo.TRef.nullary (τ := τ) y v).result F) = rd z F := by
  unfold rd
  rw [StableHlo.nullary_result_ne _ _ _ _ h]

theorem rd_unary_ne (z : StableHlo.TRef sig Tz) (x : StableHlo.TRef sig Tx) (y : StableHlo.TRef sig Ty)
    (f : Tx.Contents (Elt Ideal) → Ty.Contents (Elt Ideal)) (F : Valuation τ sig (Elt Ideal)) (h : z.ref ≠ y.ref) :
    rd z ((StableHlo.TRef.unary (τ := τ) x y f).result F) = rd z F := by
  unfold rd
  rw [StableHlo.unary_result_ne _ _ _ _ _ _ h]

theorem rd_binary_ne (z : StableHlo.TRef sig Tz) (a : StableHlo.TRef sig Ta) (b : StableHlo.TRef sig Tb) (y : StableHlo.TRef sig Ty)
    (f : Ta.Contents (Elt Ideal) → Tb.Contents (Elt Ideal) → Ty.Contents (Elt Ideal)) (F : Valuation τ sig (Elt Ideal))
    (h : z.ref ≠ y.ref) :
    rd z ((StableHlo.TRef.binary (τ := τ) a b y f).result F) = rd z F := by
  unfold rd
  rw [StableHlo.binary_result_ne _ _ _ _ _ _ _ _ h]

theorem rd_ternary_ne (z : StableHlo.TRef sig Tz) (c : StableHlo.TRef sig Tc) (a : StableHlo.TRef sig Ta) (b : StableHlo.TRef sig Tb)
    (y : StableHlo.TRef sig Ty)
    (f : Tc.Contents (Elt Ideal) → Ta.Contents (Elt Ideal) → Tb.Contents (Elt Ideal) → Ty.Contents (Elt Ideal))
    (F : Valuation τ sig (Elt Ideal)) (h : z.ref ≠ y.ref) :
    rd z ((StableHlo.TRef.ternary (τ := τ) c a b y f).result F) = rd z F := by
  unfold rd
  rw [StableHlo.ternary_result_ne _ _ _ _ _ _ _ _ _ _ h]

end TypedReads

/-- After the first lookup its result holds the checked rows of the features at the source indices. -/
theorem take4_rd (V : Valuation τ sig (Elt Ideal)) :
    rd (.of main_v22 : StableHlo.TRef sig ⟨S800000x64, .f32⟩) (StableHlo.after hostOps4 V)
      = takeK (rd (.of main_v21 : StableHlo.TRef sig ⟨S50000x64, .f32⟩) V) (rd (.of main_v1 : StableHlo.TRef sig ⟨S800000, .i32⟩) V) := by
  simp (disch := decide) only [hostOps4, StableHlo.after_cons, StableHlo.after_nil, rd_nullary, rd_unary, rd_binary, rd_ternary,
    rd_nullary_ne, rd_unary_ne, rd_binary_ne, rd_ternary_ne]
  rfl

/-- The same for the second lookup, at the target indices. -/
theorem take5_rd (V : Valuation τ sig (Elt Ideal)) :
    rd (.of main_v23 : StableHlo.TRef sig ⟨S800000x64, .f32⟩) (StableHlo.after hostOps4_1 V)
      = takeK (rd (.of main_v21 : StableHlo.TRef sig ⟨S50000x64, .f32⟩) V) (rd (.of main_v3 : StableHlo.TRef sig ⟨S800000, .i32⟩) V) := by
  simp (disch := decide) only [hostOps4_1, StableHlo.after_cons, StableHlo.after_nil, rd_nullary, rd_unary, rd_binary, rd_ternary,
    rd_nullary_ne, rd_unary_ne, rd_binary_ne, rd_ternary_ne]
  rfl

/-- After the first lookup its result holds the checked rows of the features at the source indices. -/
theorem W14_v22 (c : Dev nD) :
    W14 m ρ c (Proc.devRef .tc main_v22)
      = takeK (W13 m ρ c (Proc.devRef .tc main_v21)) (W13 m ρ c (Proc.devRef .tc main_v1)) :=
  take4_rd (W13 m ρ c)

/-- After the second lookup its result holds the checked rows of the features at the target indices. -/
theorem W15_v23 (c : Dev nD) :
    W15 m ρ c (Proc.devRef .tc main_v23)
      = takeK (W14 m ρ c (Proc.devRef .tc main_v21)) (W14 m ρ c (Proc.devRef .tc main_v3)) :=
  take5_rd (W14 m ρ c)

/-- The reshaped edge bias holds the bias as one row. -/
theorem W16_v24 (c : Dev nD) :
    W16 m ρ c (Proc.devRef .tc main_v24) = shapeCast S1x32 (W15 m ρ c (Proc.devRef .tc main_arg13)) shapeCasts_S32_S1x32 := by
  show StableHlo.after hostOps4_2 (W15 m ρ c) (Proc.devRef .tc main_v24) = _
  generalize W15 m ρ c = V
  simp only [hostOps4_2]
  after_results
  rfl

/-- The accumulation's result: the messages added into the rows of their source nodes, from zero. -/
theorem W18_v28 (c : Dev nD) :
    W18 m ρ c (Proc.devRef .tc main_v28)
      = aggK (W17 m ρ c (Proc.devRef .tc main_v1)) (W17 m ρ c (Proc.devRef .tc main_v25)) := by
  show StableHlo.after hostOps5 (W17 m ρ c) (Proc.devRef .tc main_v28) = _
  generalize W17 m ρ c = V
  simp only [hostOps5]
  after_results
  rfl

/-- The reshaped node bias holds the bias as one row. -/
theorem W18_v29 (c : Dev nD) :
    W18 m ρ c (Proc.devRef .tc main_v29) = shapeCast S1x64 (W17 m ρ c (Proc.devRef .tc main_arg15)) shapeCasts_S64_S1x64 := by
  show StableHlo.after hostOps5 (W17 m ρ c) (Proc.devRef .tc main_v29) = _
  generalize W17 m ρ c = V
  simp only [hostOps5]
  after_results
  rfl

/-- The message call's output array holds the message map of the call's input arrays. -/
theorem W17_v25 (c : Dev nD) :
    (W17 m ρ c (Proc.devRef .tc main_v25) : Mat 800000 32)
      = edgeF 800000 (W16 m ρ c (Proc.devRef .tc main_v22)) (W16 m ρ c (Proc.devRef .tc main_v23))
          (W16 m ρ c (Proc.devRef .tc main_arg2)) (W16 m ρ c (Proc.devRef .tc main_arg12))
          (fun j => (W16 m ρ c (Proc.devRef .tc main_v24) : Mat 1 32) (ix2 0 j)) :=
  (W17_arr m ρ c 5).trans (region4_value (V16 m ρ) c)

/-- The node call's output array holds the node map of the call's input arrays. -/
theorem W19_v30 (c : Dev nD) :
    (W19 m ρ c (Proc.devRef .tc main_v30) : Mat 50000 64)
      = nodeF 50000 (W18 m ρ c (Proc.devRef .tc main_v21)) (W18 m ρ c (Proc.devRef .tc main_v28))
          (W18 m ρ c (Proc.devRef .tc main_arg14))
          (fun j => (W18 m ρ c (Proc.devRef .tc main_v29) : Mat 1 64) (ix2 0 j)) :=
  (W19_arr m ρ c 4).trans (region5_value (V18 m ρ) c)

/-- A buffer neither lookup nor the reshape writes holds at the message call's entry what it held at the layer's
    entry. -/
theorem W16_keep13 (c : Dev nD) (r : Ref sig .tc) (h4 : r ∉ wr4) (h41 : r ∉ wr4_1) (h42 : r ∉ wr4_2) :
    W16 m ρ c (Proc.devRef .tc r) = W13 m ρ c (Proc.devRef .tc r) := by
  rw [W16_keep m ρ c r h42, W15_keep m ρ c r h41, W14_keep m ρ c r h4]

/-- If, moreover, it is no array of the message call, it holds the same at that call's exit. -/
theorem W17_keep13 (c : Dev nD) (r : Ref sig .tc) (h4 : r ∉ wr4) (h41 : r ∉ wr4_1) (h42 : r ∉ wr4_2) (ha4 : r ∉ arr4) :
    W17 m ρ c (Proc.devRef .tc r) = W13 m ρ c (Proc.devRef .tc r) := by
  rw [W17_of_ne m ρ c r (arr4_ne r ha4), W16_keep13 m ρ c r h4 h41 h42]

/-- If, moreover, the accumulation lines do not write it, it holds the same at the node call's entry. -/
theorem W18_keep13 (c : Dev nD) (r : Ref sig .tc) (h4 : r ∉ wr4) (h41 : r ∉ wr4_1) (h42 : r ∉ wr4_2) (ha4 : r ∉ arr4)
    (h5 : r ∉ wr5) :
    W18 m ρ c (Proc.devRef .tc r) = W13 m ρ c (Proc.devRef .tc r) := by
  rw [W18_keep m ρ c r h5, W17_keep13 m ρ c r h4 h41 h42 ha4]

/-- If, moreover, it is no array of the node call, it holds the same at the layer's exit. -/
theorem W19_keep13 (c : Dev nD) (r : Ref sig .tc) (h4 : r ∉ wr4) (h41 : r ∉ wr4_1) (h42 : r ∉ wr4_2) (ha4 : r ∉ arr4)
    (h5 : r ∉ wr5) (ha5 : r ∉ arr5) :
    W19 m ρ c (Proc.devRef .tc r) = W13 m ρ c (Proc.devRef .tc r) := by
  rw [W19_of_ne m ρ c r (arr5_ne r ha5), W18_keep13 m ρ c r h4 h41 h42 ha4 h5]

/-- The message call's first input: the checked rows at the source indices, of the contents at the layer's entry. -/
theorem W16_v22 (c : Dev nD) :
    W16 m ρ c (Proc.devRef .tc main_v22)
      = takeK (W13 m ρ c (Proc.devRef .tc main_v21)) (W13 m ρ c (Proc.devRef .tc main_v1)) := by
  rw [W16_keep m ρ c main_v22 (by decide), W15_keep m ρ c main_v22 (by decide), W14_v22]

/-- The message call's second input: the checked rows at the target indices, of the contents at the layer's entry. -/
theorem W16_v23 (c : Dev nD) :
    W16 m ρ c (Proc.devRef .tc main_v23)
      = takeK (W13 m ρ c (Proc.devRef .tc main_v21)) (W13 m ρ c (Proc.devRef .tc main_v3)) := by
  rw [W16_keep m ρ c main_v23 (by decide), W15_v23, W14_keep m ρ c main_v21 (by decide), W14_keep m ρ c main_v3 (by decide)]

/-- The message call's bias row is the edge bias at the layer's entry, as a row. -/
theorem W16_v24_13 (c : Dev nD) :
    W16 m ρ c (Proc.devRef .tc main_v24) = shapeCast S1x32 (W13 m ρ c (Proc.devRef .tc main_arg13)) shapeCasts_S32_S1x32 := by
  rw [W16_v24, W15_keep m ρ c main_arg13 (by decide), W14_keep m ρ c main_arg13 (by decide)]

/-- The messages of the layer, of the contents at its entry. -/
theorem W17_v25_13 (c : Dev nD) :
    W17 m ρ c (Proc.devRef .tc main_v25)
      = msgK (W13 m ρ c (Proc.devRef .tc main_v21)) (W13 m ρ c (Proc.devRef .tc main_v1)) (W13 m ρ c (Proc.devRef .tc main_v3))
          (W13 m ρ c (Proc.devRef .tc main_arg2)) (W13 m ρ c (Proc.devRef .tc main_arg12)) (W13 m ρ c (Proc.devRef .tc main_arg13)) := by
  rw [W17_v25, W16_v22, W16_v23, W16_keep13 m ρ c main_arg2 (by decide) (by decide) (by decide),
    W16_keep13 m ρ c main_arg12 (by decide) (by decide) (by decide), W16_v24_13]
  rfl

/-- The accumulated messages of the layer, of the contents at its entry. -/
theorem W18_v28_13 (c : Dev nD) :
    W18 m ρ c (Proc.devRef .tc main_v28)
      = aggK (W13 m ρ c (Proc.devRef .tc main_v1))
          (msgK (W13 m ρ c (Proc.devRef .tc main_v21)) (W13 m ρ c (Proc.devRef .tc main_v1)) (W13 m ρ c (Proc.devRef .tc main_v3))
            (W13 m ρ c (Proc.devRef .tc main_arg2)) (W13 m ρ c (Proc.devRef .tc main_arg12)) (W13 m ρ c (Proc.devRef .tc main_arg13))) := by
  rw [W18_v28, W17_keep13 m ρ c main_v1 (by decide) (by decide) (by decide) (by decide), W17_v25_13]

/-- The node call's bias row is the node bias at the layer's entry, as a row. -/
theorem W18_v29_13 (c : Dev nD) :
    W18 m ρ c (Proc.devRef .tc main_v29) = shapeCast S1x64 (W13 m ρ c (Proc.devRef .tc main_arg15)) shapeCasts_S64_S1x64 := by
  rw [W18_v29, W17_keep13 m ρ c main_arg15 (by decide) (by decide) (by decide) (by decide)]

end Layer3

theorem layer3_keep (c : Dev nD) (r : Ref sig .tc) (hr : r ∈ keep3) : W19 m ρ c (Proc.devRef .tc r) = W13 m ρ c (Proc.devRef .tc r) := by
  have h : r ∉ Layer3.wr4 ∧ r ∉ Layer3.wr4_1 ∧ r ∉ Layer3.wr4_2 ∧ r ∉ Layer3.arr4 ∧ r ∉ Layer3.wr5 ∧ r ∉ Layer3.arr5 := by
    revert r
    decide
  exact Layer3.W19_keep13 m ρ c r h.1 h.2.1 h.2.2.1 h.2.2.2.1 h.2.2.2.2.1 h.2.2.2.2.2

/-- The layer's output is the layer map of the contents at its entry. -/
theorem layer3_out (c : Dev nD) :
    W19 m ρ c (Proc.devRef .tc main_v30)
      = convK (W13 m ρ c (Proc.devRef .tc main_v21)) (W13 m ρ c (Proc.devRef .tc main_v1)) (W13 m ρ c (Proc.devRef .tc main_v3)) (W13 m ρ c (Proc.devRef .tc main_arg2))
          (W13 m ρ c (Proc.devRef .tc main_arg12)) (W13 m ρ c (Proc.devRef .tc main_arg13)) (W13 m ρ c (Proc.devRef .tc main_arg14)) (W13 m ρ c (Proc.devRef .tc main_arg15)) := by
  rw [Layer3.W19_v30, Layer3.W18_keep13 m ρ c main_v21 (by decide) (by decide) (by decide) (by decide) (by decide),
    Layer3.W18_v28_13, Layer3.W18_keep13 m ρ c main_arg14 (by decide) (by decide) (by decide) (by decide) (by decide),
    Layer3.W18_v29_13]
  rfl

end Cert.KernelIdeal.Val

end
-- ==== Proof.RDefs.lean ====
/-
  The reference program's values as pure terms of its arguments, at Ideal.

  One layer of the reference, as its host lines compute it: the index vectors cut out of the 2 × E index array, the
  plain row lookup (a negative index moved up by the row count, then the rows gathered, the gather itself keeping the
  index inside the table), the three pieces laid side by side and multiplied by the weights, the bias added down the
  rows, relu, the accumulation into the source rows, and the same again for the node update.
-/
import proofs.«431247_j30262339568087_2_alg».proof.Proof.Gen.ReferenceIdeal
import Idealize.ShloMosaic.PureOps.Ideal

noncomputable section

namespace Cert.ReferenceIdeal.Val

open Cert.ReferenceIdeal Cert.ReferenceIdeal.Gen Idealize.ShloMosaic

/-- Row 0 of the index array: the source node of every edge. -/
def srcR (ei : IVec S2x800000 32) : IVec S800000 32 :=
  shapeCast S800000 (extractStridedSlice S1x800000 ![0, 0] ei slices_S2x800000_S1x800000_0_0) shapeCasts_S1x800000_S800000

/-- Row 1 of the index array: the target node of every edge. -/
def dstR (ei : IVec S2x800000 32) : IVec S800000 32 :=
  shapeCast S800000 (extractStridedSlice S1x800000 ![1, 0] ei slices_S2x800000_S1x800000_1_0) shapeCasts_S1x800000_S800000

/-- An index vector with its negative entries moved up by the number of rows, as a column. -/
def wrapR (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The plain row lookup. -/
def takeR (x : FVec Ideal S50000x64 .f32) (idx : IVec S800000 32) : FVec Ideal S800000x64 .f32 :=
  Host.gather gather_S50000x64_S800000x1_S800000x64_1_0_n_n_0_1_164 x (wrapR idx)

/-- The messages of one layer. -/
def msgR (x : FVec Ideal S50000x64 .f32) (src dst : IVec S800000 32) (ea : FVec Ideal S800000x16 .f32)
    (ew : FVec Ideal S144x32 .f32) (eb : FVec Ideal S32 .f32) : FVec Ideal S800000x32 .f32 :=
  maximumf
    (addf
      (Host.dotGeneral dot_S800000x144_S144x32_S800000x32_1_0_0_1_n_n none
        (concatenate S800000x144 1 [⟨S800000x64, takeR x src⟩, ⟨S800000x64, takeR x dst⟩, ⟨S800000x16, ea⟩]
          concatenates_S800000x64_S800000x64_S800000x16_S800000x144_d1) ew)
      (broadcastInDim S800000x32 ![0, 1] bcast_S1x32_S800000x32_0_1 (broadcastInDim S1x32 ![1] bcast_S32_S1x32_1 eb)))
    (broadcastInDim S800000x32 ![] bcast_S_S800000x32 (constant (F := Ideal) S_ .f32 0x00000000#32))

/-- The messages added into the rows of their source nodes, from zero. -/
def aggR (src : IVec S800000 32) (msg : FVec Ideal S800000x32 .f32) : FVec Ideal S50000x32 .f32 :=
  Host.scatterAdd scatter_S50000x32_S800000x1_S800000x32_1_0_0_1
    (broadcastInDim S50000x32 ![] bcast_S_S50000x32 (constant (F := Ideal) S_ .f32 0x00000000#32))
    (broadcastInDim S800000x1 ![0] bcast_S800000_S800000x1_0 src) msg

/-- One layer: messages, their accumulation by source node, the node update. -/
def convR (x : FVec Ideal S50000x64 .f32) (src dst : IVec S800000 32) (ea : FVec Ideal S800000x16 .f32)
    (ew : FVec Ideal S144x32 .f32) (eb : FVec Ideal S32 .f32) (nw : FVec Ideal S96x64 .f32) (nb : FVec Ideal S64 .f32) :
    FVec Ideal S50000x64 .f32 :=
  maximumf
    (addf
      (Host.dotGeneral dot_S50000x96_S96x64_S50000x64_1_0_0_1_n_n none
        (concatenate S50000x96 1 [⟨S50000x64, x⟩, ⟨S50000x32, aggR src (msgR x src dst ea ew eb)⟩]
          concatenates_S50000x64_S50000x32_S50000x96_d1) nw)
      (broadcastInDim S50000x64 ![0, 1] bcast_S1x64_S50000x64_0_1 (broadcastInDim S1x64 ![1] bcast_S64_S1x64_1 nb)))
    (broadcastInDim S50000x64 ![] bcast_S_S50000x64 (constant (F := Ideal) S_ .f32 0x00000000#32))

end Cert.ReferenceIdeal.Val

end
-- ==== Proof.RLayer1.lean ====
/-
  Layer 1 of the reference program: what its host operations leave, as a function of the buffer contents they start
  from. Buffers the layer does not write keep their contents.
-/
import proofs.«431247_j30262339568087_2_alg».proof.Proof.ROps
import proofs.«431247_j30262339568087_2_alg».proof.Proof.RDefs

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.StableHlo

variable (U : Valuation τ sig (Elt Ideal))

/-- Buffers that are read later and that no operation of layer 1 writes. -/
def keepR1 : List (Ref sig .tc) := [main_arg2, main_arg3, main_arg8, main_arg9, main_arg10, main_arg11, main_arg12, main_arg13, main_arg14, main_arg15, main_arg16, main_arg17, main_arg18, main_arg19, main_arg20, main_arg21, main_arg22, main_arg23, main_arg24, main_arg25]

/-- The result buffers of the 42 operations of layer 1, in order: every buffer the layer writes. -/
private def writesR1 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_v20, main_v21, main_v22, main_call0_cst, main_call0_v0, main_v23, main_cst, main_v24, main_v25, main_v26, main_v27, main_v28, main_v29, main_v30, main_v31, main_call1_cst, main_call1_v0, main_v32]

/-- A single buffer of a list is inside the list's set of buffers. -/
private theorem single_sub_map_R1 {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Each operation of layer 1 writes its one result buffer, which is in the list. -/
private theorem writesR1_sub :
    (opsL1 (F := Ideal)).Forall fun op => op.writes ⊆ (writesR1.map (Proc.devRef (τ := τ) .tc)).toFinset := by
  simp only [opsL1, List.Forall, nullary_writes, unary_writes, binary_writes, ternary_writes, reshape_writes, nary_writes]
  repeat' apply And.intro
  all_goals exact single_sub_map_R1 (by decide)

/-- The kept buffers and the written buffers are disjoint: a comparison of finitely many references. -/
private theorem keepR1_not_written : ∀ r ∈ keepR1, r ∉ writesR1 := by decide

theorem layerR1_keep (r : Ref sig .tc) (hr : r ∈ keepR1) : after (opsL1 (F := Ideal)) U (Proc.devRef .tc r) = U (Proc.devRef .tc r) := by
  exact after_of_writes_sub _ U writesR1_sub (keepR1_not_written r hr)

/-- The source and target index vectors are cut out of the index array in this layer. -/
theorem layerR1_src : after (opsL1 (F := Ideal)) U (Proc.devRef .tc main_v1) = srcR (U (Proc.devRef .tc main_arg1)) := by
  simp only [opsL1]
  after_results_simp
  rfl
theorem layerR1_dst : after (opsL1 (F := Ideal)) U (Proc.devRef .tc main_v3) = dstR (U (Proc.devRef .tc main_arg1)) := by
  simp only [opsL1]
  after_results_simp
  rfl

/-- An operation of three operands given as a literal family reads each operand's contents at that operand's own
    buffer: the family at 0, 1, 2 is its three entries. -/
private theorem nary3_result_R1 {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The layer's output is the layer map of the contents it starts from. -/
theorem layerR1_out :
    after (opsL1 (F := Ideal)) U (Proc.devRef .tc main_v32)
      = convR (U (Proc.devRef .tc main_arg0)) (srcR (U (Proc.devRef .tc main_arg1))) (dstR (U (Proc.devRef .tc main_arg1))) (U (Proc.devRef .tc main_arg2))
          (U (Proc.devRef .tc main_arg4)) (U (Proc.devRef .tc main_arg5)) (U (Proc.devRef .tc main_arg6)) (U (Proc.devRef .tc main_arg7)) := by
  simp only [opsL1]
  simp (disch := decide) only [after_cons, after_nil,
      nullary_result', unary_result', binary_result', ternary_result', reshape_result', nary3_result_R1, nary_result',
      nullary_result_ne', unary_result_ne', binary_result_ne', ternary_result_ne', reshape_result_ne', nary_result_ne']
  rfl

end Cert.ReferenceIdeal.Val

end
-- ==== Proof.RLayer2.lean ====
/-
  Layer 2 of the reference program: what its host operations leave, as a function of the buffer contents they start
  from. Buffers the layer does not write keep their contents.
-/
import proofs.«431247_j30262339568087_2_alg».proof.Proof.ROps
import proofs.«431247_j30262339568087_2_alg».proof.Proof.RDefs

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.StableHlo

variable (U : Valuation τ sig (Elt Ideal))

/-- Buffers that are read later and that no operation of layer 2 writes. -/
def keepR2 : List (Ref sig .tc) := [main_v1, main_v3, main_arg2, main_arg3, main_arg12, main_arg13, main_arg14, main_arg15, main_arg16, main_arg17, main_arg18, main_arg19, main_arg20, main_arg21, main_arg22, main_arg23, main_arg24, main_arg25]

/-- The result buffers of the 38 operations of layer 2, in order: every buffer the layer writes. -/
private def writesR2 : List (Ref sig .tc) :=
  [main_c_3, main_v33, main_v34, main_c_4, main_v35, main_v36, main_v37, main_v38, main_v39, main_c_5, main_v40, main_v41,
   main_c_6, main_v42, main_v43, main_v44, main_v45, main_v46, main_v47, main_v48, main_v49, main_v50, main_v51,
   main_call2_cst, main_call2_v0, main_v52, main_cst_7, main_v53, main_v54, main_v55, main_v56, main_v57, main_v58, main_v59,
   main_v60, main_call3_cst, main_call3_v0, main_v61]

/-- One buffer that belongs to a list lies inside that list's set of device buffers. -/
private theorem single_sub_map_R2 {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Each operation of layer 2 writes its one result buffer, which is in the list. -/
private theorem writesR2_sub :
    (opsL2 (F := Ideal)).Forall fun op => op.writes ⊆ (writesR2.map (Proc.devRef (τ := τ) .tc)).toFinset := by
  simp only [opsL2, List.Forall, nullary_writes, unary_writes, binary_writes, ternary_writes, nary_writes]
  repeat' apply And.intro
  all_goals exact single_sub_map_R2 (by decide)

/-- No kept buffer is a written one: a comparison of finitely many references. -/
private theorem keepR2_not_written : ∀ r ∈ keepR2, r ∉ writesR2 := by decide

theorem layerR2_keep (r : Ref sig .tc) (hr : r ∈ keepR2) : after (opsL2 (F := Ideal)) U (Proc.devRef .tc r) = U (Proc.devRef .tc r) := by
  exact after_of_writes_sub _ U writesR2_sub (keepR2_not_written r hr)

/-- An operation of three operands given as a literal family reads each operand's contents at that operand's own
    buffer: the family at 0, 1, 2 is its three entries. -/
private theorem nary3_result_R2 {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The layer's output is the layer map of the contents it starts from. -/
theorem layerR2_out :
    after (opsL2 (F := Ideal)) U (Proc.devRef .tc main_v61)
      = convR (U (Proc.devRef .tc main_v32)) (U (Proc.devRef .tc main_v1)) (U (Proc.devRef .tc main_v3)) (U (Proc.devRef .tc main_arg2))
          (U (Proc.devRef .tc main_arg8)) (U (Proc.devRef .tc main_arg9)) (U (Proc.devRef .tc main_arg10)) (U (Proc.devRef .tc main_arg11)) := by
  simp only [opsL2]
  simp (disch := decide) only [after_cons, after_nil,
      nullary_result', unary_result', binary_result', ternary_result', nary3_result_R2, nary_result',
      nullary_result_ne', unary_result_ne', binary_result_ne', ternary_result_ne', nary_result_ne']
  rfl

end Cert.ReferenceIdeal.Val

end
-- ==== Proof.RLayer3.lean ====
/-
  Layer 3 of the reference program: what its host operations leave, as a function of the buffer contents they start
  from. Buffers the layer does not write keep their contents.
-/
import proofs.«431247_j30262339568087_2_alg».proof.Proof.ROps
import proofs.«431247_j30262339568087_2_alg».proof.Proof.RDefs

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.StableHlo

variable (U : Valuation τ sig (Elt Ideal))

/-- Buffers that are read later and that no operation of layer 3 writes. -/
def keepR3 : List (Ref sig .tc) := [main_arg3, main_arg16, main_arg17, main_arg18, main_arg19, main_arg20, main_arg21, main_arg22, main_arg23, main_arg24, main_arg25]

/-- Every buffer an operation of layer 3 writes: the result buffers of its 38 operations, in order. -/
private def writesR3 : List (Ref sig .tc) := [main_c_8, main_v62, main_v63, main_c_9, main_v64, main_v65, main_v66, main_v67, main_v68, main_c_10, main_v69, main_v70, main_c_11, main_v71, main_v72, main_v73, main_v74, main_v75, main_v76, main_v77, main_v78, main_v79, main_v80, main_call4_cst, main_call4_v0, main_v81, main_cst_12, main_v82, main_v83, main_v84, main_v85, main_v86, main_v87, main_v88, main_v89, main_call5_cst, main_call5_v0, main_v90]

/-- The set holding one buffer of a list lies inside the set of the list's buffers. -/
private theorem one_sub_R3 {W : List (Ref sig .tc)} {y : Ref sig .tc} (h : y ∈ W) :
    ({Proc.devRef .tc y} : Finset (DevRef τ sig)) ⊆ (W.map (Proc.devRef (τ := τ) .tc)).toFinset := by
  intro b hb
  rw [Finset.mem_singleton] at hb
  subst hb
  exact List.mem_toFinset.mpr (List.mem_map_of_mem h)

/-- Each operation of layer 3 writes one buffer, its result, and that buffer is in the list. -/
private theorem writesR3_sub :
    (opsL3 (F := Ideal)).Forall fun op => op.writes ⊆ (writesR3.map (Proc.devRef (τ := τ) .tc)).toFinset := by
  simp only [opsL3, List.Forall, nullary_writes, unary_writes, binary_writes, ternary_writes, nary_writes]
  repeat' apply And.intro
  all_goals exact one_sub_R3 (by decide)

/-- No kept buffer is a written buffer: finitely many references compared. -/
private theorem keepR3_fresh : ∀ r ∈ keepR3, r ∉ writesR3 := by decide

theorem layerR3_keep (r : Ref sig .tc) (hr : r ∈ keepR3) : after (opsL3 (F := Ideal)) U (Proc.devRef .tc r) = U (Proc.devRef .tc r) := by
  exact after_of_writes_sub _ U writesR3_sub (keepR3_fresh r hr)

/-- An operation over three operands given as a literal family reads each operand at that operand's own buffer:
    the family of contents is its three entries, in order. -/
private theorem nary3_result_R3 {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]
  congr 1
  funext k
  fin_cases k <;> rfl

/-- The layer's output is the layer map of the contents it starts from. -/
theorem layerR3_out :
    after (opsL3 (F := Ideal)) U (Proc.devRef .tc main_v90)
      = convR (U (Proc.devRef .tc main_v61)) (U (Proc.devRef .tc main_v1)) (U (Proc.devRef .tc main_v3)) (U (Proc.devRef .tc main_arg2))
          (U (Proc.devRef .tc main_arg12)) (U (Proc.devRef .tc main_arg13)) (U (Proc.devRef .tc main_arg14)) (U (Proc.devRef .tc main_arg15)) := by
  simp only [opsL3]
  simp (disch := decide) only [after_cons, after_nil,
      nullary_result', unary_result', binary_result', ternary_result', nary3_result_R3,
      nullary_result_ne', unary_result_ne', binary_result_ne', ternary_result_ne', nary_result_ne']
  rfl

end Cert.ReferenceIdeal.Val

end
-- ==== Proof.Tail.lean ====
/-
  The tail of both programs: mean pooling by graph, then three dense layers, the first two followed by a batch
  normalisation and relu. Both programs spell it with the same host operations, so from buffer contents that agree on
  what the tail reads (the last layer's output, the graph assignment and the dense layers' parameters) both leave the
  same result.
-/
import proofs.«431247_j30262339568087_2_alg».proof.Proof.Gen.KernelIdeal.Launch
import proofs.«431247_j30262339568087_2_alg».proof.Proof.ROps
import Idealize.ShloMosaic.PureOps.Ideal
import Idealize.ShloMosaic.Lib.StableHlo.Run

set_option maxRecDepth 16384

noncomputable section

namespace Cert.Tail

open Idealize.ShloMosaic Idealize.ShloMosaic.TcCoe Idealize.SL.Sem Idealize.ShloMosaic.StableHlo

/-- The kernel program's tail: its nine last stretches of host operations, in order. -/
abbrev tailK (UK : Valuation Cert.KernelIdeal.τ Cert.KernelIdeal.sig (Elt Ideal)) : Valuation Cert.KernelIdeal.τ Cert.KernelIdeal.sig (Elt Ideal) :=
  after Cert.KernelIdeal.Gen.hostOps6_8 (after Cert.KernelIdeal.Gen.hostOps6_7 (after Cert.KernelIdeal.Gen.hostOps6_6 (after Cert.KernelIdeal.Gen.hostOps6_5
    (after Cert.KernelIdeal.Gen.hostOps6_4 (after Cert.KernelIdeal.Gen.hostOps6_3 (after Cert.KernelIdeal.Gen.hostOps6_2 (after Cert.KernelIdeal.Gen.hostOps6_1
      (after Cert.KernelIdeal.Gen.hostOps6 UK))))))))

/-- Operations run over an append are the first part's run followed by the second's. -/
theorem after_app {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A run cut at position `n`: the first `n` operations, then the rest. -/
theorem after_split {τ : Topo} {sig : RefSig} {Val : EltTy → Type} (n : Nat) (l : List (HloOp τ sig Val)) (V : Valuation τ sig Val) :
    after l V = after (l.drop n) (after (l.take n) V) := by
  rw [← after_app, List.take_append_drop]

/-- The reference program's tail. -/
abbrev rT : List (HloOp Cert.ReferenceIdeal.τ Cert.ReferenceIdeal.sig (Elt Ideal)) := Cert.ReferenceIdeal.Val.opsTail
/-- What is left of the reference's tail after the pooling and the first dense layer with its mean. -/
abbrev rD1 : List (HloOp Cert.ReferenceIdeal.τ Cert.ReferenceIdeal.sig (Elt Ideal)) := List.drop 25 rT
/-- What is left of the reference's tail after the first variance. -/
abbrev rD2 : List (HloOp Cert.ReferenceIdeal.τ Cert.ReferenceIdeal.sig (Elt Ideal)) := List.drop 22 rD1
/-- What is left of the reference's tail after the first normalisation. -/
abbrev rD3 : List (HloOp Cert.ReferenceIdeal.τ Cert.ReferenceIdeal.sig (Elt Ideal)) := List.drop 16 rD2
/-- What is left of the reference's tail after the first rectification. -/
abbrev rD4 : List (HloOp Cert.ReferenceIdeal.τ Cert.ReferenceIdeal.sig (Elt Ideal)) := List.drop 3 rD3
/-- What is left of the reference's tail after the second dense layer with its mean. -/
abbrev rD5 : List (HloOp Cert.ReferenceIdeal.τ Cert.ReferenceIdeal.sig (Elt Ideal)) := List.drop 10 rD4
/-- What is left of the reference's tail after the second variance. -/
abbrev rD6 : List (HloOp Cert.ReferenceIdeal.τ Cert.ReferenceIdeal.sig (Elt Ideal)) := List.drop 22 rD5
/-- What is left of the reference's tail after the second normalisation. -/
abbrev rD7 : List (HloOp Cert.ReferenceIdeal.τ Cert.ReferenceIdeal.sig (Elt Ideal)) := List.drop 16 rD6
/-- What is left of the reference's tail after the second rectification. -/
abbrev rD8 : List (HloOp Cert.ReferenceIdeal.τ Cert.ReferenceIdeal.sig (Elt Ideal)) := List.drop 3 rD7

set_option maxHeartbeats 600000 in
/-- Stage 0, mean pooling by graph (two scatter-adds and a division), the first dense layer, and its column means: from contents that agree on what this stage and the later ones read,
    the two programs' stretches of operations leave contents that agree on what the later stages read. -/
theorem s0 (VK : Valuation Cert.KernelIdeal.τ Cert.KernelIdeal.sig (Elt Ideal))
    (VR : Valuation Cert.ReferenceIdeal.τ Cert.ReferenceIdeal.sig (Elt Ideal))
    (h_v30 : VK (Proc.devRef .tc Cert.KernelIdeal.main_v30) = VR (Proc.devRef .tc Cert.ReferenceIdeal.main_v90))
    (h_arg3 : VK (Proc.devRef .tc Cert.KernelIdeal.main_arg3) = VR (Proc.devRef .tc Cert.ReferenceIdeal.main_arg3))
    (h_arg16 : VK (Proc.devRef .tc Cert.KernelIdeal.main_arg16) = VR (Proc.devRef .tc Cert.ReferenceIdeal.main_arg16))
    (h_arg17 : VK (Proc.devRef .tc Cert.KernelIdeal.main_arg17) = VR (Proc.devRef .tc Cert.ReferenceIdeal.main_arg17))
    (h_arg18 : VK (Proc.devRef .tc Cert.KernelIdeal.main_arg18) = VR (Proc.devRef .tc Cert.ReferenceIdeal.main_arg18))
    (h_arg19 : VK (Proc.devRef .tc Cert.KernelIdeal.main_arg19) = VR (Proc.devRef .tc Cert.ReferenceIdeal.main_arg19))
    (h_arg20 : VK (Proc.devRef .tc Cert.KernelIdeal.main_arg20) = VR (Proc.devRef .tc Cert.ReferenceIdeal.main_arg20))
    (h_arg21 : VK (Proc.devRef .tc Cert.KernelIdeal.main_arg21) = VR (Proc.devRef .tc Cert.ReferenceIdeal.main_arg21))
    (h_arg22 : VK (Proc.devRef .tc Cert.KernelIdeal.main_arg22) = VR (Proc.devRef .tc Cert.ReferenceIdeal.main_arg22))
    (h_arg23 : VK (Proc.devRef .tc Cert.KernelIdeal.main_arg23) = VR (Proc.devRef .tc Cert.ReferenceIdeal.main_arg23))
    (h_arg24 : VK (Proc.devRef .tc Cert.KernelIdeal.main_arg24) = VR (Proc.devRef .tc Cert.ReferenceIdeal.main_arg24))
    (h_arg25 : VK (Proc.devRef .tc Cert.KernelIdeal.main_arg25) = VR (Proc.devRef .tc Cert.ReferenceIdeal.main_arg25)) :
    after Cert.KernelIdeal.Gen.hostOps6 VK (Proc.devRef .tc Cert.KernelIdeal.main_v45)
      = after (List.take 25 rT) VR (Proc.devRef .tc Cert.ReferenceIdeal.main_v105) ∧
    after Cert.KernelIdeal.Gen.hostOps6 VK (Proc.devRef .tc Cert.KernelIdeal.main_v48)
      = after (List.take 25 rT) VR (Proc.devRef .tc Cert.ReferenceIdeal.main_v108) ∧
    after Cert.KernelIdeal.Gen.hostOps6 VK (Proc.devRef .tc Cert.KernelIdeal.main_c)
      = after (List.take 25 rT) VR (Proc.devRef .tc Cert.ReferenceIdeal.main_c_19) ∧
    after Cert.KernelIdeal.Gen.hostOps6 VK (Proc.devRef .tc Cert.KernelIdeal.main_arg18)
      = after (List.take 25 rT) VR (Proc.devRef .tc Cert.ReferenceIdeal.main_arg18) ∧
    after Cert.KernelIdeal.Gen.hostOps6 VK (Proc.devRef .tc Cert.KernelIdeal.main_arg19)
      = after (List.take 25 rT) VR (Proc.devRef .tc Cert.ReferenceIdeal.main_arg19) ∧
    after Cert.KernelIdeal.Gen.hostOps6 VK (Proc.devRef .tc Cert.KernelIdeal.main_arg20)
      = after (List.take 25 rT) VR (Proc.devRef .tc Cert.ReferenceIdeal.main_arg20) ∧
    after Cert.KernelIdeal.Gen.hostOps6 VK (Proc.devRef .tc Cert.KernelIdeal.main_arg21)
      = after (List.take 25 rT) VR (Proc.devRef .tc Cert.ReferenceIdeal.main_arg21) ∧
    after Cert.KernelIdeal.Gen.hostOps6 VK (Proc.devRef .tc Cert.KernelIdeal.main_arg22)
      = after (List.take 25 rT) VR (Proc.devRef .tc Cert.ReferenceIdeal.main_arg22) ∧
    after Cert.KernelIdeal.Gen.hostOps6 VK (Proc.devRef .tc Cert.KernelIdeal.main_arg23)
      = after (List.take 25 rT) VR (Proc.devRef .tc Cert.ReferenceIdeal.main_arg23) ∧
    after Cert.KernelIdeal.Gen.hostOps6 VK (Proc.devRef .tc Cert.KernelIdeal.main_arg24)
      = after (List.take 25 rT) VR (Proc.devRef .tc Cert.ReferenceIdeal.main_arg24) ∧
    after Cert.KernelIdeal.Gen.hostOps6 VK (Proc.devRef .tc Cert.KernelIdeal.main_arg25)
      = after (List.take 25 rT) VR (Proc.devRef .tc Cert.ReferenceIdeal.main_arg25) := by
  simp only [Cert.KernelIdeal.Gen.hostOps6, rT, Cert.ReferenceIdeal.Val.opsTail,
    List.take_succ_cons, List.take_zero, List.drop_succ_cons, List.drop_zero]
  after_results_simp
  refine ⟨?_, ?_, ?_, ?_, ?_, ?_, ?_, ?_, ?_, ?_, ?_⟩
  · simp only [h_v30, h_arg3, h_arg16, h_arg17]
    all_goals rfl
  · simp only [h_v30, h_arg3, h_arg16, h_arg17]
    all_goals rfl
  · first | trivial | rfl
  · exact h_arg18
  · exact h_arg19
  · exact h_arg20
  · exact h_arg21
  · exact h_arg22
  · exact h_arg23
  · exact h_arg24
  · exact h_arg25

/-- Stage 1, the column variances of the first dense layer's output: from contents that agree on what this stage and the later ones read,
    the two programs' stretches of operations leave contents that agree on what the later stages read. -/
theorem s1 (VK : Valuation Cert.KernelIdeal.τ Cert.KernelIdeal.sig (Elt Ideal))
    (VR : Valuation Cert.ReferenceIdeal.τ Cert.ReferenceIdeal.sig (Elt Ideal))
    (h_v45 : VK (Proc.devRef .tc Cert.KernelIdeal.main_v45) = VR (Proc.devRef .tc Cert.ReferenceIdeal.main_v105))
    (h_v48 : VK (Proc.devRef .tc Cert.KernelIdeal.main_v48) = VR (Proc.devRef .tc Cert.ReferenceIdeal.main_v108))
    (h_c : VK (Proc.devRef .tc Cert.KernelIdeal.main_c) = VR (Proc.devRef .tc Cert.ReferenceIdeal.main_c_19))
    (h_arg18 : VK (Proc.devRef .tc Cert.KernelIdeal.main_arg18) = VR (Proc.devRef .tc Cert.ReferenceIdeal.main_arg18))
    (h_arg19 : VK (Proc.devRef .tc Cert.KernelIdeal.main_arg19) = VR (Proc.devRef .tc Cert.ReferenceIdeal.main_arg19))
    (h_arg20 : VK (Proc.devRef .tc Cert.KernelIdeal.main_arg20) = VR (Proc.devRef .tc Cert.ReferenceIdeal.main_arg20))
    (h_arg21 : VK (Proc.devRef .tc Cert.KernelIdeal.main_arg21) = VR (Proc.devRef .tc Cert.ReferenceIdeal.main_arg21))
    (h_arg22 : VK (Proc.devRef .tc Cert.KernelIdeal.main_arg22) = VR (Proc.devRef .tc Cert.ReferenceIdeal.main_arg22))
    (h_arg23 : VK (Proc.devRef .tc Cert.KernelIdeal.main_arg23) = VR (Proc.devRef .tc Cert.ReferenceIdeal.main_arg23))
    (h_arg24 : VK (Proc.devRef .tc Cert.KernelIdeal.main_arg24) = VR (Proc.devRef .tc Cert.ReferenceIdeal.main_arg24))
    (h_arg25 : VK (Proc.devRef .tc Cert.KernelIdeal.main_arg25) = VR (Proc.devRef .tc Cert.ReferenceIdeal.main_arg25)) :
    after Cert.KernelIdeal.Gen.hostOps6_1 VK (Proc.devRef .tc Cert.KernelIdeal.main_v49)
      = after (List.take 22 rD1) VR (Proc.devRef .tc Cert.ReferenceIdeal.main_v109) ∧
    after Cert.KernelIdeal.Gen.hostOps6_1 VK (Proc.devRef .tc Cert.KernelIdeal.main_v45)
      = after (List.take 22 rD1) VR (Proc.devRef .tc Cert.ReferenceIdeal.main_v105) ∧
    after Cert.KernelIdeal.Gen.hostOps6_1 VK (Proc.devRef .tc Cert.KernelIdeal.main_v48)
      = after (List.take 22 rD1) VR (Proc.devRef .tc Cert.ReferenceIdeal.main_v108) ∧
    after Cert.KernelIdeal.Gen.hostOps6_1 VK (Proc.devRef .tc Cert.KernelIdeal.main_arg18)
      = after (List.take 22 rD1) VR (Proc.devRef .tc Cert.ReferenceIdeal.main_arg18) ∧
    after Cert.KernelIdeal.Gen.hostOps6_1 VK (Proc.devRef .tc Cert.KernelIdeal.main_arg19)
      = after (List.take 22 rD1) VR (Proc.devRef .tc Cert.ReferenceIdeal.main_arg19) ∧
    after Cert.KernelIdeal.Gen.hostOps6_1 VK (Proc.devRef .tc Cert.KernelIdeal.main_arg20)
      = after (List.take 22 rD1) VR (Proc.devRef .tc Cert.ReferenceIdeal.main_arg20) ∧
    after Cert.KernelIdeal.Gen.hostOps6_1 VK (Proc.devRef .tc Cert.KernelIdeal.main_arg21)
      = after (List.take 22 rD1) VR (Proc.devRef .tc Cert.ReferenceIdeal.main_arg21) ∧
    after Cert.KernelIdeal.Gen.hostOps6_1 VK (Proc.devRef .tc Cert.KernelIdeal.main_arg22)
      = after (List.take 22 rD1) VR (Proc.devRef .tc Cert.ReferenceIdeal.main_arg22) ∧
    after Cert.KernelIdeal.Gen.hostOps6_1 VK (Proc.devRef .tc Cert.KernelIdeal.main_arg23)
      = after (List.take 22 rD1) VR (Proc.devRef .tc Cert.ReferenceIdeal.main_arg23) ∧
    after Cert.KernelIdeal.Gen.hostOps6_1 VK (Proc.devRef .tc Cert.KernelIdeal.main_arg24)
      = after (List.take 22 rD1) VR (Proc.devRef .tc Cert.ReferenceIdeal.main_arg24) ∧
    after Cert.KernelIdeal.Gen.hostOps6_1 VK (Proc.devRef .tc Cert.KernelIdeal.main_arg25)
      = after (List.take 22 rD1) VR (Proc.devRef .tc Cert.ReferenceIdeal.main_arg25) := by
  simp only [Cert.KernelIdeal.Gen.hostOps6_1, rT, rD1, Cert.ReferenceIdeal.Val.opsTail,
    List.take_succ_cons, List.take_zero, List.drop_succ_cons, List.drop_zero]
  after_results_simp
  refine ⟨?_, ?_, ?_, ?_, ?_, ?_, ?_, ?_, ?_, ?_, ?_⟩
  · simp only [h_v45, h_c]
    all_goals rfl
  · exact h_v45
  · exact h_v48
  · exact h_arg18
  · exact h_arg19
  · exact h_arg20
  · exact h_arg21
  · exact h_arg22
  · exact h_arg23
  · exact h_arg24
  · exact h_arg25

set_option maxHeartbeats 600000 in
/-- Stage 2, the first batch normalisation (centre, scale by the inverse root of the variance, then the learnt scale and shift): from contents that agree on what this stage and the later ones read,
    the two programs' stretches of operations leave contents that agree on what the later stages read. -/
theorem s2 (VK : Valuation Cert.KernelIdeal.τ Cert.KernelIdeal.sig (Elt Ideal))
    (VR : Valuation Cert.ReferenceIdeal.τ Cert.ReferenceIdeal.sig (Elt Ideal))
    (h_v45 : VK (Proc.devRef .tc Cert.KernelIdeal.main_v45) = VR (Proc.devRef .tc Cert.ReferenceIdeal.main_v105))
    (h_v48 : VK (Proc.devRef .tc Cert.KernelIdeal.main_v48) = VR (Proc.devRef .tc Cert.ReferenceIdeal.main_v108))
    (h_v49 : VK (Proc.devRef .tc Cert.KernelIdeal.main_v49) = VR (Proc.devRef .tc Cert.ReferenceIdeal.main_v109))
    (h_arg18 : VK (Proc.devRef .tc Cert.KernelIdeal.main_arg18) = VR (Proc.devRef .tc Cert.ReferenceIdeal.main_arg18))
    (h_arg19 : VK (Proc.devRef .tc Cert.KernelIdeal.main_arg19) = VR (Proc.devRef .tc Cert.ReferenceIdeal.main_arg19))
    (h_arg20 : VK (Proc.devRef .tc Cert.KernelIdeal.main_arg20) = VR (Proc.devRef .tc Cert.ReferenceIdeal.main_arg20))
    (h_arg21 : VK (Proc.devRef .tc Cert.KernelIdeal.main_arg21) = VR (Proc.devRef .tc Cert.ReferenceIdeal.main_arg21))
    (h_arg22 : VK (Proc.devRef .tc Cert.KernelIdeal.main_arg22) = VR (Proc.devRef .tc Cert.ReferenceIdeal.main_arg22))
    (h_arg23 : VK (Proc.devRef .tc Cert.KernelIdeal.main_arg23) = VR (Proc.devRef .tc Cert.ReferenceIdeal.main_arg23))
    (h_arg24 : VK (Proc.devRef .tc Cert.KernelIdeal.main_arg24) = VR (Proc.devRef .tc Cert.ReferenceIdeal.main_arg24))
    (h_arg25 : VK (Proc.devRef .tc Cert.KernelIdeal.main_arg25) = VR (Proc.devRef .tc Cert.ReferenceIdeal.main_arg25)) :
    after Cert.KernelIdeal.Gen.hostOps6_2 VK (Proc.devRef .tc Cert.KernelIdeal.main_v64)
      = after (List.take 16 rD2) VR (Proc.devRef .tc Cert.ReferenceIdeal.main_v124) ∧
    after Cert.KernelIdeal.Gen.hostOps6_2 VK (Proc.devRef .tc Cert.KernelIdeal.main_arg20)
      = after (List.take 16 rD2) VR (Proc.devRef .tc Cert.ReferenceIdeal.main_arg20) ∧
    after Cert.KernelIdeal.Gen.hostOps6_2 VK (Proc.devRef .tc Cert.KernelIdeal.main_arg21)
      = after (List.take 16 rD2) VR (Proc.devRef .tc Cert.ReferenceIdeal.main_arg21) ∧
    after Cert.KernelIdeal.Gen.hostOps6_2 VK (Proc.devRef .tc Cert.KernelIdeal.main_arg22)
      = after (List.take 16 rD2) VR (Proc.devRef .tc Cert.ReferenceIdeal.main_arg22) ∧
    after Cert.KernelIdeal.Gen.hostOps6_2 VK (Proc.devRef .tc Cert.KernelIdeal.main_arg23)
      = after (List.take 16 rD2) VR (Proc.devRef .tc Cert.ReferenceIdeal.main_arg23) ∧
    after Cert.KernelIdeal.Gen.hostOps6_2 VK (Proc.devRef .tc Cert.KernelIdeal.main_arg24)
      = after (List.take 16 rD2) VR (Proc.devRef .tc Cert.ReferenceIdeal.main_arg24) ∧
    after Cert.KernelIdeal.Gen.hostOps6_2 VK (Proc.devRef .tc Cert.KernelIdeal.main_arg25)
      = after (List.take 16 rD2) VR (Proc.devRef .tc Cert.ReferenceIdeal.main_arg25) := by
  simp only [Cert.KernelIdeal.Gen.hostOps6_2, rT, rD1, rD2, Cert.ReferenceIdeal.Val.opsTail,
    List.take_succ_cons, List.take_zero, List.drop_succ_cons, List.drop_zero]
  after_results_simp
  refine ⟨?_, ?_, ?_, ?_, ?_, ?_, ?_⟩
  · simp only [h_v45, h_v48, h_v49, h_arg18, h_arg19]
    all_goals rfl
  · exact h_arg20
  · exact h_arg21
  · exact h_arg22
  · exact h_arg23
  · exact h_arg24
  · exact h_arg25

/-- Stage 3, the first rectification: from contents that agree on what this stage and the later ones read,
    the two programs' stretches of operations leave contents that agree on what the later stages read. -/
theorem s3 (VK : Valuation Cert.KernelIdeal.τ Cert.KernelIdeal.sig (Elt Ideal))
    (VR : Valuation Cert.ReferenceIdeal.τ Cert.ReferenceIdeal.sig (Elt Ideal))
    (h_v64 : VK (Proc.devRef .tc Cert.KernelIdeal.main_v64) = VR (Proc.devRef .tc Cert.ReferenceIdeal.main_v124))
    (h_arg20 : VK (Proc.devRef .tc Cert.KernelIdeal.main_arg20) = VR (Proc.devRef .tc Cert.ReferenceIdeal.main_arg20))
    (h_arg21 : VK (Proc.devRef .tc Cert.KernelIdeal.main_arg21) = VR (Proc.devRef .tc Cert.ReferenceIdeal.main_arg21))
    (h_arg22 : VK (Proc.devRef .tc Cert.KernelIdeal.main_arg22) = VR (Proc.devRef .tc Cert.ReferenceIdeal.main_arg22))
    (h_arg23 : VK (Proc.devRef .tc Cert.KernelIdeal.main_arg23) = VR (Proc.devRef .tc Cert.ReferenceIdeal.main_arg23))
    (h_arg24 : VK (Proc.devRef .tc Cert.KernelIdeal.main_arg24) = VR (Proc.devRef .tc Cert.ReferenceIdeal.main_arg24))
    (h_arg25 : VK (Proc.devRef .tc Cert.KernelIdeal.main_arg25) = VR (Proc.devRef .tc Cert.ReferenceIdeal.main_arg25)) :
    after Cert.KernelIdeal.Gen.hostOps6_3 VK (Proc.devRef .tc Cert.KernelIdeal.main_v65)
      = after (List.take 3 rD3) VR (Proc.devRef .tc Cert.ReferenceIdeal.main_v125) ∧
    after Cert.KernelIdeal.Gen.hostOps6_3 VK (Proc.devRef .tc Cert.KernelIdeal.main_arg20)
      = after (List.take 3 rD3) VR (Proc.devRef .tc Cert.ReferenceIdeal.main_arg20) ∧
    after Cert.KernelIdeal.Gen.hostOps6_3 VK (Proc.devRef .tc Cert.KernelIdeal.main_arg21)
      = after (List.take 3 rD3) VR (Proc.devRef .tc Cert.ReferenceIdeal.main_arg21) ∧
    after Cert.KernelIdeal.Gen.hostOps6_3 VK (Proc.devRef .tc Cert.KernelIdeal.main_arg22)
      = after (List.take 3 rD3) VR (Proc.devRef .tc Cert.ReferenceIdeal.main_arg22) ∧
    after Cert.KernelIdeal.Gen.hostOps6_3 VK (Proc.devRef .tc Cert.KernelIdeal.main_arg23)
      = after (List.take 3 rD3) VR (Proc.devRef .tc Cert.ReferenceIdeal.main_arg23) ∧
    after Cert.KernelIdeal.Gen.hostOps6_3 VK (Proc.devRef .tc Cert.KernelIdeal.main_arg24)
      = after (List.take 3 rD3) VR (Proc.devRef .tc Cert.ReferenceIdeal.main_arg24) ∧
    after Cert.KernelIdeal.Gen.hostOps6_3 VK (Proc.devRef .tc Cert.KernelIdeal.main_arg25)
      = after (List.take 3 rD3) VR (Proc.devRef .tc Cert.ReferenceIdeal.main_arg25) := by
  simp only [Cert.KernelIdeal.Gen.hostOps6_3, rT, rD1, rD2, rD3, Cert.ReferenceIdeal.Val.opsTail,
    List.take_succ_cons, List.take_zero, List.drop_succ_cons, List.drop_zero]
  after_results_simp
  refine ⟨?_, ?_, ?_, ?_, ?_, ?_, ?_⟩
  · simp only [h_v64]
    all_goals rfl
  · exact h_arg20
  · exact h_arg21
  · exact h_arg22
  · exact h_arg23
  · exact h_arg24
  · exact h_arg25

/-- Stage 4, the second dense layer and its column means: from contents that agree on what this stage and the later ones read,
    the two programs' stretches of operations leave contents that agree on what the later stages read. -/
theorem s4 (VK : Valuation Cert.KernelIdeal.τ Cert.KernelIdeal.sig (Elt Ideal))
    (VR : Valuation Cert.ReferenceIdeal.τ Cert.ReferenceIdeal.sig (Elt Ideal))
    (h_v65 : VK (Proc.devRef .tc Cert.KernelIdeal.main_v65) = VR (Proc.devRef .tc Cert.ReferenceIdeal.main_v125))
    (h_arg20 : VK (Proc.devRef .tc Cert.KernelIdeal.main_arg20) = VR (Proc.devRef .tc Cert.ReferenceIdeal.main_arg20))
    (h_arg21 : VK (Proc.devRef .tc Cert.KernelIdeal.main_arg21) = VR (Proc.devRef .tc Cert.ReferenceIdeal.main_arg21))
    (h_arg22 : VK (Proc.devRef .tc Cert.KernelIdeal.main_arg22) = VR (Proc.devRef .tc Cert.ReferenceIdeal.main_arg22))
    (h_arg23 : VK (Proc.devRef .tc Cert.KernelIdeal.main_arg23) = VR (Proc.devRef .tc Cert.ReferenceIdeal.main_arg23))
    (h_arg24 : VK (Proc.devRef .tc Cert.KernelIdeal.main_arg24) = VR (Proc.devRef .tc Cert.ReferenceIdeal.main_arg24))
    (h_arg25 : VK (Proc.devRef .tc Cert.KernelIdeal.main_arg25) = VR (Proc.devRef .tc Cert.ReferenceIdeal.main_arg25)) :
    after Cert.KernelIdeal.Gen.hostOps6_4 VK (Proc.devRef .tc Cert.KernelIdeal.main_v69)
      = after (List.take 10 rD4) VR (Proc.devRef .tc Cert.ReferenceIdeal.main_v129) ∧
    after Cert.KernelIdeal.Gen.hostOps6_4 VK (Proc.devRef .tc Cert.KernelIdeal.main_v72)
      = after (List.take 10 rD4) VR (Proc.devRef .tc Cert.ReferenceIdeal.main_v132) ∧
    after Cert.KernelIdeal.Gen.hostOps6_4 VK (Proc.devRef .tc Cert.KernelIdeal.main_c_11)
      = after (List.take 10 rD4) VR (Proc.devRef .tc Cert.ReferenceIdeal.main_c_23) ∧
    after Cert.KernelIdeal.Gen.hostOps6_4 VK (Proc.devRef .tc Cert.KernelIdeal.main_arg22)
      = after (List.take 10 rD4) VR (Proc.devRef .tc Cert.ReferenceIdeal.main_arg22) ∧
    after Cert.KernelIdeal.Gen.hostOps6_4 VK (Proc.devRef .tc Cert.KernelIdeal.main_arg23)
      = after (List.take 10 rD4) VR (Proc.devRef .tc Cert.ReferenceIdeal.main_arg23) ∧
    after Cert.KernelIdeal.Gen.hostOps6_4 VK (Proc.devRef .tc Cert.KernelIdeal.main_arg24)
      = after (List.take 10 rD4) VR (Proc.devRef .tc Cert.ReferenceIdeal.main_arg24) ∧
    after Cert.KernelIdeal.Gen.hostOps6_4 VK (Proc.devRef .tc Cert.KernelIdeal.main_arg25)
      = after (List.take 10 rD4) VR (Proc.devRef .tc Cert.ReferenceIdeal.main_arg25) := by
  simp only [Cert.KernelIdeal.Gen.hostOps6_4, rT, rD1, rD2, rD3, rD4, Cert.ReferenceIdeal.Val.opsTail,
    List.take_succ_cons, List.take_zero, List.drop_succ_cons, List.drop_zero]
  after_results_simp
  refine ⟨?_, ?_, ?_, ?_, ?_, ?_, ?_⟩
  · simp only [h_v65, h_arg20, h_arg21]
    all_goals rfl
  · simp only [h_v65, h_arg20, h_arg21]
    all_goals rfl
  · first | trivial | rfl
  · exact h_arg22
  · exact h_arg23
  · exact h_arg24
  · exact h_arg25

/-- Stage 5, the column variances of the second dense layer's output: from contents that agree on what this stage and the later ones read,
    the two programs' stretches of operations leave contents that agree on what the later stages read. -/
theorem s5 (VK : Valuation Cert.KernelIdeal.τ Cert.KernelIdeal.sig (Elt Ideal))
    (VR : Valuation Cert.ReferenceIdeal.τ Cert.ReferenceIdeal.sig (Elt Ideal))
    (h_v69 : VK (Proc.devRef .tc Cert.KernelIdeal.main_v69) = VR (Proc.devRef .tc Cert.ReferenceIdeal.main_v129))
    (h_v72 : VK (Proc.devRef .tc Cert.KernelIdeal.main_v72) = VR (Proc.devRef .tc Cert.ReferenceIdeal.main_v132))
    (h_c_11 : VK (Proc.devRef .tc Cert.KernelIdeal.main_c_11) = VR (Proc.devRef .tc Cert.ReferenceIdeal.main_c_23))
    (h_arg22 : VK (Proc.devRef .tc Cert.KernelIdeal.main_arg22) = VR (Proc.devRef .tc Cert.ReferenceIdeal.main_arg22))
    (h_arg23 : VK (Proc.devRef .tc Cert.KernelIdeal.main_arg23) = VR (Proc.devRef .tc Cert.ReferenceIdeal.main_arg23))
    (h_arg24 : VK (Proc.devRef .tc Cert.KernelIdeal.main_arg24) = VR (Proc.devRef .tc Cert.ReferenceIdeal.main_arg24))
    (h_arg25 : VK (Proc.devRef .tc Cert.KernelIdeal.main_arg25) = VR (Proc.devRef .tc Cert.ReferenceIdeal.main_arg25)) :
    after Cert.KernelIdeal.Gen.hostOps6_5 VK (Proc.devRef .tc Cert.KernelIdeal.main_v73)
      = after (List.take 22 rD5) VR (Proc.devRef .tc Cert.ReferenceIdeal.main_v133) ∧
    after Cert.KernelIdeal.Gen.hostOps6_5 VK (Proc.devRef .tc Cert.KernelIdeal.main_v69)
      = after (List.take 22 rD5) VR (Proc.devRef .tc Cert.ReferenceIdeal.main_v129) ∧
    after Cert.KernelIdeal.Gen.hostOps6_5 VK (Proc.devRef .tc Cert.KernelIdeal.main_v72)
      = after (List.take 22 rD5) VR (Proc.devRef .tc Cert.ReferenceIdeal.main_v132) ∧
    after Cert.KernelIdeal.Gen.hostOps6_5 VK (Proc.devRef .tc Cert.KernelIdeal.main_arg22)
      = after (List.take 22 rD5) VR (Proc.devRef .tc Cert.ReferenceIdeal.main_arg22) ∧
    after Cert.KernelIdeal.Gen.hostOps6_5 VK (Proc.devRef .tc Cert.KernelIdeal.main_arg23)
      = after (List.take 22 rD5) VR (Proc.devRef .tc Cert.ReferenceIdeal.main_arg23) ∧
    after Cert.KernelIdeal.Gen.hostOps6_5 VK (Proc.devRef .tc Cert.KernelIdeal.main_arg24)
      = after (List.take 22 rD5) VR (Proc.devRef .tc Cert.ReferenceIdeal.main_arg24) ∧
    after Cert.KernelIdeal.Gen.hostOps6_5 VK (Proc.devRef .tc Cert.KernelIdeal.main_arg25)
      = after (List.take 22 rD5) VR (Proc.devRef .tc Cert.ReferenceIdeal.main_arg25) := by
  simp only [Cert.KernelIdeal.Gen.hostOps6_5, rT, rD1, rD2, rD3, rD4, rD5, Cert.ReferenceIdeal.Val.opsTail,
    List.take_succ_cons, List.take_zero, List.drop_succ_cons, List.drop_zero]
  after_results_simp
  refine ⟨?_, ?_, ?_, ?_, ?_, ?_, ?_⟩
  · simp only [h_v69, h_c_11]
    all_goals rfl
  · exact h_v69
  · exact h_v72
  · exact h_arg22
  · exact h_arg23
  · exact h_arg24
  · exact h_arg25

/-- Stage 6, the second batch normalisation: from contents that agree on what this stage and the later ones read,
    the two programs' stretches of operations leave contents that agree on what the later stages read. -/
theorem s6 (VK : Valuation Cert.KernelIdeal.τ Cert.KernelIdeal.sig (Elt Ideal))
    (VR : Valuation Cert.ReferenceIdeal.τ Cert.ReferenceIdeal.sig (Elt Ideal))
    (h_v69 : VK (Proc.devRef .tc Cert.KernelIdeal.main_v69) = VR (Proc.devRef .tc Cert.ReferenceIdeal.main_v129))
    (h_v72 : VK (Proc.devRef .tc Cert.KernelIdeal.main_v72) = VR (Proc.devRef .tc Cert.ReferenceIdeal.main_v132))
    (h_v73 : VK (Proc.devRef .tc Cert.KernelIdeal.main_v73) = VR (Proc.devRef .tc Cert.ReferenceIdeal.main_v133))
    (h_arg22 : VK (Proc.devRef .tc Cert.KernelIdeal.main_arg22) = VR (Proc.devRef .tc Cert.ReferenceIdeal.main_arg22))
    (h_arg23 : VK (Proc.devRef .tc Cert.KernelIdeal.main_arg23) = VR (Proc.devRef .tc Cert.ReferenceIdeal.main_arg23))
    (h_arg24 : VK (Proc.devRef .tc Cert.KernelIdeal.main_arg24) = VR (Proc.devRef .tc Cert.ReferenceIdeal.main_arg24))
    (h_arg25 : VK (Proc.devRef .tc Cert.KernelIdeal.main_arg25) = VR (Proc.devRef .tc Cert.ReferenceIdeal.main_arg25)) :
    after Cert.KernelIdeal.Gen.hostOps6_6 VK (Proc.devRef .tc Cert.KernelIdeal.main_v88)
      = after (List.take 16 rD6) VR (Proc.devRef .tc Cert.ReferenceIdeal.main_v148) ∧
    after Cert.KernelIdeal.Gen.hostOps6_6 VK (Proc.devRef .tc Cert.KernelIdeal.main_arg24)
      = after (List.take 16 rD6) VR (Proc.devRef .tc Cert.ReferenceIdeal.main_arg24) ∧
    after Cert.KernelIdeal.Gen.hostOps6_6 VK (Proc.devRef .tc Cert.KernelIdeal.main_arg25)
      = after (List.take 16 rD6) VR (Proc.devRef .tc Cert.ReferenceIdeal.main_arg25) := by
  simp only [Cert.KernelIdeal.Gen.hostOps6_6, rT, rD1, rD2, rD3, rD4, rD5, rD6, Cert.ReferenceIdeal.Val.opsTail,
    List.take_succ_cons, List.take_zero, List.drop_succ_cons, List.drop_zero]
  after_results_simp
  refine ⟨?_, ?_, ?_⟩
  · simp only [h_v69, h_v72, h_v73, h_arg22, h_arg23]
    all_goals rfl
  · exact h_arg24
  · exact h_arg25

/-- Stage 7, the second rectification: from contents that agree on what this stage and the later ones read,
    the two programs' stretches of operations leave contents that agree on what the later stages read. -/
theorem s7 (VK : Valuation Cert.KernelIdeal.τ Cert.KernelIdeal.sig (Elt Ideal))
    (VR : Valuation Cert.ReferenceIdeal.τ Cert.ReferenceIdeal.sig (Elt Ideal))
    (h_v88 : VK (Proc.devRef .tc Cert.KernelIdeal.main_v88) = VR (Proc.devRef .tc Cert.ReferenceIdeal.main_v148))
    (h_arg24 : VK (Proc.devRef .tc Cert.KernelIdeal.main_arg24) = VR (Proc.devRef .tc Cert.ReferenceIdeal.main_arg24))
    (h_arg25 : VK (Proc.devRef .tc Cert.KernelIdeal.main_arg25) = VR (Proc.devRef .tc Cert.ReferenceIdeal.main_arg25)) :
    after Cert.KernelIdeal.Gen.hostOps6_7 VK (Proc.devRef .tc Cert.KernelIdeal.main_v89)
      = after (List.take 3 rD7) VR (Proc.devRef .tc Cert.ReferenceIdeal.main_v149) ∧
    after Cert.KernelIdeal.Gen.hostOps6_7 VK (Proc.devRef .tc Cert.KernelIdeal.main_arg24)
      = after (List.take 3 rD7) VR (Proc.devRef .tc Cert.ReferenceIdeal.main_arg24) ∧
    after Cert.KernelIdeal.Gen.hostOps6_7 VK (Proc.devRef .tc Cert.KernelIdeal.main_arg25)
      = after (List.take 3 rD7) VR (Proc.devRef .tc Cert.ReferenceIdeal.main_arg25) := by
  simp only [Cert.KernelIdeal.Gen.hostOps6_7, rT, rD1, rD2, rD3, rD4, rD5, rD6, rD7, Cert.ReferenceIdeal.Val.opsTail,
    List.take_succ_cons, List.take_zero, List.drop_succ_cons, List.drop_zero]
  after_results_simp
  refine ⟨?_, ?_, ?_⟩
  · simp only [h_v88]
    all_goals rfl
  · exact h_arg24
  · exact h_arg25

/-- Stage 8, the last dense layer: from contents that agree on what this stage and the later ones read,
    the two programs' stretches of operations leave contents that agree on what the later stages read. -/
theorem s8 (VK : Valuation Cert.KernelIdeal.τ Cert.KernelIdeal.sig (Elt Ideal))
    (VR : Valuation Cert.ReferenceIdeal.τ Cert.ReferenceIdeal.sig (Elt Ideal))
    (h_v89 : VK (Proc.devRef .tc Cert.KernelIdeal.main_v89) = VR (Proc.devRef .tc Cert.ReferenceIdeal.main_v149))
    (h_arg24 : VK (Proc.devRef .tc Cert.KernelIdeal.main_arg24) = VR (Proc.devRef .tc Cert.ReferenceIdeal.main_arg24))
    (h_arg25 : VK (Proc.devRef .tc Cert.KernelIdeal.main_arg25) = VR (Proc.devRef .tc Cert.ReferenceIdeal.main_arg25)) :
    after Cert.KernelIdeal.Gen.hostOps6_8 VK (Proc.devRef .tc Cert.KernelIdeal.main_v93)
      = after rD8 VR (Proc.devRef .tc Cert.ReferenceIdeal.main_v153) := by
  simp only [Cert.KernelIdeal.Gen.hostOps6_8, rT, rD1, rD2, rD3, rD4, rD5, rD6, rD7, rD8, Cert.ReferenceIdeal.Val.opsTail,
    List.take_succ_cons, List.take_zero, List.drop_succ_cons, List.drop_zero]
  after_results_simp
  simp only [h_v89, h_arg24, h_arg25]
  all_goals rfl

theorem tail_agree (UK : Valuation Cert.KernelIdeal.τ Cert.KernelIdeal.sig (Elt Ideal)) (UR : Valuation Cert.ReferenceIdeal.τ Cert.ReferenceIdeal.sig (Elt Ideal))
    (hh : UK (Proc.devRef .tc Cert.KernelIdeal.main_v30) = UR (Proc.devRef .tc Cert.ReferenceIdeal.main_v90))
    (h3 : UK (Proc.devRef .tc Cert.KernelIdeal.main_arg3) = UR (Proc.devRef .tc Cert.ReferenceIdeal.main_arg3))
    (h16 : UK (Proc.devRef .tc Cert.KernelIdeal.main_arg16) = UR (Proc.devRef .tc Cert.ReferenceIdeal.main_arg16))
    (h17 : UK (Proc.devRef .tc Cert.KernelIdeal.main_arg17) = UR (Proc.devRef .tc Cert.ReferenceIdeal.main_arg17))
    (h18 : UK (Proc.devRef .tc Cert.KernelIdeal.main_arg18) = UR (Proc.devRef .tc Cert.ReferenceIdeal.main_arg18))
    (h19 : UK (Proc.devRef .tc Cert.KernelIdeal.main_arg19) = UR (Proc.devRef .tc Cert.ReferenceIdeal.main_arg19))
    (h20 : UK (Proc.devRef .tc Cert.KernelIdeal.main_arg20) = UR (Proc.devRef .tc Cert.ReferenceIdeal.main_arg20))
    (h21 : UK (Proc.devRef .tc Cert.KernelIdeal.main_arg21) = UR (Proc.devRef .tc Cert.ReferenceIdeal.main_arg21))
    (h22 : UK (Proc.devRef .tc Cert.KernelIdeal.main_arg22) = UR (Proc.devRef .tc Cert.ReferenceIdeal.main_arg22))
    (h23 : UK (Proc.devRef .tc Cert.KernelIdeal.main_arg23) = UR (Proc.devRef .tc Cert.ReferenceIdeal.main_arg23))
    (h24 : UK (Proc.devRef .tc Cert.KernelIdeal.main_arg24) = UR (Proc.devRef .tc Cert.ReferenceIdeal.main_arg24))
    (h25 : UK (Proc.devRef .tc Cert.KernelIdeal.main_arg25) = UR (Proc.devRef .tc Cert.ReferenceIdeal.main_arg25)) :
    tailK UK (Proc.devRef .tc Cert.KernelIdeal.main_v93)
      = after (Cert.ReferenceIdeal.Val.opsTail (F := Ideal)) UR (Proc.devRef .tc Cert.ReferenceIdeal.main_v153) := by
  obtain ⟨a0_v45, a0_v48, a0_c, a0_arg18, a0_arg19, a0_arg20, a0_arg21, a0_arg22, a0_arg23, a0_arg24, a0_arg25⟩ :=
    s0 UK UR hh h3 h16 h17 h18 h19 h20 h21 h22 h23 h24 h25
  obtain ⟨a1_v49, a1_v45, a1_v48, a1_arg18, a1_arg19, a1_arg20, a1_arg21, a1_arg22, a1_arg23, a1_arg24, a1_arg25⟩ :=
    s1 _ _ a0_v45 a0_v48 a0_c a0_arg18 a0_arg19 a0_arg20 a0_arg21 a0_arg22 a0_arg23 a0_arg24 a0_arg25
  obtain ⟨a2_v64, a2_arg20, a2_arg21, a2_arg22, a2_arg23, a2_arg24, a2_arg25⟩ :=
    s2 _ _ a1_v45 a1_v48 a1_v49 a1_arg18 a1_arg19 a1_arg20 a1_arg21 a1_arg22 a1_arg23 a1_arg24 a1_arg25
  obtain ⟨a3_v65, a3_arg20, a3_arg21, a3_arg22, a3_arg23, a3_arg24, a3_arg25⟩ :=
    s3 _ _ a2_v64 a2_arg20 a2_arg21 a2_arg22 a2_arg23 a2_arg24 a2_arg25
  obtain ⟨a4_v69, a4_v72, a4_c_11, a4_arg22, a4_arg23, a4_arg24, a4_arg25⟩ :=
    s4 _ _ a3_v65 a3_arg20 a3_arg21 a3_arg22 a3_arg23 a3_arg24 a3_arg25
  obtain ⟨a5_v73, a5_v69, a5_v72, a5_arg22, a5_arg23, a5_arg24, a5_arg25⟩ :=
    s5 _ _ a4_v69 a4_v72 a4_c_11 a4_arg22 a4_arg23 a4_arg24 a4_arg25
  obtain ⟨a6_v88, a6_arg24, a6_arg25⟩ :=
    s6 _ _ a5_v69 a5_v72 a5_v73 a5_arg22 a5_arg23 a5_arg24 a5_arg25
  obtain ⟨a7_v89, a7_arg24, a7_arg25⟩ :=
    s7 _ _ a6_v88 a6_arg24 a6_arg25
  have a8_v93 := s8 _ _ a7_v89 a7_arg24 a7_arg25
  rw [after_split 25 rT UR, after_split 22 rD1, after_split 16 rD2, after_split 3 rD3, after_split 10 rD4,
    after_split 22 rD5, after_split 16 rD6, after_split 3 rD7]
  exact a8_v93

end Cert.Tail

end
-- ==== Proof.BridgeRef.lean ====
/-
  The reference's layer read at an entry: its message array and its node update are the row perceptrons of Spec.lean.

  The reference lays the three pieces of an edge's row side by side, multiplies by the weights (a sum over the 144
  columns), adds the bias broadcast down the rows and takes the maximum with zero; entry (e, j) of the result is therefore
  the row perceptron of row e of each piece. The node update is the same with two pieces and 96 columns.
-/
import proofs.«431247_j30262339568087_2_alg».proof.Proof.RDefs
import proofs.«431247_j30262339568087_2_alg».proof.Proof.Spec
import proofs.«431247_j30262339568087_2_alg».proof.Proof.LibMatmul
import Idealize.ShloMosaic.Lib.ValueLayout
import Idealize.ShloMosaic.Lib.Pipeline.Value

set_option maxRecDepth 16384

noncomputable section

namespace Cert.Bridge

open Idealize.ShloMosaic Idealize.ShloMosaic.ValueIdx Cert.Spec
open Cert.ReferenceIdeal.Val

section Entries

open Cert.ReferenceIdeal Cert.ReferenceIdeal.Gen

/-- The edge product at an entry: the sum over the 144 columns. -/
theorem dotE_apply (l : FVec Ideal S800000x144 .f32) (r : FVec Ideal S144x32 .f32) (e : Fin 800000) (j : Fin 32) :
    Host.dotGeneral (F := Ideal) dot_S800000x144_S144x32_S800000x32_1_0_0_1_n_n none l r (ix2 e j)
      = ∑ k : Fin 144, l (ix2 e k) * r (ix2 k j) := by
  have h : dot_S800000x144_S144x32_S800000x32_1_0_0_1_n_n
      = Cert.Lib.MatMul.mmD 800000 144 32 dot_S800000x144_S144x32_S800000x32_1_0_0_1_n_n_wf := rfl
  rw [h]
  exact Cert.Lib.MatMul.dot_apply _ none l r e j

/-- The node product at an entry: the sum over the 96 columns. -/
theorem dotN_apply (l : FVec Ideal S50000x96 .f32) (r : FVec Ideal S96x64 .f32) (n : Fin 50000) (j : Fin 64) :
    Host.dotGeneral (F := Ideal) dot_S50000x96_S96x64_S50000x64_1_0_0_1_n_n none l r (ix2 n j)
      = ∑ k : Fin 96, l (ix2 n k) * r (ix2 k j) := by
  have h : dot_S50000x96_S96x64_S50000x64_1_0_0_1_n_n
      = Cert.Lib.MatMul.mmD 50000 96 64 dot_S50000x96_S96x64_S50000x64_1_0_0_1_n_n_wf := rfl
  rw [h]
  exact Cert.Lib.MatMul.dot_apply _ none l r n j

/-- The edge bias, made a row and repeated down the rows, at an entry. -/
theorem biasE_apply (eb : FVec Ideal S32 .f32) (e : Fin 800000) (j : Fin 32) :
    broadcastInDim S800000x32 ![0, 1] bcast_S1x32_S800000x32_0_1 (broadcastInDim S1x32 ![1] bcast_S32_S1x32_1 eb) (ix2 e j)
      = eb (ix1 j) := by
  rw [broadcastInDim_apply _ _ _ (ix2 e j) (ix2 (0 : Fin 1) j) (fun a => by
        match a with
        | ⟨0, _⟩ => rfl
        | ⟨1, _⟩ => rfl),
    broadcastInDim_apply _ _ _ (ix2 (0 : Fin 1) j) (ix1 j) (fun a => by
        match a with
        | ⟨0, _⟩ => rfl)]

/-- The zero constant spread over the messages, at an entry. -/
theorem zeroE_apply (e : Fin 800000) (j : Fin 32) :
    broadcastInDim S800000x32 ![] bcast_S_S800000x32 (constant (F := Ideal) S_ .f32 0x00000000#32) (ix2 e j) = 0 := by
  rw [broadcastInDim_apply _ _ _ (ix2 e j) ix0 (fun a => a.elim0), constant_apply, Ideal.ofBits_zero_f32]

/-- Three pieces of 64, 64 and 16 columns laid side by side, read at an entry. -/
theorem catE_apply (a b : FVec Ideal S800000x64 .f32) (c : FVec Ideal S800000x16 .f32) (e : Fin 800000) (k : Fin 144) :
    concatenate S800000x144 1 [⟨S800000x64, a⟩, ⟨S800000x64, b⟩, ⟨S800000x16, c⟩]
        concatenates_S800000x64_S800000x64_S800000x16_S800000x144_d1 (ix2 e k)
      = cat3 (fun q => a (ix2 e q)) (fun q => b (ix2 e q)) (fun q => c (ix2 e q)) k := by
  unfold cat3
  by_cases h1 : k.val < 64
  · rw [dif_pos h1]
    refine concatenate_apply_piece (1 : Fin 2) [⟨S800000x64, a⟩, ⟨S800000x64, b⟩, ⟨S800000x16, c⟩] _ (ix2 e k) 0 (by simp) S800000x64 a rfl rfl 0 rfl
      (ix2 e ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 128
    · rw [dif_pos h2]
      refine concatenate_apply_piece (1 : Fin 2) _ _ (ix2 e k) 1 (by simp) S800000x64 b rfl rfl 64 rfl
        (ix2 e ⟨k.val - 64, by omega⟩) (fun b hb => ?_) ?_
      · match b with
        | ⟨0, _⟩ => rfl
        | ⟨1, _⟩ => exact absurd rfl hb
      · show 64 + (k.val - 64) = k.val
        omega
    · rw [dif_neg h2]
      refine concatenate_apply_piece (1 : Fin 2) _ _ (ix2 e k) 2 (by simp) S800000x16 c rfl rfl 128 rfl
        (ix2 e ⟨k.val - 128, by omega⟩) (fun b hb => ?_) ?_
      · match b with
        | ⟨0, _⟩ => rfl
        | ⟨1, _⟩ => exact absurd rfl hb
      · show 128 + (k.val - 128) = k.val
        omega

/-- The node bias, made a row and repeated down the rows, at an entry. -/
theorem biasN_apply (nb : FVec Ideal S64 .f32) (n : Fin 50000) (j : Fin 64) :
    broadcastInDim S50000x64 ![0, 1] bcast_S1x64_S50000x64_0_1 (broadcastInDim S1x64 ![1] bcast_S64_S1x64_1 nb) (ix2 n j)
      = nb (ix1 j) := by
  rw [broadcastInDim_apply _ _ _ (ix2 n j) (ix2 (0 : Fin 1) j) (fun a => by
        match a with
        | ⟨0, _⟩ => rfl
        | ⟨1, _⟩ => rfl),
    broadcastInDim_apply _ _ _ (ix2 (0 : Fin 1) j) (ix1 j) (fun a => by
        match a with
        | ⟨0, _⟩ => rfl)]

/-- The zero constant spread over the node features, at an entry. -/
theorem zeroN_apply (n : Fin 50000) (j : Fin 64) :
    broadcastInDim S50000x64 ![] bcast_S_S50000x64 (constant (F := Ideal) S_ .f32 0x00000000#32) (ix2 n j) = 0 := by
  rw [broadcastInDim_apply _ _ _ (ix2 n j) ix0 (fun a => a.elim0), constant_apply, Ideal.ofBits_zero_f32]

/-- Two pieces of 64 and 32 columns laid side by side, read at an entry. -/
theorem catN_apply (a : FVec Ideal S50000x64 .f32) (g : FVec Ideal S50000x32 .f32) (n : Fin 50000) (k : Fin 96) :
    concatenate S50000x96 1 [⟨S50000x64, a⟩, ⟨S50000x32, g⟩] concatenates_S50000x64_S50000x32_S50000x96_d1 (ix2 n k)
      = cat2 (fun q => a (ix2 n q)) (fun q => g (ix2 n q)) k := by
  unfold cat2
  by_cases h1 : k.val < 64
  · rw [dif_pos h1]
    refine concatenate_apply_piece (1 : Fin 2) [⟨S50000x64, a⟩, ⟨S50000x32, g⟩] _ (ix2 n k) 0 (by simp) S50000x64 a rfl rfl 0 rfl
      (ix2 n ⟨k.val, h1⟩) (fun b hb => ?_) ?_
    · match b with
      | ⟨0, _⟩ => rfl
      | ⟨1, _⟩ => exact absurd rfl hb
    · show 0 + k.val = k.val
      omega
  · rw [dif_neg h1]
    refine concatenate_apply_piece (1 : Fin 2) _ _ (ix2 n k) 1 (by simp) S50000x32 g rfl rfl 64 rfl
      (ix2 n ⟨k.val - 64, by omega⟩) (fun b hb => ?_) ?_
    · match b with
      | ⟨0, _⟩ => rfl
      | ⟨1, _⟩ => exact absurd rfl hb
    · show 64 + (k.val - 64) = k.val
      omega

end Entries

/-- Entry (e, j) of the reference's messages. -/
theorem msgR_apply (x : FVec Ideal Cert.ReferenceIdeal.S50000x64 .f32) (src dst : IVec Cert.ReferenceIdeal.S800000 32) (ea : FVec Ideal Cert.ReferenceIdeal.S800000x16 .f32)
    (ew : FVec Ideal Cert.ReferenceIdeal.S144x32 .f32) (eb : FVec Ideal Cert.ReferenceIdeal.S32 .f32) (e : Fin 800000) (j : Fin 32) :
    msgR x src dst ea ew eb (ix2 e j)
      = edgeRow (fun k => takeR x src (ix2 e k)) (fun k => takeR x dst (ix2 e k)) (fun k => ea (ix2 e k)) ew
          (fun q => eb (ix1 q)) j := by
  unfold msgR edgeRow
  rw [maximumf_apply, addf_apply, dotE_apply, biasE_apply, zeroE_apply]
  refine congrArg (fun s => max (s + eb (ix1 j)) 0) (Finset.sum_congr rfl fun k _ => ?_)
  rw [catE_apply]

/-- Entry (n, j) of the reference's layer. -/
theorem convR_apply (x : FVec Ideal Cert.ReferenceIdeal.S50000x64 .f32) (src dst : IVec Cert.ReferenceIdeal.S800000 32) (ea : FVec Ideal Cert.ReferenceIdeal.S800000x16 .f32)
    (ew : FVec Ideal Cert.ReferenceIdeal.S144x32 .f32) (eb : FVec Ideal Cert.ReferenceIdeal.S32 .f32) (nw : FVec Ideal Cert.ReferenceIdeal.S96x64 .f32)
    (nb : FVec Ideal Cert.ReferenceIdeal.S64 .f32) (n : Fin 50000) (j : Fin 64) :
    convR x src dst ea ew eb nw nb (ix2 n j)
      = nodeRow (fun k => x (ix2 n k)) (fun k => aggR src (msgR x src dst ea ew eb) (ix2 n k)) nw
          (fun q => nb (ix1 q)) j := by
  unfold convR nodeRow
  rw [maximumf_apply, addf_apply, dotN_apply, biasN_apply, zeroN_apply]
  refine congrArg (fun s => max (s + nb (ix1 j)) 0) (Finset.sum_congr rfl fun k _ => ?_)
  rw [catN_apply]

end Cert.Bridge

end
-- ==== Proof.LibRowGatherScatter.lean ====
/-
  A row gather followed by a row scatter-add, read at an entry (a general lemma: nothing here depends on a program).

  For an operand of shape [N, W], index arrays of shape [E, 1] and updates of shape [E, W], the row scatter-add
  (update window axis 1, inserted window axis 0, scatter axis 0, index vector axis 1) at entry (n, q) is x[n, q]
  plus the sum, over the edges e whose index dst[e], read signed, is n, of the update (e, q): an edge whose index
  is not a row contributes nothing. The row gather (offset axis 1, collapsed axis 0, start index map [0], index
  vector axis 1, slice sizes [1, W]) at (e, q) is the operand at row min(src[e], N - 1) (the index read signed and
  clamped), column q. Their composition therefore acts on every column by itself (`pass_apply`).
-/
import Idealize.ShloMosaic.Lib.ValueIdx
import Idealize.ShloMosaic.PureOps.Ideal.Laws

noncomputable section

namespace Cert.Lib.RowPass

open Idealize.ShloMosaic Idealize.ShloMosaic.ValueIdx

section Generic

/-- The row scatter's dimension numbers over an operand [N, W], indices [E, 1] and updates [E, W]. -/
abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

/-- On the row axis the window of update (e, q) starts at dst[e], read signed. -/
theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

/-- On the column axis every window starts at 0. -/
theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

/-- The row axis is inserted: the window coordinate there is 0. -/
theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

/-- On the column axis the window coordinate of update (e, q) is q. -/
theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

/-- An axis of a rank-2 shape is 0 or 1. -/
theorem fin2_cases (a : Fin 2) : a = 0 ∨ a = 1 := by
  revert a; decide

/-- Update (e, q) lands at (n, q') exactly when dst[e] = n and q = q' (an update whose dst[e] is not a row lands
    nowhere). -/
theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

/-- The scatter-add at entry (n, q): x[n, q] plus the sum over the edges e with dst[e] = n of the update (e, q). -/
theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

/-- The row gather's dimension numbers over an operand [N, W], start indices [E, 1] and a result [E, W]. -/
abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

/-- On the row axis the slice of result (e, q) starts at src[e], read signed and clamped into [0, N - 1]. -/
theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- On the column axis every slice starts at 0. -/
theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

/-- The row axis is collapsed: the offset coordinate there is 0. -/
theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

/-- On the column axis the offset coordinate of result (e, q) is q. -/
theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

/-- The gather at (e, q): the operand at row min(src[e], N - 1), column q. -/
theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

/-- The gather-then-scatter-add at entry (n, q): x[n, q] plus the sum over the edges e whose target is n of H at the
    clamped source row of e, column q. -/
theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.Bridge.lean ====
/-
  One layer of the kernel program and of the reference are the same function, when every target index is a row.

  The two differ in the row lookup alone: the kernel's replaces a row whose index is out of range by a fill value, the
  reference's gather keeps the index inside the table. For an edge whose index is a row both read that row. The
  messages are then equal edge by edge wherever the source index is a row as well, and a message whose source index is
  not a row is added nowhere; so the accumulated messages agree at every node, and the node updates with them.
-/
import proofs.«431247_j30262339568087_2_alg».proof.Proof.KDefs
import proofs.«431247_j30262339568087_2_alg».proof.Proof.RDefs
import proofs.«431247_j30262339568087_2_alg».proof.Proof.BridgeRef
import proofs.«431247_j30262339568087_2_alg».proof.Proof.LibRowGatherScatter
import proofs.«431247_j30262339568087_2_alg».proof.Proof.LibMatmul
import Idealize.ShloMosaic.Lib.ValueLayout
import Idealize.ShloMosaic.Lib.Pipeline.Value
import Idealize.ShloMosaic.Lib.Affine
import Idealize.ShloMosaic.PureOps.Reduce

set_option maxRecDepth 16384

noncomputable section

namespace Cert.Bridge

open Idealize.ShloMosaic Idealize.ShloMosaic.ValueIdx Cert.Spec
open Cert.KernelIdeal.Val Cert.ReferenceIdeal.Val

/-- A vector reshaped to one row, read at (0, q), is the vector at q. -/
theorem row32_eq (b : FVec Ideal Cert.KernelIdeal.S32 .f32) : row32 b = fun q => b (ix1 q) :=
  funext fun q => shapeCast_a_1a_apply (a := 32) b _ 0 q

theorem row64_eq (b : FVec Ideal Cert.KernelIdeal.S64 .f32) : row64 b = fun q => b (ix1 q) :=
  funext fun q => shapeCast_a_1a_apply (a := 64) b _ 0 q

/-- An index word with a negative value moved up by the number of rows. -/
def wWord (v : BitVec 32) : BitVec 32 :=
  Scalar.select (IntOp.cmpi .slt v 0#32) (IntOp.addi v 50000#32) v

/-- A word that is not negative is kept. -/
theorem wWord_of_nonneg {v : BitVec 32} (h0 : 0 ≤ v.toInt) : wWord v = v := by
  unfold wWord
  have hc : ¬ IntOp.cmpi .slt v 0#32 = 1#1 := by
    rw [IntOp.cmpi_slt]
    have hz : (0#32 : BitVec 32).toInt = 0 := by decide
    rw [hz]; omega
  rw [eq_zero_of_ne_one hc, select_zero]

/-- The moved index column at row e is the moved word of entry e. -/
theorem wrapK_apply (idx : IVec Cert.KernelIdeal.S800000 32) (e : Fin 800000) :
    wrapK idx (ix2 e 0) = wWord (idx (ix1 e)) := by
  unfold wrapK
  rw [broadcastInDim_apply _ _ _ (ix2 e (0 : Fin 1)) (ix1 e) (by
    intro a
    have ha : a = 0 := Subsingleton.elim _ _
    subst ha
    exact (if_neg (by decide)).symm)]
  rfl

/-- A left fold by and, from 1, over words that are all 1, is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- An index of a one-column array is its row with column 0. -/
theorem idx_col_eq {n : Nat} (i : (⟨2, ![n, 1]⟩ : Shape).Idx) (e : Fin n) (h : i 0 = e) : i = ix2 e 0 := by
  funext a
  match a with
  | ⟨0, _⟩ => exact h
  | ⟨1, _⟩ =>
    apply Fin.ext
    have hlt : (i 1).val < 1 := (i 1).isLt
    show (i 1).val = 0
    omega

/-- An edge whose moved index is a row of the table passes the range check. -/
theorem inRangeK_of_row (i5 : IVec Cert.KernelIdeal.S800000x1 32) (e : Fin 800000)
    (h0 : 0 ≤ (i5 (ix2 e 0)).toInt) (h1 : (i5 (ix2 e 0)).toInt < 50000) :
    inRangeK i5 (ix1 e) = 1#1 := by
  unfold inRangeK
  rw [Host.reduce_eq_foldl]
  refine foldl_andi_one _ _ fun i hi => ?_
  have hd := of_decide_eq_true (List.mem_filter.1 hi).2
  have hv : ((Cert.KernelIdeal.Gen.reducesTo_S800000x1_S800000_d1).drop i 0 : Nat) = i 0 :=
    Shape.ReducesTo.drop_apply_val_of_eq _ i 0 0
  have hi0 : i 0 = e := by
    apply Fin.ext
    rw [← hv, hd]
  have hie : i = ix2 e 0 := idx_col_eq i e hi0
  subst hie
  show IntOp.andi (IntOp.cmpi .sge (i5 (ix2 e 0)) 0#32) (IntOp.cmpi .sle (i5 (ix2 e 0)) 49999#32) = 1#1
  rw [IntOp.andi_eq_one, IntOp.cmpi_sge, IntOp.cmpi_sle]
  have hz : (0#32 : BitVec 32).toInt = 0 := by decide
  have hm : (49999#32 : BitVec 32).toInt = 49999 := by decide
  rw [hz, hm]
  omega

/-- The row lemma: for an index that is a row of the table both lookups read that row. -/
theorem take_row (x : FVec Ideal Cert.KernelIdeal.S50000x64 .f32) (idx : IVec Cert.KernelIdeal.S800000 32) (e : Fin 800000)
    (q : Fin 64) (h0 : 0 ≤ (idx (ix1 e)).toInt) (h1 : (idx (ix1 e)).toInt < 50000) :
    takeK x idx (ix2 e q) = takeR x idx (ix2 e q) := by
  have hw : wrapK idx (ix2 e 0) = idx (ix1 e) := by rw [wrapK_apply, wWord_of_nonneg h0]
  have hr : inRangeK (wrapK idx) (ix1 e) = 1#1 :=
    inRangeK_of_row (wrapK idx) e (by rw [hw]; exact h0) (by rw [hw]; exact h1)
  unfold takeK
  rw [select_apply]
  rw [broadcastInDim_apply _ _ _ (ix2 e q) (ix1 e) (by
    intro a
    have ha : a = 0 := Subsingleton.elim _ _
    subst ha
    exact (if_neg (by decide)).symm)]
  rw [hr, select_one]
  rfl

/-- The messages of an edge whose two indices are rows of the table are the same. -/
theorem msg_row (x : FVec Ideal Cert.KernelIdeal.S50000x64 .f32) (src dst : IVec Cert.KernelIdeal.S800000 32)
    (ea : FVec Ideal Cert.KernelIdeal.S800000x16 .f32) (ew : FVec Ideal Cert.KernelIdeal.S144x32 .f32)
    (eb : FVec Ideal Cert.KernelIdeal.S32 .f32) (e : Fin 800000) (k : Fin 32)
    (hs : 0 ≤ (src (ix1 e)).toInt ∧ (src (ix1 e)).toInt < 50000)
    (hd : 0 ≤ (dst (ix1 e)).toInt ∧ (dst (ix1 e)).toInt < 50000) :
    msgK x src dst ea ew eb (ix2 e k) = msgR x src dst ea ew eb (ix2 e k) := by
  rw [msgR_apply]
  unfold msgK
  rw [edgeF_apply, row32_eq, funext fun q => take_row x src e q hs.1 hs.2, funext fun q => take_row x dst e q hd.1 hd.2]

/-- The two programs accumulate by the same operation. -/
theorem aggK_eq_aggR (src : IVec Cert.KernelIdeal.S800000 32) (m : FVec Ideal Cert.KernelIdeal.S800000x32 .f32) :
    aggK src m = aggR src m := rfl

/-- The printed scatter record is the row scatter's dimension numbers. -/
theorem scatter_rec_eq :
    Cert.ReferenceIdeal.scatter_S50000x32_S800000x1_S800000x32_1_0_0_1
      = Cert.Lib.RowPass.scD 50000 800000 32 Cert.ReferenceIdeal.Gen.scatter_S50000x32_S800000x1_S800000x32_1_0_0_1_wf := rfl

/-- The accumulation as the exact row scatter-add. -/
theorem aggR_def (src : IVec Cert.ReferenceIdeal.S800000 32) (m : FVec Ideal Cert.ReferenceIdeal.S800000x32 .f32) :
    aggR src m = Ideal.hostScatterAdd
      (Cert.Lib.RowPass.scD 50000 800000 32 Cert.ReferenceIdeal.Gen.scatter_S50000x32_S800000x1_S800000x32_1_0_0_1_wf)
      (broadcastInDim Cert.ReferenceIdeal.S50000x32 ![] Cert.ReferenceIdeal.Gen.bcast_S_S50000x32 (constant (F := Ideal) Cert.ReferenceIdeal.S_ .f32 0x00000000#32))
      (broadcastInDim Cert.ReferenceIdeal.S800000x1 ![0] Cert.ReferenceIdeal.Gen.bcast_S800000_S800000x1_0 src) m := by
  unfold aggR Host.scatterAdd
  rw [Ideal.hostScatterAdd_def, scatter_rec_eq]

/-- The index column at row e is the index of edge e. -/
theorem col_apply (src : IVec Cert.ReferenceIdeal.S800000 32) (e : Fin 800000) :
    broadcastInDim Cert.ReferenceIdeal.S800000x1 ![0] Cert.ReferenceIdeal.Gen.bcast_S800000_S800000x1_0 src (ix2 e 0) = src (ix1 e) :=
  broadcastInDim_apply _ _ _ (ix2 e (0 : Fin 1)) (ix1 e) (by
    intro a
    have ha : a = 0 := Subsingleton.elim _ _
    subst ha
    exact (if_neg (by decide)).symm)

/-- The accumulated messages agree at every node: an edge whose source index is not a row is added nowhere. -/
theorem agg_entry (x : FVec Ideal Cert.KernelIdeal.S50000x64 .f32) (src dst : IVec Cert.KernelIdeal.S800000 32)
    (ea : FVec Ideal Cert.KernelIdeal.S800000x16 .f32) (ew : FVec Ideal Cert.KernelIdeal.S144x32 .f32)
    (eb : FVec Ideal Cert.KernelIdeal.S32 .f32)
    (hd : ∀ e : Fin 800000, 0 ≤ (dst (ix1 e)).toInt ∧ (dst (ix1 e)).toInt < 50000) (n : Fin 50000) (k : Fin 32) :
    aggK src (msgK x src dst ea ew eb) (ix2 n k) = aggR src (msgR x src dst ea ew eb) (ix2 n k) := by
  rw [aggK_eq_aggR, aggR_def, aggR_def, Cert.Lib.RowPass.sc_apply, Cert.Lib.RowPass.sc_apply]
  refine congrArg (HAdd.hAdd _) (Finset.sum_congr rfl fun e _ => ?_)
  rw [col_apply src e]
  by_cases hn : (src (ix1 e)).toInt = (n.val : Int)
  · rw [if_pos hn, if_pos hn]
    exact msg_row x src dst ea ew eb e k ⟨by rw [hn]; omega, by rw [hn]; have := n.isLt; omega⟩ (hd e)
  · rw [if_neg hn, if_neg hn]

/-- The two programs cut the same index vectors out of the index array. -/
theorem src_eq (ei : IVec Cert.KernelIdeal.S2x800000 32) : srcK ei = srcR ei := rfl
theorem dst_eq (ei : IVec Cert.KernelIdeal.S2x800000 32) : dstK ei = dstR ei := rfl

/-- One layer, for any features, edge attributes and parameters, when every target index is a row of the table. -/
theorem conv_eq (x : FVec Ideal Cert.KernelIdeal.S50000x64 .f32) (src dst : IVec Cert.KernelIdeal.S800000 32) (ea : FVec Ideal Cert.KernelIdeal.S800000x16 .f32)
    (ew : FVec Ideal Cert.KernelIdeal.S144x32 .f32) (eb : FVec Ideal Cert.KernelIdeal.S32 .f32) (nw : FVec Ideal Cert.KernelIdeal.S96x64 .f32)
    (nb : FVec Ideal Cert.KernelIdeal.S64 .f32)
    (hd : ∀ e : Fin 800000, 0 ≤ (dst (ix1 e)).toInt ∧ (dst (ix1 e)).toInt < 50000) :
    convK x src dst ea ew eb nw nb = convR x src dst ea ew eb nw nb := by
  funext i
  obtain ⟨n, j, rfl⟩ : ∃ (n : Fin 50000) (j : Fin 64), i = ix2 n j := ⟨i 0, i 1, eq_ix2 i⟩
  rw [convR_apply]
  unfold convK
  rw [nodeF_apply, row64_eq, funext fun k => agg_entry x src dst ea ew eb hd n k]

end Cert.Bridge

end
-- ==== Proof.PreDecode.lean ====
/-
  What the precondition says of the target indices: every entry of row 1 of the index array, read as a signed
  integer, is a row of the node table, 0 ≤ i < 50000.
-/
import proofs.«431247_j30262339568087_2_alg».proof.Proof.KDefs
import proofs.«431247_j30262339568087_2_alg».proof.Defs
import proofs.«431247_j30262339568087_2_alg».proof.Proof.Gen.Pre_finite_inputs
import Idealize.ShloMosaic.Lib.ReduceAll
import Idealize.ShloMosaic.Lib.StableHlo.Predicate

set_option maxRecDepth 16384

noncomputable section

namespace Cert.PreDecode

open Idealize.ShloMosaic Idealize.ShloMosaic.ValueIdx Idealize.SL.Sem
open Cert.KernelIdeal.Val

/-- The rank-0 shape has one index. -/
instance subsingleton_scalar_idx : Subsingleton Cert.Pre_finite_inputs.S_.Idx :=
  ⟨fun a b => funext fun d => d.elim0⟩

section
open Cert.Pre_finite_inputs Cert.Pre_finite_inputs.Facts

/-- The last two conjuncts of the predicate are the reductions by "and" of the entrywise comparisons 0 ≤ i and
    i < 50000 over row 1 of the index array. When the conjunction is 1 each reduction is 1, so each comparison is 1
    at every entry, and a signed comparison that is 1 says the order of the signed values. -/
theorem part7_decode [Cert.Pre_finite_inputs.Facts] (a1 : IVec S2x800000 32) (v118 : IVec S_ 1)
    (h : fn_part7 (F := Ideal) a1 v118
      ((extractStridedSlice S1x800000 ![1, 0] · slices_S2x800000_S1x800000_1_0) a1) ix0 = 1#1) (e : Fin 800000) :
    0 ≤ (shapeCast S800000 (extractStridedSlice S1x800000 ![1, 0] a1 slices_S2x800000_S1x800000_1_0)
          shapeCasts_S1x800000_S800000 (ix1 e)).toInt
      ∧ (shapeCast S800000 (extractStridedSlice S1x800000 ![1, 0] a1 slices_S2x800000_S1x800000_1_0)
          shapeCasts_S1x800000_S800000 (ix1 e)).toInt < 50000 := by
  unfold fn_part7 at h
  dsimp only [andi] at h
  rw [IntOp.andi_eq_one, IntOp.andi_eq_one] at h
  obtain ⟨⟨-, h0⟩, h1⟩ := h
  have e0 := Host.reduce_andi_all _ _ _ _ _ h0 (ix1 e)
  have e1 := Host.reduce_andi_all _ _ _ _ _ h1 (ix1 e)
  dsimp only [cmpi] at e0 e1
  rw [StableHlo.Predicate.bcast_scalar _ h_S_] at e0 e1
  rw [IntOp.cmpi_sge] at e0
  rw [IntOp.cmpi_slt] at e1
  have c0 : (constantI S_ 32 0#32 (Shape.Idx.first h_S_)).toInt = 0 := by
    show (0#32 : BitVec 32).toInt = 0; decide
  have c5 : (constantI S_ 32 50000#32 (Shape.Idx.first h_S_)).toInt = 50000 := by
    show (50000#32 : BitVec 32).toInt = 50000; decide
  rw [c0] at e0
  rw [c5] at e1
  exact ⟨e0, e1⟩

end

theorem dst_range [hPre : Cert.Pre_finite_inputs.Facts]
    (m : (ℓ : Loc Cert.KernelIdeal.nD Cert.KernelIdeal.τ Cert.KernelIdeal.sig) → Buf (Elt Ideal) ℓ) (hpre : Cert.Pre_KernelIdeal m) (c : Dev Cert.KernelIdeal.nD) (e : Fin 800000) :
    0 ≤ (dstK (m ((c.tc : Thread Cert.KernelIdeal.nD Cert.KernelIdeal.τ).loc Cert.KernelIdeal.main_arg1)) (ix1 e)).toInt
      ∧ (dstK (m ((c.tc : Thread Cert.KernelIdeal.nD Cert.KernelIdeal.τ).loc Cert.KernelIdeal.main_arg1)) (ix1 e)).toInt < 50000 := by
  -- the whole predicate, unfolded, is its last part applied to the index array and to the conjunction so far; the
  -- target vector is the same slice and reshape of the same array
  have h := congrFun (hpre c) ix0
  exact part7_decode (m ((c.tc : Thread Cert.KernelIdeal.nD Cert.KernelIdeal.τ).loc Cert.KernelIdeal.main_arg1)) _ h e

end Cert.PreDecode

end
-- ==== Proof.Assemble.lean ====
/-
  The two programs' results are equal: the assembly.

  Each program's three layers are one function of the arguments: the layer map applied three times, with the same index
  vectors and edge attributes and the layer's own parameters. The kernel program's buffer after its third layer holds
  that function of its arguments, and so does the reference's; what a layer does not write is kept, so the tail's other
  inputs are the arguments themselves. One layer is the same function in both programs when the target indices are rows
  of the node table (the precondition), so the two stacks agree; and from equal contents both programs run the same tail.
-/
import proofs.«431247_j30262339568087_2_alg».proof.Proof.ValueRun
import proofs.«431247_j30262339568087_2_alg».proof.Proof.KLayer1
import proofs.«431247_j30262339568087_2_alg».proof.Proof.KLayer2
import proofs.«431247_j30262339568087_2_alg».proof.Proof.KLayer3
import proofs.«431247_j30262339568087_2_alg».proof.Proof.RLayer1
import proofs.«431247_j30262339568087_2_alg».proof.Proof.RLayer2
import proofs.«431247_j30262339568087_2_alg».proof.Proof.RLayer3
import proofs.«431247_j30262339568087_2_alg».proof.Proof.RRun
import proofs.«431247_j30262339568087_2_alg».proof.Proof.RArgs
import proofs.«431247_j30262339568087_2_alg».proof.Proof.Tail
import proofs.«431247_j30262339568087_2_alg».proof.Proof.Bridge
import proofs.«431247_j30262339568087_2_alg».proof.Proof.PreDecode
import Idealize.ShloMosaic.Lib.Pipeline.Frame

set_option maxRecDepth 16384

noncomputable section

namespace Cert.Assemble

open Idealize.ShloMosaic Idealize.ShloMosaic.TcCoe Idealize.SL.Sem Idealize.ShloMosaic.StableHlo Idealize.ShloMosaic.ValueIdx

/-! ## The kernel program's three layers -/

section KernelSide

open Cert.KernelIdeal Cert.KernelIdeal.Gen Cert.KernelIdeal.Val

/-- Three layers of the kernel program as one function of the arguments they read. -/
def stackK (a0 : FVec Ideal S50000x64 .f32) (a1 : IVec S2x800000 32) (a2 : FVec Ideal S800000x16 .f32) (a4 : FVec Ideal S144x32 .f32) (a5 : FVec Ideal S32 .f32) (a6 : FVec Ideal S96x64 .f32) (a7 : FVec Ideal S64 .f32) (a8 : FVec Ideal S144x32 .f32) (a9 : FVec Ideal S32 .f32) (a10 : FVec Ideal S96x64 .f32) (a11 : FVec Ideal S64 .f32) (a12 : FVec Ideal S144x32 .f32) (a13 : FVec Ideal S32 .f32) (a14 : FVec Ideal S96x64 .f32) (a15 : FVec Ideal S64 .f32) : FVec Ideal S50000x64 .f32 :=
  convK (convK (convK a0 (srcK a1) (dstK a1) a2 a4 a5 a6 a7) (srcK a1) (dstK a1) a2 a8 a9 a10 a11) (srcK a1) (dstK a1) a2 a12 a13 a14 a15

variable (m : (ℓ : Loc nD τ sig) → Buf (Elt Ideal) ℓ) (ρ : Dev nD → PrngReg)

/-- After the third layer the kernel program's node features are the stack of its arguments. -/
theorem outK (c : Dev nD) :
    W19 m ρ c (Proc.devRef .tc main_v30) = stackK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  rw [layer3_out m ρ c, layer2_out m ρ c, layer1_out m ρ c,
    layer2_keep m ρ c main_v1 (by decide), layer2_keep m ρ c main_v3 (by decide),
    layer1_src m ρ c, layer1_dst m ρ c,
    layer2_keep m ρ c main_arg2 (by decide), layer2_keep m ρ c main_arg12 (by decide), layer2_keep m ρ c main_arg13 (by decide), layer2_keep m ρ c main_arg14 (by decide), layer2_keep m ρ c main_arg15 (by decide),
    layer1_keep m ρ c main_arg2 (by decide), layer1_keep m ρ c main_arg8 (by decide), layer1_keep m ρ c main_arg9 (by decide), layer1_keep m ρ c main_arg10 (by decide), layer1_keep m ρ c main_arg11 (by decide), layer1_keep m ρ c main_arg12 (by decide), layer1_keep m ρ c main_arg13 (by decide), layer1_keep m ρ c main_arg14 (by decide), layer1_keep m ρ c main_arg15 (by decide)]
  rfl

/-- Every target index is a row of the table, as the kernel program holds the target vector. -/
theorem dst_rows [hPre : Cert.Pre_finite_inputs.Facts] (hpre : Cert.Pre_KernelIdeal m) (c : Dev nD) (e : Fin 800000) :
    0 ≤ (dstK (m ((c.tc : Thread Cert.KernelIdeal.nD Cert.KernelIdeal.τ).loc Cert.KernelIdeal.main_arg1)) (ix1 e)).toInt ∧ (dstK (m ((c.tc : Thread Cert.KernelIdeal.nD Cert.KernelIdeal.τ).loc Cert.KernelIdeal.main_arg1)) (ix1 e)).toInt < 50000 :=
  Cert.PreDecode.dst_range m hpre c e

theorem argK3 (c : Dev nD) : W19 m ρ c (Proc.devRef .tc main_arg3) = (m ((c.tc : Thread Cert.KernelIdeal.nD Cert.KernelIdeal.τ).loc Cert.KernelIdeal.main_arg3)) := by
  rw [layer3_keep m ρ c main_arg3 (by decide), layer2_keep m ρ c main_arg3 (by decide), layer1_keep m ρ c main_arg3 (by decide)]
theorem argK16 (c : Dev nD) : W19 m ρ c (Proc.devRef .tc main_arg16) = (m ((c.tc : Thread Cert.KernelIdeal.nD Cert.KernelIdeal.τ).loc Cert.KernelIdeal.main_arg16)) := by
  rw [layer3_keep m ρ c main_arg16 (by decide), layer2_keep m ρ c main_arg16 (by decide), layer1_keep m ρ c main_arg16 (by decide)]
theorem argK17 (c : Dev nD) : W19 m ρ c (Proc.devRef .tc main_arg17) = (m ((c.tc : Thread Cert.KernelIdeal.nD Cert.KernelIdeal.τ).loc Cert.KernelIdeal.main_arg17)) := by
  rw [layer3_keep m ρ c main_arg17 (by decide), layer2_keep m ρ c main_arg17 (by decide), layer1_keep m ρ c main_arg17 (by decide)]
theorem argK18 (c : Dev nD) : W19 m ρ c (Proc.devRef .tc main_arg18) = (m ((c.tc : Thread Cert.KernelIdeal.nD Cert.KernelIdeal.τ).loc Cert.KernelIdeal.main_arg18)) := by
  rw [layer3_keep m ρ c main_arg18 (by decide), layer2_keep m ρ c main_arg18 (by decide), layer1_keep m ρ c main_arg18 (by decide)]
theorem argK19 (c : Dev nD) : W19 m ρ c (Proc.devRef .tc main_arg19) = (m ((c.tc : Thread Cert.KernelIdeal.nD Cert.KernelIdeal.τ).loc Cert.KernelIdeal.main_arg19)) := by
  rw [layer3_keep m ρ c main_arg19 (by decide), layer2_keep m ρ c main_arg19 (by decide), layer1_keep m ρ c main_arg19 (by decide)]
theorem argK20 (c : Dev nD) : W19 m ρ c (Proc.devRef .tc main_arg20) = (m ((c.tc : Thread Cert.KernelIdeal.nD Cert.KernelIdeal.τ).loc Cert.KernelIdeal.main_arg20)) := by
  rw [layer3_keep m ρ c main_arg20 (by decide), layer2_keep m ρ c main_arg20 (by decide), layer1_keep m ρ c main_arg20 (by decide)]
theorem argK21 (c : Dev nD) : W19 m ρ c (Proc.devRef .tc main_arg21) = (m ((c.tc : Thread Cert.KernelIdeal.nD Cert.KernelIdeal.τ).loc Cert.KernelIdeal.main_arg21)) := by
  rw [layer3_keep m ρ c main_arg21 (by decide), layer2_keep m ρ c main_arg21 (by decide), layer1_keep m ρ c main_arg21 (by decide)]
theorem argK22 (c : Dev nD) : W19 m ρ c (Proc.devRef .tc main_arg22) = (m ((c.tc : Thread Cert.KernelIdeal.nD Cert.KernelIdeal.τ).loc Cert.KernelIdeal.main_arg22)) := by
  rw [layer3_keep m ρ c main_arg22 (by decide), layer2_keep m ρ c main_arg22 (by decide), layer1_keep m ρ c main_arg22 (by decide)]
theorem argK23 (c : Dev nD) : W19 m ρ c (Proc.devRef .tc main_arg23) = (m ((c.tc : Thread Cert.KernelIdeal.nD Cert.KernelIdeal.τ).loc Cert.KernelIdeal.main_arg23)) := by
  rw [layer3_keep m ρ c main_arg23 (by decide), layer2_keep m ρ c main_arg23 (by decide), layer1_keep m ρ c main_arg23 (by decide)]
theorem argK24 (c : Dev nD) : W19 m ρ c (Proc.devRef .tc main_arg24) = (m ((c.tc : Thread Cert.KernelIdeal.nD Cert.KernelIdeal.τ).loc Cert.KernelIdeal.main_arg24)) := by
  rw [layer3_keep m ρ c main_arg24 (by decide), layer2_keep m ρ c main_arg24 (by decide), layer1_keep m ρ c main_arg24 (by decide)]
theorem argK25 (c : Dev nD) : W19 m ρ c (Proc.devRef .tc main_arg25) = (m ((c.tc : Thread Cert.KernelIdeal.nD Cert.KernelIdeal.τ).loc Cert.KernelIdeal.main_arg25)) := by
  rw [layer3_keep m ρ c main_arg25 (by decide), layer2_keep m ρ c main_arg25 (by decide), layer1_keep m ρ c main_arg25 (by decide)]

end KernelSide

/-! ## The reference's three layers -/

section ReferenceSide

open Cert.ReferenceIdeal Cert.ReferenceIdeal.Gen Cert.ReferenceIdeal.Val

/-- Three layers of the reference as one function of the arguments they read. -/
def stackR (a0 : FVec Ideal S50000x64 .f32) (a1 : IVec S2x800000 32) (a2 : FVec Ideal S800000x16 .f32) (a4 : FVec Ideal S144x32 .f32) (a5 : FVec Ideal S32 .f32) (a6 : FVec Ideal S96x64 .f32) (a7 : FVec Ideal S64 .f32) (a8 : FVec Ideal S144x32 .f32) (a9 : FVec Ideal S32 .f32) (a10 : FVec Ideal S96x64 .f32) (a11 : FVec Ideal S64 .f32) (a12 : FVec Ideal S144x32 .f32) (a13 : FVec Ideal S32 .f32) (a14 : FVec Ideal S96x64 .f32) (a15 : FVec Ideal S64 .f32) : FVec Ideal S50000x64 .f32 :=
  convR (convR (convR a0 (srcR a1) (dstR a1) a2 a4 a5 a6 a7) (srcR a1) (dstR a1) a2 a8 a9 a10 a11) (srcR a1) (dstR a1) a2 a12 a13 a14 a15

variable (U : Valuation τ sig (Elt Ideal))

/-- The contents after the reference's three layers. -/
abbrev after3 : Valuation τ sig (Elt Ideal) :=
  after (opsL3 (F := Ideal)) (after (opsL2 (F := Ideal)) (after (opsL1 (F := Ideal)) U))

/-- After the third layer the reference's node features are the stack of the contents it started from. -/
theorem outR :
    after3 U (Proc.devRef .tc main_v90) = stackR (U (Proc.devRef .tc main_arg0)) (U (Proc.devRef .tc main_arg1)) (U (Proc.devRef .tc main_arg2)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) := by
  show after (opsL3 (F := Ideal)) _ _ = _
  rw [layerR3_out, layerR2_out, layerR1_out,
    layerR2_keep _ main_v1 (by decide), layerR2_keep _ main_v3 (by decide), layerR1_src, layerR1_dst,
    layerR2_keep _ main_arg2 (by decide), layerR2_keep _ main_arg12 (by decide), layerR2_keep _ main_arg13 (by decide), layerR2_keep _ main_arg14 (by decide), layerR2_keep _ main_arg15 (by decide),
    layerR1_keep _ main_arg2 (by decide), layerR1_keep _ main_arg8 (by decide), layerR1_keep _ main_arg9 (by decide), layerR1_keep _ main_arg10 (by decide), layerR1_keep _ main_arg11 (by decide), layerR1_keep _ main_arg12 (by decide), layerR1_keep _ main_arg13 (by decide), layerR1_keep _ main_arg14 (by decide), layerR1_keep _ main_arg15 (by decide)]
  rfl

theorem argR3 : after3 U (Proc.devRef .tc main_arg3) = U (Proc.devRef .tc main_arg3) := by
  show after (opsL3 (F := Ideal)) _ _ = _
  rw [layerR3_keep _ main_arg3 (by decide), layerR2_keep _ main_arg3 (by decide), layerR1_keep _ main_arg3 (by decide)]
theorem argR16 : after3 U (Proc.devRef .tc main_arg16) = U (Proc.devRef .tc main_arg16) := by
  show after (opsL3 (F := Ideal)) _ _ = _
  rw [layerR3_keep _ main_arg16 (by decide), layerR2_keep _ main_arg16 (by decide), layerR1_keep _ main_arg16 (by decide)]
theorem argR17 : after3 U (Proc.devRef .tc main_arg17) = U (Proc.devRef .tc main_arg17) := by
  show after (opsL3 (F := Ideal)) _ _ = _
  rw [layerR3_keep _ main_arg17 (by decide), layerR2_keep _ main_arg17 (by decide), layerR1_keep _ main_arg17 (by decide)]
theorem argR18 : after3 U (Proc.devRef .tc main_arg18) = U (Proc.devRef .tc main_arg18) := by
  show after (opsL3 (F := Ideal)) _ _ = _
  rw [layerR3_keep _ main_arg18 (by decide), layerR2_keep _ main_arg18 (by decide), layerR1_keep _ main_arg18 (by decide)]
theorem argR19 : after3 U (Proc.devRef .tc main_arg19) = U (Proc.devRef .tc main_arg19) := by
  show after (opsL3 (F := Ideal)) _ _ = _
  rw [layerR3_keep _ main_arg19 (by decide), layerR2_keep _ main_arg19 (by decide), layerR1_keep _ main_arg19 (by decide)]
theorem argR20 : after3 U (Proc.devRef .tc main_arg20) = U (Proc.devRef .tc main_arg20) := by
  show after (opsL3 (F := Ideal)) _ _ = _
  rw [layerR3_keep _ main_arg20 (by decide), layerR2_keep _ main_arg20 (by decide), layerR1_keep _ main_arg20 (by decide)]
theorem argR21 : after3 U (Proc.devRef .tc main_arg21) = U (Proc.devRef .tc main_arg21) := by
  show after (opsL3 (F := Ideal)) _ _ = _
  rw [layerR3_keep _ main_arg21 (by decide), layerR2_keep _ main_arg21 (by decide), layerR1_keep _ main_arg21 (by decide)]
theorem argR22 : after3 U (Proc.devRef .tc main_arg22) = U (Proc.devRef .tc main_arg22) := by
  show after (opsL3 (F := Ideal)) _ _ = _
  rw [layerR3_keep _ main_arg22 (by decide), layerR2_keep _ main_arg22 (by decide), layerR1_keep _ main_arg22 (by decide)]
theorem argR23 : after3 U (Proc.devRef .tc main_arg23) = U (Proc.devRef .tc main_arg23) := by
  show after (opsL3 (F := Ideal)) _ _ = _
  rw [layerR3_keep _ main_arg23 (by decide), layerR2_keep _ main_arg23 (by decide), layerR1_keep _ main_arg23 (by decide)]
theorem argR24 : after3 U (Proc.devRef .tc main_arg24) = U (Proc.devRef .tc main_arg24) := by
  show after (opsL3 (F := Ideal)) _ _ = _
  rw [layerR3_keep _ main_arg24 (by decide), layerR2_keep _ main_arg24 (by decide), layerR1_keep _ main_arg24 (by decide)]
theorem argR25 : after3 U (Proc.devRef .tc main_arg25) = U (Proc.devRef .tc main_arg25) := by
  show after (opsL3 (F := Ideal)) _ _ = _
  rw [layerR3_keep _ main_arg25 (by decide), layerR2_keep _ main_arg25 (by decide), layerR1_keep _ main_arg25 (by decide)]

end ReferenceSide

/-! ## The two stacks are one function -/

open Cert.KernelIdeal in
/-- With every target index a row of the table, three layers of the kernel program and of the reference agree. -/
theorem stack_eq (a0 : FVec Ideal S50000x64 .f32) (a1 : IVec S2x800000 32) (a2 : FVec Ideal S800000x16 .f32) (a4 : FVec Ideal S144x32 .f32) (a5 : FVec Ideal S32 .f32) (a6 : FVec Ideal S96x64 .f32) (a7 : FVec Ideal S64 .f32) (a8 : FVec Ideal S144x32 .f32) (a9 : FVec Ideal S32 .f32) (a10 : FVec Ideal S96x64 .f32) (a11 : FVec Ideal S64 .f32) (a12 : FVec Ideal S144x32 .f32) (a13 : FVec Ideal S32 .f32) (a14 : FVec Ideal S96x64 .f32) (a15 : FVec Ideal S64 .f32)
    (hd : ∀ e : Fin 800000, 0 ≤ (Cert.KernelIdeal.Val.dstK a1 (ix1 e)).toInt ∧ (Cert.KernelIdeal.Val.dstK a1 (ix1 e)).toInt < 50000) :
    stackK a0 a1 a2 a4 a5 a6 a7 a8 a9 a10 a11 a12 a13 a14 a15 = stackR a0 a1 a2 a4 a5 a6 a7 a8 a9 a10 a11 a12 a13 a14 a15 := by
  unfold stackK stackR
  rw [← Cert.Bridge.src_eq, ← Cert.Bridge.dst_eq,
    Cert.Bridge.conv_eq a0 _ _ a2 a4 a5 a6 a7 hd, Cert.Bridge.conv_eq _ _ _ a2 a8 a9 a10 a11 hd,
    Cert.Bridge.conv_eq _ _ _ a2 a12 a13 a14 a15 hd]

end Cert.Assemble

end
-- ==== Proof.Result.lean ====
/-
  The reference's result is the kernel program's, from launch memories that agree on the arguments.

  The reference's operations split into its three layers and the tail. After the layers both programs hold the same
  node features (the two stacks of the same arguments agree under the precondition) and the same pooling and dense-layer
  inputs (arguments, kept by the layers); the tail is the same in both.
-/
import proofs.«431247_j30262339568087_2_alg».proof.Proof.Assemble

set_option maxRecDepth 16384

noncomputable section

namespace Cert.Assemble

open Idealize.ShloMosaic Idealize.ShloMosaic.TcCoe Idealize.SL.Sem Idealize.ShloMosaic.StableHlo Idealize.ShloMosaic.ValueIdx

theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    [hPre : Cert.Pre_finite_inputs.Facts] (hpre : Cert.Pre_KernelIdeal m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    after (Cert.ReferenceIdeal.Val.ops (F := Ideal)) (launchContents m' c) (Proc.devRef .tc Cert.ReferenceIdeal.main_v153)
      = Cert.KernelIdeal.Gen.W28 m ρ c (Proc.devRef .tc Cert.KernelIdeal.main_v93) := by
  obtain ⟨e0, e1, e2, e3, e4, e5, e6, e7, e8, e9, e10, e11, e12, e13, e14, e15, e16, e17, e18, e19, e20, e21, e22, e23, e24, e25⟩ := hag
  show after (((Cert.ReferenceIdeal.Val.opsL1 ++ Cert.ReferenceIdeal.Val.opsL2) ++ Cert.ReferenceIdeal.Val.opsL3) ++ Cert.ReferenceIdeal.Val.opsTail) (launchContents m' c) _ = _
  rw [StableHlo.after_append, StableHlo.after_append, StableHlo.after_append]
  refine (Cert.Tail.tail_agree (Cert.KernelIdeal.Gen.W19 m ρ c) (after3 (launchContents m' c)) ?_ ?_ ?_ ?_ ?_ ?_ ?_ ?_ ?_ ?_ ?_ ?_).symm
  · rw [outK m ρ c, outR (launchContents m' c)]
    rw [show launchContents m' c (Proc.devRef .tc Cert.ReferenceIdeal.main_arg0) = m ((c.tc : Thread Cert.KernelIdeal.nD Cert.KernelIdeal.τ).loc Cert.KernelIdeal.main_arg0) from e0,
      show launchContents m' c (Proc.devRef .tc Cert.ReferenceIdeal.main_arg1) = m ((c.tc : Thread Cert.KernelIdeal.nD Cert.KernelIdeal.τ).loc Cert.KernelIdeal.main_arg1) from e1,
      show launchContents m' c (Proc.devRef .tc Cert.ReferenceIdeal.main_arg2) = m ((c.tc : Thread Cert.KernelIdeal.nD Cert.KernelIdeal.τ).loc Cert.KernelIdeal.main_arg2) from e2,
      show launchContents m' c (Proc.devRef .tc Cert.ReferenceIdeal.main_arg4) = m ((c.tc : Thread Cert.KernelIdeal.nD Cert.KernelIdeal.τ).loc Cert.KernelIdeal.main_arg4) from e4,
      show launchContents m' c (Proc.devRef .tc Cert.ReferenceIdeal.main_arg5) = m ((c.tc : Thread Cert.KernelIdeal.nD Cert.KernelIdeal.τ).loc Cert.KernelIdeal.main_arg5) from e5,
      show launchContents m' c (Proc.devRef .tc Cert.ReferenceIdeal.main_arg6) = m ((c.tc : Thread Cert.KernelIdeal.nD Cert.KernelIdeal.τ).loc Cert.KernelIdeal.main_arg6) from e6,
      show launchContents m' c (Proc.devRef .tc Cert.ReferenceIdeal.main_arg7) = m ((c.tc : Thread Cert.KernelIdeal.nD Cert.KernelIdeal.τ).loc Cert.KernelIdeal.main_arg7) from e7,
      show launchContents m' c (Proc.devRef .tc Cert.ReferenceIdeal.main_arg8) = m ((c.tc : Thread Cert.KernelIdeal.nD Cert.KernelIdeal.τ).loc Cert.KernelIdeal.main_arg8) from e8,
      show launchContents m' c (Proc.devRef .tc Cert.ReferenceIdeal.main_arg9) = m ((c.tc : Thread Cert.KernelIdeal.nD Cert.KernelIdeal.τ).loc Cert.KernelIdeal.main_arg9) from e9,
      show launchContents m' c (Proc.devRef .tc Cert.ReferenceIdeal.main_arg10) = m ((c.tc : Thread Cert.KernelIdeal.nD Cert.KernelIdeal.τ).loc Cert.KernelIdeal.main_arg10) from e10,
      show launchContents m' c (Proc.devRef .tc Cert.ReferenceIdeal.main_arg11) = m ((c.tc : Thread Cert.KernelIdeal.nD Cert.KernelIdeal.τ).loc Cert.KernelIdeal.main_arg11) from e11,
      show launchContents m' c (Proc.devRef .tc Cert.ReferenceIdeal.main_arg12) = m ((c.tc : Thread Cert.KernelIdeal.nD Cert.KernelIdeal.τ).loc Cert.KernelIdeal.main_arg12) from e12,
      show launchContents m' c (Proc.devRef .tc Cert.ReferenceIdeal.main_arg13) = m ((c.tc : Thread Cert.KernelIdeal.nD Cert.KernelIdeal.τ).loc Cert.KernelIdeal.main_arg13) from e13,
      show launchContents m' c (Proc.devRef .tc Cert.ReferenceIdeal.main_arg14) = m ((c.tc : Thread Cert.KernelIdeal.nD Cert.KernelIdeal.τ).loc Cert.KernelIdeal.main_arg14) from e14,
      show launchContents m' c (Proc.devRef .tc Cert.ReferenceIdeal.main_arg15) = m ((c.tc : Thread Cert.KernelIdeal.nD Cert.KernelIdeal.τ).loc Cert.KernelIdeal.main_arg15) from e15]
    exact stack_eq _ _ _ _ _ _ _ _ _ _ _ _ _ _ _ (dst_rows m hpre c)
  · rw [argK3 m ρ c, argR3 (launchContents m' c)]
    exact e3.symm
  · rw [argK16 m ρ c, argR16 (launchContents m' c)]
    exact e16.symm
  · rw [argK17 m ρ c, argR17 (launchContents m' c)]
    exact e17.symm
  · rw [argK18 m ρ c, argR18 (launchContents m' c)]
    exact e18.symm
  · rw [argK19 m ρ c, argR19 (launchContents m' c)]
    exact e19.symm
  · rw [argK20 m ρ c, argR20 (launchContents m' c)]
    exact e20.symm
  · rw [argK21 m ρ c, argR21 (launchContents m' c)]
    exact e21.symm
  · rw [argK22 m ρ c, argR22 (launchContents m' c)]
    exact e22.symm
  · rw [argK23 m ρ c, argR23 (launchContents m' c)]
    exact e23.symm
  · rw [argK24 m ρ c, argR24 (launchContents m' c)]
    exact e24.symm
  · rw [argK25 m ρ c, argR25 (launchContents m' c)]
    exact e25.symm

end Cert.Assemble

end
-- ==== Proof.lean ====
/-
  The certificate: a three-layer message-passing network, its Pallas implementation against its jnp reference.

  Frames. Both kernel programs have their frames proved whole by the generated modules. The reference is a sequence of
  host operations, none of which writes an argument, so it terminates with its arguments unchanged.

  Idealization. The ideal pass's ledger for this kernel is empty, so the statement's preservation conjunct is `True`.

  Equivalence over the extended reals, under the precondition that every float input is finite and every target index
  (row 1 of the index array) is a row of the node table. Per layer, for every edge e, both programs form the message
  relu([x[src e], x[dst e], ea[e]] · W + b), add the messages into the rows of their source nodes, and update every node n
  to relu([x[n], agg[n]] · W' + b'). The kernel program computes the two products in Pallas calls, block of rows by
  block of rows; each call leaves in its output array the row-by-row map of its input arrays, because the map acts on
  rows and the blocks tile the rows. The two programs differ in the row lookup alone: out of range the kernel program
  fills a row, the reference's gather keeps the index in the table; for a target index in range both read that row,
  and a message whose source index is out of range is added nowhere by either, so the accumulated messages agree at
  every node. After three layers both programs run the same pooling and dense layers on equal contents.
-/
import proofs.«431247_j30262339568087_2_alg».proof.Defs
import proofs.«431247_j30262339568087_2_alg».proof.Proof.Gen.Kernel
import proofs.«431247_j30262339568087_2_alg».proof.Proof.Gen.Kernel.Skeleton
import proofs.«431247_j30262339568087_2_alg».proof.Proof.Gen.Kernel.Launch
import proofs.«431247_j30262339568087_2_alg».proof.Proof.Gen.Kernel.Points
import proofs.«431247_j30262339568087_2_alg».proof.Proof.Gen.Kernel.Frame
import proofs.«431247_j30262339568087_2_alg».proof.Proof.Gen.KernelIdeal
import proofs.«431247_j30262339568087_2_alg».proof.Proof.Gen.KernelIdeal.Skeleton
import proofs.«431247_j30262339568087_2_alg».proof.Proof.Gen.KernelIdeal.Launch
import proofs.«431247_j30262339568087_2_alg».proof.Proof.Gen.KernelIdeal.Points
import proofs.«431247_j30262339568087_2_alg».proof.Proof.Gen.KernelIdeal.Frame
import proofs.«431247_j30262339568087_2_alg».proof.Proof.Gen.ReferenceIdeal
import proofs.«431247_j30262339568087_2_alg».proof.Proof.Gen.Pre_finite_inputs
import proofs.«431247_j30262339568087_2_alg».proof.Proof.ValueRun
import proofs.«431247_j30262339568087_2_alg».proof.Proof.RRun
import proofs.«431247_j30262339568087_2_alg».proof.Proof.RArgs
import proofs.«431247_j30262339568087_2_alg».proof.Proof.Result
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference terminates with its arguments unchanged: none of its operations writes one. -/
theorem frame_referenceIdeal : @Cert.frame_ReferenceIdeal Cert.ReferenceIdeal.Gen.facts Cert.Pre_finite_inputs.Gen.facts :=
  fun m ρ _ => (θ_run Cert.ReferenceIdeal.defs _ _).mono
    (fun _ h c => ⟨(h c Cert.ReferenceIdeal.main_arg0).trans (Cert.ReferenceIdeal.Val.arg_kept (launchContents m c) Cert.ReferenceIdeal.main_arg0 (by decide)),
      (h c Cert.ReferenceIdeal.main_arg1).trans (Cert.ReferenceIdeal.Val.arg_kept (launchContents m c) Cert.ReferenceIdeal.main_arg1 (by decide)),
      (h c Cert.ReferenceIdeal.main_arg2).trans (Cert.ReferenceIdeal.Val.arg_kept (launchContents m c) Cert.ReferenceIdeal.main_arg2 (by decide)),
      (h c Cert.ReferenceIdeal.main_arg3).trans (Cert.ReferenceIdeal.Val.arg_kept (launchContents m c) Cert.ReferenceIdeal.main_arg3 (by decide)),
      (h c Cert.ReferenceIdeal.main_arg4).trans (Cert.ReferenceIdeal.Val.arg_kept (launchContents m c) Cert.ReferenceIdeal.main_arg4 (by decide)),
      (h c Cert.ReferenceIdeal.main_arg5).trans (Cert.ReferenceIdeal.Val.arg_kept (launchContents m c) Cert.ReferenceIdeal.main_arg5 (by decide)),
      (h c Cert.ReferenceIdeal.main_arg6).trans (Cert.ReferenceIdeal.Val.arg_kept (launchContents m c) Cert.ReferenceIdeal.main_arg6 (by decide)),
      (h c Cert.ReferenceIdeal.main_arg7).trans (Cert.ReferenceIdeal.Val.arg_kept (launchContents m c) Cert.ReferenceIdeal.main_arg7 (by decide)),
      (h c Cert.ReferenceIdeal.main_arg8).trans (Cert.ReferenceIdeal.Val.arg_kept (launchContents m c) Cert.ReferenceIdeal.main_arg8 (by decide)),
      (h c Cert.ReferenceIdeal.main_arg9).trans (Cert.ReferenceIdeal.Val.arg_kept (launchContents m c) Cert.ReferenceIdeal.main_arg9 (by decide)),
      (h c Cert.ReferenceIdeal.main_arg10).trans (Cert.ReferenceIdeal.Val.arg_kept (launchContents m c) Cert.ReferenceIdeal.main_arg10 (by decide)),
      (h c Cert.ReferenceIdeal.main_arg11).trans (Cert.ReferenceIdeal.Val.arg_kept (launchContents m c) Cert.ReferenceIdeal.main_arg11 (by decide)),
      (h c Cert.ReferenceIdeal.main_arg12).trans (Cert.ReferenceIdeal.Val.arg_kept (launchContents m c) Cert.ReferenceIdeal.main_arg12 (by decide)),
      (h c Cert.ReferenceIdeal.main_arg13).trans (Cert.ReferenceIdeal.Val.arg_kept (launchContents m c) Cert.ReferenceIdeal.main_arg13 (by decide)),
      (h c Cert.ReferenceIdeal.main_arg14).trans (Cert.ReferenceIdeal.Val.arg_kept (launchContents m c) Cert.ReferenceIdeal.main_arg14 (by decide)),
      (h c Cert.ReferenceIdeal.main_arg15).trans (Cert.ReferenceIdeal.Val.arg_kept (launchContents m c) Cert.ReferenceIdeal.main_arg15 (by decide)),
      (h c Cert.ReferenceIdeal.main_arg16).trans (Cert.ReferenceIdeal.Val.arg_kept (launchContents m c) Cert.ReferenceIdeal.main_arg16 (by decide)),
      (h c Cert.ReferenceIdeal.main_arg17).trans (Cert.ReferenceIdeal.Val.arg_kept (launchContents m c) Cert.ReferenceIdeal.main_arg17 (by decide)),
      (h c Cert.ReferenceIdeal.main_arg18).trans (Cert.ReferenceIdeal.Val.arg_kept (launchContents m c) Cert.ReferenceIdeal.main_arg18 (by decide)),
      (h c Cert.ReferenceIdeal.main_arg19).trans (Cert.ReferenceIdeal.Val.arg_kept (launchContents m c) Cert.ReferenceIdeal.main_arg19 (by decide)),
      (h c Cert.ReferenceIdeal.main_arg20).trans (Cert.ReferenceIdeal.Val.arg_kept (launchContents m c) Cert.ReferenceIdeal.main_arg20 (by decide)),
      (h c Cert.ReferenceIdeal.main_arg21).trans (Cert.ReferenceIdeal.Val.arg_kept (launchContents m c) Cert.ReferenceIdeal.main_arg21 (by decide)),
      (h c Cert.ReferenceIdeal.main_arg22).trans (Cert.ReferenceIdeal.Val.arg_kept (launchContents m c) Cert.ReferenceIdeal.main_arg22 (by decide)),
      (h c Cert.ReferenceIdeal.main_arg23).trans (Cert.ReferenceIdeal.Val.arg_kept (launchContents m c) Cert.ReferenceIdeal.main_arg23 (by decide)),
      (h c Cert.ReferenceIdeal.main_arg24).trans (Cert.ReferenceIdeal.Val.arg_kept (launchContents m c) Cert.ReferenceIdeal.main_arg24 (by decide)),
      (h c Cert.ReferenceIdeal.main_arg25).trans (Cert.ReferenceIdeal.Val.arg_kept (launchContents m c) Cert.ReferenceIdeal.main_arg25 (by decide))⟩)
    (Cert.ReferenceIdeal.Val.run (F := Ideal) m ρ)

theorem preserves : Cert.preserves_Kernel_KernelIdeal := trivial

/-- From memories agreeing on the arguments both idealized programs run and end with the same result. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Gen.W28 m ρ c (Proc.devRef .tc Cert.KernelIdeal.main_v93), Cert.KernelIdeal.Gen.run_value m ρ, ?_⟩
  refine (θ_run Cert.ReferenceIdeal.defs _ _).mono (fun _ h c => ?_) (Cert.ReferenceIdeal.Val.run (F := Ideal) m' ρ')
  exact ⟨(h c Cert.ReferenceIdeal.main_v153).trans (Cert.Assemble.result_eq m ρ m' hpre c (hagree c)),
      (h c Cert.ReferenceIdeal.main_arg0).trans (Cert.ReferenceIdeal.Val.arg_kept (launchContents m' c) Cert.ReferenceIdeal.main_arg0 (by decide)),
      (h c Cert.ReferenceIdeal.main_arg1).trans (Cert.ReferenceIdeal.Val.arg_kept (launchContents m' c) Cert.ReferenceIdeal.main_arg1 (by decide)),
      (h c Cert.ReferenceIdeal.main_arg2).trans (Cert.ReferenceIdeal.Val.arg_kept (launchContents m' c) Cert.ReferenceIdeal.main_arg2 (by decide)),
      (h c Cert.ReferenceIdeal.main_arg3).trans (Cert.ReferenceIdeal.Val.arg_kept (launchContents m' c) Cert.ReferenceIdeal.main_arg3 (by decide)),
      (h c Cert.ReferenceIdeal.main_arg4).trans (Cert.ReferenceIdeal.Val.arg_kept (launchContents m' c) Cert.ReferenceIdeal.main_arg4 (by decide)),
      (h c Cert.ReferenceIdeal.main_arg5).trans (Cert.ReferenceIdeal.Val.arg_kept (launchContents m' c) Cert.ReferenceIdeal.main_arg5 (by decide)),
      (h c Cert.ReferenceIdeal.main_arg6).trans (Cert.ReferenceIdeal.Val.arg_kept (launchContents m' c) Cert.ReferenceIdeal.main_arg6 (by decide)),
      (h c Cert.ReferenceIdeal.main_arg7).trans (Cert.ReferenceIdeal.Val.arg_kept (launchContents m' c) Cert.ReferenceIdeal.main_arg7 (by decide)),
      (h c Cert.ReferenceIdeal.main_arg8).trans (Cert.ReferenceIdeal.Val.arg_kept (launchContents m' c) Cert.ReferenceIdeal.main_arg8 (by decide)),
      (h c Cert.ReferenceIdeal.main_arg9).trans (Cert.ReferenceIdeal.Val.arg_kept (launchContents m' c) Cert.ReferenceIdeal.main_arg9 (by decide)),
      (h c Cert.ReferenceIdeal.main_arg10).trans (Cert.ReferenceIdeal.Val.arg_kept (launchContents m' c) Cert.ReferenceIdeal.main_arg10 (by decide)),
      (h c Cert.ReferenceIdeal.main_arg11).trans (Cert.ReferenceIdeal.Val.arg_kept (launchContents m' c) Cert.ReferenceIdeal.main_arg11 (by decide)),
      (h c Cert.ReferenceIdeal.main_arg12).trans (Cert.ReferenceIdeal.Val.arg_kept (launchContents m' c) Cert.ReferenceIdeal.main_arg12 (by decide)),
      (h c Cert.ReferenceIdeal.main_arg13).trans (Cert.ReferenceIdeal.Val.arg_kept (launchContents m' c) Cert.ReferenceIdeal.main_arg13 (by decide)),
      (h c Cert.ReferenceIdeal.main_arg14).trans (Cert.ReferenceIdeal.Val.arg_kept (launchContents m' c) Cert.ReferenceIdeal.main_arg14 (by decide)),
      (h c Cert.ReferenceIdeal.main_arg15).trans (Cert.ReferenceIdeal.Val.arg_kept (launchContents m' c) Cert.ReferenceIdeal.main_arg15 (by decide)),
      (h c Cert.ReferenceIdeal.main_arg16).trans (Cert.ReferenceIdeal.Val.arg_kept (launchContents m' c) Cert.ReferenceIdeal.main_arg16 (by decide)),
      (h c Cert.ReferenceIdeal.main_arg17).trans (Cert.ReferenceIdeal.Val.arg_kept (launchContents m' c) Cert.ReferenceIdeal.main_arg17 (by decide)),
      (h c Cert.ReferenceIdeal.main_arg18).trans (Cert.ReferenceIdeal.Val.arg_kept (launchContents m' c) Cert.ReferenceIdeal.main_arg18 (by decide)),
      (h c Cert.ReferenceIdeal.main_arg19).trans (Cert.ReferenceIdeal.Val.arg_kept (launchContents m' c) Cert.ReferenceIdeal.main_arg19 (by decide)),
      (h c Cert.ReferenceIdeal.main_arg20).trans (Cert.ReferenceIdeal.Val.arg_kept (launchContents m' c) Cert.ReferenceIdeal.main_arg20 (by decide)),
      (h c Cert.ReferenceIdeal.main_arg21).trans (Cert.ReferenceIdeal.Val.arg_kept (launchContents m' c) Cert.ReferenceIdeal.main_arg21 (by decide)),
      (h c Cert.ReferenceIdeal.main_arg22).trans (Cert.ReferenceIdeal.Val.arg_kept (launchContents m' c) Cert.ReferenceIdeal.main_arg22 (by decide)),
      (h c Cert.ReferenceIdeal.main_arg23).trans (Cert.ReferenceIdeal.Val.arg_kept (launchContents m' c) Cert.ReferenceIdeal.main_arg23 (by decide)),
      (h c Cert.ReferenceIdeal.main_arg24).trans (Cert.ReferenceIdeal.Val.arg_kept (launchContents m' c) Cert.ReferenceIdeal.main_arg24 (by decide)),
      (h c Cert.ReferenceIdeal.main_arg25).trans (Cert.ReferenceIdeal.Val.arg_kept (launchContents m' c) Cert.ReferenceIdeal.main_arg25 (by decide))⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
